-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v154)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v154) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x39 : Shape := ⟨2, ![50000, 39]⟩
abbrev S120000x11 : Shape := ⟨2, ![120000, 11]⟩
abbrev S512x39 : Shape := ⟨2, ![512, 39]⟩
abbrev S512x523 : Shape := ⟨2, ![512, 523]⟩
abbrev S50000x6 : Shape := ⟨2, ![50000, 6]⟩
abbrev S119999 : Shape := ⟨1, ![119999]⟩
abbrev S_ : Shape := ⟨0, ![]⟩

class Facts : Prop where
  bcast_S_S50000x39 : S_.BroadcastsInDim S50000x39 (![] : Fin 0 → Fin S50000x39.rank)
  reducesTo_S50000x39_S_d0_1 : S50000x39.ReducesTo [0, 1] S_
  h_S_ : 0 < S_.numel
  bcast_S_S120000x11 : S_.BroadcastsInDim S120000x11 (![] : Fin 0 → Fin S120000x11.rank)
  reducesTo_S120000x11_S_d0_1 : S120000x11.ReducesTo [0, 1] S_
  bcast_S_S512x39 : S_.BroadcastsInDim S512x39 (![] : Fin 0 → Fin S512x39.rank)
  reducesTo_S512x39_S_d0_1 : S512x39.ReducesTo [0, 1] S_
  bcast_S_S512x523 : S_.BroadcastsInDim S512x523 (![] : Fin 0 → Fin S512x523.rank)
  reducesTo_S512x523_S_d0_1 : S512x523.ReducesTo [0, 1] S_
  bcast_S_S50000x6 : S_.BroadcastsInDim S50000x6 (![] : Fin 0 → Fin S50000x6.rank)
  reducesTo_S50000x6_S_d0_1 : S50000x6.ReducesTo [0, 1] S_
  bcast_S_S119999 : S_.BroadcastsInDim S119999 (![] : Fin 0 → Fin S119999.rank)
  reducesTo_S119999_S_d0 : S119999.ReducesTo [0] S_

variable [Facts]

def fn_part1 {F : FTy → Type} [FloatOps F] (main_arg4 : IVec S50000x6 32) (main_arg5 : IVec S119999 32) (main_v13 : IVec S_ 1) (main_v16 : IVec S512x523 1) : IVec S_ 1 :=
  let main_c_5 : IVec S_ 1 := constantI S_ 1 1#1
  let main_v17 : IVec S_ 1 := (fun x v => Host.reduce IntOp.andi x v reducesTo_S512x523_S_d0_1 h_S_) main_v16 main_c_5
  let main_v18 : IVec S_ 1 := andi main_v13 main_v17
  let main_c_6 : IVec S_ 32 := constantI S_ 32 0#32
  let main_v19 : IVec S50000x6 32 := broadcastInDim S50000x6 ![] bcast_S_S50000x6 main_c_6
  let main_v20 : IVec S50000x6 1 := cmpi .sge main_arg4 main_v19
  let main_c_7 : IVec S_ 1 := constantI S_ 1 1#1
  let main_v21 : IVec S_ 1 := (fun x v => Host.reduce IntOp.andi x v reducesTo_S50000x6_S_d0_1 h_S_) main_v20 main_c_7
  let main_v22 : IVec S_ 1 := andi main_v18 main_v21
  let main_c_8 : IVec S_ 32 := constantI S_ 32 0#32
  let main_v23 : IVec S119999 32 := broadcastInDim S119999 ![] bcast_S_S119999 main_c_8
  let main_v24 : IVec S119999 1 := cmpi .sge main_arg5 main_v23
  let main_c_9 : IVec S_ 1 := constantI S_ 1 1#1
  let main_v25 : IVec S_ 1 := (fun x v => Host.reduce IntOp.andi x v reducesTo_S119999_S_d0 h_S_) main_v24 main_c_9
  let main_v26 : IVec S_ 1 := andi main_v22 main_v25
  let main_c_10 : IVec S_ 32 := constantI S_ 32 50000#32
  let main_v27 : IVec S119999 32 := broadcastInDim S119999 ![] bcast_S_S119999 main_c_10
  let main_v28 : IVec S119999 1 := cmpi .slt main_arg5 main_v27
  let main_c_11 : IVec S_ 1 := constantI S_ 1 1#1
  let main_v29 : IVec S_ 1 := (fun x v => Host.reduce IntOp.andi x v reducesTo_S119999_S_d0 h_S_) main_v28 main_c_11
  let main_v30 : IVec S_ 1 := andi main_v26 main_v29
  main_v30

def fn {F : FTy → Type} [FloatOps F] (main_arg0 : FVec F S50000x39 .f32) (main_arg1 : FVec F S120000x11 .f32) (main_arg2 : FVec F S512x39 .f32) (main_arg3 : FVec F S512x523 .f32) (main_arg4 : IVec S50000x6 32) (main_arg5 : IVec S119999 32) : IVec S_ 1 :=
  let main_v0 : FVec F S50000x39 .f32 := Host.absf main_arg0
  let main_cst : FVec F S_ .f32 := constant S_ .f32 0x7F800000#32
  let main_v1 : FVec F S50000x39 .f32 := broadcastInDim S50000x39 ![] bcast_S_S50000x39 main_cst
  let main_v2 : IVec S50000x39 1 := cmpf .olt main_v0 main_v1
  let main_c : IVec S_ 1 := constantI S_ 1 1#1
  let main_v3 : IVec S_ 1 := (fun x v => Host.reduce IntOp.andi x v reducesTo_S50000x39_S_d0_1 h_S_) main_v2 main_c
  let main_v4 : FVec F S120000x11 .f32 := Host.absf main_arg1
  let main_cst_0 : FVec F S_ .f32 := constant S_ .f32 0x7F800000#32
  let main_v5 : FVec F S120000x11 .f32 := broadcastInDim S120000x11 ![] bcast_S_S120000x11 main_cst_0
  let main_v6 : IVec S120000x11 1 := cmpf .olt main_v4 main_v5
  let main_c_1 : IVec S_ 1 := constantI S_ 1 1#1
  let main_v7 : IVec S_ 1 := (fun x v => Host.reduce IntOp.andi x v reducesTo_S120000x11_S_d0_1 h_S_) main_v6 main_c_1
  let main_v8 : IVec S_ 1 := andi main_v3 main_v7
  let main_v9 : FVec F S512x39 .f32 := Host.absf main_arg2
  let main_cst_2 : FVec F S_ .f32 := constant S_ .f32 0x7F800000#32
  let main_v10 : FVec F S512x39 .f32 := broadcastInDim S512x39 ![] bcast_S_S512x39 main_cst_2
  let main_v11 : IVec S512x39 1 := cmpf .olt main_v9 main_v10
  let main_c_3 : IVec S_ 1 := constantI S_ 1 1#1
  let main_v12 : IVec S_ 1 := (fun x v => Host.reduce IntOp.andi x v reducesTo_S512x39_S_d0_1 h_S_) main_v11 main_c_3
  let main_v13 : IVec S_ 1 := andi main_v8 main_v12
  let main_v14 : FVec F S512x523 .f32 := Host.absf main_arg3
  let main_cst_4 : FVec F S_ .f32 := constant S_ .f32 0x7F800000#32
  let main_v15 : FVec F S512x523 .f32 := broadcastInDim S512x523 ![] bcast_S_S512x523 main_cst_4
  let main_v16 : IVec S512x523 1 := cmpf .olt main_v14 main_v15
  fn_part1 (F := F) main_arg4 main_arg5 main_v13 main_v16
-- ==== Kernel.lean ====
abbrev S50000x39 : Shape := ⟨2, ![50000, 39]⟩
abbrev S120000x11 : Shape := ⟨2, ![120000, 11]⟩
abbrev S512x39 : Shape := ⟨2, ![512, 39]⟩
abbrev S512x523 : Shape := ⟨2, ![512, 523]⟩
abbrev S50000x6 : Shape := ⟨2, ![50000, 6]⟩
abbrev S119999 : Shape := ⟨1, ![119999]⟩
abbrev S39x512 : Shape := ⟨2, ![39, 512]⟩
abbrev S512x512 : Shape := ⟨2, ![512, 512]⟩
abbrev S512x11 : Shape := ⟨2, ![512, 11]⟩
abbrev S50000x512 : Shape := ⟨2, ![50000, 512]⟩
abbrev S2000x39 : Shape := ⟨2, ![2000, 39]⟩
abbrev S2000x512 : Shape := ⟨2, ![2000, 512]⟩
abbrev S50000x6x1 : Shape := ⟨3, ![50000, 6, 1]⟩
abbrev S50000x6x11 : Shape := ⟨3, ![50000, 6, 11]⟩
abbrev S_ : Shape := ⟨0, ![]⟩
abbrev S50000x11 : Shape := ⟨2, ![50000, 11]⟩
abbrev S11x512 : Shape := ⟨2, ![11, 512]⟩
abbrev S1 : Shape := ⟨1, ![1]⟩
abbrev S120000 : Shape := ⟨1, ![120000]⟩
abbrev S1x512 : Shape := ⟨2, ![1, 512]⟩
abbrev S50001x512 : Shape := ⟨2, ![50001, 512]⟩
abbrev S50000x1 : Shape := ⟨2, ![50000, 1]⟩
abbrev S50000 : Shape := ⟨1, ![50000]⟩
abbrev S512x50000 : Shape := ⟨2, ![512, 50000]⟩

abbrev nBuf : Space → Nat
  | .hbm => 194
  | .vmem => 33
  | .smem => 0
  | _ => 0

abbrev hbmTy0_0 (i : Nat) : BufTy := match i % 128 with
  | 0 => ⟨S50000x39, .f32⟩
  | 1 => ⟨S120000x11, .f32⟩
  | 2 => ⟨S512x39, .f32⟩
  | 3 => ⟨S512x523, .f32⟩
  | 4 => ⟨S50000x6, .i32⟩
  | 5 => ⟨S119999, .i32⟩
  | 6 => ⟨S39x512, .f32⟩
  | 7 => ⟨S39x512, .bf16⟩
  | 8 => ⟨S512x512, .f32⟩
  | 9 => ⟨S512x11, .f32⟩
  | 10 => ⟨S512x512, .f32⟩
  | 11 => ⟨S512x512, .bf16⟩
  | 12 => ⟨S50000x512, .f32⟩
  | 13 => ⟨S50000x6x1, .i32⟩
  | 14 => ⟨S50000x6x11, .f32⟩
  | 15 => ⟨S_, .f32⟩
  | 16 => ⟨S50000x11, .f32⟩
  | 17 => ⟨S11x512, .f32⟩
  | 18 => ⟨S50000x512, .f32⟩
  | 19 => ⟨S50000x512, .f32⟩
  | 20 => ⟨S50000x512, .bf16⟩
  | 21 => ⟨S_, .i32⟩
  | 22 => ⟨S1, .i32⟩
  | 23 => ⟨S120000, .i32⟩
  | 24 => ⟨S50000x6x1, .i32⟩
  | 25 => ⟨S50000x6, .i32⟩
  | 26 => ⟨S50000x512, .bf16⟩
  | 27 => ⟨S_, .bf16⟩
  | 28 => ⟨S1x512, .bf16⟩
  | 29 => ⟨S50001x512, .bf16⟩
  | 30 => ⟨S_, .f32⟩
  | 31 => ⟨S50000x512, .f32⟩
  | 32 => ⟨S50000x1, .i32⟩
  | 33 => ⟨S50000, .i32⟩
  | 34 => ⟨S50000x1, .i32⟩
  | 35 => ⟨S50000x512, .bf16⟩
  | 36 => ⟨S50000x512, .f32⟩
  | 37 => ⟨S50000x512, .f32⟩
  | 38 => ⟨S50000x1, .i32⟩
  | 39 => ⟨S50000, .i32⟩
  | 40 => ⟨S50000x1, .i32⟩
  | 41 => ⟨S50000x512, .bf16⟩
  | 42 => ⟨S50000x512, .f32⟩
  | 43 => ⟨S50000x512, .f32⟩
  | 44 => ⟨S50000x1, .i32⟩
  | 45 => ⟨S50000, .i32⟩
  | 46 => ⟨S50000x1, .i32⟩
  | 47 => ⟨S50000x512, .bf16⟩
  | 48 => ⟨S50000x512, .f32⟩
  | 49 => ⟨S50000x512, .f32⟩
  | 50 => ⟨S50000x1, .i32⟩
  | 51 => ⟨S50000, .i32⟩
  | 52 => ⟨S50000x1, .i32⟩
  | 53 => ⟨S50000x512, .bf16⟩
  | 54 => ⟨S50000x512, .f32⟩
  | 55 => ⟨S50000x512, .f32⟩
  | 56 => ⟨S50000x1, .i32⟩
  | 57 => ⟨S50000, .i32⟩
  | 58 => ⟨S50000x1, .i32⟩
  | 59 => ⟨S50000x512, .bf16⟩
  | 60 => ⟨S50000x512, .f32⟩
  | 61 => ⟨S50000x512, .f32⟩
  | 62 => ⟨S50000x1, .i32⟩
  | 63 => ⟨S50000, .i32⟩
  | 64 => ⟨S50000x1, .i32⟩
  | 65 => ⟨S50000x512, .bf16⟩
  | 66 => ⟨S50000x512, .f32⟩
  | 67 => ⟨S50000x512, .f32⟩
  | 68 => ⟨S50000x512, .bf16⟩
  | 69 => ⟨S50000x512, .bf16⟩
  | 70 => ⟨S50001x512, .bf16⟩
  | 71 => ⟨S_, .f32⟩
  | 72 => ⟨S50000x512, .f32⟩
  | 73 => ⟨S50000x1, .i32⟩
  | 74 => ⟨S50000, .i32⟩
  | 75 => ⟨S50000x1, .i32⟩
  | 76 => ⟨S50000x512, .bf16⟩
  | 77 => ⟨S50000x512, .f32⟩
  | 78 => ⟨S50000x512, .f32⟩
  | 79 => ⟨S50000x1, .i32⟩
  | 80 => ⟨S50000, .i32⟩
  | 81 => ⟨S50000x1, .i32⟩
  | 82 => ⟨S50000x512, .bf16⟩
  | 83 => ⟨S50000x512, .f32⟩
  | 84 => ⟨S50000x512, .f32⟩
  | 85 => ⟨S50000x1, .i32⟩
  | 86 => ⟨S50000, .i32⟩
  | 87 => ⟨S50000x1, .i32⟩
  | 88 => ⟨S50000x512, .bf16⟩
  | 89 => ⟨S50000x512, .f32⟩
  | 90 => ⟨S50000x512, .f32⟩
  | 91 => ⟨S50000x1, .i32⟩
  | 92 => ⟨S50000, .i32⟩
  | 93 => ⟨S50000x1, .i32⟩
  | 94 => ⟨S50000x512, .bf16⟩
  | 95 => ⟨S50000x512, .f32⟩
  | 96 => ⟨S50000x512, .f32⟩
  | 97 => ⟨S50000x1, .i32⟩
  | 98 => ⟨S50000, .i32⟩
  | 99 => ⟨S50000x1, .i32⟩
  | 100 => ⟨S50000x512, .bf16⟩
  | 101 => ⟨S50000x512, .f32⟩
  | 102 => ⟨S50000x512, .f32⟩
  | 103 => ⟨S50000x1, .i32⟩
  | 104 => ⟨S50000, .i32⟩
  | 105 => ⟨S50000x1, .i32⟩
  | 106 => ⟨S50000x512, .bf16⟩
  | 107 => ⟨S50000x512, .f32⟩
  | 108 => ⟨S50000x512, .f32⟩
  | 109 => ⟨S50000x512, .bf16⟩
  | 110 => ⟨S50000x512, .bf16⟩
  | 111 => ⟨S50001x512, .bf16⟩
  | 112 => ⟨S_, .f32⟩
  | 113 => ⟨S50000x512, .f32⟩
  | 114 => ⟨S50000x1, .i32⟩
  | 115 => ⟨S50000, .i32⟩
  | 116 => ⟨S50000x1, .i32⟩
  | 117 => ⟨S50000x512, .bf16⟩
  | 118 => ⟨S50000x512, .f32⟩
  | 119 => ⟨S50000x512, .f32⟩
  | 120 => ⟨S50000x1, .i32⟩
  | 121 => ⟨S50000, .i32⟩
  | 122 => ⟨S50000x1, .i32⟩
  | 123 => ⟨S50000x512, .bf16⟩
  | 124 => ⟨S50000x512, .f32⟩
  | 125 => ⟨S50000x512, .f32⟩
  | 126 => ⟨S50000x1, .i32⟩
  | 127 => ⟨S50000, .i32⟩
  | _ => ⟨S50000x39, .f32⟩

abbrev hbmTy0_1 (i : Nat) : BufTy := match i % 128 with
  | 0 => ⟨S50000x1, .i32⟩
  | 1 => ⟨S50000x512, .bf16⟩
  | 2 => ⟨S50000x512, .f32⟩
  | 3 => ⟨S50000x512, .f32⟩
  | 4 => ⟨S50000x1, .i32⟩
  | 5 => ⟨S50000, .i32⟩
  | 6 => ⟨S50000x1, .i32⟩
  | 7 => ⟨S50000x512, .bf16⟩
  | 8 => ⟨S50000x512, .f32⟩
  | 9 => ⟨S50000x512, .f32⟩
  | 10 => ⟨S50000x1, .i32⟩
  | 11 => ⟨S50000, .i32⟩
  | 12 => ⟨S50000x1, .i32⟩
  | 13 => ⟨S50000x512, .bf16⟩
  | 14 => ⟨S50000x512, .f32⟩
  | 15 => ⟨S50000x512, .f32⟩
  | 16 => ⟨S50000x1, .i32⟩
  | 17 => ⟨S50000, .i32⟩
  | 18 => ⟨S50000x1, .i32⟩
  | 19 => ⟨S50000x512, .bf16⟩
  | 20 => ⟨S50000x512, .f32⟩
  | 21 => ⟨S50000x512, .f32⟩
  | 22 => ⟨S50000x512, .bf16⟩
  | 23 => ⟨S50000x512, .bf16⟩
  | 24 => ⟨S50001x512, .bf16⟩
  | 25 => ⟨S_, .f32⟩
  | 26 => ⟨S50000x512, .f32⟩
  | 27 => ⟨S50000x1, .i32⟩
  | 28 => ⟨S50000, .i32⟩
  | 29 => ⟨S50000x1, .i32⟩
  | 30 => ⟨S50000x512, .bf16⟩
  | 31 => ⟨S50000x512, .f32⟩
  | 32 => ⟨S50000x512, .f32⟩
  | 33 => ⟨S50000x1, .i32⟩
  | 34 => ⟨S50000, .i32⟩
  | 35 => ⟨S50000x1, .i32⟩
  | 36 => ⟨S50000x512, .bf16⟩
  | 37 => ⟨S50000x512, .f32⟩
  | 38 => ⟨S50000x512, .f32⟩
  | 39 => ⟨S50000x1, .i32⟩
  | 40 => ⟨S50000, .i32⟩
  | 41 => ⟨S50000x1, .i32⟩
  | 42 => ⟨S50000x512, .bf16⟩
  | 43 => ⟨S50000x512, .f32⟩
  | 44 => ⟨S50000x512, .f32⟩
  | 45 => ⟨S50000x1, .i32⟩
  | 46 => ⟨S50000, .i32⟩
  | 47 => ⟨S50000x1, .i32⟩
  | 48 => ⟨S50000x512, .bf16⟩
  | 49 => ⟨S50000x512, .f32⟩
  | 50 => ⟨S50000x512, .f32⟩
  | 51 => ⟨S50000x1, .i32⟩
  | 52 => ⟨S50000, .i32⟩
  | 53 => ⟨S50000x1, .i32⟩
  | 54 => ⟨S50000x512, .bf16⟩
  | 55 => ⟨S50000x512, .f32⟩
  | 56 => ⟨S50000x512, .f32⟩
  | 57 => ⟨S50000x1, .i32⟩
  | 58 => ⟨S50000, .i32⟩
  | 59 => ⟨S50000x1, .i32⟩
  | 60 => ⟨S50000x512, .bf16⟩
  | 61 => ⟨S50000x512, .f32⟩
  | 62 => ⟨S50000x512, .f32⟩
  | 63 => ⟨S50000x512, .bf16⟩
  | 64 => ⟨S50000x512, .f32⟩
  | 65 => ⟨S512x50000, .f32⟩
  | _ => ⟨S50000x39, .f32⟩

abbrev hbmTy (i : Nat) : BufTy := match i / 128 with
  | 0 => hbmTy0_0 i
  | 1 => hbmTy0_1 i
  | _ => ⟨S50000x39, .f32⟩

abbrev bufTy : (tb : Table) → Fin (tcTables nBuf tb) → BufTy
  | .hbm, ⟨i, _⟩ => hbmTy i
  | .local _ .vmem, ⟨0, _⟩ => ⟨S2000x39, .f32⟩
  | .local _ .vmem, ⟨1, _⟩ => ⟨S2000x39, .f32⟩
  | .local _ .vmem, ⟨2, _⟩ => ⟨S39x512, .bf16⟩
  | .local _ .vmem, ⟨3, _⟩ => ⟨S2000x512, .f32⟩
  | .local _ .vmem, ⟨4, _⟩ => ⟨S2000x512, .f32⟩
  | .local _ .vmem, ⟨5, _⟩ => ⟨S2000x512, .bf16⟩
  | .local _ .vmem, ⟨6, _⟩ => ⟨S2000x512, .bf16⟩
  | .local _ .vmem, ⟨7, _⟩ => ⟨S512x512, .bf16⟩
  | .local _ .vmem, ⟨8, _⟩ => ⟨S2000x512, .bf16⟩
  | .local _ .vmem, ⟨9, _⟩ => ⟨S2000x512, .bf16⟩
  | .local _ .vmem, ⟨10, _⟩ => ⟨S2000x512, .bf16⟩
  | .local _ .vmem, ⟨11, _⟩ => ⟨S2000x512, .bf16⟩
  | .local _ .vmem, ⟨12, _⟩ => ⟨S2000x512, .bf16⟩
  | .local _ .vmem, ⟨13, _⟩ => ⟨S2000x512, .bf16⟩
  | .local _ .vmem, ⟨14, _⟩ => ⟨S512x512, .bf16⟩
  | .local _ .vmem, ⟨15, _⟩ => ⟨S2000x512, .bf16⟩
  | .local _ .vmem, ⟨16, _⟩ => ⟨S2000x512, .bf16⟩
  | .local _ .vmem, ⟨17, _⟩ => ⟨S2000x512, .bf16⟩
  | .local _ .vmem, ⟨18, _⟩ => ⟨S2000x512, .bf16⟩
  | .local _ .vmem, ⟨19, _⟩ => ⟨S2000x512, .bf16⟩
  | .local _ .vmem, ⟨20, _⟩ => ⟨S2000x512, .bf16⟩
  | .local _ .vmem, ⟨21, _⟩ => ⟨S512x512, .bf16⟩
  | .local _ .vmem, ⟨22, _⟩ => ⟨S2000x512, .bf16⟩
  | .local _ .vmem, ⟨23, _⟩ => ⟨S2000x512, .bf16⟩
  | .local _ .vmem, ⟨24, _⟩ => ⟨S2000x512, .bf16⟩
  | .local _ .vmem, ⟨25, _⟩ => ⟨S2000x512, .bf16⟩
  | .local _ .vmem, ⟨26, _⟩ => ⟨S2000x512, .bf16⟩
  | .local _ .vmem, ⟨27, _⟩ => ⟨S2000x512, .bf16⟩
  | .local _ .vmem, ⟨28, _⟩ => ⟨S512x512, .bf16⟩
  | .local _ .vmem, ⟨29, _⟩ => ⟨S2000x512, .bf16⟩
  | .local _ .vmem, ⟨30, _⟩ => ⟨S2000x512, .bf16⟩
  | .local _ .vmem, ⟨31, _⟩ => ⟨S2000x512, .f32⟩
  | .local _ .vmem, ⟨32, _⟩ => ⟨S2000x512, .f32⟩
  | _, _ => ⟨S50000x39, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_call1_v0 : Ref sig .tc := ⟨.hbm, 24, rfl⟩
abbrev main_v15 : Ref sig .tc := ⟨.hbm, 25, rfl⟩
abbrev main_v16 : Ref sig .tc := ⟨.hbm, 26, rfl⟩
abbrev main_cst_0 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call2_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call3_v0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call4_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call5_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call6_v0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call7_v0 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_2 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_call8_v0 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call9_v0 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_call10_v0 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call11_v0 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_call12_v0 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_call13_v0 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_3 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_call14_v0 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_call15_v0 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_call16_v0 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_call17_v0 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_call18_v0 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_call19_v0 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_4 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_call20_v0 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_call21_v0 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_call22_v0 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_call23_v0 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_call24_v0 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_call25_v0 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc4_sem3_0 : DmaSem sig := 31
abbrev cc4_sem3_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x39 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S39x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  transposes_S512x39_S39x512_1_0 : S512x39.Transposes [1, 0] S39x512
  bitsLt_bf16_f32 : FTy.bits .bf16 < FTy.bits .f32
  slices_S512x523_S512x512_0_0 : S512x523.Slices ![0, 0] S512x512
  slices_S512x523_S512x11_0_512 : S512x523.Slices ![0, 512] S512x11
  transposes_S512x512_S512x512_1_0 : S512x512.Transposes [1, 0] S512x512
  inb_S2000x39_S2000x39_0_0 : ∀ a, (![0, 0] : Fin 2 → Nat) a + S2000x39.size a ≤ S2000x39.size a
  h_S2000x39 : 0 < S2000x39.numel
  inb_S39x512_S39x512_0_0 : ∀ a, (![0, 0] : Fin 2 → Nat) a + S39x512.size a ≤ S39x512.size a
  h_S39x512 : 0 < S39x512.numel
  shapeCasts_S39x512_S39x512 : S39x512.ShapeCasts S39x512
  inb_S2000x512_S2000x512_0_0 : ∀ a, (![0, 0] : Fin 2 → Nat) a + S2000x512.size a ≤ S2000x512.size a
  h_S2000x512 : 0 < S2000x512.numel
  bcast_S50000x6_S50000x6x1_0_1 : S50000x6.BroadcastsInDim S50000x6x1 (![0, 1] : Fin 2 → Fin S50000x6x1.rank)
  reducesTo_S50000x6x11_S50000x11_d1 : S50000x6x11.ReducesTo [1] S50000x11
  h_S_ : 0 < S_.numel
  transposes_S512x11_S11x512_1_0 : S512x11.Transposes [1, 0] S11x512
  bcast_S_S1 : S_.BroadcastsInDim S1 (![] : Fin 0 → Fin S1.rank)
  concatenates_S1_S119999_S120000_d0 : Shape.Concatenates [S1, S119999] S120000 0
  bcast_S_S1x512 : S_.BroadcastsInDim S1x512 (![] : Fin 0 → Fin S1x512.rank)
  concatenates_S50000x512_S1x512_S50001x512_d0 : Shape.Concatenates [S50000x512, S1x512] S50001x512 0
  bcast_S_S50000x512 : S_.BroadcastsInDim S50000x512 (![] : Fin 0 → Fin S50000x512.rank)
  slices_S50000x6_S50000x1_0_0 : S50000x6.Slices ![0, 0] S50000x1
  shapeCasts_S50000x1_S50000 : S50000x1.ShapeCasts S50000
  bcast_S50000_S50000x1_0 : S50000.BroadcastsInDim S50000x1 (![0] : Fin 1 → Fin S50000x1.rank)
  slices_S50000x6_S50000x1_0_1 : S50000x6.Slices ![0, 1] S50000x1
  slices_S50000x6_S50000x1_0_2 : S50000x6.Slices ![0, 2] S50000x1
  slices_S50000x6_S50000x1_0_3 : S50000x6.Slices ![0, 3] S50000x1
  slices_S50000x6_S50000x1_0_4 : S50000x6.Slices ![0, 4] S50000x1
  slices_S50000x6_S50000x1_0_5 : S50000x6.Slices ![0, 5] S50000x1
  shapeCasts_S2000x512_S2000x512 : S2000x512.ShapeCasts S2000x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S2000x512_S2000x512_0_0 : (Rect.unit (s := S2000x512) ![0, 0] S2000x512.size inb_S2000x512_S2000x512_0_0).PackedRows (EltTy.packing .bf16)
  transposes_S50000x512_S512x50000_1_0 : S50000x512.Transposes [1, 0] S512x50000
  dot_S2000x39_S39x512_S2000x512_1_0_0_1_n_n_wf : DotDims.WF S2000x39 S39x512 S2000x512 [1] [0] [0] [1] [] []
  gather_S120000x11_S50000x6x1_S50000x6x11_2_0_n_n_0_2_111_wf : GatherDims.WF S120000x11 S50000x6x1 S50000x6x11 [2] [0] [] [0] [] 2 ![1, 11]
  dot_S50000x11_S11x512_S50000x512_1_0_0_1_n_n_wf : DotDims.WF S50000x11 S11x512 S50000x512 [1] [0] [0] [1] [] []
  gather_S120000_S50000x6x1_S50000x6_n_0_n_n_0_2_1_wf : GatherDims.WF S120000 S50000x6x1 S50000x6 [] [0] [] [0] [] 2 ![1]
  gather_S50001x512_S50000x1_S50000x512_1_0_n_n_0_1_1512_wf : GatherDims.WF S50001x512 S50000x1 S50000x512 [1] [0] [] [0] [] 1 ![1, 512]
  dot_S2000x512_S512x512_S2000x512_1_0_0_1_n_n_wf : DotDims.WF S2000x512 S512x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x39.size a ≤ S50000x39.size a
  hwx0_0 : ∀ i : grid0.Coords, EltTy.bits .f32 = 32 ∨ (Rect.block (s := S50000x39) S2000x39.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S39x512.size a ≤ S39x512.size a
  hwx0_1 : ∀ i : grid0.Coords, EltTy.bits .bf16 = 32 ∨ (Rect.block (s := S39x512) S39x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S50000x512.size a
  hwx0_2 : ∀ i : grid0.Coords, EltTy.bits .f32 = 32 ∨ (Rect.block (s := S50000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S50000x512.size a
  hwx1_0 : ∀ i : grid1.Coords, EltTy.bits .bf16 = 32 ∨ (Rect.block (s := S50000x512) S2000x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x512.size a ≤ S50000x512.size a
  hwx1_2 : ∀ i : grid1.Coords, EltTy.bits .bf16 = 32 ∨ (Rect.block (s := S50000x512) S2000x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S50000x512.size a
  hwx1_3 : ∀ i : grid1.Coords, EltTy.bits .bf16 = 32 ∨ (Rect.block (s := S50000x512) S2000x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S50000x512.size a
  hwx2_0 : ∀ i : grid2.Coords, EltTy.bits .bf16 = 32 ∨ (Rect.block (s := S50000x512) S2000x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .bf16 = 32 ∨ (Rect.block (s := S512x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S50000x512.size a
  hwx2_2 : ∀ i : grid2.Coords, EltTy.bits .bf16 = 32 ∨ (Rect.block (s := S50000x512) S2000x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x512.size a ≤ S50000x512.size a
  hwx2_3 : ∀ i : grid2.Coords, EltTy.bits .bf16 = 32 ∨ (Rect.block (s := S50000x512) S2000x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x512.size a ≤ S50000x512.size a
  hwx3_0 : ∀ i : grid3.Coords, EltTy.bits .bf16 = 32 ∨ (Rect.block (s := S50000x512) S2000x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x512.size a ≤ S50000x512.size a
  hwx3_2 : ∀ i : grid3.Coords, EltTy.bits .bf16 = 32 ∨ (Rect.block (s := S50000x512) S2000x512.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x512.size a ≤ S50000x512.size a
  hwx3_3 : ∀ i : grid3.Coords, EltTy.bits .bf16 = 32 ∨ (Rect.block (s := S50000x512) S2000x512.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x512.size a ≤ S50000x512.size a
  hwx4_0 : ∀ i : grid4.Coords, EltTy.bits .bf16 = 32 ∨ (Rect.block (s := S50000x512) S2000x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .bf16 = 32 ∨ (Rect.block (s := S512x512) S512x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x512.size a ≤ S50000x512.size a
  hwx4_2 : ∀ i : grid4.Coords, EltTy.bits .bf16 = 32 ∨ (Rect.block (s := S50000x512) S2000x512.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x512.size a ≤ S50000x512.size a
  hwx4_3 : ∀ i : grid4.Coords, EltTy.bits .f32 = 32 ∨ (Rect.block (s := S50000x512) S2000x512.size (cc4_transform_3 i) (hinb4_3 i)).WholeWords (EltTy.packing .f32)

variable [Facts₀]

def dot_S2000x39_S39x512_S2000x512_1_0_0_1_n_n : DotDims S2000x39 S39x512 S2000x512 where
  lhsContracting := [1]
  rhsContracting := [0]
  lhsNonContracting := [0]
  rhsNonContracting := [1]
  lhsBatch := []
  rhsBatch := []
  wf := dot_S2000x39_S39x512_S2000x512_1_0_0_1_n_n_wf
def gather_S120000x11_S50000x6x1_S50000x6x11_2_0_n_n_0_2_111 : GatherDims S120000x11 S50000x6x1 S50000x6x11 where
  offsetDims := [2]
  collapsedSliceDims := [0]
  operandBatchingDims := []
  startIndicesBatchingDims := []
  startIndexMap := [0]
  indexVectorDim := 2
  sliceSizes := ![1, 11]
  wf := gather_S120000x11_S50000x6x1_S50000x6x11_2_0_n_n_0_2_111_wf
def dot_S50000x11_S11x512_S50000x512_1_0_0_1_n_n : DotDims S50000x11 S11x512 S50000x512 where
  lhsContracting := [1]
  rhsContracting := [0]
  lhsNonContracting := [0]
  rhsNonContracting := [1]
  lhsBatch := []
  rhsBatch := []
  wf := dot_S50000x11_S11x512_S50000x512_1_0_0_1_n_n_wf
def gather_S120000_S50000x6x1_S50000x6_n_0_n_n_0_2_1 : GatherDims S120000 S50000x6x1 S50000x6 where
  offsetDims := []
  collapsedSliceDims := [0]
  operandBatchingDims := []
  startIndicesBatchingDims := []
  startIndexMap := [0]
  indexVectorDim := 2
  sliceSizes := ![1]
  wf := gather_S120000_S50000x6x1_S50000x6_n_0_n_n_0_2_1_wf
def gather_S50001x512_S50000x1_S50000x512_1_0_n_n_0_1_1512 : GatherDims S50001x512 S50000x1 S50000x512 where
  offsetDims := [1]
  collapsedSliceDims := [0]
  operandBatchingDims := []
  startIndicesBatchingDims := []
  startIndexMap := [0]
  indexVectorDim := 1
  sliceSizes := ![1, 512]
  wf := gather_S50001x512_S50000x1_S50000x512_1_0_n_n_0_1_1512_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf

abbrev win0_0 : Pipeline.Window sig grid0 :=
  Pipeline.Window.ofSpec (Memref.whole main_arg0) S2000x39.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S39x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v84) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2000x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v85) S2000x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v118) S2000x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S512x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v119) S2000x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v152) S2000x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v5) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S2000x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v153) S2000x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x39 : Shape := ⟨2, ![50000, 39]⟩
abbrev S120000x11 : Shape := ⟨2, ![120000, 11]⟩
abbrev S512x39 : Shape := ⟨2, ![512, 39]⟩
abbrev S512x523 : Shape := ⟨2, ![512, 523]⟩
abbrev S50000x6 : Shape := ⟨2, ![50000, 6]⟩
abbrev S119999 : Shape := ⟨1, ![119999]⟩
abbrev S39x512 : Shape := ⟨2, ![39, 512]⟩
abbrev S50000x512 : Shape := ⟨2, ![50000, 512]⟩
abbrev S_ : Shape := ⟨0, ![]⟩
abbrev S1x512 : Shape := ⟨2, ![1, 512]⟩
abbrev S119999x1 : Shape := ⟨2, ![119999, 1]⟩
abbrev S119999x512 : Shape := ⟨2, ![119999, 512]⟩
abbrev S120000x512 : Shape := ⟨2, ![120000, 512]⟩
abbrev S120000x523 : Shape := ⟨2, ![120000, 523]⟩
abbrev S50000x6x1 : Shape := ⟨3, ![50000, 6, 1]⟩
abbrev S50000x6x523 : Shape := ⟨3, ![50000, 6, 523]⟩
abbrev S50000x523 : Shape := ⟨2, ![50000, 523]⟩
abbrev S523x512 : Shape := ⟨2, ![523, 512]⟩
abbrev S512x50000 : Shape := ⟨2, ![512, 50000]⟩

abbrev nBuf : Space → Nat
  | .hbm => 132
  | .vmem => 0
  | .smem => 0
  | _ => 0

abbrev hbmTy0_0 (i : Nat) : BufTy := match i % 128 with
  | 0 => ⟨S50000x39, .f32⟩
  | 1 => ⟨S120000x11, .f32⟩
  | 2 => ⟨S512x39, .f32⟩
  | 3 => ⟨S512x523, .f32⟩
  | 4 => ⟨S50000x6, .i32⟩
  | 5 => ⟨S119999, .i32⟩
  | 6 => ⟨S39x512, .f32⟩
  | 7 => ⟨S50000x512, .f32⟩
  | 8 => ⟨S_, .f32⟩
  | 9 => ⟨S50000x512, .f32⟩
  | 10 => ⟨S50000x512, .f32⟩
  | 11 => ⟨S_, .f32⟩
  | 12 => ⟨S1x512, .f32⟩
  | 13 => ⟨S_, .i32⟩
  | 14 => ⟨S119999, .i32⟩
  | 15 => ⟨S119999, .i1⟩
  | 16 => ⟨S_, .i32⟩
  | 17 => ⟨S119999, .i32⟩
  | 18 => ⟨S119999, .i32⟩
  | 19 => ⟨S119999, .i32⟩
  | 20 => ⟨S119999x1, .i32⟩
  | 21 => ⟨S119999x512, .f32⟩
  | 22 => ⟨S120000x512, .f32⟩
  | 23 => ⟨S120000x523, .f32⟩
  | 24 => ⟨S_, .i32⟩
  | 25 => ⟨S50000x6, .i32⟩
  | 26 => ⟨S50000x6, .i1⟩
  | 27 => ⟨S_, .i32⟩
  | 28 => ⟨S50000x6, .i32⟩
  | 29 => ⟨S50000x6, .i32⟩
  | 30 => ⟨S50000x6, .i32⟩
  | 31 => ⟨S50000x6x1, .i32⟩
  | 32 => ⟨S50000x6x523, .f32⟩
  | 33 => ⟨S_, .f32⟩
  | 34 => ⟨S50000x523, .f32⟩
  | 35 => ⟨S523x512, .f32⟩
  | 36 => ⟨S50000x512, .f32⟩
  | 37 => ⟨S50000x512, .f32⟩
  | 38 => ⟨S_, .f32⟩
  | 39 => ⟨S50000x512, .f32⟩
  | 40 => ⟨S50000x512, .f32⟩
  | 41 => ⟨S_, .f32⟩
  | 42 => ⟨S1x512, .f32⟩
  | 43 => ⟨S_, .i32⟩
  | 44 => ⟨S119999, .i32⟩
  | 45 => ⟨S119999, .i1⟩
  | 46 => ⟨S_, .i32⟩
  | 47 => ⟨S119999, .i32⟩
  | 48 => ⟨S119999, .i32⟩
  | 49 => ⟨S119999, .i32⟩
  | 50 => ⟨S119999x1, .i32⟩
  | 51 => ⟨S119999x512, .f32⟩
  | 52 => ⟨S120000x512, .f32⟩
  | 53 => ⟨S120000x523, .f32⟩
  | 54 => ⟨S_, .i32⟩
  | 55 => ⟨S50000x6, .i32⟩
  | 56 => ⟨S50000x6, .i1⟩
  | 57 => ⟨S_, .i32⟩
  | 58 => ⟨S50000x6, .i32⟩
  | 59 => ⟨S50000x6, .i32⟩
  | 60 => ⟨S50000x6, .i32⟩
  | 61 => ⟨S50000x6x1, .i32⟩
  | 62 => ⟨S50000x6x523, .f32⟩
  | 63 => ⟨S_, .f32⟩
  | 64 => ⟨S50000x523, .f32⟩
  | 65 => ⟨S523x512, .f32⟩
  | 66 => ⟨S50000x512, .f32⟩
  | 67 => ⟨S50000x512, .f32⟩
  | 68 => ⟨S_, .f32⟩
  | 69 => ⟨S50000x512, .f32⟩
  | 70 => ⟨S50000x512, .f32⟩
  | 71 => ⟨S_, .f32⟩
  | 72 => ⟨S1x512, .f32⟩
  | 73 => ⟨S_, .i32⟩
  | 74 => ⟨S119999, .i32⟩
  | 75 => ⟨S119999, .i1⟩
  | 76 => ⟨S_, .i32⟩
  | 77 => ⟨S119999, .i32⟩
  | 78 => ⟨S119999, .i32⟩
  | 79 => ⟨S119999, .i32⟩
  | 80 => ⟨S119999x1, .i32⟩
  | 81 => ⟨S119999x512, .f32⟩
  | 82 => ⟨S120000x512, .f32⟩
  | 83 => ⟨S120000x523, .f32⟩
  | 84 => ⟨S_, .i32⟩
  | 85 => ⟨S50000x6, .i32⟩
  | 86 => ⟨S50000x6, .i1⟩
  | 87 => ⟨S_, .i32⟩
  | 88 => ⟨S50000x6, .i32⟩
  | 89 => ⟨S50000x6, .i32⟩
  | 90 => ⟨S50000x6, .i32⟩
  | 91 => ⟨S50000x6x1, .i32⟩
  | 92 => ⟨S50000x6x523, .f32⟩
  | 93 => ⟨S_, .f32⟩
  | 94 => ⟨S50000x523, .f32⟩
  | 95 => ⟨S523x512, .f32⟩
  | 96 => ⟨S50000x512, .f32⟩
  | 97 => ⟨S50000x512, .f32⟩
  | 98 => ⟨S_, .f32⟩
  | 99 => ⟨S50000x512, .f32⟩
  | 100 => ⟨S50000x512, .f32⟩
  | 101 => ⟨S_, .f32⟩
  | 102 => ⟨S1x512, .f32⟩
  | 103 => ⟨S_, .i32⟩
  | 104 => ⟨S119999, .i32⟩
  | 105 => ⟨S119999, .i1⟩
  | 106 => ⟨S_, .i32⟩
  | 107 => ⟨S119999, .i32⟩
  | 108 => ⟨S119999, .i32⟩
  | 109 => ⟨S119999, .i32⟩
  | 110 => ⟨S119999x1, .i32⟩
  | 111 => ⟨S119999x512, .f32⟩
  | 112 => ⟨S120000x512, .f32⟩
  | 113 => ⟨S120000x523, .f32⟩
  | 114 => ⟨S_, .i32⟩
  | 115 => ⟨S50000x6, .i32⟩
  | 116 => ⟨S50000x6, .i1⟩
  | 117 => ⟨S_, .i32⟩
  | 118 => ⟨S50000x6, .i32⟩
  | 119 => ⟨S50000x6, .i32⟩
  | 120 => ⟨S50000x6, .i32⟩
  | 121 => ⟨S50000x6x1, .i32⟩
  | 122 => ⟨S50000x6x523, .f32⟩
  | 123 => ⟨S_, .f32⟩
  | 124 => ⟨S50000x523, .f32⟩
  | 125 => ⟨S523x512, .f32⟩
  | 126 => ⟨S50000x512, .f32⟩
  | 127 => ⟨S50000x512, .f32⟩
  | _ => ⟨S50000x39, .f32⟩

abbrev hbmTy0_1 (i : Nat) : BufTy := match i % 128 with
  | 0 => ⟨S_, .f32⟩
  | 1 => ⟨S50000x512, .f32⟩
  | 2 => ⟨S50000x512, .f32⟩
  | 3 => ⟨S512x50000, .f32⟩
  | _ => ⟨S50000x39, .f32⟩

abbrev hbmTy (i : Nat) : BufTy := match i / 128 with
  | 0 => hbmTy0_0 i
  | 1 => hbmTy0_1 i
  | _ => ⟨S50000x39, .f32⟩

abbrev bufTy : (tb : Table) → Fin (tcTables nBuf tb) → BufTy
  | .hbm, ⟨i, _⟩ => hbmTy i
  | _, _ => ⟨S50000x39, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_cst : Ref sig .tc := ⟨.hbm, 8, rfl⟩
abbrev main_call0_v0 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call1_cst : Ref sig .tc := ⟨.hbm, 38, rfl⟩
abbrev main_call1_v0 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call2_cst : Ref sig .tc := ⟨.hbm, 68, rfl⟩
abbrev main_call2_v0 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_c_11 : Ref sig .tc := ⟨.hbm, 73, rfl⟩
abbrev main_v48 : Ref sig .tc := ⟨.hbm, 74, rfl⟩
abbrev main_v49 : Ref sig .tc := ⟨.hbm, 75, rfl⟩
abbrev main_c_12 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_15 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_call3_cst : Ref sig .tc := ⟨.hbm, 98, rfl⟩
abbrev main_call3_v0 : Ref sig .tc := ⟨.hbm, 99, rfl⟩
abbrev main_v68 : Ref sig .tc := ⟨.hbm, 100, rfl⟩
abbrev main_cst_16 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩
abbrev main_c_18 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_19 : Ref sig .tc := ⟨.hbm, 114, rfl⟩
abbrev main_v79 : Ref sig .tc := ⟨.hbm, 115, rfl⟩
abbrev main_v80 : Ref sig .tc := ⟨.hbm, 116, rfl⟩
abbrev main_c_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call4_cst : Ref sig .tc := ⟨.hbm, 128, rfl⟩
abbrev main_call4_v0 : Ref sig .tc := ⟨.hbm, 129, rfl⟩
abbrev main_v90 : Ref sig .tc := ⟨.hbm, 130, rfl⟩
abbrev main_v91 : Ref sig .tc := ⟨.hbm, 131, rfl⟩

abbrev nD : Nat := 1
abbrev τ : Topo := Topo.v7x

variable {F : FTy → Type} [FloatOps F]

class Facts₀ : Prop where
  transposes_S512x39_S39x512_1_0 : S512x39.Transposes [1, 0] S39x512
  bcast_S_S50000x512 : S_.BroadcastsInDim S50000x512 (![] : Fin 0 → Fin S50000x512.rank)
  bcast_S_S1x512 : S_.BroadcastsInDim S1x512 (![] : Fin 0 → Fin S1x512.rank)
  bcast_S_S119999 : S_.BroadcastsInDim S119999 (![] : Fin 0 → Fin S119999.rank)
  bcast_S119999_S119999x1_0 : S119999.BroadcastsInDim S119999x1 (![0] : Fin 1 → Fin S119999x1.rank)
  concatenates_S1x512_S119999x512_S120000x512_d0 : Shape.Concatenates [S1x512, S119999x512] S120000x512 0
  concatenates_S120000x512_S120000x11_S120000x523_d1 : Shape.Concatenates [S120000x512, S120000x11] S120000x523 1
  bcast_S_S50000x6 : S_.BroadcastsInDim S50000x6 (![] : Fin 0 → Fin S50000x6.rank)
  bcast_S50000x6_S50000x6x1_0_1 : S50000x6.BroadcastsInDim S50000x6x1 (![0, 1] : Fin 2 → Fin S50000x6x1.rank)
  reducesTo_S50000x6x523_S50000x523_d1 : S50000x6x523.ReducesTo [1] S50000x523
  h_S_ : 0 < S_.numel
  transposes_S512x523_S523x512_1_0 : S512x523.Transposes [1, 0] S523x512
  transposes_S50000x512_S512x50000_1_0 : S50000x512.Transposes [1, 0] S512x50000
  dot_S50000x39_S39x512_S50000x512_1_0_0_1_n_n_wf : DotDims.WF S50000x39 S39x512 S50000x512 [1] [0] [0] [1] [] []
  gather_S50000x512_S119999x1_S119999x512_1_0_n_n_0_1_1512_wf : GatherDims.WF S50000x512 S119999x1 S119999x512 [1] [0] [] [0] [] 1 ![1, 512]
  gather_S120000x523_S50000x6x1_S50000x6x523_2_0_n_n_0_2_1523_wf : GatherDims.WF S120000x523 S50000x6x1 S50000x6x523 [2] [0] [] [0] [] 2 ![1, 523]
  dot_S50000x523_S523x512_S50000x512_1_0_0_1_n_n_wf : DotDims.WF S50000x523 S523x512 S50000x512 [1] [0] [0] [1] [] []

variable [Facts₀]

def dot_S50000x39_S39x512_S50000x512_1_0_0_1_n_n : DotDims S50000x39 S39x512 S50000x512 where
  lhsContracting := [1]
  rhsContracting := [0]
  lhsNonContracting := [0]
  rhsNonContracting := [1]
  lhsBatch := []
  rhsBatch := []
  wf := dot_S50000x39_S39x512_S50000x512_1_0_0_1_n_n_wf
def gather_S50000x512_S119999x1_S119999x512_1_0_n_n_0_1_1512 : GatherDims S50000x512 S119999x1 S119999x512 where
  offsetDims := [1]
  collapsedSliceDims := [0]
  operandBatchingDims := []
  startIndicesBatchingDims := []
  startIndexMap := [0]
  indexVectorDim := 1
  sliceSizes := ![1, 512]
  wf := gather_S50000x512_S119999x1_S119999x512_1_0_n_n_0_1_1512_wf
def gather_S120000x523_S50000x6x1_S50000x6x523_2_0_n_n_0_2_1523 : GatherDims S120000x523 S50000x6x1 S50000x6x523 where
  offsetDims := [2]
  collapsedSliceDims := [0]
  operandBatchingDims := []
  startIndicesBatchingDims := []
  startIndexMap := [0]
  indexVectorDim := 2
  sliceSizes := ![1, 523]
  wf := gather_S120000x523_S50000x6x1_S50000x6x523_2_0_n_n_0_2_1523_wf
def dot_S50000x523_S523x512_S50000x512_1_0_0_1_n_n : DotDims S50000x523 S523x512 S50000x512 where
  lhsContracting := [1]
  rhsContracting := [0]
  lhsNonContracting := [0]
  rhsNonContracting := [1]
  lhsBatch := []
  rhsBatch := []
  wf := dot_S50000x523_S523x512_S50000x512_1_0_0_1_n_n_wf

class Facts : Prop extends Facts₀ where

variable [Facts]
-- ==== Proof.Spec.lean ====
/-
  The mathematics both programs compute, over the extended reals.

  A molecule graph has 50000 atoms and 120000 bonds (bond 0 is padding). Every atom `a` lists six incident bonds
  `A a j`; every bond `b ≥ 1` has a source atom `N (b-1)`. The first layer is `Z = relu (X · Wnᵀ)`. One message
  passing layer sends a hidden state `H` to

      step H a h = relu (Z a h + ∑ k < 523, (∑ j < 6, msg H (bond a j) k) · Wd h k)

  where the message of bond `b` is the 523-vector whose first 512 entries are the hidden state of `b`'s source atom
  (zero for the padding bond) and whose last 11 entries are `b`'s own features. Four layers are applied and the
  result is returned transposed. A 32-bit index is read signed and clamped into its table (`clampIx`).
-/
import Idealize.ShloMosaic.PureOps.Ideal
import Idealize.ShloMosaic.Lib.ValueIdx
import Mathlib.Algebra.BigOperators.Fin

noncomputable section

namespace Cert.MsgPass

open Idealize.ShloMosaic

/-- A signed 32-bit index clamped into `[0, n-1]`. -/
def clampIx (n : Nat) (hn : 0 < n) (x : BitVec 32) : Fin n := ⟨min x.toInt.toNat (n - 1), by omega⟩

/-- A real matrix as a function of its row and its column. -/
abbrev Arr (r c : Nat) := Fin r → Fin c → EReal

/-- The first layer: `relu (X · Wnᵀ)`. -/
def h0 (X : Arr 50000 39) (Wn : Arr 512 39) : Arr 50000 512 :=
  fun a h => max (∑ k : Fin 39, X a k * Wn h k) 0

/-- The `j`-th bond of atom `a`. -/
def bond (A : Fin 50000 → Fin 6 → BitVec 32) (a : Fin 50000) (j : Fin 6) : Fin 120000 :=
  clampIx 120000 (by decide) (A a j)

/-- The hidden part of bond `b`'s message: its source atom's hidden state, zero for the padding bond. -/
def msgH (H : Arr 50000 512) (N : Fin 119999 → BitVec 32) (b : Fin 120000) (k : Fin 512) : EReal :=
  if hb : b.val = 0 then 0 else H (clampIx 50000 (by decide) (N ⟨b.val - 1, by omega⟩)) k

/-- Bond `b`'s message: the hidden part, then the bond's own features. -/
def msg (H : Arr 50000 512) (B : Arr 120000 11) (N : Fin 119999 → BitVec 32) (b : Fin 120000) (k : Fin 523) : EReal :=
  if hk : k.val < 512 then msgH H N b ⟨k.val, hk⟩ else B b ⟨k.val - 512, by omega⟩

/-- One message passing layer. -/
def step (Z : Arr 50000 512) (B : Arr 120000 11) (Wd : Arr 512 523) (A : Fin 50000 → Fin 6 → BitVec 32)
    (N : Fin 119999 → BitVec 32) (H : Arr 50000 512) : Arr 50000 512 :=
  fun a h => max (Z a h + ∑ k : Fin 523, (∑ j : Fin 6, msg H B N (bond A a j) k) * Wd h k) 0

/-- The same layer with the sum over the 523 message entries split into its hidden part and its bond-feature
    part, the bond-feature part joined to `Z` first. -/
def stepSplit (Z : Arr 50000 512) (B : Arr 120000 11) (Wd : Arr 512 523) (A : Fin 50000 → Fin 6 → BitVec 32)
    (N : Fin 119999 → BitVec 32) (H : Arr 50000 512) : Arr 50000 512 :=
  fun a h => max ((Z a h + ∑ f : Fin 11, (∑ j : Fin 6, B (bond A a j) f) * Wd h ⟨512 + f.val, by omega⟩)
    + ∑ k : Fin 512, (∑ j : Fin 6, msgH H N (bond A a j) k) * Wd h ⟨k.val, by omega⟩) 0

/-- Splitting the sum changes nothing: addition of extended reals is associative and commutative. -/
theorem step_eq_stepSplit (Z : Arr 50000 512) (B : Arr 120000 11) (Wd : Arr 512 523) (A : Fin 50000 → Fin 6 → BitVec 32)
    (N : Fin 119999 → BitVec 32) (H : Arr 50000 512) : step Z B Wd A N H = stepSplit Z B Wd A N H := by
  funext a h
  unfold step stepSplit
  congr 1
  have hs : (∑ k : Fin 523, (∑ j : Fin 6, msg H B N (bond A a j) k) * Wd h k)
      = (∑ k : Fin 512, (∑ j : Fin 6, msgH H N (bond A a j) k) * Wd h ⟨k.val, by omega⟩)
        + ∑ f : Fin 11, (∑ j : Fin 6, B (bond A a j) f) * Wd h ⟨512 + f.val, by omega⟩ := by
    refine (Fin.sum_univ_add (M := EReal) (a := 512) (b := 11)
      (fun k : Fin (512 + 11) => (∑ j : Fin 6, msg H B N (bond A a j) k) * Wd h k)).trans ?_
    refine congrArg₂ (· + ·) (Finset.sum_congr rfl fun k _ => ?_) (Finset.sum_congr rfl fun f _ => ?_)
    · have hk : (Fin.castAdd 11 k).val < 512 := k.isLt
      have e : ∀ j, msg H B N (bond A a j) (Fin.castAdd 11 k) = msgH H N (bond A a j) k := fun j => by
        unfold msg; rw [dif_pos hk]; rfl
      show (∑ j : Fin 6, msg H B N (bond A a j) (Fin.castAdd 11 k)) * Wd h (Fin.castAdd 11 k) = _
      simp only [e]
      rfl
    · have hf : ¬ (Fin.natAdd 512 f).val < 512 := by
        show ¬ (512 + f.val < 512); omega
      have e : ∀ j, msg H B N (bond A a j) (Fin.natAdd 512 f) = B (bond A a j) f := fun j => by
        unfold msg; rw [dif_neg hf]
        exact congrArg (B _) (Fin.ext (by show 512 + f.val - 512 = f.val; omega))
      show (∑ j : Fin 6, msg H B N (bond A a j) (Fin.natAdd 512 f)) * Wd h (Fin.natAdd 512 f) = _
      simp only [e]
      rfl
  rw [hs, add_assoc, add_comm (∑ k : Fin 512, _) _]

/-- The four-layer result, transposed: entry `(h, a)` is hidden unit `h` of atom `a`. -/
def out (X : Arr 50000 39) (B : Arr 120000 11) (Wn : Arr 512 39) (Wd : Arr 512 523)
    (A : Fin 50000 → Fin 6 → BitVec 32) (N : Fin 119999 → BitVec 32) : Fin 512 → Fin 50000 → EReal :=
  fun h a =>
    step (h0 X Wn) B Wd A N (step (h0 X Wn) B Wd A N (step (h0 X Wn) B Wd A N (step (h0 X Wn) B Wd A N (h0 X Wn)))) a h

end Cert.MsgPass

end
-- ==== Proof.KTerm.lean ====
/-
  The idealized kernel program's result as ONE pure term of its six arguments: the host operations exactly as the
  program applies them, each pallas_call replaced by what its grid leaves in its output array (a matrix product
  plus bias, clipped below at zero, entry by entry).
-/
import proofs.«415842_j44693429682679_3_alg».proof.KernelIdeal
import Idealize.ShloMosaic.Lib.ValueIdx

noncomputable section

namespace Cert.KernelIdeal.KTerm

open Cert.KernelIdeal Idealize.ShloMosaic Idealize.ShloMosaic.ValueIdx

variable [Facts]
open Facts₀ Facts

/-- Contents of a buffer of shape `s` and element type `e`, at the ideal instance. -/
abbrev C (s : Shape) (e : EltTy) := (⟨s, e⟩ : BufTy).Contents (Elt Ideal)

/-- What the first pallas_call leaves: `relu (x · w)`, entry by entry. -/
def R0 (x : C S50000x39 .f32) (w : C S39x512 .bf16) : C S50000x512 .f32 :=
  fun i => max (∑ k : Fin 39, x (ix2 (⟨(i 0).val, (i 0).isLt⟩ : Fin 50000) k) * w (ix2 k (⟨(i 1).val, (i 1).isLt⟩ : Fin 512))) 0

/-- What each later pallas_call leaves: `relu (b + a · w)`, entry by entry. -/
def R1 (a : C S50000x512 .bf16) (w : C S512x512 .bf16) (b : C S50000x512 .bf16) : C S50000x512 .f32 :=
  fun i => max (b i + ∑ k : Fin 512, a (ix2 (⟨(i 0).val, (i 0).isLt⟩ : Fin 50000) k) * w (ix2 k (⟨(i 1).val, (i 1).isLt⟩ : Fin 512))) 0

/-- The rows of the padded table `P` that an index column names. -/
def rows (P : C S50001x512 .bf16) (ix : C S50000x1 .i32) : C S50000x512 .f32 :=
  extf (F := Ideal) .f32 (Host.gather gather_S50001x512_S50000x1_S50000x512_1_0_n_n_0_1_1512 P
    (broadcastInDim S50000x1 ![0] bcast_S50000_S50000x1_0 (shapeCast S50000 ix shapeCasts_S50000x1_S50000))) bitsLt_bf16_f32

/-- The hidden table with the zero row appended. -/
def padded (H : C S50000x512 .bf16) (z : C S1x512 .bf16) : C S50001x512 .bf16 :=
  concatenate S50001x512 0 [⟨S50000x512, H⟩, ⟨S1x512, z⟩] concatenates_S50000x512_S1x512_S50001x512_d0

/-- The six neighbour rows of every atom, added up column by column of the composed index. -/
def neiH (H : C S50000x512 .bf16) (z : C S1x512 .bf16) (flat : C S50000x6 .i32) : C S50000x512 .bf16 :=
  truncf (F := Ideal) .bf16 (addf (addf (addf (addf (addf (addf
    (broadcastInDim S50000x512 ![] bcast_S_S50000x512 (constant (F := Ideal) S_ .f32 0x00000000#32))
    (rows (padded H z) (extractStridedSlice S50000x1 ![0, 0] flat slices_S50000x6_S50000x1_0_0)))
    (rows (padded H z) (extractStridedSlice S50000x1 ![0, 1] flat slices_S50000x6_S50000x1_0_1)))
    (rows (padded H z) (extractStridedSlice S50000x1 ![0, 2] flat slices_S50000x6_S50000x1_0_2)))
    (rows (padded H z) (extractStridedSlice S50000x1 ![0, 3] flat slices_S50000x6_S50000x1_0_3)))
    (rows (padded H z) (extractStridedSlice S50000x1 ![0, 4] flat slices_S50000x6_S50000x1_0_4)))
    (rows (padded H z) (extractStridedSlice S50000x1 ![0, 5] flat slices_S50000x6_S50000x1_0_5))) bitsLt_bf16_f32

/-- The first weight, transposed. -/
def wn16 (x2 : C S512x39 .f32) : C S39x512 .bf16 :=
  truncf (F := Ideal) .bf16 (transpose S39x512 [1, 0] x2 transposes_S512x39_S39x512_1_0) bitsLt_bf16_f32

/-- The hidden-to-hidden part of the second weight, transposed. -/
def wh16 (x3 : C S512x523 .f32) : C S512x512 .bf16 :=
  truncf (F := Ideal) .bf16 (transpose S512x512 [1, 0] (extractStridedSlice S512x512 ![0, 0] x3 slices_S512x523_S512x512_0_0)
    transposes_S512x512_S512x512_1_0) bitsLt_bf16_f32

/-- The bond-feature part of the second weight, transposed. -/
def wbT (x3 : C S512x523 .f32) : C S11x512 .f32 :=
  transpose S11x512 [1, 0] (extractStridedSlice S512x11 ![0, 512] x3 slices_S512x523_S512x11_0_512) transposes_S512x11_S11x512_1_0

/-- Each atom's six bonds' features, added up. -/
def neiB (x1 : C S120000x11 .f32) (x4 : C S50000x6 .i32) : C S50000x11 .f32 :=
  Host.reduceAdd (Host.gather gather_S120000x11_S50000x6x1_S50000x6x11_2_0_n_n_0_2_111 x1
    (broadcastInDim S50000x6x1 ![0, 1] bcast_S50000x6_S50000x6x1_0_1 x4)) (constant (F := Ideal) S_ .f32 0x00000000#32)
    reducesTo_S50000x6x11_S50000x11_d1 h_S_

/-- The layer-invariant bias: the first layer plus the bond features through their weight. -/
def bias16 (z : C S50000x512 .f32) (x1 : C S120000x11 .f32) (x3 : C S512x523 .f32) (x4 : C S50000x6 .i32) : C S50000x512 .bf16 :=
  truncf (F := Ideal) .bf16 (addf z (Host.dotGeneral (F := Ideal) (φ₁ := .f32) (φ₂ := .f32) dot_S50000x11_S11x512_S50000x512_1_0_0_1_n_n none (neiB x1 x4) (wbT x3) : C S50000x512 .f32)) bitsLt_bf16_f32

/-- Bond → source atom, with the padding bond sent to the appended zero row. -/
def srcIx (x5 : C S119999 .i32) : C S120000 .i32 :=
  concatenate S120000 0 [⟨S1, broadcastInDim S1 ![] bcast_S_S1 (constantI S_ 32 50000#32)⟩, ⟨S119999, x5⟩] concatenates_S1_S119999_S120000_d0

/-- Atom, neighbour slot → row of the padded hidden table. -/
def flatIx (x4 : C S50000x6 .i32) (x5 : C S119999 .i32) : C S50000x6 .i32 :=
  Host.gather gather_S120000_S50000x6x1_S50000x6_n_0_n_n_0_2_1 (srcIx x5)
    (broadcastInDim S50000x6x1 ![0, 1] bcast_S50000x6_S50000x6x1_0_1 x4)

/-- The appended zero row. -/
def zeroRow : C S1x512 .bf16 :=
  broadcastInDim S1x512 ![] bcast_S_S1x512 (constant (F := Ideal) S_ .bf16 0x0000#16)

/-- One layer of the kernel program: gather and add the neighbour rows, then the pallas_call. -/
def layer (z : C S50000x512 .f32) (x1 : C S120000x11 .f32) (x3 : C S512x523 .f32) (x4 : C S50000x6 .i32) (x5 : C S119999 .i32)
    (H : C S50000x512 .bf16) : C S50000x512 .f32 :=
  R1 (neiH H zeroRow (flatIx x4 x5)) (wh16 x3) (bias16 z x1 x3 x4)

/-- The whole program's result. -/
def outTerm (x0 : C S50000x39 .f32) (x1 : C S120000x11 .f32) (x2 : C S512x39 .f32) (x3 : C S512x523 .f32)
    (x4 : C S50000x6 .i32) (x5 : C S119999 .i32) : C S512x50000 .f32 :=
  transpose S512x50000 [1, 0]
    (layer (R0 x0 (wn16 x2)) x1 x3 x4 x5 (layer (R0 x0 (wn16 x2)) x1 x3 x4 x5 (layer (R0 x0 (wn16 x2)) x1 x3 x4 x5
      (layer (R0 x0 (wn16 x2)) x1 x3 x4 x5 (truncf (F := Ideal) .bf16 (R0 x0 (wn16 x2)) bitsLt_bf16_f32)))))
    transposes_S50000x512_S512x50000_1_0

end Cert.KernelIdeal.KTerm

end
-- ==== Proof.Region0.lean ====
/-
  The program's first kernel call (the one `KTerm.R0` describes), read as one function of its two input arrays.

  The call runs over 25 grid points. At point `t` it sees rows `2000·t … 2000·t + 1999` of the feature array
  `x : [50000, 39]`, the whole weight `w : [39, 512]`, and writes rows `2000·t … 2000·t + 1999` of the output
  `[50000, 512]`. What it writes at local row `p`, column `q` is `max (∑ k, xblock (p, k) · w (k, q)) 0`: a matrix
  product into a zero accumulator, then a maximum against zero; the change of float format in between is the identity
  on the extended reals. Since local row `p` of block `t` is row `2000·t + p` of the array, every written block is
  the matching block of the single whole-array function `KTerm.R0 x w`, and since every row `r` lies in block
  `r / 2000`, the 25 blocks cover the output: after the run the output array IS `KTerm.R0 x w`.
-/
import proofs.«415842_j44693429682679_3_alg».proof.Proof.Gen.KernelIdeal.Frame
import proofs.«415842_j44693429682679_3_alg».proof.Proof.KTerm
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

/-- The zero offset of a whole-block access, as a constant function. -/
theorem hz : (![0, 0] : Fin 2 → Nat) = fun _ => 0 := funext fun a => by fin_cases a <;> rfl

/-! ## The block product at an entry

The product contracts axis 1 of its left operand with axis 0 of its right operand. At output entry `(p, q)` and
contraction index `k` it therefore reads the left operand at `(p, k)` and the right operand at `(k, q)`: the four
coordinate facts below, one per operand axis. -/

/-- Left operand, row coordinate: the output's row. -/
theorem lhs_axis0 (i : S2000x512.Idx) (q : dot_S2000x39_S39x512_S2000x512_1_0_0_1_n_n.contr.Idx) :
    (dot_S2000x39_S39x512_S2000x512_1_0_0_1_n_n.lhsIdx i q 0).val = (i 0).val := by
  unfold DotDims.lhsIdx
  rw [dif_neg (show ¬(0 : Fin S2000x39.rank) ∈ dot_S2000x39_S39x512_S2000x512_1_0_0_1_n_n.lhsBatch by decide), dif_pos (show (0 : Fin S2000x39.rank) ∈ dot_S2000x39_S39x512_S2000x512_1_0_0_1_n_n.lhsNonContracting by decide)]
  rfl
/-- Left operand, column coordinate: the contraction index. -/
theorem lhs_axis1 (i : S2000x512.Idx) (q : dot_S2000x39_S39x512_S2000x512_1_0_0_1_n_n.contr.Idx) :
    (dot_S2000x39_S39x512_S2000x512_1_0_0_1_n_n.lhsIdx i q 1).val = (q ⟨0, by decide⟩).val :=
  dot_S2000x39_S39x512_S2000x512_1_0_0_1_n_n.lhsIdx_val_of_single rfl i q
/-- Right operand, row coordinate: the contraction index. -/
theorem rhs_axis0 (i : S2000x512.Idx) (q : dot_S2000x39_S39x512_S2000x512_1_0_0_1_n_n.contr.Idx) :
    (dot_S2000x39_S39x512_S2000x512_1_0_0_1_n_n.rhsIdx i q 0).val = (q ⟨0, by decide⟩).val :=
  dot_S2000x39_S39x512_S2000x512_1_0_0_1_n_n.rhsIdx_val_of_single rfl i q
/-- Right operand, column coordinate: the output's column. -/
theorem rhs_axis1 (i : S2000x512.Idx) (q : dot_S2000x39_S39x512_S2000x512_1_0_0_1_n_n.contr.Idx) :
    (dot_S2000x39_S39x512_S2000x512_1_0_0_1_n_n.rhsIdx i q 1).val = (i 1).val := by
  unfold DotDims.rhsIdx
  rw [dif_neg (show ¬(1 : Fin S39x512.rank) ∈ dot_S2000x39_S39x512_S2000x512_1_0_0_1_n_n.rhsBatch by decide), dif_pos (show (1 : Fin S39x512.rank) ∈ dot_S2000x39_S39x512_S2000x512_1_0_0_1_n_n.rhsNonContracting by decide)]
  rfl

/-- The product of a `[2000, 39]` block with a `[39, 512]` matrix into a zero accumulator, at entry `(p, q)`:
    `∑ k, a (p, k) · b (k, q)`, the sum re-indexed from the one-axis contraction index to `k : Fin 39`. -/
theorem mm_apply (a : FVec Ideal S2000x39 .bf16) (b : FVec Ideal S39x512 .bf16) (p : Fin 2000) (q : Fin 512) :
    matmul (F := Ideal) dot_S2000x39_S39x512_S2000x512_1_0_0_1_n_n none a b (constant S2000x512 .f32 0x00000000#32) (ix2 p q)
      = ∑ k : Fin 39, a (ix2 p k) * b (ix2 k q) := by
  refine (Ideal.matmul_constant_zero_apply dot_S2000x39_S39x512_S2000x512_1_0_0_1_n_n none a b (ix2 p q)).trans ?_
  rw [← Equiv.sum_comp (ValueIdx.contrEquiv1 dot_S2000x39_S39x512_S2000x512_1_0_0_1_n_n 39 rfl rfl).symm]
  refine Finset.sum_congr rfl fun k _ => ?_
  have hk := ValueIdx.contrEquiv1_symm_val dot_S2000x39_S39x512_S2000x512_1_0_0_1_n_n 39 rfl rfl k
  have el : dot_S2000x39_S39x512_S2000x512_1_0_0_1_n_n.lhsIdx (ix2 p q) ((ValueIdx.contrEquiv1 dot_S2000x39_S39x512_S2000x512_1_0_0_1_n_n 39 rfl rfl).symm k) = ix2 p k := funext fun a => Fin.ext (by
    match a with
    | ⟨0, _⟩ => exact lhs_axis0 _ _
    | ⟨1, _⟩ => exact (lhs_axis1 _ _).trans hk)
  have er : dot_S2000x39_S39x512_S2000x512_1_0_0_1_n_n.rhsIdx (ix2 p q) ((ValueIdx.contrEquiv1 dot_S2000x39_S39x512_S2000x512_1_0_0_1_n_n 39 rfl rfl).symm k) = ix2 k q := funext fun a => Fin.ext (by
    match a with
    | ⟨0, _⟩ => exact (rhs_axis0 _ _).trans hk
    | ⟨1, _⟩ => exact rhs_axis1 _ _)
  rw [el, er]

/-! ## What one grid point computes, and the whole-array function, at an entry -/

/-- The value a grid point stores at local entry `(p, q)`, from its block `x` of the features and the weight `w`:
    `max (∑ k, x (p, k) · w (k, q)) 0`. The narrowing of `x` and the same-shape recast of `w` change nothing on the
    extended reals, and the constant the maximum is taken against is the zero word. -/
theorem pay_apply (x : Vec Ideal S2000x39 .f32) (w : Vec Ideal S39x512 .bf16) (p : Fin 2000) (q : Fin 512) :
    k0_pay1 (F := Ideal) x w (ix2 p q) = max (∑ k : Fin 39, x (ix2 p k) * w (ix2 k q)) 0 := by
  unfold k0_pay1
  rw [maximumf_apply, broadcast_apply, mm_apply]
  simp only [truncf_apply, shapeCast_self, Ideal.ofBits_def, Ideal.ofBits_zero_f32]

/-- The whole-array function at an entry whose coordinates are row `r` and column `q`. -/
theorem R0_apply (x : KTerm.C S50000x39 .f32) (w : KTerm.C S39x512 .bf16) (i : S50000x512.Idx) (r : Fin 50000) (q : Fin 512)
    (h0 : (i 0).val = r.val) (h1 : (i 1).val = q.val) :
    KTerm.R0 x w i = max (∑ k : Fin 39, x (ix2 r k) * w (ix2 k q)) 0 := by
  have e0 : (⟨(i 0).val, (i 0).isLt⟩ : Fin 50000) = r := Fin.ext h0
  have e1 : (⟨(i 1).val, (i 1).isLt⟩ : Fin 512) = q := Fin.ext h1
  unfold KTerm.R0
  rw [e0, e1]

-- the buffers' contents when the call is entered
variable (V : (c : Dev nD) → (b : Ref sig .tc) → Buf (Elt Ideal) ((c : Thread nD τ).loc b))

/-! ## Blocks as parts of the arrays -/

/-- Which block each window holds at grid point `t`: the features' and the output's block index is `(t, 0)`, the
    weight's is `(0, 0)` at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t`. -/
abbrev xblk (c : Dev nD) (t : Fin cfg0.N) : Vec Ideal S2000x39 .f32 := iblk0 (F := Ideal) V c 0 t
/-- The weight's block at point `t`. -/
abbrev wblk (c : Dev nD) (t : Fin cfg0.N) : Vec Ideal S39x512 .bf16 := iblk0 (F := Ideal) V c 1 t
/-- The feature array. -/
abbrev xarr (c : Dev nD) : KTerm.C S50000x39 .f32 := V c main_arg0
/-- The weight array. -/
abbrev warr (c : Dev nD) : KTerm.C S39x512 .bf16 := V c main_v1

/-- Local row `p` of the features' block at point `t` is row `2000·t + p` of the feature array. -/
theorem xblk_apply (c : Dev nD) (t : Fin cfg0.N) (p : Fin 2000) (k : Fin 39) (r : Fin 50000) (hr : r.val = t.val * 2000 + p.val) :
    xblk V c t (ix2 p k) = xarr V c (ix2 r k) := by
  obtain ⟨e0, e1, -⟩ := idx_facts t
  show xarr V c (((cfg0.win 0).blk t).view.emb (ix2 p k)) = xarr V c (ix2 r k)
  refine congrArg (xarr V c) (funext fun a => Fin.ext ?_)
  match a with
  | ⟨0, _⟩ => show win0_0.index t (0 : Fin 2) * 2000 + 1 * p.val = r.val; omega
  | ⟨1, _⟩ => show win0_0.index t (1 : Fin 2) * 39 + 1 * k.val = k.val; omega

/-- The weight's block is the weight array at every point. -/
theorem wblk_apply (c : Dev nD) (t : Fin cfg0.N) (k : Fin 39) (q : Fin 512) :
    wblk V c t (ix2 k q) = warr V c (ix2 k q) := by
  obtain ⟨-, -, e2, e3, -⟩ := idx_facts t
  show warr V c (((cfg0.win 1).blk t).view.emb (ix2 k q)) = warr V c (ix2 k q)
  refine congrArg (warr V c) (funext fun a => Fin.ext ?_)
  match a with
  | ⟨0, _⟩ => show win0_1.index t (0 : Fin 2) * 39 + 1 * k.val = k.val; omega
  | ⟨1, _⟩ => show win0_1.index t (1 : Fin 2) * 512 + 1 * q.val = q.val; omega

/-! ## From the blocks to the array -/

/-- What point `t` writes back is block `t` of `KTerm.R0` of the two arrays: local entry `(p, q)` of the written
    block and entry `(2000·t + p, q)` of `KTerm.R0 x w` are the same maximum of the same sum, term by term. -/
theorem flushed_eq (c : Dev nD) (t : Fin cfg0.N) :
    (dat0 (F := Ideal) V c).flushed 2 t = ((cfg0.win 2).blk t).view.read (Elt Ideal) (KTerm.R0 (xarr V c) (warr V c)) := by
  show (cfg0.win 2).cut (grid0.coords t) ((dat0 (F := Ideal) V c).after 2 t) = _
  rw [after0_2]
  unfold out0_2
  rw [View.canon_unit_zero hz]
  simp only [View.ld_unit_zero (S := S2000x39) hz, View.ld_unit_zero (S := S39x512) hz]
  obtain ⟨-, -, -, -, e4, e5⟩ := idx_facts t
  have hN : cfg0.N = 25 := N_0
  refine funext fun (j : S2000x512.Idx) => ?_
  obtain ⟨p, q, rfl⟩ : ∃ (p : Fin 2000) (q : Fin 512), j = ix2 p q := ⟨j 0, j 1, eq_ix2 j⟩
  have hr : t.val * 2000 + p.val < 50000 := by have := t.isLt; omega
  show k0_pay1 (xblk V c t) (wblk V c t) (ix2 p q) = KTerm.R0 (xarr V c) (warr V c) (((cfg0.win 2).blk t).view.emb (ix2 p q))
  rw [pay_apply, R0_apply (xarr V c) (warr V c) _ ⟨t.val * 2000 + p.val, hr⟩ q
    (by show win0_2.index t (0 : Fin 2) * 2000 + 1 * p.val = t.val * 2000 + p.val; omega)
    (by show win0_2.index t (1 : Fin 2) * 512 + 1 * q.val = q.val; omega)]
  refine congrArg (max · 0) (Finset.sum_congr rfl fun k _ => ?_)
  rw [xblk_apply V c t p k ⟨t.val * 2000 + p.val, hr⟩ rfl, wblk_apply V c t k q]

/-- An entry of the output array lies in point `t`'s block iff each of its coordinates lies in the block's range. -/
theorem mem_blk (t : Fin cfg0.N) (i : S50000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v6).slice (win0_2.rect t)).set ↔ _
  rw [View.set_slice_whole, Rect.mem_set_unit]
  exact Iff.rfl

/-- Every entry of the output array is written by some point: row `r` lies in the block of point `r / 2000`. -/
theorem cover (i : S50000x512.Idx) : ∃ t : Fin cfg0.N, (cfg0.win 2).flush t = true ∧ i ∈ ((cfg0.win 2).blk t).view.set := by
  have hi0 : (i 0).val < 50000 := (i 0).isLt
  have hi1 : (i 1).val < 512 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- THE OUTPUT ARRAY after the call's 25 points: `max (∑ k, x (r, k) · w (k, q)) 0` at every entry `(r, q)`. -/
theorem region0_value (c : Dev nD) : (dat0 (F := Ideal) V c).arrAt 2 cfg0.N = KTerm.R0 (V c main_arg0) (V c main_v1) :=
  (dat0 (F := Ideal) V c).arrAt_eq_of_cover 2 (KTerm.R0 (V c main_arg0) (V c main_v1)) (fun t _ => flushed_eq V c t) cover

end Cert.KernelIdeal.Region0

end
-- ==== Proof.Region1.lean ====
/-
  One of the kernel program's later grid launches, as a function of the arrays it finds: over a grid of 25 row
  slabs of 2000 rows, each point stores `relu (bias + a · w)` of its slab of the neighbour sums `a` [50000,512], the
  whole weight `w` [512,512] and its slab of the bias [50000,512]. Read entry by entry (the matrix product as the sum
  over the contracted axis, the casts between the two float widths the identity at the ideal instance), point `t`
  writes back rows `2000 t … 2000 t + 1999` of ONE whole-array function, `KTerm.R1` of the three input arrays; the 25
  slabs cover the rows, so the output array ends holding that function.
-/
import proofs.«415842_j44693429682679_3_alg».proof.Proof.Gen.KernelIdeal.Frame
import proofs.«415842_j44693429682679_3_alg».proof.Proof.KTerm
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of the body's whole-block accesses, however spelt. -/
theorem hz : (![0, 0] : Fin 2 → Nat) = fun _ => 0 := funext fun a => by fin_cases a <;> rfl

/-! ## The matrix product's operand indices -/

theorem lhs_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- Row `p` of the left operand meets column `q` of the right one along `k`. -/
theorem mm_apply (x0 : Vec Ideal S2000x512 .bf16) (x1 : Vec Ideal S512x512 .bf16) (p : Fin 2000) (q : Fin 512) :
    matmul (F := Ideal) (φ₁ := .bf16) (φ₂ := .bf16) dot_S2000x512_S512x512_S2000x512_1_0_0_1_n_n none x0 x1 (constant S2000x512 .f32 0x00000000#32) (ix2 p q)
      = ∑ k : Fin 512, x0 (ix2 p k) * x1 (ix2 k q) := by
  refine (Ideal.matmul_constant_zero_apply (φ₁ := .bf16) (φ₂ := .bf16) dot_S2000x512_S512x512_S2000x512_1_0_0_1_n_n none x0 x1 (ix2 p q)).trans ?_
  rw [← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx (ix2 p q) ((ValueIdx.contrEquiv1 dot_S2000x512_S512x512_S2000x512_1_0_0_1_n_n 512 rfl rfl).symm k) = ix2 p k := funext fun a => Fin.ext (by
    match a with
    | ⟨0, _⟩ => exact lhs_0 _ _
    | ⟨1, _⟩ => exact (lhs_1 _ _).trans hk)
  have er : dot_S2000x512_S512x512_S2000x512_1_0_0_1_n_n.rhsIdx (ix2 p q) ((ValueIdx.contrEquiv1 dot_S2000x512_S512x512_S2000x512_1_0_0_1_n_n 512 rfl rfl).symm k) = ix2 k q := funext fun a => Fin.ext (by
    match a with
    | ⟨0, _⟩ => exact (rhs_0 _ _).trans hk
    | ⟨1, _⟩ => exact rhs_1 _ _)
  rw [el, er]

/-- The body's stored value, entry by entry: the bias plus the row-by-column sum, clipped below at zero. -/
theorem pay_apply (x0 : Vec Ideal S2000x512 .bf16) (x1 : Vec Ideal S512x512 .bf16) (x2 : Vec Ideal S2000x512 .bf16) (p : Fin 2000) (q : Fin 512) :
    k1_pay1 (F := Ideal) x0 x1 x2 (ix2 p q) = max (x2 (ix2 p q) + ∑ k : Fin 512, x0 (ix2 p k) * x1 (ix2 k q)) 0 := by
  unfold k1_pay1
  simp only [shapeCast_self]
  show max (x2 (ix2 p q) + matmul (F := Ideal) (φ₁ := .bf16) (φ₂ := .bf16) dot_S2000x512_S512x512_S2000x512_1_0_0_1_n_n none x0 x1 (constant S2000x512 .f32 0x00000000#32) (ix2 p q)) (Ideal.ofBits .f32 0x00000000#32) = _
  rw [mm_apply, Ideal.ofBits_zero_f32]

/-! ## The windows' blocks, read off the arrays -/

/-- The three input arrays and the blocks a grid point sees of them, at their literal types. -/
abbrev aArr (c : Dev nD) : Vec Ideal S50000x512 .bf16 := V c main_v50
abbrev wArr (c : Dev nD) : Vec Ideal S512x512 .bf16 := V c main_v5
abbrev bArr (c : Dev nD) : Vec Ideal S50000x512 .bf16 := V c main_v12
abbrev aBlk (c : Dev nD) (t : Fin cfg1.N) : Vec Ideal S2000x512 .bf16 := iblk1 V c 0 t
abbrev wBlk (c : Dev nD) (t : Fin cfg1.N) : Vec Ideal S512x512 .bf16 := iblk1 V c 1 t
abbrev bBlk (c : Dev nD) (t : Fin cfg1.N) : Vec Ideal S2000x512 .bf16 := iblk1 V c 2 t

/-- The index maps over the grid: the row-slab windows sit at slab `t`, the weight's window at its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row `y 0` of slab `t` of the neighbour sums is row `2000 t + y 0` of the array. -/
theorem aBlk_apply (c : Dev nD) (t : Fin cfg1.N) (y : S2000x512.Idx) (i : S50000x512.Idx)
    (h0 : (i 0).val = 2000 * t.val + (y 0).val) (h1 : (i 1).val = (y 1).val) : aBlk V c t y = aArr V c i := by
  obtain ⟨e0, e1, -⟩ := idx_facts t
  show aArr V c (((cfg1.win 0).blk t).view.emb y) = aArr V c i
  refine congrArg (aArr V c) (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 512 + 1 * (y 1).val = (i 1).val; rw [e1, h1]; omega

/-- The weight's one block is the weight. -/
theorem wBlk_apply (c : Dev nD) (t : Fin cfg1.N) (y : S512x512.Idx) (i : S512x512.Idx)
    (h0 : (i 0).val = (y 0).val) (h1 : (i 1).val = (y 1).val) : wBlk V c t y = wArr V c i := by
  obtain ⟨-, -, e0, e1, -⟩ := idx_facts t
  show wArr V c (((cfg1.win 1).blk t).view.emb y) = wArr V c i
  refine congrArg (wArr V c) (funext fun a => Fin.ext ?_)
  match a with
  | ⟨0, _⟩ => show win1_1.index t (0 : Fin 2) * 512 + 1 * (y 0).val = (i 0).val; rw [e0, h0]; omega
  | ⟨1, _⟩ => show win1_1.index t (1 : Fin 2) * 512 + 1 * (y 1).val = (i 1).val; rw [e1, h1]; omega

/-- Row `y 0` of slab `t` of the bias is row `2000 t + y 0` of the array. -/
theorem bBlk_apply (c : Dev nD) (t : Fin cfg1.N) (y : S2000x512.Idx) (i : S50000x512.Idx)
    (h0 : (i 0).val = 2000 * t.val + (y 0).val) (h1 : (i 1).val = (y 1).val) : bBlk V c t y = bArr V c i := by
  obtain ⟨-, -, -, -, e0, e1, -⟩ := idx_facts t
  show bArr V c (((cfg1.win 2).blk t).view.emb y) = bArr V c i
  refine congrArg (bArr V c) (funext fun a => Fin.ext ?_)
  match a with
  | ⟨0, _⟩ => show win1_2.index t (0 : Fin 2) * 2000 + 1 * (y 0).val = (i 0).val; rw [e0, h0]; omega
  | ⟨1, _⟩ => show win1_2.index t (1 : Fin 2) * 512 + 1 * (y 1).val = (i 1).val; rw [e1, h1]; omega

/-! ## One grid point's block of the result -/

/-- What point `t` stores at `y` is the result's entry at row `2000 t + y 0`, column `y 1`. -/
theorem point_eq (c : Dev nD) (t : Fin cfg1.N) (y : S2000x512.Idx) (i : S50000x512.Idx)
    (h0 : (i 0).val = 2000 * t.val + (y 0).val) (h1 : (i 1).val = (y 1).val) :
    k1_pay1 (F := Ideal) (aBlk V c t) (wBlk V c t) (bBlk V c t) y = KTerm.R1 (aArr V c) (wArr V c) (bArr V c) i := by
  obtain ⟨p, q, rfl⟩ : ∃ (p : Fin 2000) (q : Fin 512), y = ix2 p q :=
    ⟨⟨(y 0).val, (y 0).isLt⟩, ⟨(y 1).val, (y 1).isLt⟩, funext fun a => by match a with | ⟨0, _⟩ => rfl | ⟨1, _⟩ => rfl⟩
  refine (pay_apply (aBlk V c t) (wBlk V c t) (bBlk V c t) p q).trans ?_
  show max (bBlk V c t (ix2 p q) + ∑ k : Fin 512, aBlk V c t (ix2 p k) * wBlk V c t (ix2 k q)) 0
    = max (bArr V c i + ∑ k : Fin 512, aArr V c (ix2 (⟨(i 0).val, (i 0).isLt⟩ : Fin 50000) k) * wArr V c (ix2 k (⟨(i 1).val, (i 1).isLt⟩ : Fin 512))) 0
  rw [bBlk_apply V c t (ix2 p q) i h0 h1]
  refine congrArg (fun s => max (bArr V c i + s) 0) (Finset.sum_congr rfl fun k _ => ?_)
  rw [aBlk_apply V c t (ix2 p k) (ix2 (⟨(i 0).val, (i 0).isLt⟩ : Fin 50000) k) h0 rfl,
    wBlk_apply V c t (ix2 k q) (ix2 k (⟨(i 1).val, (i 1).isLt⟩ : Fin 512)) rfl h1]

/-! ## From the blocks to the array -/

/-- What point `t` writes back is block `t` of the result. -/
theorem flushed_eq (c : Dev nD) (t : Fin cfg1.N) :
    (dat1 (F := Ideal) V c).flushed 3 t
      = ((cfg1.win 3).blk t).view.read (Elt Ideal) (KTerm.R1 (V c main_v50) (V c main_v5) (V c main_v12)) := by
  show (cfg1.win 3).cut (grid1.coords t) ((dat1 (F := Ideal) V c).after 3 t) = _
  rw [after1_3]
  unfold out1_3
  rw [View.canon_unit_zero hz]
  simp only [View.ld_unit_zero (S := S2000x512) hz, View.ld_unit_zero (S := S512x512) hz]
  obtain ⟨-, -, -, -, -, -, e0, e1⟩ := idx_facts t
  funext j
  refine point_eq V c t _ (((cfg1.win 3).blk t).view.emb j) ?_ ?_
  · show win1_3.index t (0 : Fin 2) * 2000 + 1 * (j 0).val = 2000 * t.val + (j 0).val
    rw [e0]; omega
  · show win1_3.index t (1 : Fin 2) * 512 + 1 * (j 1).val = (j 1).val
    rw [e1]; omega

/-- An index of the array is in point `t`'s block iff each coordinate is in the block's range on its axis. -/
theorem mem_blk (t : Fin cfg1.N) (i : S50000x512.Idx) :
    i ∈ ((cfg1.win 3).blk t).view.set ↔ ∀ a : Fin 2, win1_3.index t a * S2000x512.size a ≤ (i a).val ∧ (i a).val < win1_3.index t a * S2000x512.size a + S2000x512.size a := by
  show i ∈ ((View.whole main_v51).slice (win1_3.rect t)).set ↔ _
  rw [View.set_slice_whole, Rect.mem_set_unit]
  exact Iff.rfl

/-- Row `r` of the array is in the block of point `r / 2000`. -/
theorem cover (i : S50000x512.Idx) :
    ∃ t : Fin cfg1.N, (cfg1.win 3).flush t = true ∧ i ∈ ((cfg1.win 3).blk t).view.set := by
  have hi0 : (i 0).val < 50000 := (i 0).isLt
  have hi1 : (i 1).val < 512 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, e0, e1⟩ := idx_facts t
  refine ⟨t, flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 512 ≤ (i 1).val ∧ (i 1).val < win1_3.index t (1 : Fin 2) * 512 + 512
    rw [e1]; omega

/-- The output array after the region's run: the bias plus the row-by-column sums, clipped below at zero. -/
theorem region1_value (c : Dev nD) :
    (dat1 (F := Ideal) V c).arrAt 3 cfg1.N = KTerm.R1 (V c main_v50) (V c main_v5) (V c main_v12) :=
  (dat1 (F := Ideal) V c).arrAt_eq_of_cover 3 (KTerm.R1 (V c main_v50) (V c main_v5) (V c main_v12))
    (fun t _ => flushed_eq V c t) cover

end Cert.KernelIdeal.Region1

end
-- ==== Proof.Region2.lean ====
/-
  One of the kernel program's later grid launches, as a function of the arrays it finds: over a grid of 25 row
  slabs of 2000 rows, each point stores `relu (bias + a · w)` of its slab of the neighbour sums `a` [50000,512], the
  whole weight `w` [512,512] and its slab of the bias [50000,512]. Read entry by entry (the matrix product as the sum
  over the contracted axis, the casts between the two float widths the identity at the ideal instance), point `t`
  writes back rows `2000 t … 2000 t + 1999` of ONE whole-array function, `KTerm.R1` of the three input arrays; the 25
  slabs cover the rows, so the output array ends holding that function.
-/
import proofs.«415842_j44693429682679_3_alg».proof.Proof.Gen.KernelIdeal.Frame
import proofs.«415842_j44693429682679_3_alg».proof.Proof.KTerm
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of the body's whole-block accesses, however spelt. -/
theorem hz : (![0, 0] : Fin 2 → Nat) = fun _ => 0 := funext fun a => by fin_cases a <;> rfl

/-! ## The matrix product's operand indices -/

theorem lhs_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- Row `p` of the left operand meets column `q` of the right one along `k`. -/
theorem mm_apply (x0 : Vec Ideal S2000x512 .bf16) (x1 : Vec Ideal S512x512 .bf16) (p : Fin 2000) (q : Fin 512) :
    matmul (F := Ideal) (φ₁ := .bf16) (φ₂ := .bf16) dot_S2000x512_S512x512_S2000x512_1_0_0_1_n_n none x0 x1 (constant S2000x512 .f32 0x00000000#32) (ix2 p q)
      = ∑ k : Fin 512, x0 (ix2 p k) * x1 (ix2 k q) := by
  refine (Ideal.matmul_constant_zero_apply (φ₁ := .bf16) (φ₂ := .bf16) dot_S2000x512_S512x512_S2000x512_1_0_0_1_n_n none x0 x1 (ix2 p q)).trans ?_
  rw [← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx (ix2 p q) ((ValueIdx.contrEquiv1 dot_S2000x512_S512x512_S2000x512_1_0_0_1_n_n 512 rfl rfl).symm k) = ix2 p k := funext fun a => Fin.ext (by
    match a with
    | ⟨0, _⟩ => exact lhs_0 _ _
    | ⟨1, _⟩ => exact (lhs_1 _ _).trans hk)
  have er : dot_S2000x512_S512x512_S2000x512_1_0_0_1_n_n.rhsIdx (ix2 p q) ((ValueIdx.contrEquiv1 dot_S2000x512_S512x512_S2000x512_1_0_0_1_n_n 512 rfl rfl).symm k) = ix2 k q := funext fun a => Fin.ext (by
    match a with
    | ⟨0, _⟩ => exact (rhs_0 _ _).trans hk
    | ⟨1, _⟩ => exact rhs_1 _ _)
  rw [el, er]

/-- The body's stored value, entry by entry: the bias plus the row-by-column sum, clipped below at zero. -/
theorem pay_apply (x0 : Vec Ideal S2000x512 .bf16) (x1 : Vec Ideal S512x512 .bf16) (x2 : Vec Ideal S2000x512 .bf16) (p : Fin 2000) (q : Fin 512) :
    k2_pay1 (F := Ideal) x0 x1 x2 (ix2 p q) = max (x2 (ix2 p q) + ∑ k : Fin 512, x0 (ix2 p k) * x1 (ix2 k q)) 0 := by
  unfold k2_pay1
  simp only [shapeCast_self]
  show max (x2 (ix2 p q) + matmul (F := Ideal) (φ₁ := .bf16) (φ₂ := .bf16) dot_S2000x512_S512x512_S2000x512_1_0_0_1_n_n none x0 x1 (constant S2000x512 .f32 0x00000000#32) (ix2 p q)) (Ideal.ofBits .f32 0x00000000#32) = _
  rw [mm_apply, Ideal.ofBits_zero_f32]

/-! ## The windows' blocks, read off the arrays -/

/-- The three input arrays and the blocks a grid point sees of them, at their literal types. -/
abbrev aArr (c : Dev nD) : Vec Ideal S50000x512 .bf16 := V c main_v84
abbrev wArr (c : Dev nD) : Vec Ideal S512x512 .bf16 := V c main_v5
abbrev bArr (c : Dev nD) : Vec Ideal S50000x512 .bf16 := V c main_v12
abbrev aBlk (c : Dev nD) (t : Fin cfg2.N) : Vec Ideal S2000x512 .bf16 := iblk2 V c 0 t
abbrev wBlk (c : Dev nD) (t : Fin cfg2.N) : Vec Ideal S512x512 .bf16 := iblk2 V c 1 t
abbrev bBlk (c : Dev nD) (t : Fin cfg2.N) : Vec Ideal S2000x512 .bf16 := iblk2 V c 2 t

/-- The index maps over the grid: the row-slab windows sit at slab `t`, the weight's window at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row `y 0` of slab `t` of the neighbour sums is row `2000 t + y 0` of the array. -/
theorem aBlk_apply (c : Dev nD) (t : Fin cfg2.N) (y : S2000x512.Idx) (i : S50000x512.Idx)
    (h0 : (i 0).val = 2000 * t.val + (y 0).val) (h1 : (i 1).val = (y 1).val) : aBlk V c t y = aArr V c i := by
  obtain ⟨e0, e1, -⟩ := idx_facts t
  show aArr V c (((cfg2.win 0).blk t).view.emb y) = aArr V c i
  refine congrArg (aArr V c) (funext fun a => Fin.ext ?_)
  match a with
  | ⟨0, _⟩ => show win2_0.index t (0 : Fin 2) * 2000 + 1 * (y 0).val = (i 0).val; rw [e0, h0]; omega
  | ⟨1, _⟩ => show win2_0.index t (1 : Fin 2) * 512 + 1 * (y 1).val = (i 1).val; rw [e1, h1]; omega

/-- The weight's one block is the weight. -/
theorem wBlk_apply (c : Dev nD) (t : Fin cfg2.N) (y : S512x512.Idx) (i : S512x512.Idx)
    (h0 : (i 0).val = (y 0).val) (h1 : (i 1).val = (y 1).val) : wBlk V c t y = wArr V c i := by
  obtain ⟨-, -, e0, e1, -⟩ := idx_facts t
  show wArr V c (((cfg2.win 1).blk t).view.emb y) = wArr V c i
  refine congrArg (wArr V c) (funext fun a => Fin.ext ?_)
  match a with
  | ⟨0, _⟩ => show win2_1.index t (0 : Fin 2) * 512 + 1 * (y 0).val = (i 0).val; rw [e0, h0]; omega
  | ⟨1, _⟩ => show win2_1.index t (1 : Fin 2) * 512 + 1 * (y 1).val = (i 1).val; rw [e1, h1]; omega

/-- Row `y 0` of slab `t` of the bias is row `2000 t + y 0` of the array. -/
theorem bBlk_apply (c : Dev nD) (t : Fin cfg2.N) (y : S2000x512.Idx) (i : S50000x512.Idx)
    (h0 : (i 0).val = 2000 * t.val + (y 0).val) (h1 : (i 1).val = (y 1).val) : bBlk V c t y = bArr V c i := by
  obtain ⟨-, -, -, -, e0, e1, -⟩ := idx_facts t
  show bArr V c (((cfg2.win 2).blk t).view.emb y) = bArr V c i
  refine congrArg (bArr V c) (funext fun a => Fin.ext ?_)
  match a with
  | ⟨0, _⟩ => show win2_2.index t (0 : Fin 2) * 2000 + 1 * (y 0).val = (i 0).val; rw [e0, h0]; omega
  | ⟨1, _⟩ => show win2_2.index t (1 : Fin 2) * 512 + 1 * (y 1).val = (i 1).val; rw [e1, h1]; omega

/-! ## One grid point's block of the result -/

/-- What point `t` stores at `y` is the result's entry at row `2000 t + y 0`, column `y 1`. -/
theorem point_eq (c : Dev nD) (t : Fin cfg2.N) (y : S2000x512.Idx) (i : S50000x512.Idx)
    (h0 : (i 0).val = 2000 * t.val + (y 0).val) (h1 : (i 1).val = (y 1).val) :
    k2_pay1 (F := Ideal) (aBlk V c t) (wBlk V c t) (bBlk V c t) y = KTerm.R1 (aArr V c) (wArr V c) (bArr V c) i := by
  obtain ⟨p, q, rfl⟩ : ∃ (p : Fin 2000) (q : Fin 512), y = ix2 p q :=
    ⟨⟨(y 0).val, (y 0).isLt⟩, ⟨(y 1).val, (y 1).isLt⟩, funext fun a => by match a with | ⟨0, _⟩ => rfl | ⟨1, _⟩ => rfl⟩
  refine (pay_apply (aBlk V c t) (wBlk V c t) (bBlk V c t) p q).trans ?_
  show max (bBlk V c t (ix2 p q) + ∑ k : Fin 512, aBlk V c t (ix2 p k) * wBlk V c t (ix2 k q)) 0
    = max (bArr V c i + ∑ k : Fin 512, aArr V c (ix2 (⟨(i 0).val, (i 0).isLt⟩ : Fin 50000) k) * wArr V c (ix2 k (⟨(i 1).val, (i 1).isLt⟩ : Fin 512))) 0
  rw [bBlk_apply V c t (ix2 p q) i h0 h1]
  refine congrArg (fun s => max (bArr V c i + s) 0) (Finset.sum_congr rfl fun k _ => ?_)
  rw [aBlk_apply V c t (ix2 p k) (ix2 (⟨(i 0).val, (i 0).isLt⟩ : Fin 50000) k) h0 rfl,
    wBlk_apply V c t (ix2 k q) (ix2 k (⟨(i 1).val, (i 1).isLt⟩ : Fin 512)) rfl h1]

/-! ## From the blocks to the array -/

/-- What point `t` writes back is block `t` of the result. -/
theorem flushed_eq (c : Dev nD) (t : Fin cfg2.N) :
    (dat2 (F := Ideal) V c).flushed 3 t
      = ((cfg2.win 3).blk t).view.read (Elt Ideal) (KTerm.R1 (V c main_v84) (V c main_v5) (V c main_v12)) := by
  show (cfg2.win 3).cut (grid2.coords t) ((dat2 (F := Ideal) V c).after 3 t) = _
  rw [after2_3]
  unfold out2_3
  rw [View.canon_unit_zero hz]
  simp only [View.ld_unit_zero (S := S2000x512) hz, View.ld_unit_zero (S := S512x512) hz]
  obtain ⟨-, -, -, -, -, -, e0, e1⟩ := idx_facts t
  funext j
  refine point_eq V c t _ (((cfg2.win 3).blk t).view.emb j) ?_ ?_
  · show win2_3.index t (0 : Fin 2) * 2000 + 1 * (j 0).val = 2000 * t.val + (j 0).val
    rw [e0]; omega
  · show win2_3.index t (1 : Fin 2) * 512 + 1 * (j 1).val = (j 1).val
    rw [e1]; omega

/-- An index of the array is in point `t`'s block iff each coordinate is in the block's range on its axis. -/
theorem mem_blk (t : Fin cfg2.N) (i : S50000x512.Idx) :
    i ∈ ((cfg2.win 3).blk t).view.set ↔ ∀ a : Fin 2, win2_3.index t a * S2000x512.size a ≤ (i a).val ∧ (i a).val < win2_3.index t a * S2000x512.size a + S2000x512.size a := by
  show i ∈ ((View.whole main_v85).slice (win2_3.rect t)).set ↔ _
  rw [View.set_slice_whole, Rect.mem_set_unit]
  exact Iff.rfl

/-- Row `r` of the array is in the block of point `r / 2000`. -/
theorem cover (i : S50000x512.Idx) :
    ∃ t : Fin cfg2.N, (cfg2.win 3).flush t = true ∧ i ∈ ((cfg2.win 3).blk t).view.set := by
  have hi0 : (i 0).val < 50000 := (i 0).isLt
  have hi1 : (i 1).val < 512 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, e0, e1⟩ := idx_facts t
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    rw [e0, ht]; omega
  | ⟨1, _⟩ =>
    show win2_3.index t (1 : Fin 2) * 512 ≤ (i 1).val ∧ (i 1).val < win2_3.index t (1 : Fin 2) * 512 + 512
    rw [e1]; omega

/-- The output array after the region's run: the bias plus the row-by-column sums, clipped below at zero. -/
theorem region2_value (c : Dev nD) :
    (dat2 (F := Ideal) V c).arrAt 3 cfg2.N = KTerm.R1 (V c main_v84) (V c main_v5) (V c main_v12) :=
  (dat2 (F := Ideal) V c).arrAt_eq_of_cover 3 (KTerm.R1 (V c main_v84) (V c main_v5) (V c main_v12))
    (fun t _ => flushed_eq V c t) cover

end Cert.KernelIdeal.Region2

end
-- ==== Proof.Region3.lean ====
/-
  One of the kernel program's later grid launches, as a function of the arrays it finds: over a grid of 25 row
  slabs of 2000 rows, each point stores `relu (bias + a · w)` of its slab of the neighbour sums `a` [50000,512], the
  whole weight `w` [512,512] and its slab of the bias [50000,512]. Read entry by entry (the matrix product as the sum
  over the contracted axis, the casts between the two float widths the identity at the ideal instance), point `t`
  writes back rows `2000 t … 2000 t + 1999` of ONE whole-array function, `KTerm.R1` of the three input arrays; the 25
  slabs cover the rows, so the output array ends holding that function.
-/
import proofs.«415842_j44693429682679_3_alg».proof.Proof.Gen.KernelIdeal.Frame
import proofs.«415842_j44693429682679_3_alg».proof.Proof.KTerm
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of the body's whole-block accesses, however spelt. -/
theorem hz : (![0, 0] : Fin 2 → Nat) = fun _ => 0 := funext fun a => by fin_cases a <;> rfl

/-! ## The matrix product's operand indices -/

theorem lhs_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- Row `p` of the left operand meets column `q` of the right one along `k`. -/
theorem mm_apply (x0 : Vec Ideal S2000x512 .bf16) (x1 : Vec Ideal S512x512 .bf16) (p : Fin 2000) (q : Fin 512) :
    matmul (F := Ideal) (φ₁ := .bf16) (φ₂ := .bf16) dot_S2000x512_S512x512_S2000x512_1_0_0_1_n_n none x0 x1 (constant S2000x512 .f32 0x00000000#32) (ix2 p q)
      = ∑ k : Fin 512, x0 (ix2 p k) * x1 (ix2 k q) := by
  refine (Ideal.matmul_constant_zero_apply (φ₁ := .bf16) (φ₂ := .bf16) dot_S2000x512_S512x512_S2000x512_1_0_0_1_n_n none x0 x1 (ix2 p q)).trans ?_
  rw [← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx (ix2 p q) ((ValueIdx.contrEquiv1 dot_S2000x512_S512x512_S2000x512_1_0_0_1_n_n 512 rfl rfl).symm k) = ix2 p k := funext fun a => Fin.ext (by
    match a with
    | ⟨0, _⟩ => exact lhs_0 _ _
    | ⟨1, _⟩ => exact (lhs_1 _ _).trans hk)
  have er : dot_S2000x512_S512x512_S2000x512_1_0_0_1_n_n.rhsIdx (ix2 p q) ((ValueIdx.contrEquiv1 dot_S2000x512_S512x512_S2000x512_1_0_0_1_n_n 512 rfl rfl).symm k) = ix2 k q := funext fun a => Fin.ext (by
    match a with
    | ⟨0, _⟩ => exact (rhs_0 _ _).trans hk
    | ⟨1, _⟩ => exact rhs_1 _ _)
  rw [el, er]

/-- The body's stored value, entry by entry: the bias plus the row-by-column sum, clipped below at zero. -/
theorem pay_apply (x0 : Vec Ideal S2000x512 .bf16) (x1 : Vec Ideal S512x512 .bf16) (x2 : Vec Ideal S2000x512 .bf16) (p : Fin 2000) (q : Fin 512) :
    k3_pay1 (F := Ideal) x0 x1 x2 (ix2 p q) = max (x2 (ix2 p q) + ∑ k : Fin 512, x0 (ix2 p k) * x1 (ix2 k q)) 0 := by
  unfold k3_pay1
  simp only [shapeCast_self]
  show max (x2 (ix2 p q) + matmul (F := Ideal) (φ₁ := .bf16) (φ₂ := .bf16) dot_S2000x512_S512x512_S2000x512_1_0_0_1_n_n none x0 x1 (constant S2000x512 .f32 0x00000000#32) (ix2 p q)) (Ideal.ofBits .f32 0x00000000#32) = _
  rw [mm_apply, Ideal.ofBits_zero_f32]

/-! ## The windows' blocks, read off the arrays -/

/-- The three input arrays and the blocks a grid point sees of them, at their literal types. -/
abbrev aArr (c : Dev nD) : Vec Ideal S50000x512 .bf16 := V c main_v118
abbrev wArr (c : Dev nD) : Vec Ideal S512x512 .bf16 := V c main_v5
abbrev bArr (c : Dev nD) : Vec Ideal S50000x512 .bf16 := V c main_v12
abbrev aBlk (c : Dev nD) (t : Fin cfg3.N) : Vec Ideal S2000x512 .bf16 := iblk3 V c 0 t
abbrev wBlk (c : Dev nD) (t : Fin cfg3.N) : Vec Ideal S512x512 .bf16 := iblk3 V c 1 t
abbrev bBlk (c : Dev nD) (t : Fin cfg3.N) : Vec Ideal S2000x512 .bf16 := iblk3 V c 2 t

/-- The index maps over the grid: the row-slab windows sit at slab `t`, the weight's window at its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row `y 0` of slab `t` of the neighbour sums is row `2000 t + y 0` of the array. -/
theorem aBlk_apply (c : Dev nD) (t : Fin cfg3.N) (y : S2000x512.Idx) (i : S50000x512.Idx)
    (h0 : (i 0).val = 2000 * t.val + (y 0).val) (h1 : (i 1).val = (y 1).val) : aBlk V c t y = aArr V c i := by
  obtain ⟨e0, e1, -⟩ := idx_facts t
  show aArr V c (((cfg3.win 0).blk t).view.emb y) = aArr V c i
  refine congrArg (aArr V c) (funext fun a => Fin.ext ?_)
  match a with
  | ⟨0, _⟩ => show win3_0.index t (0 : Fin 2) * 2000 + 1 * (y 0).val = (i 0).val; rw [e0, h0]; omega
  | ⟨1, _⟩ => show win3_0.index t (1 : Fin 2) * 512 + 1 * (y 1).val = (i 1).val; rw [e1, h1]; omega

/-- The weight's one block is the weight. -/
theorem wBlk_apply (c : Dev nD) (t : Fin cfg3.N) (y : S512x512.Idx) (i : S512x512.Idx)
    (h0 : (i 0).val = (y 0).val) (h1 : (i 1).val = (y 1).val) : wBlk V c t y = wArr V c i := by
  obtain ⟨-, -, e0, e1, -⟩ := idx_facts t
  show wArr V c (((cfg3.win 1).blk t).view.emb y) = wArr V c i
  refine congrArg (wArr V c) (funext fun a => Fin.ext ?_)
  match a with
  | ⟨0, _⟩ => show win3_1.index t (0 : Fin 2) * 512 + 1 * (y 0).val = (i 0).val; rw [e0, h0]; omega
  | ⟨1, _⟩ => show win3_1.index t (1 : Fin 2) * 512 + 1 * (y 1).val = (i 1).val; rw [e1, h1]; omega

/-- Row `y 0` of slab `t` of the bias is row `2000 t + y 0` of the array. -/
theorem bBlk_apply (c : Dev nD) (t : Fin cfg3.N) (y : S2000x512.Idx) (i : S50000x512.Idx)
    (h0 : (i 0).val = 2000 * t.val + (y 0).val) (h1 : (i 1).val = (y 1).val) : bBlk V c t y = bArr V c i := by
  obtain ⟨-, -, -, -, e0, e1, -⟩ := idx_facts t
  show bArr V c (((cfg3.win 2).blk t).view.emb y) = bArr V c i
  refine congrArg (bArr V c) (funext fun a => Fin.ext ?_)
  match a with
  | ⟨0, _⟩ => show win3_2.index t (0 : Fin 2) * 2000 + 1 * (y 0).val = (i 0).val; rw [e0, h0]; omega
  | ⟨1, _⟩ => show win3_2.index t (1 : Fin 2) * 512 + 1 * (y 1).val = (i 1).val; rw [e1, h1]; omega

/-! ## One grid point's block of the result -/

/-- What point `t` stores at `y` is the result's entry at row `2000 t + y 0`, column `y 1`. -/
theorem point_eq (c : Dev nD) (t : Fin cfg3.N) (y : S2000x512.Idx) (i : S50000x512.Idx)
    (h0 : (i 0).val = 2000 * t.val + (y 0).val) (h1 : (i 1).val = (y 1).val) :
    k3_pay1 (F := Ideal) (aBlk V c t) (wBlk V c t) (bBlk V c t) y = KTerm.R1 (aArr V c) (wArr V c) (bArr V c) i := by
  obtain ⟨p, q, rfl⟩ : ∃ (p : Fin 2000) (q : Fin 512), y = ix2 p q :=
    ⟨⟨(y 0).val, (y 0).isLt⟩, ⟨(y 1).val, (y 1).isLt⟩, funext fun a => by match a with | ⟨0, _⟩ => rfl | ⟨1, _⟩ => rfl⟩
  refine (pay_apply (aBlk V c t) (wBlk V c t) (bBlk V c t) p q).trans ?_
  show max (bBlk V c t (ix2 p q) + ∑ k : Fin 512, aBlk V c t (ix2 p k) * wBlk V c t (ix2 k q)) 0
    = max (bArr V c i + ∑ k : Fin 512, aArr V c (ix2 (⟨(i 0).val, (i 0).isLt⟩ : Fin 50000) k) * wArr V c (ix2 k (⟨(i 1).val, (i 1).isLt⟩ : Fin 512))) 0
  rw [bBlk_apply V c t (ix2 p q) i h0 h1]
  refine congrArg (fun s => max (bArr V c i + s) 0) (Finset.sum_congr rfl fun k _ => ?_)
  rw [aBlk_apply V c t (ix2 p k) (ix2 (⟨(i 0).val, (i 0).isLt⟩ : Fin 50000) k) h0 rfl,
    wBlk_apply V c t (ix2 k q) (ix2 k (⟨(i 1).val, (i 1).isLt⟩ : Fin 512)) rfl h1]

/-! ## From the blocks to the array -/

/-- What point `t` writes back is block `t` of the result. -/
theorem flushed_eq (c : Dev nD) (t : Fin cfg3.N) :
    (dat3 (F := Ideal) V c).flushed 3 t
      = ((cfg3.win 3).blk t).view.read (Elt Ideal) (KTerm.R1 (V c main_v118) (V c main_v5) (V c main_v12)) := by
  show (cfg3.win 3).cut (grid3.coords t) ((dat3 (F := Ideal) V c).after 3 t) = _
  rw [after3_3]
  unfold out3_3
  rw [View.canon_unit_zero hz]
  simp only [View.ld_unit_zero (S := S2000x512) hz, View.ld_unit_zero (S := S512x512) hz]
  obtain ⟨-, -, -, -, -, -, e0, e1⟩ := idx_facts t
  funext j
  refine point_eq V c t _ (((cfg3.win 3).blk t).view.emb j) ?_ ?_
  · show win3_3.index t (0 : Fin 2) * 2000 + 1 * (j 0).val = 2000 * t.val + (j 0).val
    rw [e0]; omega
  · show win3_3.index t (1 : Fin 2) * 512 + 1 * (j 1).val = (j 1).val
    rw [e1]; omega

/-- An index of the array is in point `t`'s block iff each coordinate is in the block's range on its axis. -/
theorem mem_blk (t : Fin cfg3.N) (i : S50000x512.Idx) :
    i ∈ ((cfg3.win 3).blk t).view.set ↔ ∀ a : Fin 2, win3_3.index t a * S2000x512.size a ≤ (i a).val ∧ (i a).val < win3_3.index t a * S2000x512.size a + S2000x512.size a := by
  show i ∈ ((View.whole main_v119).slice (win3_3.rect t)).set ↔ _
  rw [View.set_slice_whole, Rect.mem_set_unit]
  exact Iff.rfl

/-- Row `r` of the array is in the block of point `r / 2000`. -/
theorem cover (i : S50000x512.Idx) :
    ∃ t : Fin cfg3.N, (cfg3.win 3).flush t = true ∧ i ∈ ((cfg3.win 3).blk t).view.set := by
  have hi0 : (i 0).val < 50000 := (i 0).isLt
  have hi1 : (i 1).val < 512 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, e0, e1⟩ := idx_facts t
  refine ⟨t, flush3_3 t, ?_⟩
  rw [mem_blk]
  intro a
  match a with
  | ⟨0, _⟩ =>
    show win3_3.index t (0 : Fin 2) * 2000 ≤ (i 0).val ∧ (i 0).val < win3_3.index t (0 : Fin 2) * 2000 + 2000
    rw [e0, ht]; omega
  | ⟨1, _⟩ =>
    show win3_3.index t (1 : Fin 2) * 512 ≤ (i 1).val ∧ (i 1).val < win3_3.index t (1 : Fin 2) * 512 + 512
    rw [e1]; omega

/-- The output array after the region's run: the bias plus the row-by-column sums, clipped below at zero. -/
theorem region3_value (c : Dev nD) :
    (dat3 (F := Ideal) V c).arrAt 3 cfg3.N = KTerm.R1 (V c main_v118) (V c main_v5) (V c main_v12) :=
  (dat3 (F := Ideal) V c).arrAt_eq_of_cover 3 (KTerm.R1 (V c main_v118) (V c main_v5) (V c main_v12))
    (fun t _ => flushed_eq V c t) cover

end Cert.KernelIdeal.Region3

end
-- ==== Proof.Region4.lean ====
/-
  One of the kernel program's later grid launches, as a function of the arrays it finds: over a grid of 25 row
  slabs of 2000 rows, each point stores `relu (bias + a · w)` of its slab of the neighbour sums `a` [50000,512], the
  whole weight `w` [512,512] and its slab of the bias [50000,512]. Read entry by entry (the matrix product as the sum
  over the contracted axis, the casts between the two float widths the identity at the ideal instance), point `t`
  writes back rows `2000 t … 2000 t + 1999` of ONE whole-array function, `KTerm.R1` of the three input arrays; the 25
  slabs cover the rows, so the output array ends holding that function.
-/
import proofs.«415842_j44693429682679_3_alg».proof.Proof.Gen.KernelIdeal.Frame
import proofs.«415842_j44693429682679_3_alg».proof.Proof.KTerm
import Idealize.ShloMosaic.Lib.Pipeline.Value
import Idealize.ShloMosaic.Lib.ValueIdx
import Idealize.ShloMosaic.PureOps.Ideal.Laws

set_option maxRecDepth 16384

noncomputable section

namespace Cert.KernelIdeal.Region4

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of the body's whole-block accesses, however spelt. -/
theorem hz : (![0, 0] : Fin 2 → Nat) = fun _ => 0 := funext fun a => by fin_cases a <;> rfl

/-! ## The matrix product's operand indices -/

theorem lhs_0 (i : S2000x512.Idx) (q : dot_S2000x512_S512x512_S2000x512_1_0_0_1_n_n.contr.Idx) :
    (dot_S2000x512_S512x512_S2000x512_1_0_0_1_n_n.lhsIdx i q 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem lhs_1 (i : S2000x512.Idx) (q : dot_S2000x512_S512x512_S2000x512_1_0_0_1_n_n.contr.Idx) :
    (dot_S2000x512_S512x512_S2000x512_1_0_0_1_n_n.lhsIdx i q 1).val = (q ⟨0, by decide⟩).val :=
  dot_S2000x512_S512x512_S2000x512_1_0_0_1_n_n.lhsIdx_val_of_single rfl i q
theorem rhs_0 (i : S2000x512.Idx) (q : dot_S2000x512_S512x512_S2000x512_1_0_0_1_n_n.contr.Idx) :
    (dot_S2000x512_S512x512_S2000x512_1_0_0_1_n_n.rhsIdx i q 0).val = (q ⟨0, by decide⟩).val :=
  dot_S2000x512_S512x512_S2000x512_1_0_0_1_n_n.rhsIdx_val_of_single rfl i q
theorem rhs_1 (i : S2000x512.Idx) (q : dot_S2000x512_S512x512_S2000x512_1_0_0_1_n_n.contr.Idx) :
    (dot_S2000x512_S512x512_S2000x512_1_0_0_1_n_n.rhsIdx i q 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- Row `p` of the left operand meets column `q` of the right one along `k`. -/
theorem mm_apply (x0 : Vec Ideal S2000x512 .bf16) (x1 : Vec Ideal S512x512 .bf16) (p : Fin 2000) (q : Fin 512) :
    matmul (F := Ideal) (φ₁ := .bf16) (φ₂ := .bf16) dot_S2000x512_S512x512_S2000x512_1_0_0_1_n_n none x0 x1 (constant S2000x512 .f32 0x00000000#32) (ix2 p q)
      = ∑ k : Fin 512, x0 (ix2 p k) * x1 (ix2 k q) := by
  refine (Ideal.matmul_constant_zero_apply (φ₁ := .bf16) (φ₂ := .bf16) dot_S2000x512_S512x512_S2000x512_1_0_0_1_n_n none x0 x1 (ix2 p q)).trans ?_
  rw [← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx (ix2 p q) ((ValueIdx.contrEquiv1 dot_S2000x512_S512x512_S2000x512_1_0_0_1_n_n 512 rfl rfl).symm k) = ix2 p k := funext fun a => Fin.ext (by
    match a with
    | ⟨0, _⟩ => exact lhs_0 _ _
    | ⟨1, _⟩ => exact (lhs_1 _ _).trans hk)
  have er : dot_S2000x512_S512x512_S2000x512_1_0_0_1_n_n.rhsIdx (ix2 p q) ((ValueIdx.contrEquiv1 dot_S2000x512_S512x512_S2000x512_1_0_0_1_n_n 512 rfl rfl).symm k) = ix2 k q := funext fun a => Fin.ext (by
    match a with
    | ⟨0, _⟩ => exact (rhs_0 _ _).trans hk
    | ⟨1, _⟩ => exact rhs_1 _ _)
  rw [el, er]

/-- The body's stored value, entry by entry: the bias plus the row-by-column sum, clipped below at zero. -/
theorem pay_apply (x0 : Vec Ideal S2000x512 .bf16) (x1 : Vec Ideal S512x512 .bf16) (x2 : Vec Ideal S2000x512 .bf16) (p : Fin 2000) (q : Fin 512) :
    k4_pay1 (F := Ideal) x0 x1 x2 (ix2 p q) = max (x2 (ix2 p q) + ∑ k : Fin 512, x0 (ix2 p k) * x1 (ix2 k q)) 0 := by
  unfold k4_pay1
  simp only [shapeCast_self]
  show max (x2 (ix2 p q) + matmul (F := Ideal) (φ₁ := .bf16) (φ₂ := .bf16) dot_S2000x512_S512x512_S2000x512_1_0_0_1_n_n none x0 x1 (constant S2000x512 .f32 0x00000000#32) (ix2 p q)) (Ideal.ofBits .f32 0x00000000#32) = _
  rw [mm_apply, Ideal.ofBits_zero_f32]

/-! ## The windows' blocks, read off the arrays -/

/-- The three input arrays and the blocks a grid point sees of them, at their literal types. -/
abbrev aArr (c : Dev nD) : Vec Ideal S50000x512 .bf16 := V c main_v152
abbrev wArr (c : Dev nD) : Vec Ideal S512x512 .bf16 := V c main_v5
abbrev bArr (c : Dev nD) : Vec Ideal S50000x512 .bf16 := V c main_v12
abbrev aBlk (c : Dev nD) (t : Fin cfg4.N) : Vec Ideal S2000x512 .bf16 := iblk4 V c 0 t
abbrev wBlk (c : Dev nD) (t : Fin cfg4.N) : Vec Ideal S512x512 .bf16 := iblk4 V c 1 t
abbrev bBlk (c : Dev nD) (t : Fin cfg4.N) : Vec Ideal S2000x512 .bf16 := iblk4 V c 2 t

/-- The index maps over the grid: the row-slab windows sit at slab `t`, the weight's window at its one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Row `y 0` of slab `t` of the neighbour sums is row `2000 t + y 0` of the array. -/
theorem aBlk_apply (c : Dev nD) (t : Fin cfg4.N) (y : S2000x512.Idx) (i : S50000x512.Idx)
    (h0 : (i 0).val = 2000 * t.val + (y 0).val) (h1 : (i 1).val = (y 1).val) : aBlk V c t y = aArr V c i := by
  obtain ⟨e0, e1, -⟩ := idx_facts t
  show aArr V c (((cfg4.win 0).blk t).view.emb y) = aArr V c i
  refine congrArg (aArr V c) (funext fun a => Fin.ext ?_)
  match a with
  | ⟨0, _⟩ => show win4_0.index t (0 : Fin 2) * 2000 + 1 * (y 0).val = (i 0).val; rw [e0, h0]; omega
  | ⟨1, _⟩ => show win4_0.index t (1 : Fin 2) * 512 + 1 * (y 1).val = (i 1).val; rw [e1, h1]; omega

/-- The weight's one block is the weight. -/
theorem wBlk_apply (c : Dev nD) (t : Fin cfg4.N) (y : S512x512.Idx) (i : S512x512.Idx)
    (h0 : (i 0).val = (y 0).val) (h1 : (i 1).val = (y 1).val) : wBlk V c t y = wArr V c i := by
  obtain ⟨-, -, e0, e1, -⟩ := idx_facts t
  show wArr V c (((cfg4.win 1).blk t).view.emb y) = wArr V c i
  refine congrArg (wArr V c) (funext fun a => Fin.ext ?_)
  match a with
  | ⟨0, _⟩ => show win4_1.index t (0 : Fin 2) * 512 + 1 * (y 0).val = (i 0).val; rw [e0, h0]; omega
  | ⟨1, _⟩ => show win4_1.index t (1 : Fin 2) * 512 + 1 * (y 1).val = (i 1).val; rw [e1, h1]; omega

/-- Row `y 0` of slab `t` of the bias is row `2000 t + y 0` of the array. -/
theorem bBlk_apply (c : Dev nD) (t : Fin cfg4.N) (y : S2000x512.Idx) (i : S50000x512.Idx)
    (h0 : (i 0).val = 2000 * t.val + (y 0).val) (h1 : (i 1).val = (y 1).val) : bBlk V c t y = bArr V c i := by
  obtain ⟨-, -, -, -, e0, e1, -⟩ := idx_facts t
  show bArr V c (((cfg4.win 2).blk t).view.emb y) = bArr V c i
  refine congrArg (bArr V c) (funext fun a => Fin.ext ?_)
  match a with
  | ⟨0, _⟩ => show win4_2.index t (0 : Fin 2) * 2000 + 1 * (y 0).val = (i 0).val; rw [e0, h0]; omega
  | ⟨1, _⟩ => show win4_2.index t (1 : Fin 2) * 512 + 1 * (y 1).val = (i 1).val; rw [e1, h1]; omega

/-! ## One grid point's block of the result -/

/-- What point `t` stores at `y` is the result's entry at row `2000 t + y 0`, column `y 1`. -/
theorem point_eq (c : Dev nD) (t : Fin cfg4.N) (y : S2000x512.Idx) (i : S50000x512.Idx)
    (h0 : (i 0).val = 2000 * t.val + (y 0).val) (h1 : (i 1).val = (y 1).val) :
    k4_pay1 (F := Ideal) (aBlk V c t) (wBlk V c t) (bBlk V c t) y = KTerm.R1 (aArr V c) (wArr V c) (bArr V c) i := by
  obtain ⟨p, q, rfl⟩ : ∃ (p : Fin 2000) (q : Fin 512), y = ix2 p q :=
    ⟨⟨(y 0).val, (y 0).isLt⟩, ⟨(y 1).val, (y 1).isLt⟩, funext fun a => by match a with | ⟨0, _⟩ => rfl | ⟨1, _⟩ => rfl⟩
  refine (pay_apply (aBlk V c t) (wBlk V c t) (bBlk V c t) p q).trans ?_
  show max (bBlk V c t (ix2 p q) + ∑ k : Fin 512, aBlk V c t (ix2 p k) * wBlk V c t (ix2 k q)) 0
    = max (bArr V c i + ∑ k : Fin 512, aArr V c (ix2 (⟨(i 0).val, (i 0).isLt⟩ : Fin 50000) k) * wArr V c (ix2 k (⟨(i 1).val, (i 1).isLt⟩ : Fin 512))) 0
  rw [bBlk_apply V c t (ix2 p q) i h0 h1]
  refine congrArg (fun s => max (bArr V c i + s) 0) (Finset.sum_congr rfl fun k _ => ?_)
  rw [aBlk_apply V c t (ix2 p k) (ix2 (⟨(i 0).val, (i 0).isLt⟩ : Fin 50000) k) h0 rfl,
    wBlk_apply V c t (ix2 k q) (ix2 k (⟨(i 1).val, (i 1).isLt⟩ : Fin 512)) rfl h1]

/-! ## From the blocks to the array -/

/-- What point `t` writes back is block `t` of the result. -/
theorem flushed_eq (c : Dev nD) (t : Fin cfg4.N) :
    (dat4 (F := Ideal) V c).flushed 3 t
      = ((cfg4.win 3).blk t).view.read (Elt Ideal) (KTerm.R1 (V c main_v152) (V c main_v5) (V c main_v12)) := by
  show (cfg4.win 3).cut (grid4.coords t) ((dat4 (F := Ideal) V c).after 3 t) = _
  rw [after4_3]
  unfold out4_3
  rw [View.canon_unit_zero hz]
  simp only [View.ld_unit_zero (S := S2000x512) hz, View.ld_unit_zero (S := S512x512) hz]
  obtain ⟨-, -, -, -, -, -, e0, e1⟩ := idx_facts t
  funext j
  refine point_eq V c t _ (((cfg4.win 3).blk t).view.emb j) ?_ ?_
  · show win4_3.index t (0 : Fin 2) * 2000 + 1 * (j 0).val = 2000 * t.val + (j 0).val
    rw [e0]; omega
  · show win4_3.index t (1 : Fin 2) * 512 + 1 * (j 1).val = (j 1).val
    rw [e1]; omega

/-- An index of the array is in point `t`'s block iff each coordinate is in the block's range on its axis. -/
theorem mem_blk (t : Fin cfg4.N) (i : S50000x512.Idx) :
    i ∈ ((cfg4.win 3).blk t).view.set ↔ ∀ a : Fin 2, win4_3.index t a * S2000x512.size a ≤ (i a).val ∧ (i a).val < win4_3.index t a * S2000x512.size a + S2000x512.size a := by
  show i ∈ ((View.whole main_v153).slice (win4_3.rect t)).set ↔ _
  rw [View.set_slice_whole, Rect.mem_set_unit]
  exact Iff.rfl

/-- Row `r` of the array is in the block of point `r / 2000`. -/
theorem cover (i : S50000x512.Idx) :
    ∃ t : Fin cfg4.N, (cfg4.win 3).flush t = true ∧ i ∈ ((cfg4.win 3).blk t).view.set := by
  have hi0 : (i 0).val < 50000 := (i 0).isLt
  have hi1 : (i 1).val < 512 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, -, -, e0, e1⟩ := idx_facts t
  refine ⟨t, flush4_3 t, ?_⟩
  rw [mem_blk]
  intro a
  match a with
  | ⟨0, _⟩ =>
    show win4_3.index t (0 : Fin 2) * 2000 ≤ (i 0).val ∧ (i 0).val < win4_3.index t (0 : Fin 2) * 2000 + 2000
    rw [e0, ht]; omega
  | ⟨1, _⟩ =>
    show win4_3.index t (1 : Fin 2) * 512 ≤ (i 1).val ∧ (i 1).val < win4_3.index t (1 : Fin 2) * 512 + 512
    rw [e1]; omega

/-- The output array after the region's run: the bias plus the row-by-column sums, clipped below at zero. -/
theorem region4_value (c : Dev nD) :
    (dat4 (F := Ideal) V c).arrAt 3 cfg4.N = KTerm.R1 (V c main_v152) (V c main_v5) (V c main_v12) :=
  (dat4 (F := Ideal) V c).arrAt_eq_of_cover 3 (KTerm.R1 (V c main_v152) (V c main_v5) (V c main_v12))
    (fun t _ => flushed_eq V c t) cover

end Cert.KernelIdeal.Region4

end
-- ==== Proof.KHead1.lean ====
/-
  The buffer contents the kernel program holds after its first four stretches of host operations, read back to what
  the first pallas_call left.

  Between the first pallas_call's exit and the first neighbour gather the program runs four stretches: the gather of
  every atom's six bonds' feature rows; the bias chain (the six rows added, taken through the bond-feature weight,
  added to the first layer's output and rounded) together with the bond-to-source table with the padding bond's
  entry prepended; the composed index (the source table gathered at the atoms' bonds); and the tables the layers
  read (the first layer's output rounded, the zero row, the two stacked, the zeros the row sum starts from, and
  column 0 of the composed index). Each stretch writes only its own result buffers, so a buffer is read through a
  stretch either as the stretch's function of the contents before it, or unchanged. Every fact is first stated for
  one stretch at arbitrary contents, then instantiated at the boundaries and chained.
-/
import proofs.«415842_j44693429682679_3_alg».proof.Proof.Gen.KernelIdeal.Frame
import proofs.«415842_j44693429682679_3_alg».proof.Proof.KTerm
import Idealize.ShloMosaic.Lib.StableHlo.Run

set_option maxRecDepth 16384

noncomputable section

namespace Cert.KernelIdeal.KHead1

open Cert.KernelIdeal Idealize.ShloMosaic Idealize.ShloMosaic.TcCoe Idealize.ShloMosaic.StableHlo Idealize.SL.Sem
open Cert.KernelIdeal.Gen (W2 W3 W4 W5 W6 hostOps1 hostOps1_1 hostOps1_2 hostOps1_3)
open Facts₀ Facts

variable (m : (ℓ : Loc nD τ sig) → Buf (Elt Ideal) ℓ) (ρ : Dev nD → PrngReg)

/-! ## One stretch at arbitrary contents -/

section Stretch

variable (V : Valuation τ sig (Elt Ideal))

/-! ### The gather of the bonds' feature rows -/

theorem s1_v7 : StableHlo.after (hostOps1 (F := Ideal)) V (Proc.devRef .tc main_v7)
    = Host.gather gather_S120000x11_S50000x6x1_S50000x6x11_2_0_n_n_0_2_111 (V (Proc.devRef .tc main_arg1))
        (broadcastInDim S50000x6x1 ![0, 1] bcast_S50000x6_S50000x6x1_0_1 (V (Proc.devRef .tc main_arg4))) := by
  after_results; try rfl
theorem s1_arg4 : StableHlo.after (hostOps1 (F := Ideal)) V (Proc.devRef .tc main_arg4) = V (Proc.devRef .tc main_arg4) := by
  after_results; try rfl
theorem s1_arg5 : StableHlo.after (hostOps1 (F := Ideal)) V (Proc.devRef .tc main_arg5) = V (Proc.devRef .tc main_arg5) := by
  after_results; try rfl
theorem s1_v3 : StableHlo.after (hostOps1 (F := Ideal)) V (Proc.devRef .tc main_v3) = V (Proc.devRef .tc main_v3) := by
  after_results; try rfl
theorem s1_v5 : StableHlo.after (hostOps1 (F := Ideal)) V (Proc.devRef .tc main_v5) = V (Proc.devRef .tc main_v5) := by
  after_results; try rfl
theorem s1_v6 : StableHlo.after (hostOps1 (F := Ideal)) V (Proc.devRef .tc main_v6) = V (Proc.devRef .tc main_v6) := by
  after_results; try rfl

/-! ### The bias chain and the source table -/

theorem s2_v12 : StableHlo.after (hostOps1_1 (F := Ideal)) V (Proc.devRef .tc main_v12)
    = truncf (F := Ideal) .bf16 (addf (V (Proc.devRef .tc main_v6))
        (Host.dotGeneral (F := Ideal) (φ₁ := .f32) (φ₂ := .f32) dot_S50000x11_S11x512_S50000x512_1_0_0_1_n_n none
          (Host.reduceAdd (V (Proc.devRef .tc main_v7)) (constant (F := Ideal) S_ .f32 0x00000000#32)
            reducesTo_S50000x6x11_S50000x11_d1 h_S_)
          (transpose S11x512 [1, 0] (V (Proc.devRef .tc main_v3)) transposes_S512x11_S11x512_1_0))) bitsLt_bf16_f32 := by
  after_results; try rfl
theorem s2_v14 : StableHlo.after (hostOps1_1 (F := Ideal)) V (Proc.devRef .tc main_v14)
    = KTerm.srcIx (V (Proc.devRef .tc main_arg5)) := by
  after_results; try rfl
theorem s2_arg4 : StableHlo.after (hostOps1_1 (F := Ideal)) V (Proc.devRef .tc main_arg4) = V (Proc.devRef .tc main_arg4) := by
  after_results; try rfl
theorem s2_v5 : StableHlo.after (hostOps1_1 (F := Ideal)) V (Proc.devRef .tc main_v5) = V (Proc.devRef .tc main_v5) := by
  after_results; try rfl
theorem s2_v6 : StableHlo.after (hostOps1_1 (F := Ideal)) V (Proc.devRef .tc main_v6) = V (Proc.devRef .tc main_v6) := by
  after_results; try rfl

/-! ### The composed index -/

theorem s3_v15 : StableHlo.after (hostOps1_2 (F := Ideal)) V (Proc.devRef .tc main_v15)
    = Host.gather gather_S120000_S50000x6x1_S50000x6_n_0_n_n_0_2_1 (V (Proc.devRef .tc main_v14))
        (broadcastInDim S50000x6x1 ![0, 1] bcast_S50000x6_S50000x6x1_0_1 (V (Proc.devRef .tc main_arg4))) := by
  after_results; try rfl
theorem s3_v12 : StableHlo.after (hostOps1_2 (F := Ideal)) V (Proc.devRef .tc main_v12) = V (Proc.devRef .tc main_v12) := by
  after_results; try rfl
theorem s3_v5 : StableHlo.after (hostOps1_2 (F := Ideal)) V (Proc.devRef .tc main_v5) = V (Proc.devRef .tc main_v5) := by
  after_results; try rfl
theorem s3_v6 : StableHlo.after (hostOps1_2 (F := Ideal)) V (Proc.devRef .tc main_v6) = V (Proc.devRef .tc main_v6) := by
  after_results; try rfl

/-! ### The tables the layers read -/

theorem s4_v18 : StableHlo.after (hostOps1_3 (F := Ideal)) V (Proc.devRef .tc main_v18)
    = KTerm.padded (truncf (F := Ideal) .bf16 (V (Proc.devRef .tc main_v6)) bitsLt_bf16_f32) KTerm.zeroRow := by
  after_results; try rfl
theorem s4_v19 : StableHlo.after (hostOps1_3 (F := Ideal)) V (Proc.devRef .tc main_v19)
    = broadcastInDim S50000x512 ![] bcast_S_S50000x512 (constant (F := Ideal) S_ .f32 0x00000000#32) := by
  after_results; try rfl
theorem s4_v21 : StableHlo.after (hostOps1_3 (F := Ideal)) V (Proc.devRef .tc main_v21)
    = shapeCast S50000 (extractStridedSlice S50000x1 ![0, 0] (V (Proc.devRef .tc main_v15)) slices_S50000x6_S50000x1_0_0)
        shapeCasts_S50000x1_S50000 := by
  after_results; try rfl
theorem s4_v17 : StableHlo.after (hostOps1_3 (F := Ideal)) V (Proc.devRef .tc main_v17) = KTerm.zeroRow := by
  after_results; try rfl
theorem s4_v15 : StableHlo.after (hostOps1_3 (F := Ideal)) V (Proc.devRef .tc main_v15) = V (Proc.devRef .tc main_v15) := by
  after_results; try rfl
theorem s4_v12 : StableHlo.after (hostOps1_3 (F := Ideal)) V (Proc.devRef .tc main_v12) = V (Proc.devRef .tc main_v12) := by
  after_results; try rfl
theorem s4_v5 : StableHlo.after (hostOps1_3 (F := Ideal)) V (Proc.devRef .tc main_v5) = V (Proc.devRef .tc main_v5) := by
  after_results; try rfl

end Stretch

/-! ## The boundaries, each read back to the first pallas_call's exit -/

variable (c : Dev nD)

/-! ### After the gather of the bonds' feature rows -/

theorem w3_v7 : W3 (F := Ideal) m ρ c (Proc.devRef .tc main_v7)
    = Host.gather gather_S120000x11_S50000x6x1_S50000x6x11_2_0_n_n_0_2_111 (W2 m ρ c (Proc.devRef .tc main_arg1))
        (broadcastInDim S50000x6x1 ![0, 1] bcast_S50000x6_S50000x6x1_0_1 (W2 m ρ c (Proc.devRef .tc main_arg4))) :=
  s1_v7 (W2 m ρ c)
theorem w3_arg4 : W3 (F := Ideal) m ρ c (Proc.devRef .tc main_arg4) = W2 m ρ c (Proc.devRef .tc main_arg4) := s1_arg4 (W2 m ρ c)
theorem w3_arg5 : W3 (F := Ideal) m ρ c (Proc.devRef .tc main_arg5) = W2 m ρ c (Proc.devRef .tc main_arg5) := s1_arg5 (W2 m ρ c)
theorem w3_v3 : W3 (F := Ideal) m ρ c (Proc.devRef .tc main_v3) = W2 m ρ c (Proc.devRef .tc main_v3) := s1_v3 (W2 m ρ c)
theorem w3_v5 : W3 (F := Ideal) m ρ c (Proc.devRef .tc main_v5) = W2 m ρ c (Proc.devRef .tc main_v5) := s1_v5 (W2 m ρ c)
theorem w3_v6 : W3 (F := Ideal) m ρ c (Proc.devRef .tc main_v6) = W2 m ρ c (Proc.devRef .tc main_v6) := s1_v6 (W2 m ρ c)

/-! ### After the bias chain and the source table -/

theorem w4_v12 : W4 (F := Ideal) m ρ c (Proc.devRef .tc main_v12)
    = truncf (F := Ideal) .bf16 (addf (W2 m ρ c (Proc.devRef .tc main_v6))
        (Host.dotGeneral (F := Ideal) (φ₁ := .f32) (φ₂ := .f32) dot_S50000x11_S11x512_S50000x512_1_0_0_1_n_n none
          (KTerm.neiB (W2 m ρ c (Proc.devRef .tc main_arg1)) (W2 m ρ c (Proc.devRef .tc main_arg4)))
          (transpose S11x512 [1, 0] (W2 m ρ c (Proc.devRef .tc main_v3)) transposes_S512x11_S11x512_1_0))) bitsLt_bf16_f32 := by
  have h := s2_v12 (W3 (F := Ideal) m ρ c)
  rw [w3_v6 m ρ c, w3_v7 m ρ c, w3_v3 m ρ c] at h
  exact h
theorem w4_v14 : W4 (F := Ideal) m ρ c (Proc.devRef .tc main_v14) = KTerm.srcIx (W2 m ρ c (Proc.devRef .tc main_arg5)) := by
  have h := s2_v14 (W3 (F := Ideal) m ρ c)
  rw [w3_arg5 m ρ c] at h
  exact h
theorem w4_arg4 : W4 (F := Ideal) m ρ c (Proc.devRef .tc main_arg4) = W2 m ρ c (Proc.devRef .tc main_arg4) :=
  (s2_arg4 (W3 m ρ c)).trans (w3_arg4 m ρ c)
theorem w4_v5 : W4 (F := Ideal) m ρ c (Proc.devRef .tc main_v5) = W2 m ρ c (Proc.devRef .tc main_v5) :=
  (s2_v5 (W3 m ρ c)).trans (w3_v5 m ρ c)
theorem w4_v6 : W4 (F := Ideal) m ρ c (Proc.devRef .tc main_v6) = W2 m ρ c (Proc.devRef .tc main_v6) :=
  (s2_v6 (W3 m ρ c)).trans (w3_v6 m ρ c)

/-! ### After the composed index -/

theorem w5_v15 : W5 (F := Ideal) m ρ c (Proc.devRef .tc main_v15)
    = KTerm.flatIx (W2 m ρ c (Proc.devRef .tc main_arg4)) (W2 m ρ c (Proc.devRef .tc main_arg5)) := by
  have h := s3_v15 (W4 (F := Ideal) m ρ c)
  rw [w4_v14 m ρ c, w4_arg4 m ρ c] at h
  exact h
theorem w5_v12 : W5 (F := Ideal) m ρ c (Proc.devRef .tc main_v12)
    = truncf (F := Ideal) .bf16 (addf (W2 m ρ c (Proc.devRef .tc main_v6))
        (Host.dotGeneral (F := Ideal) (φ₁ := .f32) (φ₂ := .f32) dot_S50000x11_S11x512_S50000x512_1_0_0_1_n_n none
          (KTerm.neiB (W2 m ρ c (Proc.devRef .tc main_arg1)) (W2 m ρ c (Proc.devRef .tc main_arg4)))
          (transpose S11x512 [1, 0] (W2 m ρ c (Proc.devRef .tc main_v3)) transposes_S512x11_S11x512_1_0))) bitsLt_bf16_f32 :=
  (s3_v12 (W4 m ρ c)).trans (w4_v12 m ρ c)
theorem w5_v5 : W5 (F := Ideal) m ρ c (Proc.devRef .tc main_v5) = W2 m ρ c (Proc.devRef .tc main_v5) :=
  (s3_v5 (W4 m ρ c)).trans (w4_v5 m ρ c)
theorem w5_v6 : W5 (F := Ideal) m ρ c (Proc.devRef .tc main_v6) = W2 m ρ c (Proc.devRef .tc main_v6) :=
  (s3_v6 (W4 m ρ c)).trans (w4_v6 m ρ c)

/-! ### After the tables the layers read -/

/-- The padded table: the first layer's output rounded, with the zero row appended. -/
theorem w6_v18 : W6 (F := Ideal) m ρ c (Proc.devRef .tc main_v18)
    = KTerm.padded (truncf (F := Ideal) .bf16 (W2 m ρ c (Proc.devRef .tc main_v6)) bitsLt_bf16_f32) KTerm.zeroRow := by
  have h := s4_v18 (W5 (F := Ideal) m ρ c)
  rw [w5_v6 m ρ c] at h
  exact h
/-- The zeros the neighbour-row sum starts from. -/
theorem w6_v19 : W6 (F := Ideal) m ρ c (Proc.devRef .tc main_v19)
    = broadcastInDim S50000x512 ![] bcast_S_S50000x512 (constant (F := Ideal) S_ .f32 0x00000000#32) :=
  s4_v19 (W5 m ρ c)
/-- The composed index. -/
theorem w6_v15 : W6 (F := Ideal) m ρ c (Proc.devRef .tc main_v15)
    = KTerm.flatIx (W2 m ρ c (Proc.devRef .tc main_arg4)) (W2 m ρ c (Proc.devRef .tc main_arg5)) :=
  (s4_v15 (W5 m ρ c)).trans (w5_v15 m ρ c)
/-- Column 0 of the composed index, as a vector. -/
theorem w6_v21 : W6 (F := Ideal) m ρ c (Proc.devRef .tc main_v21)
    = shapeCast S50000 (extractStridedSlice S50000x1 ![0, 0]
        (KTerm.flatIx (W2 m ρ c (Proc.devRef .tc main_arg4)) (W2 m ρ c (Proc.devRef .tc main_arg5))) slices_S50000x6_S50000x1_0_0)
        shapeCasts_S50000x1_S50000 := by
  have h := s4_v21 (W5 (F := Ideal) m ρ c)
  rw [w5_v15 m ρ c] at h
  exact h
/-- The zero row. -/
theorem w6_v17 : W6 (F := Ideal) m ρ c (Proc.devRef .tc main_v17) = KTerm.zeroRow :=
  s4_v17 (W5 m ρ c)
/-- The layer-invariant bias. -/
theorem w6_v12 : W6 (F := Ideal) m ρ c (Proc.devRef .tc main_v12)
    = truncf (F := Ideal) .bf16 (addf (W2 m ρ c (Proc.devRef .tc main_v6))
        (Host.dotGeneral (F := Ideal) (φ₁ := .f32) (φ₂ := .f32) dot_S50000x11_S11x512_S50000x512_1_0_0_1_n_n none
          (KTerm.neiB (W2 m ρ c (Proc.devRef .tc main_arg1)) (W2 m ρ c (Proc.devRef .tc main_arg4)))
          (transpose S11x512 [1, 0] (W2 m ρ c (Proc.devRef .tc main_v3)) transposes_S512x11_S11x512_1_0))) bitsLt_bf16_f32 :=
  (s4_v12 (W5 m ρ c)).trans (w5_v12 m ρ c)
/-- The hidden-to-hidden weight, untouched since the first stretch. -/
theorem w6_v5 : W6 (F := Ideal) m ρ c (Proc.devRef .tc main_v5) = W2 m ρ c (Proc.devRef .tc main_v5) :=
  (s4_v5 (W5 m ρ c)).trans (w5_v5 m ρ c)

end Cert.KernelIdeal.KHead1

end
-- ==== Proof.KHead2.lean ====
/-
  The start of one layer's host work, after the previous pallas_call: the hidden table gets its zero row appended,
  the running sum starts at zero, and column 0 of the composed index is cut out. Together with the six column steps
  this is the layer's neighbour sum as one function of what the previous pallas_call left.
-/
import proofs.«415842_j44693429682679_3_alg».proof.Proof.Gen.KernelIdeal.Frame
import proofs.«415842_j44693429682679_3_alg».proof.Proof.KTerm
import Idealize.ShloMosaic.Lib.StableHlo.Run

set_option maxRecDepth 16384

noncomputable section

namespace Cert.KernelIdeal.KHead2

open Cert.KernelIdeal Cert.KernelIdeal.Gen
open Idealize.ShloMosaic Idealize.ShloMosaic.TcCoe Idealize.SL.Sem Idealize.ShloMosaic.StableHlo

section Steps
variable (V : Valuation τ sig (Elt Ideal))

/-- Before the columns: the padded table, the zeros, column 0's index; the composed index stays. -/
theorem g0_P : after (hostOps2 (F := Ideal)) V (Proc.devRef .tc main_v52)
    = KTerm.padded (V (Proc.devRef .tc main_v51)) (V (Proc.devRef .tc main_v17)) := by
  after_results; try rfl
theorem g0_z : after (hostOps2 (F := Ideal)) V (Proc.devRef .tc main_v53)
    = broadcastInDim S50000x512 ![] bcast_S_S50000x512 (constant (F := Ideal) S_ .f32 0x00000000#32) := by
  after_results; try rfl
theorem g0_ix : after (hostOps2 (F := Ideal)) V (Proc.devRef .tc main_v55)
    = shapeCast S50000 (extractStridedSlice S50000x1 ![0, 0] (V (Proc.devRef .tc main_v15)) slices_S50000x6_S50000x1_0_0) shapeCasts_S50000x1_S50000 := by
  after_results; try rfl
theorem g0_fl : after (hostOps2 (F := Ideal)) V (Proc.devRef .tc main_v15) = V (Proc.devRef .tc main_v15) := by
  after_results; try rfl

end Steps

variable (m : (ℓ : Loc nD τ sig) → Buf (Elt Ideal) ℓ) (ρ : Dev nD → PrngReg)

/-- Every buffer this first stretch writes. -/
abbrev written : List (Ref sig .tc) := [main_v52, main_cst_2, main_v53, main_v54, main_v55]

/-- A stretch writes only buffers of that list: each operation's result buffer is found in it. -/
macro "writes_in_list" l:ident : tactic =>
  `(tactic| (simp only [$l:ident, List.Forall, StableHlo.nullary_writes, StableHlo.unary_writes, StableHlo.binary_writes, StableHlo.reshape_writes]
             repeat' apply And.intro
             all_goals exact Finset.singleton_subset_iff.mpr (List.mem_toFinset.mpr (List.mem_map.mpr ⟨_, by decide, rfl⟩))))

theorem wr0 : (hostOps2 : List (HloOp τ sig (Elt Ideal))).Forall fun op => op.writes ⊆ (written.map (Proc.devRef (τ := τ) .tc)).toFinset := by
  writes_in_list hostOps2

/-- After the first stretch: the padded table, the zeros, column 0's index, the composed index. -/
theorem at_P (c : Dev nD) : W20 (F := Ideal) m ρ c (Proc.devRef .tc main_v52)
    = KTerm.padded (W19 m ρ c (Proc.devRef .tc main_v51)) (W19 m ρ c (Proc.devRef .tc main_v17)) := g0_P (W19 m ρ c)
theorem at_z (c : Dev nD) : W20 (F := Ideal) m ρ c (Proc.devRef .tc main_v53)
    = broadcastInDim S50000x512 ![] bcast_S_S50000x512 (constant (F := Ideal) S_ .f32 0x00000000#32) := g0_z (W19 m ρ c)
theorem at_ix (c : Dev nD) : W20 (F := Ideal) m ρ c (Proc.devRef .tc main_v55)
    = shapeCast S50000 (extractStridedSlice S50000x1 ![0, 0] (W19 m ρ c (Proc.devRef .tc main_v15)) slices_S50000x6_S50000x1_0_0) shapeCasts_S50000x1_S50000 :=
  g0_ix (W19 m ρ c)
theorem at_fl (c : Dev nD) : W20 (F := Ideal) m ρ c (Proc.devRef .tc main_v15) = W19 m ρ c (Proc.devRef .tc main_v15) := g0_fl (W19 m ρ c)

/-- A buffer the first stretch does not write stays as the previous pallas_call left it. -/
theorem keep (b : Ref sig .tc) (hb : b ∉ written) (c : Dev nD) :
    W20 (F := Ideal) m ρ c (Proc.devRef .tc b) = W19 m ρ c (Proc.devRef .tc b) :=
  after_of_writes_sub hostOps2 (W19 m ρ c) wr0 hb

end Cert.KernelIdeal.KHead2

end
-- ==== Proof.KHead3.lean ====
/-
  The start of one layer's host work, after the previous pallas_call: the hidden table gets its zero row appended,
  the running sum starts at zero, and column 0 of the composed index is cut out. Together with the six column steps
  this is the layer's neighbour sum as one function of what the previous pallas_call left.
-/
import proofs.«415842_j44693429682679_3_alg».proof.Proof.Gen.KernelIdeal.Frame
import proofs.«415842_j44693429682679_3_alg».proof.Proof.KTerm
import Idealize.ShloMosaic.Lib.StableHlo.Run

set_option maxRecDepth 16384

noncomputable section

namespace Cert.KernelIdeal.KHead3

open Cert.KernelIdeal Cert.KernelIdeal.Gen
open Idealize.ShloMosaic Idealize.ShloMosaic.TcCoe Idealize.SL.Sem Idealize.ShloMosaic.StableHlo

section Steps
variable (V : Valuation τ sig (Elt Ideal))

/-- Before the columns: the padded table, the zeros, column 0's index; the composed index stays. -/
theorem g0_P : after (hostOps3 (F := Ideal)) V (Proc.devRef .tc main_v86)
    = KTerm.padded (V (Proc.devRef .tc main_v85)) (V (Proc.devRef .tc main_v17)) := by
  after_results; try rfl
theorem g0_z : after (hostOps3 (F := Ideal)) V (Proc.devRef .tc main_v87)
    = broadcastInDim S50000x512 ![] bcast_S_S50000x512 (constant (F := Ideal) S_ .f32 0x00000000#32) := by
  after_results; try rfl
theorem g0_ix : after (hostOps3 (F := Ideal)) V (Proc.devRef .tc main_v89)
    = shapeCast S50000 (extractStridedSlice S50000x1 ![0, 0] (V (Proc.devRef .tc main_v15)) slices_S50000x6_S50000x1_0_0) shapeCasts_S50000x1_S50000 := by
  after_results; try rfl
theorem g0_fl : after (hostOps3 (F := Ideal)) V (Proc.devRef .tc main_v15) = V (Proc.devRef .tc main_v15) := by
  after_results; try rfl

end Steps

variable (m : (ℓ : Loc nD τ sig) → Buf (Elt Ideal) ℓ) (ρ : Dev nD → PrngReg)

/-- Every buffer this first stretch writes. -/
abbrev written : List (Ref sig .tc) := [main_v86, main_cst_3, main_v87, main_v88, main_v89]

/-- A stretch writes only buffers of that list: each operation's result buffer is found in it. -/
macro "writes_in_list" l:ident : tactic =>
  `(tactic| (simp only [$l:ident, List.Forall, StableHlo.nullary_writes, StableHlo.unary_writes, StableHlo.binary_writes, StableHlo.reshape_writes]
             repeat' apply And.intro
             all_goals exact Finset.singleton_subset_iff.mpr (List.mem_toFinset.mpr (List.mem_map.mpr ⟨_, by decide, rfl⟩))))

theorem wr0 : (hostOps3 : List (HloOp τ sig (Elt Ideal))).Forall fun op => op.writes ⊆ (written.map (Proc.devRef (τ := τ) .tc)).toFinset := by
  writes_in_list hostOps3

/-- After the first stretch: the padded table, the zeros, column 0's index, the composed index. -/
theorem at_P (c : Dev nD) : W34 (F := Ideal) m ρ c (Proc.devRef .tc main_v86)
    = KTerm.padded (W33 m ρ c (Proc.devRef .tc main_v85)) (W33 m ρ c (Proc.devRef .tc main_v17)) := g0_P (W33 m ρ c)
theorem at_z (c : Dev nD) : W34 (F := Ideal) m ρ c (Proc.devRef .tc main_v87)
    = broadcastInDim S50000x512 ![] bcast_S_S50000x512 (constant (F := Ideal) S_ .f32 0x00000000#32) := g0_z (W33 m ρ c)
theorem at_ix (c : Dev nD) : W34 (F := Ideal) m ρ c (Proc.devRef .tc main_v89)
    = shapeCast S50000 (extractStridedSlice S50000x1 ![0, 0] (W33 m ρ c (Proc.devRef .tc main_v15)) slices_S50000x6_S50000x1_0_0) shapeCasts_S50000x1_S50000 :=
  g0_ix (W33 m ρ c)
theorem at_fl (c : Dev nD) : W34 (F := Ideal) m ρ c (Proc.devRef .tc main_v15) = W33 m ρ c (Proc.devRef .tc main_v15) := g0_fl (W33 m ρ c)

/-- A buffer the first stretch does not write stays as the previous pallas_call left it. -/
theorem keep (b : Ref sig .tc) (hb : b ∉ written) (c : Dev nD) :
    W34 (F := Ideal) m ρ c (Proc.devRef .tc b) = W33 m ρ c (Proc.devRef .tc b) :=
  after_of_writes_sub hostOps3 (W33 m ρ c) wr0 hb

end Cert.KernelIdeal.KHead3

end
-- ==== Proof.KHead4.lean ====
/-
  The start of one layer's host work, after the previous pallas_call: the hidden table gets its zero row appended,
  the running sum starts at zero, and column 0 of the composed index is cut out. Together with the six column steps
  this is the layer's neighbour sum as one function of what the previous pallas_call left.
-/
import proofs.«415842_j44693429682679_3_alg».proof.Proof.Gen.KernelIdeal.Frame
import proofs.«415842_j44693429682679_3_alg».proof.Proof.KTerm
import Idealize.ShloMosaic.Lib.StableHlo.Run

set_option maxRecDepth 16384

noncomputable section

namespace Cert.KernelIdeal.KHead4

open Cert.KernelIdeal Cert.KernelIdeal.Gen
open Idealize.ShloMosaic Idealize.ShloMosaic.TcCoe Idealize.SL.Sem Idealize.ShloMosaic.StableHlo

section Steps
variable (V : Valuation τ sig (Elt Ideal))

/-- Before the columns: the padded table, the zeros, column 0's index; the composed index stays. -/
theorem g0_P : after (hostOps4 (F := Ideal)) V (Proc.devRef .tc main_v120)
    = KTerm.padded (V (Proc.devRef .tc main_v119)) (V (Proc.devRef .tc main_v17)) := by
  after_results; try rfl
theorem g0_z : after (hostOps4 (F := Ideal)) V (Proc.devRef .tc main_v121)
    = broadcastInDim S50000x512 ![] bcast_S_S50000x512 (constant (F := Ideal) S_ .f32 0x00000000#32) := by
  after_results; try rfl
theorem g0_ix : after (hostOps4 (F := Ideal)) V (Proc.devRef .tc main_v123)
    = shapeCast S50000 (extractStridedSlice S50000x1 ![0, 0] (V (Proc.devRef .tc main_v15)) slices_S50000x6_S50000x1_0_0) shapeCasts_S50000x1_S50000 := by
  after_results; try rfl
theorem g0_fl : after (hostOps4 (F := Ideal)) V (Proc.devRef .tc main_v15) = V (Proc.devRef .tc main_v15) := by
  after_results; try rfl

end Steps

variable (m : (ℓ : Loc nD τ sig) → Buf (Elt Ideal) ℓ) (ρ : Dev nD → PrngReg)

/-- Every buffer this first stretch writes. -/
abbrev written : List (Ref sig .tc) := [main_v120, main_cst_4, main_v121, main_v122, main_v123]

/-- A stretch writes only buffers of that list: each operation's result buffer is found in it. -/
macro "writes_in_list" l:ident : tactic =>
  `(tactic| (simp only [$l:ident, List.Forall, StableHlo.nullary_writes, StableHlo.unary_writes, StableHlo.binary_writes, StableHlo.reshape_writes]
             repeat' apply And.intro
             all_goals exact Finset.singleton_subset_iff.mpr (List.mem_toFinset.mpr (List.mem_map.mpr ⟨_, by decide, rfl⟩))))

theorem wr0 : (hostOps4 : List (HloOp τ sig (Elt Ideal))).Forall fun op => op.writes ⊆ (written.map (Proc.devRef (τ := τ) .tc)).toFinset := by
  writes_in_list hostOps4

/-- After the first stretch: the padded table, the zeros, column 0's index, the composed index. -/
theorem at_P (c : Dev nD) : W48 (F := Ideal) m ρ c (Proc.devRef .tc main_v120)
    = KTerm.padded (W47 m ρ c (Proc.devRef .tc main_v119)) (W47 m ρ c (Proc.devRef .tc main_v17)) := g0_P (W47 m ρ c)
theorem at_z (c : Dev nD) : W48 (F := Ideal) m ρ c (Proc.devRef .tc main_v121)
    = broadcastInDim S50000x512 ![] bcast_S_S50000x512 (constant (F := Ideal) S_ .f32 0x00000000#32) := g0_z (W47 m ρ c)
theorem at_ix (c : Dev nD) : W48 (F := Ideal) m ρ c (Proc.devRef .tc main_v123)
    = shapeCast S50000 (extractStridedSlice S50000x1 ![0, 0] (W47 m ρ c (Proc.devRef .tc main_v15)) slices_S50000x6_S50000x1_0_0) shapeCasts_S50000x1_S50000 :=
  g0_ix (W47 m ρ c)
theorem at_fl (c : Dev nD) : W48 (F := Ideal) m ρ c (Proc.devRef .tc main_v15) = W47 m ρ c (Proc.devRef .tc main_v15) := g0_fl (W47 m ρ c)

/-- A buffer the first stretch does not write stays as the previous pallas_call left it. -/
theorem keep (b : Ref sig .tc) (hb : b ∉ written) (c : Dev nD) :
    W48 (F := Ideal) m ρ c (Proc.devRef .tc b) = W47 m ρ c (Proc.devRef .tc b) :=
  after_of_writes_sub hostOps4 (W47 m ρ c) wr0 hb

end Cert.KernelIdeal.KHead4

end
-- ==== Proof.KCols1.lean ====
/-
  One layer's neighbour sum, read off the host operations between two pallas_calls. After the padded hidden table,
  the zeros and column 0 of the composed index are in place, the program gathers, column by column, the six rows
  each atom's neighbours name and adds them to a running sum; the last step narrows the sum's format, which
  changes nothing over the extended reals. Each step is read at an arbitrary valuation of the buffers and then
  placed between the boundaries of the run.
-/
import proofs.«415842_j44693429682679_3_alg».proof.Proof.Gen.KernelIdeal.Frame
import proofs.«415842_j44693429682679_3_alg».proof.Proof.KTerm
import Idealize.ShloMosaic.Lib.StableHlo.Run

set_option maxRecDepth 16384

noncomputable section

namespace Cert.KernelIdeal.KCols1

open Cert.KernelIdeal Cert.KernelIdeal.Gen
open Idealize.ShloMosaic Idealize.ShloMosaic.TcCoe Idealize.SL.Sem Idealize.ShloMosaic.StableHlo

/-- The rows of the padded table `P` that the index vector `i` names. -/
abbrev tk (P : KTerm.C S50001x512 .bf16) (i : KTerm.C S50000 .i32) : KTerm.C S50000x512 .f32 :=
  extf (F := Ideal) .f32 (Host.gather gather_S50001x512_S50000x1_S50000x512_1_0_n_n_0_1_1512 P
    (broadcastInDim S50000x1 ![0] bcast_S50000_S50000x1_0 i)) bitsLt_bf16_f32

section Steps
variable (V : Valuation τ sig (Elt Ideal))

/-- Column 1: the rows named by column 0's index are added to the running sum, and column 1's index is cut
    out of the composed index; the padded table and the composed index stay. -/
theorem g1_acc : after (hostOps1_5 (F := Ideal)) (after hostOps1_4 V) (Proc.devRef .tc main_v24)
    = addf (F := Ideal) (s := S50000x512) (φ := .f32) (V (Proc.devRef .tc main_v19)) (tk (V (Proc.devRef .tc main_v18)) (V (Proc.devRef .tc main_v21))) := by
  after_results; try rfl
theorem g1_ix : after (hostOps1_5 (F := Ideal)) (after hostOps1_4 V) (Proc.devRef .tc main_v26)
    = shapeCast S50000 (extractStridedSlice S50000x1 ![0, 1] (V (Proc.devRef .tc main_v15)) slices_S50000x6_S50000x1_0_1) shapeCasts_S50000x1_S50000 := by
  after_results; try rfl
theorem g1_P : after (hostOps1_5 (F := Ideal)) (after hostOps1_4 V) (Proc.devRef .tc main_v18) = V (Proc.devRef .tc main_v18) := by
  after_results; try rfl
theorem g1_fl : after (hostOps1_5 (F := Ideal)) (after hostOps1_4 V) (Proc.devRef .tc main_v15) = V (Proc.devRef .tc main_v15) := by
  after_results; try rfl

/-- Column 2: the rows named by column 1's index are added to the running sum, and column 2's index is cut
    out of the composed index; the padded table and the composed index stay. -/
theorem g2_acc : after (hostOps1_7 (F := Ideal)) (after hostOps1_6 V) (Proc.devRef .tc main_v29)
    = addf (F := Ideal) (s := S50000x512) (φ := .f32) (V (Proc.devRef .tc main_v24)) (tk (V (Proc.devRef .tc main_v18)) (V (Proc.devRef .tc main_v26))) := by
  after_results; try rfl
theorem g2_ix : after (hostOps1_7 (F := Ideal)) (after hostOps1_6 V) (Proc.devRef .tc main_v31)
    = shapeCast S50000 (extractStridedSlice S50000x1 ![0, 2] (V (Proc.devRef .tc main_v15)) slices_S50000x6_S50000x1_0_2) shapeCasts_S50000x1_S50000 := by
  after_results; try rfl
theorem g2_P : after (hostOps1_7 (F := Ideal)) (after hostOps1_6 V) (Proc.devRef .tc main_v18) = V (Proc.devRef .tc main_v18) := by
  after_results; try rfl
theorem g2_fl : after (hostOps1_7 (F := Ideal)) (after hostOps1_6 V) (Proc.devRef .tc main_v15) = V (Proc.devRef .tc main_v15) := by
  after_results; try rfl

/-- Column 3: the rows named by column 2's index are added to the running sum, and column 3's index is cut
    out of the composed index; the padded table and the composed index stay. -/
theorem g3_acc : after (hostOps1_9 (F := Ideal)) (after hostOps1_8 V) (Proc.devRef .tc main_v34)
    = addf (F := Ideal) (s := S50000x512) (φ := .f32) (V (Proc.devRef .tc main_v29)) (tk (V (Proc.devRef .tc main_v18)) (V (Proc.devRef .tc main_v31))) := by
  after_results; try rfl
theorem g3_ix : after (hostOps1_9 (F := Ideal)) (after hostOps1_8 V) (Proc.devRef .tc main_v36)
    = shapeCast S50000 (extractStridedSlice S50000x1 ![0, 3] (V (Proc.devRef .tc main_v15)) slices_S50000x6_S50000x1_0_3) shapeCasts_S50000x1_S50000 := by
  after_results; try rfl
theorem g3_P : after (hostOps1_9 (F := Ideal)) (after hostOps1_8 V) (Proc.devRef .tc main_v18) = V (Proc.devRef .tc main_v18) := by
  after_results; try rfl
theorem g3_fl : after (hostOps1_9 (F := Ideal)) (after hostOps1_8 V) (Proc.devRef .tc main_v15) = V (Proc.devRef .tc main_v15) := by
  after_results; try rfl

/-- Column 4: the rows named by column 3's index are added to the running sum, and column 4's index is cut
    out of the composed index; the padded table and the composed index stay. -/
theorem g4_acc : after (hostOps1_11 (F := Ideal)) (after hostOps1_10 V) (Proc.devRef .tc main_v39)
    = addf (F := Ideal) (s := S50000x512) (φ := .f32) (V (Proc.devRef .tc main_v34)) (tk (V (Proc.devRef .tc main_v18)) (V (Proc.devRef .tc main_v36))) := by
  after_results; try rfl
theorem g4_ix : after (hostOps1_11 (F := Ideal)) (after hostOps1_10 V) (Proc.devRef .tc main_v41)
    = shapeCast S50000 (extractStridedSlice S50000x1 ![0, 4] (V (Proc.devRef .tc main_v15)) slices_S50000x6_S50000x1_0_4) shapeCasts_S50000x1_S50000 := by
  after_results; try rfl
theorem g4_P : after (hostOps1_11 (F := Ideal)) (after hostOps1_10 V) (Proc.devRef .tc main_v18) = V (Proc.devRef .tc main_v18) := by
  after_results; try rfl
theorem g4_fl : after (hostOps1_11 (F := Ideal)) (after hostOps1_10 V) (Proc.devRef .tc main_v15) = V (Proc.devRef .tc main_v15) := by
  after_results; try rfl

/-- Column 5: the rows named by column 4's index are added to the running sum, and column 5's index is cut
    out of the composed index; the padded table and the composed index stay. -/
theorem g5_acc : after (hostOps1_13 (F := Ideal)) (after hostOps1_12 V) (Proc.devRef .tc main_v44)
    = addf (F := Ideal) (s := S50000x512) (φ := .f32) (V (Proc.devRef .tc main_v39)) (tk (V (Proc.devRef .tc main_v18)) (V (Proc.devRef .tc main_v41))) := by
  after_results; try rfl
theorem g5_ix : after (hostOps1_13 (F := Ideal)) (after hostOps1_12 V) (Proc.devRef .tc main_v46)
    = shapeCast S50000 (extractStridedSlice S50000x1 ![0, 5] (V (Proc.devRef .tc main_v15)) slices_S50000x6_S50000x1_0_5) shapeCasts_S50000x1_S50000 := by
  after_results; try rfl
theorem g5_P : after (hostOps1_13 (F := Ideal)) (after hostOps1_12 V) (Proc.devRef .tc main_v18) = V (Proc.devRef .tc main_v18) := by
  after_results; try rfl
theorem g5_fl : after (hostOps1_13 (F := Ideal)) (after hostOps1_12 V) (Proc.devRef .tc main_v15) = V (Proc.devRef .tc main_v15) := by
  after_results; try rfl

/-- The last column's rows are added and the sum's format narrowed. -/
theorem gfin : after (hostOps1_15 (F := Ideal)) (after hostOps1_14 V) (Proc.devRef .tc main_v50)
    = truncf (F := Ideal) .bf16 (addf (F := Ideal) (s := S50000x512) (φ := .f32) (V (Proc.devRef .tc main_v44)) (tk (V (Proc.devRef .tc main_v18)) (V (Proc.devRef .tc main_v46)))) bitsLt_bf16_f32 := by
  after_results; try rfl

end Steps

variable (m : (ℓ : Loc nD τ sig) → Buf (Elt Ideal) ℓ) (ρ : Dev nD → PrngReg)

/-- The six columns between the boundary where the padded table `P`, the zeros `z`, column 0's index `i₀` and the
    composed index `f` stand and the next pallas_call's entry. -/
theorem cols (c : Dev nD) : W18 (F := Ideal) m ρ c (Proc.devRef .tc main_v50)
    = truncf (F := Ideal) .bf16 (addf (addf (addf (addf (addf (addf (F := Ideal) (s := S50000x512) (φ := .f32) (W6 m ρ c (Proc.devRef .tc main_v19))
        (tk (W6 m ρ c (Proc.devRef .tc main_v18)) (W6 m ρ c (Proc.devRef .tc main_v21))))
        (KTerm.rows (W6 m ρ c (Proc.devRef .tc main_v18)) (extractStridedSlice S50000x1 ![0, 1] (W6 m ρ c (Proc.devRef .tc main_v15)) slices_S50000x6_S50000x1_0_1)))
        (KTerm.rows (W6 m ρ c (Proc.devRef .tc main_v18)) (extractStridedSlice S50000x1 ![0, 2] (W6 m ρ c (Proc.devRef .tc main_v15)) slices_S50000x6_S50000x1_0_2)))
        (KTerm.rows (W6 m ρ c (Proc.devRef .tc main_v18)) (extractStridedSlice S50000x1 ![0, 3] (W6 m ρ c (Proc.devRef .tc main_v15)) slices_S50000x6_S50000x1_0_3)))
        (KTerm.rows (W6 m ρ c (Proc.devRef .tc main_v18)) (extractStridedSlice S50000x1 ![0, 4] (W6 m ρ c (Proc.devRef .tc main_v15)) slices_S50000x6_S50000x1_0_4)))
        (KTerm.rows (W6 m ρ c (Proc.devRef .tc main_v18)) (extractStridedSlice S50000x1 ![0, 5] (W6 m ρ c (Proc.devRef .tc main_v15)) slices_S50000x6_S50000x1_0_5))) bitsLt_bf16_f32 := by
  have hfin : W18 (F := Ideal) m ρ c (Proc.devRef .tc main_v50) = _ := gfin (W16 m ρ c)
  have hA5 : W16 (F := Ideal) m ρ c (Proc.devRef .tc main_v44) = _ := g5_acc (W14 m ρ c)
  have hI5 : W16 (F := Ideal) m ρ c (Proc.devRef .tc main_v46) = _ := g5_ix (W14 m ρ c)
  have hP5 : W16 (F := Ideal) m ρ c (Proc.devRef .tc main_v18) = _ := g5_P (W14 m ρ c)
  have hA4 : W14 (F := Ideal) m ρ c (Proc.devRef .tc main_v39) = _ := g4_acc (W12 m ρ c)
  have hI4 : W14 (F := Ideal) m ρ c (Proc.devRef .tc main_v41) = _ := g4_ix (W12 m ρ c)
  have hP4 : W14 (F := Ideal) m ρ c (Proc.devRef .tc main_v18) = _ := g4_P (W12 m ρ c)
  have hF4 : W14 (F := Ideal) m ρ c (Proc.devRef .tc main_v15) = _ := g4_fl (W12 m ρ c)
  have hA3 : W12 (F := Ideal) m ρ c (Proc.devRef .tc main_v34) = _ := g3_acc (W10 m ρ c)
  have hI3 : W12 (F := Ideal) m ρ c (Proc.devRef .tc main_v36) = _ := g3_ix (W10 m ρ c)
  have hP3 : W12 (F := Ideal) m ρ c (Proc.devRef .tc main_v18) = _ := g3_P (W10 m ρ c)
  have hF3 : W12 (F := Ideal) m ρ c (Proc.devRef .tc main_v15) = _ := g3_fl (W10 m ρ c)
  have hA2 : W10 (F := Ideal) m ρ c (Proc.devRef .tc main_v29) = _ := g2_acc (W8 m ρ c)
  have hI2 : W10 (F := Ideal) m ρ c (Proc.devRef .tc main_v31) = _ := g2_ix (W8 m ρ c)
  have hP2 : W10 (F := Ideal) m ρ c (Proc.devRef .tc main_v18) = _ := g2_P (W8 m ρ c)
  have hF2 : W10 (F := Ideal) m ρ c (Proc.devRef .tc main_v15) = _ := g2_fl (W8 m ρ c)
  have hA1 : W8 (F := Ideal) m ρ c (Proc.devRef .tc main_v24) = _ := g1_acc (W6 m ρ c)
  have hI1 : W8 (F := Ideal) m ρ c (Proc.devRef .tc main_v26) = _ := g1_ix (W6 m ρ c)
  have hP1 : W8 (F := Ideal) m ρ c (Proc.devRef .tc main_v18) = _ := g1_P (W6 m ρ c)
  have hF1 : W8 (F := Ideal) m ρ c (Proc.devRef .tc main_v15) = _ := g1_fl (W6 m ρ c)
  rw [hfin, hA5, hP5, hI5, hA4, hP4, hI4, hF4, hA3, hP3, hI3, hF3, hA2, hP2, hI2, hF2, hA1, hP1, hI1, hF1]
  rfl

/-- Every buffer the twelve column stretches write. -/
abbrev written : List (Ref sig .tc) :=
  [main_call2_v0, main_v22, main_v23, main_v24, main_v25, main_v26, main_call3_v0, main_v27, main_v28, main_v29, main_v30, main_v31,
   main_call4_v0, main_v32, main_v33, main_v34, main_v35, main_v36, main_call5_v0, main_v37, main_v38, main_v39, main_v40, main_v41,
   main_call6_v0, main_v42, main_v43, main_v44, main_v45, main_v46, main_call7_v0, main_v47, main_v48, main_v49, main_v50]

/-- A stretch writes only buffers of that list: each operation's result buffer is found in it. -/
macro "writes_in_list" l:ident : tactic =>
  `(tactic| (simp only [$l:ident, List.Forall, StableHlo.nullary_writes, StableHlo.unary_writes, StableHlo.binary_writes, StableHlo.reshape_writes]
             repeat' apply And.intro
             all_goals exact Finset.singleton_subset_iff.mpr (List.mem_toFinset.mpr (List.mem_map.mpr ⟨_, by decide, rfl⟩))))

theorem wr1 : (hostOps1_4 : List (HloOp τ sig (Elt Ideal))).Forall fun op => op.writes ⊆ (written.map (Proc.devRef (τ := τ) .tc)).toFinset := by writes_in_list hostOps1_4
theorem wr2 : (hostOps1_5 : List (HloOp τ sig (Elt Ideal))).Forall fun op => op.writes ⊆ (written.map (Proc.devRef (τ := τ) .tc)).toFinset := by writes_in_list hostOps1_5
theorem wr3 : (hostOps1_6 : List (HloOp τ sig (Elt Ideal))).Forall fun op => op.writes ⊆ (written.map (Proc.devRef (τ := τ) .tc)).toFinset := by writes_in_list hostOps1_6
theorem wr4 : (hostOps1_7 : List (HloOp τ sig (Elt Ideal))).Forall fun op => op.writes ⊆ (written.map (Proc.devRef (τ := τ) .tc)).toFinset := by writes_in_list hostOps1_7
theorem wr5 : (hostOps1_8 : List (HloOp τ sig (Elt Ideal))).Forall fun op => op.writes ⊆ (written.map (Proc.devRef (τ := τ) .tc)).toFinset := by writes_in_list hostOps1_8
theorem wr6 : (hostOps1_9 : List (HloOp τ sig (Elt Ideal))).Forall fun op => op.writes ⊆ (written.map (Proc.devRef (τ := τ) .tc)).toFinset := by writes_in_list hostOps1_9
theorem wr7 : (hostOps1_10 : List (HloOp τ sig (Elt Ideal))).Forall fun op => op.writes ⊆ (written.map (Proc.devRef (τ := τ) .tc)).toFinset := by writes_in_list hostOps1_10
theorem wr8 : (hostOps1_11 : List (HloOp τ sig (Elt Ideal))).Forall fun op => op.writes ⊆ (written.map (Proc.devRef (τ := τ) .tc)).toFinset := by writes_in_list hostOps1_11
theorem wr9 : (hostOps1_12 : List (HloOp τ sig (Elt Ideal))).Forall fun op => op.writes ⊆ (written.map (Proc.devRef (τ := τ) .tc)).toFinset := by writes_in_list hostOps1_12
theorem wr10 : (hostOps1_13 : List (HloOp τ sig (Elt Ideal))).Forall fun op => op.writes ⊆ (written.map (Proc.devRef (τ := τ) .tc)).toFinset := by writes_in_list hostOps1_13
theorem wr11 : (hostOps1_14 : List (HloOp τ sig (Elt Ideal))).Forall fun op => op.writes ⊆ (written.map (Proc.devRef (τ := τ) .tc)).toFinset := by writes_in_list hostOps1_14
theorem wr12 : (hostOps1_15 : List (HloOp τ sig (Elt Ideal))).Forall fun op => op.writes ⊆ (written.map (Proc.devRef (τ := τ) .tc)).toFinset := by writes_in_list hostOps1_15

/-- A buffer none of the column stretches writes holds at the pallas_call's entry what it held before the columns. -/
theorem keep (b : Ref sig .tc) (hb : b ∉ written) (c : Dev nD) :
    W18 (F := Ideal) m ρ c (Proc.devRef .tc b) = W6 m ρ c (Proc.devRef .tc b) :=
  (after_of_writes_sub hostOps1_15 (W17 m ρ c) wr12 hb).trans <| (after_of_writes_sub hostOps1_14 (W16 m ρ c) wr11 hb).trans <|
  (after_of_writes_sub hostOps1_13 (W15 m ρ c) wr10 hb).trans <| (after_of_writes_sub hostOps1_12 (W14 m ρ c) wr9 hb).trans <|
  (after_of_writes_sub hostOps1_11 (W13 m ρ c) wr8 hb).trans <| (after_of_writes_sub hostOps1_10 (W12 m ρ c) wr7 hb).trans <|
  (after_of_writes_sub hostOps1_9 (W11 m ρ c) wr6 hb).trans <| (after_of_writes_sub hostOps1_8 (W10 m ρ c) wr5 hb).trans <|
  (after_of_writes_sub hostOps1_7 (W9 m ρ c) wr4 hb).trans <| (after_of_writes_sub hostOps1_6 (W8 m ρ c) wr3 hb).trans <|
  (after_of_writes_sub hostOps1_5 (W7 m ρ c) wr2 hb).trans <| (after_of_writes_sub hostOps1_4 (W6 m ρ c) wr1 hb)

end Cert.KernelIdeal.KCols1

end
-- ==== Proof.KCols2.lean ====
/-
  One layer's neighbour sum, read off the host operations between two pallas_calls. After the padded hidden table,
  the zeros and column 0 of the composed index are in place, the program gathers, column by column, the six rows
  each atom's neighbours name and adds them to a running sum; the last step narrows the sum's format, which
  changes nothing over the extended reals. Each step is read at an arbitrary valuation of the buffers and then
  placed between the boundaries of the run.
-/
import proofs.«415842_j44693429682679_3_alg».proof.Proof.Gen.KernelIdeal.Frame
import proofs.«415842_j44693429682679_3_alg».proof.Proof.KTerm
import Idealize.ShloMosaic.Lib.StableHlo.Run

set_option maxRecDepth 16384

noncomputable section

namespace Cert.KernelIdeal.KCols2

open Cert.KernelIdeal Cert.KernelIdeal.Gen
open Idealize.ShloMosaic Idealize.ShloMosaic.TcCoe Idealize.SL.Sem Idealize.ShloMosaic.StableHlo

/-- The rows of the padded table `P` that the index vector `i` names. -/
abbrev tk (P : KTerm.C S50001x512 .bf16) (i : KTerm.C S50000 .i32) : KTerm.C S50000x512 .f32 :=
  extf (F := Ideal) .f32 (Host.gather gather_S50001x512_S50000x1_S50000x512_1_0_n_n_0_1_1512 P
    (broadcastInDim S50000x1 ![0] bcast_S50000_S50000x1_0 i)) bitsLt_bf16_f32

section Steps
variable (V : Valuation τ sig (Elt Ideal))

/-- Column 1: the rows named by column 0's index are added to the running sum, and column 1's index is cut
    out of the composed index; the padded table and the composed index stay. -/
theorem g1_acc : after (hostOps2_2 (F := Ideal)) (after hostOps2_1 V) (Proc.devRef .tc main_v58)
    = addf (F := Ideal) (s := S50000x512) (φ := .f32) (V (Proc.devRef .tc main_v53)) (tk (V (Proc.devRef .tc main_v52)) (V (Proc.devRef .tc main_v55))) := by
  after_results; try rfl
theorem g1_ix : after (hostOps2_2 (F := Ideal)) (after hostOps2_1 V) (Proc.devRef .tc main_v60)
    = shapeCast S50000 (extractStridedSlice S50000x1 ![0, 1] (V (Proc.devRef .tc main_v15)) slices_S50000x6_S50000x1_0_1) shapeCasts_S50000x1_S50000 := by
  after_results; try rfl
theorem g1_P : after (hostOps2_2 (F := Ideal)) (after hostOps2_1 V) (Proc.devRef .tc main_v52) = V (Proc.devRef .tc main_v52) := by
  after_results; try rfl
theorem g1_fl : after (hostOps2_2 (F := Ideal)) (after hostOps2_1 V) (Proc.devRef .tc main_v15) = V (Proc.devRef .tc main_v15) := by
  after_results; try rfl

/-- Column 2: the rows named by column 1's index are added to the running sum, and column 2's index is cut
    out of the composed index; the padded table and the composed index stay. -/
theorem g2_acc : after (hostOps2_4 (F := Ideal)) (after hostOps2_3 V) (Proc.devRef .tc main_v63)
    = addf (F := Ideal) (s := S50000x512) (φ := .f32) (V (Proc.devRef .tc main_v58)) (tk (V (Proc.devRef .tc main_v52)) (V (Proc.devRef .tc main_v60))) := by
  after_results; try rfl
theorem g2_ix : after (hostOps2_4 (F := Ideal)) (after hostOps2_3 V) (Proc.devRef .tc main_v65)
    = shapeCast S50000 (extractStridedSlice S50000x1 ![0, 2] (V (Proc.devRef .tc main_v15)) slices_S50000x6_S50000x1_0_2) shapeCasts_S50000x1_S50000 := by
  after_results; try rfl
theorem g2_P : after (hostOps2_4 (F := Ideal)) (after hostOps2_3 V) (Proc.devRef .tc main_v52) = V (Proc.devRef .tc main_v52) := by
  after_results; try rfl
theorem g2_fl : after (hostOps2_4 (F := Ideal)) (after hostOps2_3 V) (Proc.devRef .tc main_v15) = V (Proc.devRef .tc main_v15) := by
  after_results; try rfl

/-- Column 3: the rows named by column 2's index are added to the running sum, and column 3's index is cut
    out of the composed index; the padded table and the composed index stay. -/
theorem g3_acc : after (hostOps2_6 (F := Ideal)) (after hostOps2_5 V) (Proc.devRef .tc main_v68)
    = addf (F := Ideal) (s := S50000x512) (φ := .f32) (V (Proc.devRef .tc main_v63)) (tk (V (Proc.devRef .tc main_v52)) (V (Proc.devRef .tc main_v65))) := by
  after_results; try rfl
theorem g3_ix : after (hostOps2_6 (F := Ideal)) (after hostOps2_5 V) (Proc.devRef .tc main_v70)
    = shapeCast S50000 (extractStridedSlice S50000x1 ![0, 3] (V (Proc.devRef .tc main_v15)) slices_S50000x6_S50000x1_0_3) shapeCasts_S50000x1_S50000 := by
  after_results; try rfl
theorem g3_P : after (hostOps2_6 (F := Ideal)) (after hostOps2_5 V) (Proc.devRef .tc main_v52) = V (Proc.devRef .tc main_v52) := by
  after_results; try rfl
theorem g3_fl : after (hostOps2_6 (F := Ideal)) (after hostOps2_5 V) (Proc.devRef .tc main_v15) = V (Proc.devRef .tc main_v15) := by
  after_results; try rfl

/-- Column 4: the rows named by column 3's index are added to the running sum, and column 4's index is cut
    out of the composed index; the padded table and the composed index stay. -/
theorem g4_acc : after (hostOps2_8 (F := Ideal)) (after hostOps2_7 V) (Proc.devRef .tc main_v73)
    = addf (F := Ideal) (s := S50000x512) (φ := .f32) (V (Proc.devRef .tc main_v68)) (tk (V (Proc.devRef .tc main_v52)) (V (Proc.devRef .tc main_v70))) := by
  after_results; try rfl
theorem g4_ix : after (hostOps2_8 (F := Ideal)) (after hostOps2_7 V) (Proc.devRef .tc main_v75)
    = shapeCast S50000 (extractStridedSlice S50000x1 ![0, 4] (V (Proc.devRef .tc main_v15)) slices_S50000x6_S50000x1_0_4) shapeCasts_S50000x1_S50000 := by
  after_results; try rfl
theorem g4_P : after (hostOps2_8 (F := Ideal)) (after hostOps2_7 V) (Proc.devRef .tc main_v52) = V (Proc.devRef .tc main_v52) := by
  after_results; try rfl
theorem g4_fl : after (hostOps2_8 (F := Ideal)) (after hostOps2_7 V) (Proc.devRef .tc main_v15) = V (Proc.devRef .tc main_v15) := by
  after_results; try rfl

/-- Column 5: the rows named by column 4's index are added to the running sum, and column 5's index is cut
    out of the composed index; the padded table and the composed index stay. -/
theorem g5_acc : after (hostOps2_10 (F := Ideal)) (after hostOps2_9 V) (Proc.devRef .tc main_v78)
    = addf (F := Ideal) (s := S50000x512) (φ := .f32) (V (Proc.devRef .tc main_v73)) (tk (V (Proc.devRef .tc main_v52)) (V (Proc.devRef .tc main_v75))) := by
  after_results; try rfl
theorem g5_ix : after (hostOps2_10 (F := Ideal)) (after hostOps2_9 V) (Proc.devRef .tc main_v80)
    = shapeCast S50000 (extractStridedSlice S50000x1 ![0, 5] (V (Proc.devRef .tc main_v15)) slices_S50000x6_S50000x1_0_5) shapeCasts_S50000x1_S50000 := by
  after_results; try rfl
theorem g5_P : after (hostOps2_10 (F := Ideal)) (after hostOps2_9 V) (Proc.devRef .tc main_v52) = V (Proc.devRef .tc main_v52) := by
  after_results; try rfl
theorem g5_fl : after (hostOps2_10 (F := Ideal)) (after hostOps2_9 V) (Proc.devRef .tc main_v15) = V (Proc.devRef .tc main_v15) := by
  after_results; try rfl

/-- The last column's rows are added and the sum's format narrowed. -/
theorem gfin : after (hostOps2_12 (F := Ideal)) (after hostOps2_11 V) (Proc.devRef .tc main_v84)
    = truncf (F := Ideal) .bf16 (addf (F := Ideal) (s := S50000x512) (φ := .f32) (V (Proc.devRef .tc main_v78)) (tk (V (Proc.devRef .tc main_v52)) (V (Proc.devRef .tc main_v80)))) bitsLt_bf16_f32 := by
  after_results; try rfl

end Steps

variable (m : (ℓ : Loc nD τ sig) → Buf (Elt Ideal) ℓ) (ρ : Dev nD → PrngReg)

/-- The six columns between the boundary where the padded table `P`, the zeros `z`, column 0's index `i₀` and the
    composed index `f` stand and the next pallas_call's entry. -/
theorem cols (c : Dev nD) : W32 (F := Ideal) m ρ c (Proc.devRef .tc main_v84)
    = truncf (F := Ideal) .bf16 (addf (addf (addf (addf (addf (addf (F := Ideal) (s := S50000x512) (φ := .f32) (W20 m ρ c (Proc.devRef .tc main_v53))
        (tk (W20 m ρ c (Proc.devRef .tc main_v52)) (W20 m ρ c (Proc.devRef .tc main_v55))))
        (KTerm.rows (W20 m ρ c (Proc.devRef .tc main_v52)) (extractStridedSlice S50000x1 ![0, 1] (W20 m ρ c (Proc.devRef .tc main_v15)) slices_S50000x6_S50000x1_0_1)))
        (KTerm.rows (W20 m ρ c (Proc.devRef .tc main_v52)) (extractStridedSlice S50000x1 ![0, 2] (W20 m ρ c (Proc.devRef .tc main_v15)) slices_S50000x6_S50000x1_0_2)))
        (KTerm.rows (W20 m ρ c (Proc.devRef .tc main_v52)) (extractStridedSlice S50000x1 ![0, 3] (W20 m ρ c (Proc.devRef .tc main_v15)) slices_S50000x6_S50000x1_0_3)))
        (KTerm.rows (W20 m ρ c (Proc.devRef .tc main_v52)) (extractStridedSlice S50000x1 ![0, 4] (W20 m ρ c (Proc.devRef .tc main_v15)) slices_S50000x6_S50000x1_0_4)))
        (KTerm.rows (W20 m ρ c (Proc.devRef .tc main_v52)) (extractStridedSlice S50000x1 ![0, 5] (W20 m ρ c (Proc.devRef .tc main_v15)) slices_S50000x6_S50000x1_0_5))) bitsLt_bf16_f32 := by
  have hfin : W32 (F := Ideal) m ρ c (Proc.devRef .tc main_v84) = _ := gfin (W30 m ρ c)
  have hA5 : W30 (F := Ideal) m ρ c (Proc.devRef .tc main_v78) = _ := g5_acc (W28 m ρ c)
  have hI5 : W30 (F := Ideal) m ρ c (Proc.devRef .tc main_v80) = _ := g5_ix (W28 m ρ c)
  have hP5 : W30 (F := Ideal) m ρ c (Proc.devRef .tc main_v52) = _ := g5_P (W28 m ρ c)
  have hA4 : W28 (F := Ideal) m ρ c (Proc.devRef .tc main_v73) = _ := g4_acc (W26 m ρ c)
  have hI4 : W28 (F := Ideal) m ρ c (Proc.devRef .tc main_v75) = _ := g4_ix (W26 m ρ c)
  have hP4 : W28 (F := Ideal) m ρ c (Proc.devRef .tc main_v52) = _ := g4_P (W26 m ρ c)
  have hF4 : W28 (F := Ideal) m ρ c (Proc.devRef .tc main_v15) = _ := g4_fl (W26 m ρ c)
  have hA3 : W26 (F := Ideal) m ρ c (Proc.devRef .tc main_v68) = _ := g3_acc (W24 m ρ c)
  have hI3 : W26 (F := Ideal) m ρ c (Proc.devRef .tc main_v70) = _ := g3_ix (W24 m ρ c)
  have hP3 : W26 (F := Ideal) m ρ c (Proc.devRef .tc main_v52) = _ := g3_P (W24 m ρ c)
  have hF3 : W26 (F := Ideal) m ρ c (Proc.devRef .tc main_v15) = _ := g3_fl (W24 m ρ c)
  have hA2 : W24 (F := Ideal) m ρ c (Proc.devRef .tc main_v63) = _ := g2_acc (W22 m ρ c)
  have hI2 : W24 (F := Ideal) m ρ c (Proc.devRef .tc main_v65) = _ := g2_ix (W22 m ρ c)
  have hP2 : W24 (F := Ideal) m ρ c (Proc.devRef .tc main_v52) = _ := g2_P (W22 m ρ c)
  have hF2 : W24 (F := Ideal) m ρ c (Proc.devRef .tc main_v15) = _ := g2_fl (W22 m ρ c)
  have hA1 : W22 (F := Ideal) m ρ c (Proc.devRef .tc main_v58) = _ := g1_acc (W20 m ρ c)
  have hI1 : W22 (F := Ideal) m ρ c (Proc.devRef .tc main_v60) = _ := g1_ix (W20 m ρ c)
  have hP1 : W22 (F := Ideal) m ρ c (Proc.devRef .tc main_v52) = _ := g1_P (W20 m ρ c)
  have hF1 : W22 (F := Ideal) m ρ c (Proc.devRef .tc main_v15) = _ := g1_fl (W20 m ρ c)
  rw [hfin, hA5, hP5, hI5, hA4, hP4, hI4, hF4, hA3, hP3, hI3, hF3, hA2, hP2, hI2, hF2, hA1, hP1, hI1, hF1]
  rfl

/-- Every buffer the twelve column stretches write. -/
abbrev written : List (Ref sig .tc) :=
  [main_call8_v0, main_v56, main_v57, main_v58, main_v59, main_v60, main_call9_v0, main_v61, main_v62, main_v63, main_v64, main_v65,
   main_call10_v0, main_v66, main_v67, main_v68, main_v69, main_v70, main_call11_v0, main_v71, main_v72, main_v73, main_v74, main_v75,
   main_call12_v0, main_v76, main_v77, main_v78, main_v79, main_v80, main_call13_v0, main_v81, main_v82, main_v83, main_v84]

/-- A stretch writes only buffers of that list: each operation's result buffer is found in it. -/
macro "writes_in_list" l:ident : tactic =>
  `(tactic| (simp only [$l:ident, List.Forall, StableHlo.nullary_writes, StableHlo.unary_writes, StableHlo.binary_writes, StableHlo.reshape_writes]
             repeat' apply And.intro
             all_goals exact Finset.singleton_subset_iff.mpr (List.mem_toFinset.mpr (List.mem_map.mpr ⟨_, by decide, rfl⟩))))

theorem wr1 : (hostOps2_1 : List (HloOp τ sig (Elt Ideal))).Forall fun op => op.writes ⊆ (written.map (Proc.devRef (τ := τ) .tc)).toFinset := by writes_in_list hostOps2_1
theorem wr2 : (hostOps2_2 : List (HloOp τ sig (Elt Ideal))).Forall fun op => op.writes ⊆ (written.map (Proc.devRef (τ := τ) .tc)).toFinset := by writes_in_list hostOps2_2
theorem wr3 : (hostOps2_3 : List (HloOp τ sig (Elt Ideal))).Forall fun op => op.writes ⊆ (written.map (Proc.devRef (τ := τ) .tc)).toFinset := by writes_in_list hostOps2_3
theorem wr4 : (hostOps2_4 : List (HloOp τ sig (Elt Ideal))).Forall fun op => op.writes ⊆ (written.map (Proc.devRef (τ := τ) .tc)).toFinset := by writes_in_list hostOps2_4
theorem wr5 : (hostOps2_5 : List (HloOp τ sig (Elt Ideal))).Forall fun op => op.writes ⊆ (written.map (Proc.devRef (τ := τ) .tc)).toFinset := by writes_in_list hostOps2_5
theorem wr6 : (hostOps2_6 : List (HloOp τ sig (Elt Ideal))).Forall fun op => op.writes ⊆ (written.map (Proc.devRef (τ := τ) .tc)).toFinset := by writes_in_list hostOps2_6
theorem wr7 : (hostOps2_7 : List (HloOp τ sig (Elt Ideal))).Forall fun op => op.writes ⊆ (written.map (Proc.devRef (τ := τ) .tc)).toFinset := by writes_in_list hostOps2_7
theorem wr8 : (hostOps2_8 : List (HloOp τ sig (Elt Ideal))).Forall fun op => op.writes ⊆ (written.map (Proc.devRef (τ := τ) .tc)).toFinset := by writes_in_list hostOps2_8
theorem wr9 : (hostOps2_9 : List (HloOp τ sig (Elt Ideal))).Forall fun op => op.writes ⊆ (written.map (Proc.devRef (τ := τ) .tc)).toFinset := by writes_in_list hostOps2_9
theorem wr10 : (hostOps2_10 : List (HloOp τ sig (Elt Ideal))).Forall fun op => op.writes ⊆ (written.map (Proc.devRef (τ := τ) .tc)).toFinset := by writes_in_list hostOps2_10
theorem wr11 : (hostOps2_11 : List (HloOp τ sig (Elt Ideal))).Forall fun op => op.writes ⊆ (written.map (Proc.devRef (τ := τ) .tc)).toFinset := by writes_in_list hostOps2_11
theorem wr12 : (hostOps2_12 : List (HloOp τ sig (Elt Ideal))).Forall fun op => op.writes ⊆ (written.map (Proc.devRef (τ := τ) .tc)).toFinset := by writes_in_list hostOps2_12

/-- A buffer none of the column stretches writes holds at the pallas_call's entry what it held before the columns. -/
theorem keep (b : Ref sig .tc) (hb : b ∉ written) (c : Dev nD) :
    W32 (F := Ideal) m ρ c (Proc.devRef .tc b) = W20 m ρ c (Proc.devRef .tc b) :=
  (after_of_writes_sub hostOps2_12 (W31 m ρ c) wr12 hb).trans <| (after_of_writes_sub hostOps2_11 (W30 m ρ c) wr11 hb).trans <|
  (after_of_writes_sub hostOps2_10 (W29 m ρ c) wr10 hb).trans <| (after_of_writes_sub hostOps2_9 (W28 m ρ c) wr9 hb).trans <|
  (after_of_writes_sub hostOps2_8 (W27 m ρ c) wr8 hb).trans <| (after_of_writes_sub hostOps2_7 (W26 m ρ c) wr7 hb).trans <|
  (after_of_writes_sub hostOps2_6 (W25 m ρ c) wr6 hb).trans <| (after_of_writes_sub hostOps2_5 (W24 m ρ c) wr5 hb).trans <|
  (after_of_writes_sub hostOps2_4 (W23 m ρ c) wr4 hb).trans <| (after_of_writes_sub hostOps2_3 (W22 m ρ c) wr3 hb).trans <|
  (after_of_writes_sub hostOps2_2 (W21 m ρ c) wr2 hb).trans <| (after_of_writes_sub hostOps2_1 (W20 m ρ c) wr1 hb)

end Cert.KernelIdeal.KCols2

end
-- ==== Proof.KCols3.lean ====
/-
  One layer's neighbour sum, read off the host operations between two pallas_calls. After the padded hidden table,
  the zeros and column 0 of the composed index are in place, the program gathers, column by column, the six rows
  each atom's neighbours name and adds them to a running sum; the last step narrows the sum's format, which
  changes nothing over the extended reals. Each step is read at an arbitrary valuation of the buffers and then
  placed between the boundaries of the run.
-/
import proofs.«415842_j44693429682679_3_alg».proof.Proof.Gen.KernelIdeal.Frame
import proofs.«415842_j44693429682679_3_alg».proof.Proof.KTerm
import Idealize.ShloMosaic.Lib.StableHlo.Run

set_option maxRecDepth 16384

noncomputable section

namespace Cert.KernelIdeal.KCols3

open Cert.KernelIdeal Cert.KernelIdeal.Gen
open Idealize.ShloMosaic Idealize.ShloMosaic.TcCoe Idealize.SL.Sem Idealize.ShloMosaic.StableHlo

/-- The rows of the padded table `P` that the index vector `i` names. -/
abbrev tk (P : KTerm.C S50001x512 .bf16) (i : KTerm.C S50000 .i32) : KTerm.C S50000x512 .f32 :=
  extf (F := Ideal) .f32 (Host.gather gather_S50001x512_S50000x1_S50000x512_1_0_n_n_0_1_1512 P
    (broadcastInDim S50000x1 ![0] bcast_S50000_S50000x1_0 i)) bitsLt_bf16_f32

section Steps
variable (V : Valuation τ sig (Elt Ideal))

/-- Column 1: the rows named by column 0's index are added to the running sum, and column 1's index is cut
    out of the composed index; the padded table and the composed index stay. -/
theorem g1_acc : after (hostOps3_2 (F := Ideal)) (after hostOps3_1 V) (Proc.devRef .tc main_v92)
    = addf (F := Ideal) (s := S50000x512) (φ := .f32) (V (Proc.devRef .tc main_v87)) (tk (V (Proc.devRef .tc main_v86)) (V (Proc.devRef .tc main_v89))) := by
  after_results; try rfl
theorem g1_ix : after (hostOps3_2 (F := Ideal)) (after hostOps3_1 V) (Proc.devRef .tc main_v94)
    = shapeCast S50000 (extractStridedSlice S50000x1 ![0, 1] (V (Proc.devRef .tc main_v15)) slices_S50000x6_S50000x1_0_1) shapeCasts_S50000x1_S50000 := by
  after_results; try rfl
theorem g1_P : after (hostOps3_2 (F := Ideal)) (after hostOps3_1 V) (Proc.devRef .tc main_v86) = V (Proc.devRef .tc main_v86) := by
  after_results; try rfl
theorem g1_fl : after (hostOps3_2 (F := Ideal)) (after hostOps3_1 V) (Proc.devRef .tc main_v15) = V (Proc.devRef .tc main_v15) := by
  after_results; try rfl

/-- Column 2: the rows named by column 1's index are added to the running sum, and column 2's index is cut
    out of the composed index; the padded table and the composed index stay. -/
theorem g2_acc : after (hostOps3_4 (F := Ideal)) (after hostOps3_3 V) (Proc.devRef .tc main_v97)
    = addf (F := Ideal) (s := S50000x512) (φ := .f32) (V (Proc.devRef .tc main_v92)) (tk (V (Proc.devRef .tc main_v86)) (V (Proc.devRef .tc main_v94))) := by
  after_results; try rfl
theorem g2_ix : after (hostOps3_4 (F := Ideal)) (after hostOps3_3 V) (Proc.devRef .tc main_v99)
    = shapeCast S50000 (extractStridedSlice S50000x1 ![0, 2] (V (Proc.devRef .tc main_v15)) slices_S50000x6_S50000x1_0_2) shapeCasts_S50000x1_S50000 := by
  after_results; try rfl
theorem g2_P : after (hostOps3_4 (F := Ideal)) (after hostOps3_3 V) (Proc.devRef .tc main_v86) = V (Proc.devRef .tc main_v86) := by
  after_results; try rfl
theorem g2_fl : after (hostOps3_4 (F := Ideal)) (after hostOps3_3 V) (Proc.devRef .tc main_v15) = V (Proc.devRef .tc main_v15) := by
  after_results; try rfl

/-- Column 3: the rows named by column 2's index are added to the running sum, and column 3's index is cut
    out of the composed index; the padded table and the composed index stay. -/
theorem g3_acc : after (hostOps3_6 (F := Ideal)) (after hostOps3_5 V) (Proc.devRef .tc main_v102)
    = addf (F := Ideal) (s := S50000x512) (φ := .f32) (V (Proc.devRef .tc main_v97)) (tk (V (Proc.devRef .tc main_v86)) (V (Proc.devRef .tc main_v99))) := by
  after_results; try rfl
theorem g3_ix : after (hostOps3_6 (F := Ideal)) (after hostOps3_5 V) (Proc.devRef .tc main_v104)
    = shapeCast S50000 (extractStridedSlice S50000x1 ![0, 3] (V (Proc.devRef .tc main_v15)) slices_S50000x6_S50000x1_0_3) shapeCasts_S50000x1_S50000 := by
  after_results; try rfl
theorem g3_P : after (hostOps3_6 (F := Ideal)) (after hostOps3_5 V) (Proc.devRef .tc main_v86) = V (Proc.devRef .tc main_v86) := by
  after_results; try rfl
theorem g3_fl : after (hostOps3_6 (F := Ideal)) (after hostOps3_5 V) (Proc.devRef .tc main_v15) = V (Proc.devRef .tc main_v15) := by
  after_results; try rfl

/-- Column 4: the rows named by column 3's index are added to the running sum, and column 4's index is cut
    out of the composed index; the padded table and the composed index stay. -/
theorem g4_acc : after (hostOps3_8 (F := Ideal)) (after hostOps3_7 V) (Proc.devRef .tc main_v107)
    = addf (F := Ideal) (s := S50000x512) (φ := .f32) (V (Proc.devRef .tc main_v102)) (tk (V (Proc.devRef .tc main_v86)) (V (Proc.devRef .tc main_v104))) := by
  after_results; try rfl
theorem g4_ix : after (hostOps3_8 (F := Ideal)) (after hostOps3_7 V) (Proc.devRef .tc main_v109)
    = shapeCast S50000 (extractStridedSlice S50000x1 ![0, 4] (V (Proc.devRef .tc main_v15)) slices_S50000x6_S50000x1_0_4) shapeCasts_S50000x1_S50000 := by
  after_results; try rfl
theorem g4_P : after (hostOps3_8 (F := Ideal)) (after hostOps3_7 V) (Proc.devRef .tc main_v86) = V (Proc.devRef .tc main_v86) := by
  after_results; try rfl
theorem g4_fl : after (hostOps3_8 (F := Ideal)) (after hostOps3_7 V) (Proc.devRef .tc main_v15) = V (Proc.devRef .tc main_v15) := by
  after_results; try rfl

/-- Column 5: the rows named by column 4's index are added to the running sum, and column 5's index is cut
    out of the composed index; the padded table and the composed index stay. -/
theorem g5_acc : after (hostOps3_10 (F := Ideal)) (after hostOps3_9 V) (Proc.devRef .tc main_v112)
    = addf (F := Ideal) (s := S50000x512) (φ := .f32) (V (Proc.devRef .tc main_v107)) (tk (V (Proc.devRef .tc main_v86)) (V (Proc.devRef .tc main_v109))) := by
  after_results; try rfl
theorem g5_ix : after (hostOps3_10 (F := Ideal)) (after hostOps3_9 V) (Proc.devRef .tc main_v114)
    = shapeCast S50000 (extractStridedSlice S50000x1 ![0, 5] (V (Proc.devRef .tc main_v15)) slices_S50000x6_S50000x1_0_5) shapeCasts_S50000x1_S50000 := by
  after_results; try rfl
theorem g5_P : after (hostOps3_10 (F := Ideal)) (after hostOps3_9 V) (Proc.devRef .tc main_v86) = V (Proc.devRef .tc main_v86) := by
  after_results; try rfl
theorem g5_fl : after (hostOps3_10 (F := Ideal)) (after hostOps3_9 V) (Proc.devRef .tc main_v15) = V (Proc.devRef .tc main_v15) := by
  after_results; try rfl

/-- The last column's rows are added and the sum's format narrowed. -/
theorem gfin : after (hostOps3_12 (F := Ideal)) (after hostOps3_11 V) (Proc.devRef .tc main_v118)
    = truncf (F := Ideal) .bf16 (addf (F := Ideal) (s := S50000x512) (φ := .f32) (V (Proc.devRef .tc main_v112)) (tk (V (Proc.devRef .tc main_v86)) (V (Proc.devRef .tc main_v114)))) bitsLt_bf16_f32 := by
  after_results; try rfl

end Steps

variable (m : (ℓ : Loc nD τ sig) → Buf (Elt Ideal) ℓ) (ρ : Dev nD → PrngReg)

/-- The six columns between the boundary where the padded table `P`, the zeros `z`, column 0's index `i₀` and the
    composed index `f` stand and the next pallas_call's entry. -/
theorem cols (c : Dev nD) : W46 (F := Ideal) m ρ c (Proc.devRef .tc main_v118)
    = truncf (F := Ideal) .bf16 (addf (addf (addf (addf (addf (addf (F := Ideal) (s := S50000x512) (φ := .f32) (W34 m ρ c (Proc.devRef .tc main_v87))
        (tk (W34 m ρ c (Proc.devRef .tc main_v86)) (W34 m ρ c (Proc.devRef .tc main_v89))))
        (KTerm.rows (W34 m ρ c (Proc.devRef .tc main_v86)) (extractStridedSlice S50000x1 ![0, 1] (W34 m ρ c (Proc.devRef .tc main_v15)) slices_S50000x6_S50000x1_0_1)))
        (KTerm.rows (W34 m ρ c (Proc.devRef .tc main_v86)) (extractStridedSlice S50000x1 ![0, 2] (W34 m ρ c (Proc.devRef .tc main_v15)) slices_S50000x6_S50000x1_0_2)))
        (KTerm.rows (W34 m ρ c (Proc.devRef .tc main_v86)) (extractStridedSlice S50000x1 ![0, 3] (W34 m ρ c (Proc.devRef .tc main_v15)) slices_S50000x6_S50000x1_0_3)))
        (KTerm.rows (W34 m ρ c (Proc.devRef .tc main_v86)) (extractStridedSlice S50000x1 ![0, 4] (W34 m ρ c (Proc.devRef .tc main_v15)) slices_S50000x6_S50000x1_0_4)))
        (KTerm.rows (W34 m ρ c (Proc.devRef .tc main_v86)) (extractStridedSlice S50000x1 ![0, 5] (W34 m ρ c (Proc.devRef .tc main_v15)) slices_S50000x6_S50000x1_0_5))) bitsLt_bf16_f32 := by
  have hfin : W46 (F := Ideal) m ρ c (Proc.devRef .tc main_v118) = _ := gfin (W44 m ρ c)
  have hA5 : W44 (F := Ideal) m ρ c (Proc.devRef .tc main_v112) = _ := g5_acc (W42 m ρ c)
  have hI5 : W44 (F := Ideal) m ρ c (Proc.devRef .tc main_v114) = _ := g5_ix (W42 m ρ c)
  have hP5 : W44 (F := Ideal) m ρ c (Proc.devRef .tc main_v86) = _ := g5_P (W42 m ρ c)
  have hA4 : W42 (F := Ideal) m ρ c (Proc.devRef .tc main_v107) = _ := g4_acc (W40 m ρ c)
  have hI4 : W42 (F := Ideal) m ρ c (Proc.devRef .tc main_v109) = _ := g4_ix (W40 m ρ c)
  have hP4 : W42 (F := Ideal) m ρ c (Proc.devRef .tc main_v86) = _ := g4_P (W40 m ρ c)
  have hF4 : W42 (F := Ideal) m ρ c (Proc.devRef .tc main_v15) = _ := g4_fl (W40 m ρ c)
  have hA3 : W40 (F := Ideal) m ρ c (Proc.devRef .tc main_v102) = _ := g3_acc (W38 m ρ c)
  have hI3 : W40 (F := Ideal) m ρ c (Proc.devRef .tc main_v104) = _ := g3_ix (W38 m ρ c)
  have hP3 : W40 (F := Ideal) m ρ c (Proc.devRef .tc main_v86) = _ := g3_P (W38 m ρ c)
  have hF3 : W40 (F := Ideal) m ρ c (Proc.devRef .tc main_v15) = _ := g3_fl (W38 m ρ c)
  have hA2 : W38 (F := Ideal) m ρ c (Proc.devRef .tc main_v97) = _ := g2_acc (W36 m ρ c)
  have hI2 : W38 (F := Ideal) m ρ c (Proc.devRef .tc main_v99) = _ := g2_ix (W36 m ρ c)
  have hP2 : W38 (F := Ideal) m ρ c (Proc.devRef .tc main_v86) = _ := g2_P (W36 m ρ c)
  have hF2 : W38 (F := Ideal) m ρ c (Proc.devRef .tc main_v15) = _ := g2_fl (W36 m ρ c)
  have hA1 : W36 (F := Ideal) m ρ c (Proc.devRef .tc main_v92) = _ := g1_acc (W34 m ρ c)
  have hI1 : W36 (F := Ideal) m ρ c (Proc.devRef .tc main_v94) = _ := g1_ix (W34 m ρ c)
  have hP1 : W36 (F := Ideal) m ρ c (Proc.devRef .tc main_v86) = _ := g1_P (W34 m ρ c)
  have hF1 : W36 (F := Ideal) m ρ c (Proc.devRef .tc main_v15) = _ := g1_fl (W34 m ρ c)
  rw [hfin, hA5, hP5, hI5, hA4, hP4, hI4, hF4, hA3, hP3, hI3, hF3, hA2, hP2, hI2, hF2, hA1, hP1, hI1, hF1]
  rfl

/-- Every buffer the twelve column stretches write. -/
abbrev written : List (Ref sig .tc) :=
  [main_call14_v0, main_v90, main_v91, main_v92, main_v93, main_v94, main_call15_v0, main_v95, main_v96, main_v97, main_v98, main_v99,
   main_call16_v0, main_v100, main_v101, main_v102, main_v103, main_v104, main_call17_v0, main_v105, main_v106, main_v107, main_v108, main_v109,
   main_call18_v0, main_v110, main_v111, main_v112, main_v113, main_v114, main_call19_v0, main_v115, main_v116, main_v117, main_v118]

/-- A stretch writes only buffers of that list: each operation's result buffer is found in it. -/
macro "writes_in_list" l:ident : tactic =>
  `(tactic| (simp only [$l:ident, List.Forall, StableHlo.nullary_writes, StableHlo.unary_writes, StableHlo.binary_writes, StableHlo.reshape_writes]
             repeat' apply And.intro
             all_goals exact Finset.singleton_subset_iff.mpr (List.mem_toFinset.mpr (List.mem_map.mpr ⟨_, by decide, rfl⟩))))

theorem wr1 : (hostOps3_1 : List (HloOp τ sig (Elt Ideal))).Forall fun op => op.writes ⊆ (written.map (Proc.devRef (τ := τ) .tc)).toFinset := by writes_in_list hostOps3_1
theorem wr2 : (hostOps3_2 : List (HloOp τ sig (Elt Ideal))).Forall fun op => op.writes ⊆ (written.map (Proc.devRef (τ := τ) .tc)).toFinset := by writes_in_list hostOps3_2
theorem wr3 : (hostOps3_3 : List (HloOp τ sig (Elt Ideal))).Forall fun op => op.writes ⊆ (written.map (Proc.devRef (τ := τ) .tc)).toFinset := by writes_in_list hostOps3_3
theorem wr4 : (hostOps3_4 : List (HloOp τ sig (Elt Ideal))).Forall fun op => op.writes ⊆ (written.map (Proc.devRef (τ := τ) .tc)).toFinset := by writes_in_list hostOps3_4
theorem wr5 : (hostOps3_5 : List (HloOp τ sig (Elt Ideal))).Forall fun op => op.writes ⊆ (written.map (Proc.devRef (τ := τ) .tc)).toFinset := by writes_in_list hostOps3_5
theorem wr6 : (hostOps3_6 : List (HloOp τ sig (Elt Ideal))).Forall fun op => op.writes ⊆ (written.map (Proc.devRef (τ := τ) .tc)).toFinset := by writes_in_list hostOps3_6
theorem wr7 : (hostOps3_7 : List (HloOp τ sig (Elt Ideal))).Forall fun op => op.writes ⊆ (written.map (Proc.devRef (τ := τ) .tc)).toFinset := by writes_in_list hostOps3_7
theorem wr8 : (hostOps3_8 : List (HloOp τ sig (Elt Ideal))).Forall fun op => op.writes ⊆ (written.map (Proc.devRef (τ := τ) .tc)).toFinset := by writes_in_list hostOps3_8
theorem wr9 : (hostOps3_9 : List (HloOp τ sig (Elt Ideal))).Forall fun op => op.writes ⊆ (written.map (Proc.devRef (τ := τ) .tc)).toFinset := by writes_in_list hostOps3_9
theorem wr10 : (hostOps3_10 : List (HloOp τ sig (Elt Ideal))).Forall fun op => op.writes ⊆ (written.map (Proc.devRef (τ := τ) .tc)).toFinset := by writes_in_list hostOps3_10
theorem wr11 : (hostOps3_11 : List (HloOp τ sig (Elt Ideal))).Forall fun op => op.writes ⊆ (written.map (Proc.devRef (τ := τ) .tc)).toFinset := by writes_in_list hostOps3_11
theorem wr12 : (hostOps3_12 : List (HloOp τ sig (Elt Ideal))).Forall fun op => op.writes ⊆ (written.map (Proc.devRef (τ := τ) .tc)).toFinset := by writes_in_list hostOps3_12

/-- A buffer none of the column stretches writes holds at the pallas_call's entry what it held before the columns. -/
theorem keep (b : Ref sig .tc) (hb : b ∉ written) (c : Dev nD) :
    W46 (F := Ideal) m ρ c (Proc.devRef .tc b) = W34 m ρ c (Proc.devRef .tc b) :=
  (after_of_writes_sub hostOps3_12 (W45 m ρ c) wr12 hb).trans <| (after_of_writes_sub hostOps3_11 (W44 m ρ c) wr11 hb).trans <|
  (after_of_writes_sub hostOps3_10 (W43 m ρ c) wr10 hb).trans <| (after_of_writes_sub hostOps3_9 (W42 m ρ c) wr9 hb).trans <|
  (after_of_writes_sub hostOps3_8 (W41 m ρ c) wr8 hb).trans <| (after_of_writes_sub hostOps3_7 (W40 m ρ c) wr7 hb).trans <|
  (after_of_writes_sub hostOps3_6 (W39 m ρ c) wr6 hb).trans <| (after_of_writes_sub hostOps3_5 (W38 m ρ c) wr5 hb).trans <|
  (after_of_writes_sub hostOps3_4 (W37 m ρ c) wr4 hb).trans <| (after_of_writes_sub hostOps3_3 (W36 m ρ c) wr3 hb).trans <|
  (after_of_writes_sub hostOps3_2 (W35 m ρ c) wr2 hb).trans <| (after_of_writes_sub hostOps3_1 (W34 m ρ c) wr1 hb)

end Cert.KernelIdeal.KCols3

end
-- ==== Proof.KCols4.lean ====
/-
  One layer's neighbour sum, read off the host operations between two pallas_calls. After the padded hidden table,
  the zeros and column 0 of the composed index are in place, the program gathers, column by column, the six rows
  each atom's neighbours name and adds them to a running sum; the last step narrows the sum's format, which
  changes nothing over the extended reals. Each step is read at an arbitrary valuation of the buffers and then
  placed between the boundaries of the run.
-/
import proofs.«415842_j44693429682679_3_alg».proof.Proof.Gen.KernelIdeal.Frame
import proofs.«415842_j44693429682679_3_alg».proof.Proof.KTerm
import Idealize.ShloMosaic.Lib.StableHlo.Run

set_option maxRecDepth 16384

noncomputable section

namespace Cert.KernelIdeal.KCols4

open Cert.KernelIdeal Cert.KernelIdeal.Gen
open Idealize.ShloMosaic Idealize.ShloMosaic.TcCoe Idealize.SL.Sem Idealize.ShloMosaic.StableHlo

/-- The rows of the padded table `P` that the index vector `i` names. -/
abbrev tk (P : KTerm.C S50001x512 .bf16) (i : KTerm.C S50000 .i32) : KTerm.C S50000x512 .f32 :=
  extf (F := Ideal) .f32 (Host.gather gather_S50001x512_S50000x1_S50000x512_1_0_n_n_0_1_1512 P
    (broadcastInDim S50000x1 ![0] bcast_S50000_S50000x1_0 i)) bitsLt_bf16_f32

section Steps
variable (V : Valuation τ sig (Elt Ideal))

/-- Column 1: the rows named by column 0's index are added to the running sum, and column 1's index is cut
    out of the composed index; the padded table and the composed index stay. -/
theorem g1_acc : after (hostOps4_2 (F := Ideal)) (after hostOps4_1 V) (Proc.devRef .tc main_v126)
    = addf (F := Ideal) (s := S50000x512) (φ := .f32) (V (Proc.devRef .tc main_v121)) (tk (V (Proc.devRef .tc main_v120)) (V (Proc.devRef .tc main_v123))) := by
  after_results; try rfl
theorem g1_ix : after (hostOps4_2 (F := Ideal)) (after hostOps4_1 V) (Proc.devRef .tc main_v128)
    = shapeCast S50000 (extractStridedSlice S50000x1 ![0, 1] (V (Proc.devRef .tc main_v15)) slices_S50000x6_S50000x1_0_1) shapeCasts_S50000x1_S50000 := by
  after_results; try rfl
theorem g1_P : after (hostOps4_2 (F := Ideal)) (after hostOps4_1 V) (Proc.devRef .tc main_v120) = V (Proc.devRef .tc main_v120) := by
  after_results; try rfl
theorem g1_fl : after (hostOps4_2 (F := Ideal)) (after hostOps4_1 V) (Proc.devRef .tc main_v15) = V (Proc.devRef .tc main_v15) := by
  after_results; try rfl

/-- Column 2: the rows named by column 1's index are added to the running sum, and column 2's index is cut
    out of the composed index; the padded table and the composed index stay. -/
theorem g2_acc : after (hostOps4_4 (F := Ideal)) (after hostOps4_3 V) (Proc.devRef .tc main_v131)
    = addf (F := Ideal) (s := S50000x512) (φ := .f32) (V (Proc.devRef .tc main_v126)) (tk (V (Proc.devRef .tc main_v120)) (V (Proc.devRef .tc main_v128))) := by
  after_results; try rfl
theorem g2_ix : after (hostOps4_4 (F := Ideal)) (after hostOps4_3 V) (Proc.devRef .tc main_v133)
    = shapeCast S50000 (extractStridedSlice S50000x1 ![0, 2] (V (Proc.devRef .tc main_v15)) slices_S50000x6_S50000x1_0_2) shapeCasts_S50000x1_S50000 := by
  after_results; try rfl
theorem g2_P : after (hostOps4_4 (F := Ideal)) (after hostOps4_3 V) (Proc.devRef .tc main_v120) = V (Proc.devRef .tc main_v120) := by
  after_results; try rfl
theorem g2_fl : after (hostOps4_4 (F := Ideal)) (after hostOps4_3 V) (Proc.devRef .tc main_v15) = V (Proc.devRef .tc main_v15) := by
  after_results; try rfl

/-- Column 3: the rows named by column 2's index are added to the running sum, and column 3's index is cut
    out of the composed index; the padded table and the composed index stay. -/
theorem g3_acc : after (hostOps4_6 (F := Ideal)) (after hostOps4_5 V) (Proc.devRef .tc main_v136)
    = addf (F := Ideal) (s := S50000x512) (φ := .f32) (V (Proc.devRef .tc main_v131)) (tk (V (Proc.devRef .tc main_v120)) (V (Proc.devRef .tc main_v133))) := by
  after_results; try rfl
theorem g3_ix : after (hostOps4_6 (F := Ideal)) (after hostOps4_5 V) (Proc.devRef .tc main_v138)
    = shapeCast S50000 (extractStridedSlice S50000x1 ![0, 3] (V (Proc.devRef .tc main_v15)) slices_S50000x6_S50000x1_0_3) shapeCasts_S50000x1_S50000 := by
  after_results; try rfl
theorem g3_P : after (hostOps4_6 (F := Ideal)) (after hostOps4_5 V) (Proc.devRef .tc main_v120) = V (Proc.devRef .tc main_v120) := by
  after_results; try rfl
theorem g3_fl : after (hostOps4_6 (F := Ideal)) (after hostOps4_5 V) (Proc.devRef .tc main_v15) = V (Proc.devRef .tc main_v15) := by
  after_results; try rfl

/-- Column 4: the rows named by column 3's index are added to the running sum, and column 4's index is cut
    out of the composed index; the padded table and the composed index stay. -/
theorem g4_acc : after (hostOps4_8 (F := Ideal)) (after hostOps4_7 V) (Proc.devRef .tc main_v141)
    = addf (F := Ideal) (s := S50000x512) (φ := .f32) (V (Proc.devRef .tc main_v136)) (tk (V (Proc.devRef .tc main_v120)) (V (Proc.devRef .tc main_v138))) := by
  after_results; try rfl
theorem g4_ix : after (hostOps4_8 (F := Ideal)) (after hostOps4_7 V) (Proc.devRef .tc main_v143)
    = shapeCast S50000 (extractStridedSlice S50000x1 ![0, 4] (V (Proc.devRef .tc main_v15)) slices_S50000x6_S50000x1_0_4) shapeCasts_S50000x1_S50000 := by
  after_results; try rfl
theorem g4_P : after (hostOps4_8 (F := Ideal)) (after hostOps4_7 V) (Proc.devRef .tc main_v120) = V (Proc.devRef .tc main_v120) := by
  after_results; try rfl
theorem g4_fl : after (hostOps4_8 (F := Ideal)) (after hostOps4_7 V) (Proc.devRef .tc main_v15) = V (Proc.devRef .tc main_v15) := by
  after_results; try rfl

/-- Column 5: the rows named by column 4's index are added to the running sum, and column 5's index is cut
    out of the composed index; the padded table and the composed index stay. -/
theorem g5_acc : after (hostOps4_10 (F := Ideal)) (after hostOps4_9 V) (Proc.devRef .tc main_v146)
    = addf (F := Ideal) (s := S50000x512) (φ := .f32) (V (Proc.devRef .tc main_v141)) (tk (V (Proc.devRef .tc main_v120)) (V (Proc.devRef .tc main_v143))) := by
  after_results; try rfl
theorem g5_ix : after (hostOps4_10 (F := Ideal)) (after hostOps4_9 V) (Proc.devRef .tc main_v148)
    = shapeCast S50000 (extractStridedSlice S50000x1 ![0, 5] (V (Proc.devRef .tc main_v15)) slices_S50000x6_S50000x1_0_5) shapeCasts_S50000x1_S50000 := by
  after_results; try rfl
theorem g5_P : after (hostOps4_10 (F := Ideal)) (after hostOps4_9 V) (Proc.devRef .tc main_v120) = V (Proc.devRef .tc main_v120) := by
  after_results; try rfl
theorem g5_fl : after (hostOps4_10 (F := Ideal)) (after hostOps4_9 V) (Proc.devRef .tc main_v15) = V (Proc.devRef .tc main_v15) := by
  after_results; try rfl

/-- The last column's rows are added and the sum's format narrowed. -/
theorem gfin : after (hostOps4_12 (F := Ideal)) (after hostOps4_11 V) (Proc.devRef .tc main_v152)
    = truncf (F := Ideal) .bf16 (addf (F := Ideal) (s := S50000x512) (φ := .f32) (V (Proc.devRef .tc main_v146)) (tk (V (Proc.devRef .tc main_v120)) (V (Proc.devRef .tc main_v148)))) bitsLt_bf16_f32 := by
  after_results; try rfl

end Steps

variable (m : (ℓ : Loc nD τ sig) → Buf (Elt Ideal) ℓ) (ρ : Dev nD → PrngReg)

/-- The six columns between the boundary where the padded table `P`, the zeros `z`, column 0's index `i₀` and the
    composed index `f` stand and the next pallas_call's entry. -/
theorem cols (c : Dev nD) : W60 (F := Ideal) m ρ c (Proc.devRef .tc main_v152)
    = truncf (F := Ideal) .bf16 (addf (addf (addf (addf (addf (addf (F := Ideal) (s := S50000x512) (φ := .f32) (W48 m ρ c (Proc.devRef .tc main_v121))
        (tk (W48 m ρ c (Proc.devRef .tc main_v120)) (W48 m ρ c (Proc.devRef .tc main_v123))))
        (KTerm.rows (W48 m ρ c (Proc.devRef .tc main_v120)) (extractStridedSlice S50000x1 ![0, 1] (W48 m ρ c (Proc.devRef .tc main_v15)) slices_S50000x6_S50000x1_0_1)))
        (KTerm.rows (W48 m ρ c (Proc.devRef .tc main_v120)) (extractStridedSlice S50000x1 ![0, 2] (W48 m ρ c (Proc.devRef .tc main_v15)) slices_S50000x6_S50000x1_0_2)))
        (KTerm.rows (W48 m ρ c (Proc.devRef .tc main_v120)) (extractStridedSlice S50000x1 ![0, 3] (W48 m ρ c (Proc.devRef .tc main_v15)) slices_S50000x6_S50000x1_0_3)))
        (KTerm.rows (W48 m ρ c (Proc.devRef .tc main_v120)) (extractStridedSlice S50000x1 ![0, 4] (W48 m ρ c (Proc.devRef .tc main_v15)) slices_S50000x6_S50000x1_0_4)))
        (KTerm.rows (W48 m ρ c (Proc.devRef .tc main_v120)) (extractStridedSlice S50000x1 ![0, 5] (W48 m ρ c (Proc.devRef .tc main_v15)) slices_S50000x6_S50000x1_0_5))) bitsLt_bf16_f32 := by
  have hfin : W60 (F := Ideal) m ρ c (Proc.devRef .tc main_v152) = _ := gfin (W58 m ρ c)
  have hA5 : W58 (F := Ideal) m ρ c (Proc.devRef .tc main_v146) = _ := g5_acc (W56 m ρ c)
  have hI5 : W58 (F := Ideal) m ρ c (Proc.devRef .tc main_v148) = _ := g5_ix (W56 m ρ c)
  have hP5 : W58 (F := Ideal) m ρ c (Proc.devRef .tc main_v120) = _ := g5_P (W56 m ρ c)
  have hA4 : W56 (F := Ideal) m ρ c (Proc.devRef .tc main_v141) = _ := g4_acc (W54 m ρ c)
  have hI4 : W56 (F := Ideal) m ρ c (Proc.devRef .tc main_v143) = _ := g4_ix (W54 m ρ c)
  have hP4 : W56 (F := Ideal) m ρ c (Proc.devRef .tc main_v120) = _ := g4_P (W54 m ρ c)
  have hF4 : W56 (F := Ideal) m ρ c (Proc.devRef .tc main_v15) = _ := g4_fl (W54 m ρ c)
  have hA3 : W54 (F := Ideal) m ρ c (Proc.devRef .tc main_v136) = _ := g3_acc (W52 m ρ c)
  have hI3 : W54 (F := Ideal) m ρ c (Proc.devRef .tc main_v138) = _ := g3_ix (W52 m ρ c)
  have hP3 : W54 (F := Ideal) m ρ c (Proc.devRef .tc main_v120) = _ := g3_P (W52 m ρ c)
  have hF3 : W54 (F := Ideal) m ρ c (Proc.devRef .tc main_v15) = _ := g3_fl (W52 m ρ c)
  have hA2 : W52 (F := Ideal) m ρ c (Proc.devRef .tc main_v131) = _ := g2_acc (W50 m ρ c)
  have hI2 : W52 (F := Ideal) m ρ c (Proc.devRef .tc main_v133) = _ := g2_ix (W50 m ρ c)
  have hP2 : W52 (F := Ideal) m ρ c (Proc.devRef .tc main_v120) = _ := g2_P (W50 m ρ c)
  have hF2 : W52 (F := Ideal) m ρ c (Proc.devRef .tc main_v15) = _ := g2_fl (W50 m ρ c)
  have hA1 : W50 (F := Ideal) m ρ c (Proc.devRef .tc main_v126) = _ := g1_acc (W48 m ρ c)
  have hI1 : W50 (F := Ideal) m ρ c (Proc.devRef .tc main_v128) = _ := g1_ix (W48 m ρ c)
  have hP1 : W50 (F := Ideal) m ρ c (Proc.devRef .tc main_v120) = _ := g1_P (W48 m ρ c)
  have hF1 : W50 (F := Ideal) m ρ c (Proc.devRef .tc main_v15) = _ := g1_fl (W48 m ρ c)
  rw [hfin, hA5, hP5, hI5, hA4, hP4, hI4, hF4, hA3, hP3, hI3, hF3, hA2, hP2, hI2, hF2, hA1, hP1, hI1, hF1]
  rfl

/-- Every buffer the twelve column stretches write. -/
abbrev written : List (Ref sig .tc) :=
  [main_call20_v0, main_v124, main_v125, main_v126, main_v127, main_v128, main_call21_v0, main_v129, main_v130, main_v131, main_v132, main_v133,
   main_call22_v0, main_v134, main_v135, main_v136, main_v137, main_v138, main_call23_v0, main_v139, main_v140, main_v141, main_v142, main_v143,
   main_call24_v0, main_v144, main_v145, main_v146, main_v147, main_v148, main_call25_v0, main_v149, main_v150, main_v151, main_v152]

/-- A stretch writes only buffers of that list: each operation's result buffer is found in it. -/
macro "writes_in_list" l:ident : tactic =>
  `(tactic| (simp only [$l:ident, List.Forall, StableHlo.nullary_writes, StableHlo.unary_writes, StableHlo.binary_writes, StableHlo.reshape_writes]
             repeat' apply And.intro
             all_goals exact Finset.singleton_subset_iff.mpr (List.mem_toFinset.mpr (List.mem_map.mpr ⟨_, by decide, rfl⟩))))

theorem wr1 : (hostOps4_1 : List (HloOp τ sig (Elt Ideal))).Forall fun op => op.writes ⊆ (written.map (Proc.devRef (τ := τ) .tc)).toFinset := by writes_in_list hostOps4_1
theorem wr2 : (hostOps4_2 : List (HloOp τ sig (Elt Ideal))).Forall fun op => op.writes ⊆ (written.map (Proc.devRef (τ := τ) .tc)).toFinset := by writes_in_list hostOps4_2
theorem wr3 : (hostOps4_3 : List (HloOp τ sig (Elt Ideal))).Forall fun op => op.writes ⊆ (written.map (Proc.devRef (τ := τ) .tc)).toFinset := by writes_in_list hostOps4_3
theorem wr4 : (hostOps4_4 : List (HloOp τ sig (Elt Ideal))).Forall fun op => op.writes ⊆ (written.map (Proc.devRef (τ := τ) .tc)).toFinset := by writes_in_list hostOps4_4
theorem wr5 : (hostOps4_5 : List (HloOp τ sig (Elt Ideal))).Forall fun op => op.writes ⊆ (written.map (Proc.devRef (τ := τ) .tc)).toFinset := by writes_in_list hostOps4_5
theorem wr6 : (hostOps4_6 : List (HloOp τ sig (Elt Ideal))).Forall fun op => op.writes ⊆ (written.map (Proc.devRef (τ := τ) .tc)).toFinset := by writes_in_list hostOps4_6
theorem wr7 : (hostOps4_7 : List (HloOp τ sig (Elt Ideal))).Forall fun op => op.writes ⊆ (written.map (Proc.devRef (τ := τ) .tc)).toFinset := by writes_in_list hostOps4_7
theorem wr8 : (hostOps4_8 : List (HloOp τ sig (Elt Ideal))).Forall fun op => op.writes ⊆ (written.map (Proc.devRef (τ := τ) .tc)).toFinset := by writes_in_list hostOps4_8
theorem wr9 : (hostOps4_9 : List (HloOp τ sig (Elt Ideal))).Forall fun op => op.writes ⊆ (written.map (Proc.devRef (τ := τ) .tc)).toFinset := by writes_in_list hostOps4_9
theorem wr10 : (hostOps4_10 : List (HloOp τ sig (Elt Ideal))).Forall fun op => op.writes ⊆ (written.map (Proc.devRef (τ := τ) .tc)).toFinset := by writes_in_list hostOps4_10
theorem wr11 : (hostOps4_11 : List (HloOp τ sig (Elt Ideal))).Forall fun op => op.writes ⊆ (written.map (Proc.devRef (τ := τ) .tc)).toFinset := by writes_in_list hostOps4_11
theorem wr12 : (hostOps4_12 : List (HloOp τ sig (Elt Ideal))).Forall fun op => op.writes ⊆ (written.map (Proc.devRef (τ := τ) .tc)).toFinset := by writes_in_list hostOps4_12

/-- A buffer none of the column stretches writes holds at the pallas_call's entry what it held before the columns. -/
theorem keep (b : Ref sig .tc) (hb : b ∉ written) (c : Dev nD) :
    W60 (F := Ideal) m ρ c (Proc.devRef .tc b) = W48 m ρ c (Proc.devRef .tc b) :=
  (after_of_writes_sub hostOps4_12 (W59 m ρ c) wr12 hb).trans <| (after_of_writes_sub hostOps4_11 (W58 m ρ c) wr11 hb).trans <|
  (after_of_writes_sub hostOps4_10 (W57 m ρ c) wr10 hb).trans <| (after_of_writes_sub hostOps4_9 (W56 m ρ c) wr9 hb).trans <|
  (after_of_writes_sub hostOps4_8 (W55 m ρ c) wr8 hb).trans <| (after_of_writes_sub hostOps4_7 (W54 m ρ c) wr7 hb).trans <|
  (after_of_writes_sub hostOps4_6 (W53 m ρ c) wr6 hb).trans <| (after_of_writes_sub hostOps4_5 (W52 m ρ c) wr5 hb).trans <|
  (after_of_writes_sub hostOps4_4 (W51 m ρ c) wr4 hb).trans <| (after_of_writes_sub hostOps4_3 (W50 m ρ c) wr3 hb).trans <|
  (after_of_writes_sub hostOps4_2 (W49 m ρ c) wr2 hb).trans <| (after_of_writes_sub hostOps4_1 (W48 m ρ c) wr1 hb)

end Cert.KernelIdeal.KCols4

end
-- ==== Proof.KChain.lean ====
/-
  The idealized kernel program's result buffer, read back through the whole run: at every boundary between a stretch
  of host operations and a grid launch, the buffers that matter hold named terms of the six arguments — the first
  layer's output, the layer-invariant bias, the composed neighbour index, the zero row, the transposed weight, and
  the current hidden state. Each grid launch replaces the hidden state by one layer of it; the last host operation
  transposes. The result is the pure term `KTerm.outTerm` of the arguments.
-/
import proofs.«415842_j44693429682679_3_alg».proof.Proof.Gen.KernelIdeal.Frame
import proofs.«415842_j44693429682679_3_alg».proof.Proof.KTerm
import proofs.«415842_j44693429682679_3_alg».proof.Proof.Region0
import proofs.«415842_j44693429682679_3_alg».proof.Proof.Region1
import proofs.«415842_j44693429682679_3_alg».proof.Proof.Region2
import proofs.«415842_j44693429682679_3_alg».proof.Proof.Region3
import proofs.«415842_j44693429682679_3_alg».proof.Proof.Region4
import proofs.«415842_j44693429682679_3_alg».proof.Proof.KHead1
import proofs.«415842_j44693429682679_3_alg».proof.Proof.KHead2
import proofs.«415842_j44693429682679_3_alg».proof.Proof.KHead3
import proofs.«415842_j44693429682679_3_alg».proof.Proof.KHead4
import proofs.«415842_j44693429682679_3_alg».proof.Proof.KCols1
import proofs.«415842_j44693429682679_3_alg».proof.Proof.KCols2
import proofs.«415842_j44693429682679_3_alg».proof.Proof.KCols3
import proofs.«415842_j44693429682679_3_alg».proof.Proof.KCols4
import Idealize.ShloMosaic.Lib.StableHlo.Run

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo

/-! ## The first and the last stretch at an arbitrary valuation -/

section Steps
variable (V : Valuation τ sig (Elt Ideal))

theorem s0_v1 : after (hostOps0 (F := Ideal)) V (Proc.devRef .tc main_v1) = KTerm.wn16 (V (Proc.devRef .tc main_arg2)) := by
  after_results; try rfl
theorem s0_v3 : after (hostOps0 (F := Ideal)) V (Proc.devRef .tc main_v3)
    = extractStridedSlice S512x11 ![0, 512] (V (Proc.devRef .tc main_arg3)) slices_S512x523_S512x11_0_512 := by
  after_results; try rfl
theorem s0_v5 : after (hostOps0 (F := Ideal)) V (Proc.devRef .tc main_v5) = KTerm.wh16 (V (Proc.devRef .tc main_arg3)) := by
  after_results; try rfl
theorem s0_arg0 : after (hostOps0 (F := Ideal)) V (Proc.devRef .tc main_arg0) = V (Proc.devRef .tc main_arg0) := by
  after_results; try rfl
theorem s0_arg1 : after (hostOps0 (F := Ideal)) V (Proc.devRef .tc main_arg1) = V (Proc.devRef .tc main_arg1) := by
  after_results; try rfl
theorem s0_arg4 : after (hostOps0 (F := Ideal)) V (Proc.devRef .tc main_arg4) = V (Proc.devRef .tc main_arg4) := by
  after_results; try rfl
theorem s0_arg5 : after (hostOps0 (F := Ideal)) V (Proc.devRef .tc main_arg5) = V (Proc.devRef .tc main_arg5) := by
  after_results; try rfl
theorem s5_out : after (hostOps5 (F := Ideal)) V (Proc.devRef .tc main_v154)
    = transpose S512x50000 [1, 0] (V (Proc.devRef .tc main_v153)) transposes_S50000x512_S512x50000_1_0 := by
  after_results; try rfl

end Steps

variable (m : (ℓ : Loc nD τ sig) → Buf (Elt Ideal) ℓ) (ρ : Dev nD → PrngReg)

/-- The six arguments as launched. -/
abbrev a0 (c : Dev nD) : KTerm.C S50000x39 .f32 := m ((c : Thread nD τ).loc main_arg0)
abbrev a1 (c : Dev nD) : KTerm.C S120000x11 .f32 := m ((c : Thread nD τ).loc main_arg1)
abbrev a2 (c : Dev nD) : KTerm.C S512x39 .f32 := m ((c : Thread nD τ).loc main_arg2)
abbrev a3 (c : Dev nD) : KTerm.C S512x523 .f32 := m ((c : Thread nD τ).loc main_arg3)
abbrev a4 (c : Dev nD) : KTerm.C S50000x6 .i32 := m ((c : Thread nD τ).loc main_arg4)
abbrev a5 (c : Dev nD) : KTerm.C S119999 .i32 := m ((c : Thread nD τ).loc main_arg5)

/-- The first layer's output. -/
abbrev Z (c : Dev nD) : KTerm.C S50000x512 .f32 := KTerm.R0 (a0 m c) (KTerm.wn16 (a2 m c))

/-! ## Up to the first grid launch's exit -/

theorem e1_v1 (c : Dev nD) : W1 (F := Ideal) m ρ c (Proc.devRef .tc main_v1) = KTerm.wn16 (a2 m c) := s0_v1 (W0 m ρ c)
theorem e1_v3 (c : Dev nD) : W1 (F := Ideal) m ρ c (Proc.devRef .tc main_v3)
    = extractStridedSlice S512x11 ![0, 512] (a3 m c) slices_S512x523_S512x11_0_512 := s0_v3 (W0 m ρ c)
theorem e1_v5 (c : Dev nD) : W1 (F := Ideal) m ρ c (Proc.devRef .tc main_v5) = KTerm.wh16 (a3 m c) := s0_v5 (W0 m ρ c)
theorem e1_arg0 (c : Dev nD) : W1 (F := Ideal) m ρ c (Proc.devRef .tc main_arg0) = a0 m c := s0_arg0 (W0 m ρ c)
theorem e1_arg1 (c : Dev nD) : W1 (F := Ideal) m ρ c (Proc.devRef .tc main_arg1) = a1 m c := s0_arg1 (W0 m ρ c)
theorem e1_arg4 (c : Dev nD) : W1 (F := Ideal) m ρ c (Proc.devRef .tc main_arg4) = a4 m c := s0_arg4 (W0 m ρ c)
theorem e1_arg5 (c : Dev nD) : W1 (F := Ideal) m ρ c (Proc.devRef .tc main_arg5) = a5 m c := s0_arg5 (W0 m ρ c)

theorem e2_v6 (c : Dev nD) : W2 (F := Ideal) m ρ c (Proc.devRef .tc main_v6) = Z m c := by
  refine (W2_arr m ρ c 2).trans ((Region0.region0_value (V1 m ρ) c).trans ?_)
  show KTerm.R0 (W1 m ρ c (Proc.devRef .tc main_arg0)) (W1 m ρ c (Proc.devRef .tc main_v1)) = _
  rw [e1_arg0, e1_v1]
theorem e2_v3 (c : Dev nD) : W2 (F := Ideal) m ρ c (Proc.devRef .tc main_v3)
    = extractStridedSlice S512x11 ![0, 512] (a3 m c) slices_S512x523_S512x11_0_512 :=
  (W2_of_ne m ρ c main_v3 (by decide)).trans (e1_v3 m ρ c)
theorem e2_v5 (c : Dev nD) : W2 (F := Ideal) m ρ c (Proc.devRef .tc main_v5) = KTerm.wh16 (a3 m c) :=
  (W2_of_ne m ρ c main_v5 (by decide)).trans (e1_v5 m ρ c)
theorem e2_arg1 (c : Dev nD) : W2 (F := Ideal) m ρ c (Proc.devRef .tc main_arg1) = a1 m c :=
  (W2_of_ne m ρ c main_arg1 (by decide)).trans (e1_arg1 m ρ c)
theorem e2_arg4 (c : Dev nD) : W2 (F := Ideal) m ρ c (Proc.devRef .tc main_arg4) = a4 m c :=
  (W2_of_ne m ρ c main_arg4 (by decide)).trans (e1_arg4 m ρ c)
theorem e2_arg5 (c : Dev nD) : W2 (F := Ideal) m ρ c (Proc.devRef .tc main_arg5) = a5 m c :=
  (W2_of_ne m ρ c main_arg5 (by decide)).trans (e1_arg5 m ρ c)

/-! ## Layer 1 -/

/-- The hidden state the first layer starts from: the first layer's output in the narrower format. -/
abbrev H0 (c : Dev nD) : KTerm.C S50000x512 .bf16 := truncf (F := Ideal) .bf16 (Z m c) bitsLt_bf16_f32

theorem e18_nei (c : Dev nD) : W18 (F := Ideal) m ρ c (Proc.devRef .tc main_v50)
    = KTerm.neiH (H0 m c) KTerm.zeroRow (KTerm.flatIx (a4 m c) (a5 m c)) := by
  rw [KCols1.cols, KHead1.w6_v18, KHead1.w6_v19, KHead1.w6_v21, KHead1.w6_v15, e2_v6, e2_arg4, e2_arg5]
  rfl
theorem e18_v5 (c : Dev nD) : W18 (F := Ideal) m ρ c (Proc.devRef .tc main_v5) = KTerm.wh16 (a3 m c) :=
  (KCols1.keep m ρ main_v5 (by decide) c).trans ((KHead1.w6_v5 m ρ c).trans (e2_v5 m ρ c))
theorem e18_v12 (c : Dev nD) : W18 (F := Ideal) m ρ c (Proc.devRef .tc main_v12) = KTerm.bias16 (Z m c) (a1 m c) (a3 m c) (a4 m c) := by
  refine (KCols1.keep m ρ main_v12 (by decide) c).trans ((KHead1.w6_v12 m ρ c).trans ?_)
  rw [e2_v6, e2_arg1, e2_arg4, e2_v3]
  rfl
theorem e18_v15 (c : Dev nD) : W18 (F := Ideal) m ρ c (Proc.devRef .tc main_v15) = KTerm.flatIx (a4 m c) (a5 m c) := by
  refine (KCols1.keep m ρ main_v15 (by decide) c).trans ((KHead1.w6_v15 m ρ c).trans ?_)
  rw [e2_arg4, e2_arg5]
theorem e18_v17 (c : Dev nD) : W18 (F := Ideal) m ρ c (Proc.devRef .tc main_v17) = KTerm.zeroRow :=
  (KCols1.keep m ρ main_v17 (by decide) c).trans (KHead1.w6_v17 m ρ c)

/-- The hidden state after layer 1. -/
abbrev H1 (c : Dev nD) : KTerm.C S50000x512 .f32 := KTerm.layer (Z m c) (a1 m c) (a3 m c) (a4 m c) (a5 m c) (H0 m c)

theorem e19_H (c : Dev nD) : W19 (F := Ideal) m ρ c (Proc.devRef .tc main_v51) = H1 m c := by
  refine (W19_arr m ρ c 3).trans ((Region1.region1_value (V18 m ρ) c).trans ?_)
  show KTerm.R1 (W18 m ρ c (Proc.devRef .tc main_v50)) (W18 m ρ c (Proc.devRef .tc main_v5)) (W18 m ρ c (Proc.devRef .tc main_v12)) = _
  rw [e18_nei, e18_v5, e18_v12]
  rfl
theorem e19_v5 (c : Dev nD) : W19 (F := Ideal) m ρ c (Proc.devRef .tc main_v5) = KTerm.wh16 (a3 m c) :=
  (W19_arr m ρ c 1).trans (((dat1 (V18 m ρ) c).arrAt_in 1 rfl _).trans ((A_eq1 (V18 m ρ) c 1).trans (e18_v5 m ρ c)))
theorem e19_v12 (c : Dev nD) : W19 (F := Ideal) m ρ c (Proc.devRef .tc main_v12) = KTerm.bias16 (Z m c) (a1 m c) (a3 m c) (a4 m c) :=
  (W19_arr m ρ c 2).trans (((dat1 (V18 m ρ) c).arrAt_in 2 rfl _).trans ((A_eq1 (V18 m ρ) c 2).trans (e18_v12 m ρ c)))
theorem e19_v15 (c : Dev nD) : W19 (F := Ideal) m ρ c (Proc.devRef .tc main_v15) = KTerm.flatIx (a4 m c) (a5 m c) :=
  (W19_of_ne m ρ c main_v15 (by decide)).trans (e18_v15 m ρ c)
theorem e19_v17 (c : Dev nD) : W19 (F := Ideal) m ρ c (Proc.devRef .tc main_v17) = KTerm.zeroRow :=
  (W19_of_ne m ρ c main_v17 (by decide)).trans (e18_v17 m ρ c)

/-! ## Layer 2 -/

theorem e32_nei (c : Dev nD) : W32 (F := Ideal) m ρ c (Proc.devRef .tc main_v84)
    = KTerm.neiH (H1 m c) KTerm.zeroRow (KTerm.flatIx (a4 m c) (a5 m c)) := by
  rw [KCols2.cols, KHead2.at_P, KHead2.at_z, KHead2.at_ix, KHead2.at_fl, e19_H, e19_v17, e19_v15]
  rfl
theorem e32_v5 (c : Dev nD) : W32 (F := Ideal) m ρ c (Proc.devRef .tc main_v5) = KTerm.wh16 (a3 m c) :=
  (KCols2.keep m ρ main_v5 (by decide) c).trans ((KHead2.keep m ρ main_v5 (by decide) c).trans (e19_v5 m ρ c))
theorem e32_v12 (c : Dev nD) : W32 (F := Ideal) m ρ c (Proc.devRef .tc main_v12) = KTerm.bias16 (Z m c) (a1 m c) (a3 m c) (a4 m c) :=
  (KCols2.keep m ρ main_v12 (by decide) c).trans ((KHead2.keep m ρ main_v12 (by decide) c).trans (e19_v12 m ρ c))
theorem e32_v15 (c : Dev nD) : W32 (F := Ideal) m ρ c (Proc.devRef .tc main_v15) = KTerm.flatIx (a4 m c) (a5 m c) :=
  (KCols2.keep m ρ main_v15 (by decide) c).trans ((KHead2.keep m ρ main_v15 (by decide) c).trans (e19_v15 m ρ c))
theorem e32_v17 (c : Dev nD) : W32 (F := Ideal) m ρ c (Proc.devRef .tc main_v17) = KTerm.zeroRow :=
  (KCols2.keep m ρ main_v17 (by decide) c).trans ((KHead2.keep m ρ main_v17 (by decide) c).trans (e19_v17 m ρ c))

/-- The hidden state after layer 2. -/
abbrev H2 (c : Dev nD) : KTerm.C S50000x512 .f32 := KTerm.layer (Z m c) (a1 m c) (a3 m c) (a4 m c) (a5 m c) (H1 m c)

theorem e33_H (c : Dev nD) : W33 (F := Ideal) m ρ c (Proc.devRef .tc main_v85) = H2 m c := by
  refine (W33_arr m ρ c 3).trans ((Region2.region2_value (V32 m ρ) c).trans ?_)
  show KTerm.R1 (W32 m ρ c (Proc.devRef .tc main_v84)) (W32 m ρ c (Proc.devRef .tc main_v5)) (W32 m ρ c (Proc.devRef .tc main_v12)) = _
  rw [e32_nei, e32_v5, e32_v12]
  rfl
theorem e33_v5 (c : Dev nD) : W33 (F := Ideal) m ρ c (Proc.devRef .tc main_v5) = KTerm.wh16 (a3 m c) :=
  (W33_arr m ρ c 1).trans (((dat2 (V32 m ρ) c).arrAt_in 1 rfl _).trans ((A_eq2 (V32 m ρ) c 1).trans (e32_v5 m ρ c)))
theorem e33_v12 (c : Dev nD) : W33 (F := Ideal) m ρ c (Proc.devRef .tc main_v12) = KTerm.bias16 (Z m c) (a1 m c) (a3 m c) (a4 m c) :=
  (W33_arr m ρ c 2).trans (((dat2 (V32 m ρ) c).arrAt_in 2 rfl _).trans ((A_eq2 (V32 m ρ) c 2).trans (e32_v12 m ρ c)))
theorem e33_v15 (c : Dev nD) : W33 (F := Ideal) m ρ c (Proc.devRef .tc main_v15) = KTerm.flatIx (a4 m c) (a5 m c) :=
  (W33_of_ne m ρ c main_v15 (by decide)).trans (e32_v15 m ρ c)
theorem e33_v17 (c : Dev nD) : W33 (F := Ideal) m ρ c (Proc.devRef .tc main_v17) = KTerm.zeroRow :=
  (W33_of_ne m ρ c main_v17 (by decide)).trans (e32_v17 m ρ c)

/-! ## Layer 3 -/

theorem e46_nei (c : Dev nD) : W46 (F := Ideal) m ρ c (Proc.devRef .tc main_v118)
    = KTerm.neiH (H2 m c) KTerm.zeroRow (KTerm.flatIx (a4 m c) (a5 m c)) := by
  rw [KCols3.cols, KHead3.at_P, KHead3.at_z, KHead3.at_ix, KHead3.at_fl, e33_H, e33_v17, e33_v15]
  rfl
theorem e46_v5 (c : Dev nD) : W46 (F := Ideal) m ρ c (Proc.devRef .tc main_v5) = KTerm.wh16 (a3 m c) :=
  (KCols3.keep m ρ main_v5 (by decide) c).trans ((KHead3.keep m ρ main_v5 (by decide) c).trans (e33_v5 m ρ c))
theorem e46_v12 (c : Dev nD) : W46 (F := Ideal) m ρ c (Proc.devRef .tc main_v12) = KTerm.bias16 (Z m c) (a1 m c) (a3 m c) (a4 m c) :=
  (KCols3.keep m ρ main_v12 (by decide) c).trans ((KHead3.keep m ρ main_v12 (by decide) c).trans (e33_v12 m ρ c))
theorem e46_v15 (c : Dev nD) : W46 (F := Ideal) m ρ c (Proc.devRef .tc main_v15) = KTerm.flatIx (a4 m c) (a5 m c) :=
  (KCols3.keep m ρ main_v15 (by decide) c).trans ((KHead3.keep m ρ main_v15 (by decide) c).trans (e33_v15 m ρ c))
theorem e46_v17 (c : Dev nD) : W46 (F := Ideal) m ρ c (Proc.devRef .tc main_v17) = KTerm.zeroRow :=
  (KCols3.keep m ρ main_v17 (by decide) c).trans ((KHead3.keep m ρ main_v17 (by decide) c).trans (e33_v17 m ρ c))

/-- The hidden state after layer 3. -/
abbrev H3 (c : Dev nD) : KTerm.C S50000x512 .f32 := KTerm.layer (Z m c) (a1 m c) (a3 m c) (a4 m c) (a5 m c) (H2 m c)

theorem e47_H (c : Dev nD) : W47 (F := Ideal) m ρ c (Proc.devRef .tc main_v119) = H3 m c := by
  refine (W47_arr m ρ c 3).trans ((Region3.region3_value (V46 m ρ) c).trans ?_)
  show KTerm.R1 (W46 m ρ c (Proc.devRef .tc main_v118)) (W46 m ρ c (Proc.devRef .tc main_v5)) (W46 m ρ c (Proc.devRef .tc main_v12)) = _
  rw [e46_nei, e46_v5, e46_v12]
  rfl
theorem e47_v5 (c : Dev nD) : W47 (F := Ideal) m ρ c (Proc.devRef .tc main_v5) = KTerm.wh16 (a3 m c) :=
  (W47_arr m ρ c 1).trans (((dat3 (V46 m ρ) c).arrAt_in 1 rfl _).trans ((A_eq3 (V46 m ρ) c 1).trans (e46_v5 m ρ c)))
theorem e47_v12 (c : Dev nD) : W47 (F := Ideal) m ρ c (Proc.devRef .tc main_v12) = KTerm.bias16 (Z m c) (a1 m c) (a3 m c) (a4 m c) :=
  (W47_arr m ρ c 2).trans (((dat3 (V46 m ρ) c).arrAt_in 2 rfl _).trans ((A_eq3 (V46 m ρ) c 2).trans (e46_v12 m ρ c)))
theorem e47_v15 (c : Dev nD) : W47 (F := Ideal) m ρ c (Proc.devRef .tc main_v15) = KTerm.flatIx (a4 m c) (a5 m c) :=
  (W47_of_ne m ρ c main_v15 (by decide)).trans (e46_v15 m ρ c)
theorem e47_v17 (c : Dev nD) : W47 (F := Ideal) m ρ c (Proc.devRef .tc main_v17) = KTerm.zeroRow :=
  (W47_of_ne m ρ c main_v17 (by decide)).trans (e46_v17 m ρ c)

/-! ## Layer 4 -/

theorem e60_nei (c : Dev nD) : W60 (F := Ideal) m ρ c (Proc.devRef .tc main_v152)
    = KTerm.neiH (H3 m c) KTerm.zeroRow (KTerm.flatIx (a4 m c) (a5 m c)) := by
  rw [KCols4.cols, KHead4.at_P, KHead4.at_z, KHead4.at_ix, KHead4.at_fl, e47_H, e47_v17, e47_v15]
  rfl
theorem e60_v5 (c : Dev nD) : W60 (F := Ideal) m ρ c (Proc.devRef .tc main_v5) = KTerm.wh16 (a3 m c) :=
  (KCols4.keep m ρ main_v5 (by decide) c).trans ((KHead4.keep m ρ main_v5 (by decide) c).trans (e47_v5 m ρ c))
theorem e60_v12 (c : Dev nD) : W60 (F := Ideal) m ρ c (Proc.devRef .tc main_v12) = KTerm.bias16 (Z m c) (a1 m c) (a3 m c) (a4 m c) :=
  (KCols4.keep m ρ main_v12 (by decide) c).trans ((KHead4.keep m ρ main_v12 (by decide) c).trans (e47_v12 m ρ c))
theorem e60_v15 (c : Dev nD) : W60 (F := Ideal) m ρ c (Proc.devRef .tc main_v15) = KTerm.flatIx (a4 m c) (a5 m c) :=
  (KCols4.keep m ρ main_v15 (by decide) c).trans ((KHead4.keep m ρ main_v15 (by decide) c).trans (e47_v15 m ρ c))
theorem e60_v17 (c : Dev nD) : W60 (F := Ideal) m ρ c (Proc.devRef .tc main_v17) = KTerm.zeroRow :=
  (KCols4.keep m ρ main_v17 (by decide) c).trans ((KHead4.keep m ρ main_v17 (by decide) c).trans (e47_v17 m ρ c))

/-- The hidden state after layer 4. -/
abbrev H4 (c : Dev nD) : KTerm.C S50000x512 .f32 := KTerm.layer (Z m c) (a1 m c) (a3 m c) (a4 m c) (a5 m c) (H3 m c)

theorem e61_H (c : Dev nD) : W61 (F := Ideal) m ρ c (Proc.devRef .tc main_v153) = H4 m c := by
  refine (W61_arr m ρ c 3).trans ((Region4.region4_value (V60 m ρ) c).trans ?_)
  show KTerm.R1 (W60 m ρ c (Proc.devRef .tc main_v152)) (W60 m ρ c (Proc.devRef .tc main_v5)) (W60 m ρ c (Proc.devRef .tc main_v12)) = _
  rw [e60_nei, e60_v5, e60_v12]
  rfl
theorem e61_v5 (c : Dev nD) : W61 (F := Ideal) m ρ c (Proc.devRef .tc main_v5) = KTerm.wh16 (a3 m c) :=
  (W61_arr m ρ c 1).trans (((dat4 (V60 m ρ) c).arrAt_in 1 rfl _).trans ((A_eq4 (V60 m ρ) c 1).trans (e60_v5 m ρ c)))
theorem e61_v12 (c : Dev nD) : W61 (F := Ideal) m ρ c (Proc.devRef .tc main_v12) = KTerm.bias16 (Z m c) (a1 m c) (a3 m c) (a4 m c) :=
  (W61_arr m ρ c 2).trans (((dat4 (V60 m ρ) c).arrAt_in 2 rfl _).trans ((A_eq4 (V60 m ρ) c 2).trans (e60_v12 m ρ c)))
theorem e61_v15 (c : Dev nD) : W61 (F := Ideal) m ρ c (Proc.devRef .tc main_v15) = KTerm.flatIx (a4 m c) (a5 m c) :=
  (W61_of_ne m ρ c main_v15 (by decide)).trans (e60_v15 m ρ c)
theorem e61_v17 (c : Dev nD) : W61 (F := Ideal) m ρ c (Proc.devRef .tc main_v17) = KTerm.zeroRow :=
  (W61_of_ne m ρ c main_v17 (by decide)).trans (e60_v17 m ρ c)

/-! ## The result -/

/-- The result buffer at the end of the run is the program's pure term of the six arguments. -/
theorem result (c : Dev nD) : W62 (F := Ideal) m ρ c (Proc.devRef .tc main_v154)
    = KTerm.outTerm (a0 m c) (a1 m c) (a2 m c) (a3 m c) (a4 m c) (a5 m c) := by
  refine (s5_out (W61 m ρ c)).trans ?_
  rw [e61_H]
  rfl

end Cert.KernelIdeal.KChain

end
-- ==== Proof.KNei.lean ====
/-
  The kernel program's neighbour-row sum read at an index.

  The program gathers, for every atom and each of its six neighbour slots, one row of the hidden table with a zero row
  appended, and adds the six rows. The row number is the composed index: the slot's bond, clamped into the bond
  table, sent through the bond-to-source table with the padding bond sent to the appended row. A gather reads its
  index signed and clamps it into the table; under 0 ≤ source < 50000 that clamp is the identity on a real bond's
  source and keeps the padding bond on the appended zero row. So the sum is, entry by entry, the sum over the atom's
  six bonds of the bond's hidden message.
-/
import proofs.«415842_j44693429682679_3_alg».proof.Proof.KTerm
import proofs.«415842_j44693429682679_3_alg».proof.Proof.Spec
import Idealize.ShloMosaic.Lib.ValueIdx
import Idealize.ShloMosaic.Lib.Pipeline.Value
import Idealize.ShloMosaic.PureOps.Ideal.Laws
import Mathlib.Algebra.BigOperators.Fin

noncomputable section

namespace Cert.KernelIdeal.KNei

open Cert.KernelIdeal Idealize.ShloMosaic Idealize.ShloMosaic.ValueIdx

variable [Facts]
open Facts₀ Facts

/-- A gather of whole rows of a rank-2 table at a column of start indices, read at row a and column k: the table's
    row at the start index read signed and clamped into [0, 50000], at column k. -/
theorem gatherRows_apply {α : Type} (P : S50001x512.Idx → α) (idx : IVec S50000x1 32) (a : Fin 50000) (k : Fin 512) :
    Host.gather gather_S50001x512_S50000x1_S50000x512_1_0_n_n_0_1_1512 P idx (ix2 a k)
      = P (ix2 (⟨min (idx (ix2 a (0 : Fin 1))).toInt.toNat 50000, by omega⟩ : Fin 50001) k) := by
  unfold Host.gather
  congr 1
  funext b
  refine Fin.ext ?_
  show gather_S50001x512_S50000x1_S50000x512_1_0_n_n_0_1_1512.start (ix2 a k) idx b
    + gather_S50001x512_S50000x1_S50000x512_1_0_n_n_0_1_1512.batchCoord (ix2 a k) b
    + gather_S50001x512_S50000x1_S50000x512_1_0_n_n_0_1_1512.offCoord (ix2 a k) b = _
  rw [GatherDims.batchCoord_eq_zero _ _ _ List.not_mem_nil]
  match b with
  | ⟨0, h0⟩ =>
    -- the row axis: collapsed, so no offset; the start is the clamped index
    have hmem : (⟨0, h0⟩ : Fin S50001x512.rank) ∈ gather_S50001x512_S50000x1_S50000x512_1_0_n_n_0_1_1512.startIndexMap :=
      List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hmem]
    have hsi : gather_S50001x512_S50000x1_S50000x512_1_0_n_n_0_1_1512.siIdx (ix2 a k)
        ⟨List.idxOf (⟨0, h0⟩ : Fin S50001x512.rank) gather_S50001x512_S50000x1_S50000x512_1_0_n_n_0_1_1512.startIndexMap,
          List.idxOf_lt_length_iff.2 hmem⟩ = ix2 a (0 : Fin 1) := by
      funext c; refine Fin.ext ?_
      match c with
      | ⟨0, _⟩ => rfl
      | ⟨1, _⟩ => rfl
    rw [hsi]
    rfl
  | ⟨1, h1⟩ =>
    -- the column axis: not in the start index map, so the start is 0; the offset is the column
    have hnm : (⟨1, h1⟩ : Fin S50001x512.rank) ∉ gather_S50001x512_S50000x1_S50000x512_1_0_n_n_0_1_1512.startIndexMap :=
      fun h => Nat.one_ne_zero (congrArg Fin.val (List.mem_singleton.mp h))
    have hs : gather_S50001x512_S50000x1_S50000x512_1_0_n_n_0_1_1512.start (ix2 a k) idx (⟨1, h1⟩ : Fin S50001x512.rank) = 0 := by
      unfold GatherDims.start
      rw [dif_neg hnm]
    rw [hs]
    simp only [Nat.zero_add]
    rfl

/-- The bf16 zero pattern is the extended real 0. -/
theorem ofBits_zero_bf16 : Ideal.ofBits .bf16 0x0000#16 = 0 := by simp [Ideal.ofBits, Ideal.ieee]

/-- The rows an index column names: row a, column k of the result is the padded table's row at the a-th index read
    signed and clamped into [0, 50000], at column k. -/
theorem rows_apply (P : KTerm.C S50001x512 .bf16) (ix : KTerm.C S50000x1 .i32) (a : Fin 50000) (k : Fin 512) :
    KTerm.rows P ix (ix2 a k)
      = P (ix2 (⟨min (ix (ix2 a (0 : Fin 1))).toInt.toNat 50000, by omega⟩ : Fin 50001) k) := by
  unfold KTerm.rows
  rw [extf_apply, gatherRows_apply]
  -- the index column, reshaped to a vector and broadcast back to a column, is itself
  have e : broadcastInDim S50000x1 ![0] bcast_S50000_S50000x1_0 (shapeCast S50000 ix shapeCasts_S50000x1_S50000)
      (ix2 a (0 : Fin 1)) = ix (ix2 a (0 : Fin 1)) := by
    refine (broadcastInDim_apply _ _ _ (ix2 a (0 : Fin 1)) (ix1 a) (fun c => ?_)).trans ?_
    · match c with
      | ⟨0, _⟩ => rfl
    · exact shapeCast_apply ix _ (ix1 a) (ix2 a (0 : Fin 1)) (by
        rw [Shape.rowMajor_val_two, Shape.rowMajor_val_one]
        show a.val * 1 + 0 = a.val
        omega)
  exact congrArg (fun n : Fin 50001 => P (ix2 n k)) (Fin.ext (by
    show min _ 50000 = min _ 50000
    rw [e]))

/-- A row of the padded table below the appended one is the hidden table's. -/
theorem padded_apply_lt (H : KTerm.C S50000x512 .bf16) (z : KTerm.C S1x512 .bf16) (r : Fin 50001) (k : Fin 512)
    (hr : r.val < 50000) : KTerm.padded H z (ix2 r k) = H (ix2 (⟨r.val, hr⟩ : Fin 50000) k) := by
  unfold KTerm.padded
  refine concatenate_pair_apply_left (t := S50001x512) (s₁ := S50000x512) (s₂ := S1x512) (0 : Fin 2) H z
    concatenates_S50000x512_S1x512_S50001x512_d0 (ix2 r k) rfl (ix2 (⟨r.val, hr⟩ : Fin 50000) k) (fun b => ?_)
  match b with
  | ⟨0, _⟩ => rfl
  | ⟨1, _⟩ => rfl

/-- The last row of the padded table is the appended one. -/
theorem padded_apply_last (H : KTerm.C S50000x512 .bf16) (z : KTerm.C S1x512 .bf16) (k : Fin 512) :
    KTerm.padded H z (ix2 (⟨50000, by omega⟩ : Fin 50001) k) = z (ix2 (0 : Fin 1) k) := by
  unfold KTerm.padded
  refine concatenate_pair_apply_right (t := S50001x512) (s₁ := S50000x512) (s₂ := S1x512) (0 : Fin 2) H z
    concatenates_S50000x512_S1x512_S50001x512_d0 (ix2 (⟨50000, by omega⟩ : Fin 50001) k) rfl rfl
    (ix2 (0 : Fin 1) k) (fun b hb => ?_) ?_
  · match b with
    | ⟨0, _⟩ => exact absurd rfl hb
    | ⟨1, _⟩ => rfl
  · show 0 + 50000 = 50000
    rfl

/-- The appended row is zero everywhere. -/
theorem zeroRow_apply (i : S1x512.Idx) : (KTerm.zeroRow i : EReal) = 0 := by
  unfold KTerm.zeroRow
  show Ideal.ofBits .bf16 0x0000#16 = 0
  exact ofBits_zero_bf16

/-- The padding bond's source is the appended row's number. -/
theorem srcIx_apply_zero (x5 : KTerm.C S119999 .i32) : KTerm.srcIx x5 (ix1 (0 : Fin 120000)) = 50000#32 := by
  unfold KTerm.srcIx
  refine (concatenate_pair_apply_left (t := S120000) (s₁ := S1) (s₂ := S119999) (0 : Fin 1)
    (broadcastInDim S1 ![] bcast_S_S1 (constantI S_ 32 50000#32)) x5 concatenates_S1_S119999_S120000_d0
    (ix1 (0 : Fin 120000)) rfl (ix1 (0 : Fin 1)) (fun b => ?_)).trans ?_
  · match b with
    | ⟨0, _⟩ => rfl
  · rfl

/-- A real bond's source is the table's entry one place down. -/
theorem srcIx_apply_succ (x5 : KTerm.C S119999 .i32) (b : Fin 120000) (hb : b.val ≠ 0) :
    KTerm.srcIx x5 (ix1 b) = x5 (ix1 (⟨b.val - 1, by omega⟩ : Fin 119999)) := by
  unfold KTerm.srcIx
  refine concatenate_pair_apply_right (t := S120000) (s₁ := S1) (s₂ := S119999) (0 : Fin 1)
    (broadcastInDim S1 ![] bcast_S_S1 (constantI S_ 32 50000#32)) x5 concatenates_S1_S119999_S120000_d0
    (ix1 b) rfl rfl (ix1 (⟨b.val - 1, by omega⟩ : Fin 119999)) (fun c hc => ?_) ?_
  · match c with
    | ⟨0, _⟩ => exact absurd rfl hc
  · show (b.val - 1) + 1 = b.val
    omega

/-- The composed index: the source entry of the atom's j-th bond. -/
theorem flatIx_apply (x4 : KTerm.C S50000x6 .i32) (x5 : KTerm.C S119999 .i32) (a : Fin 50000) (j : Fin 6) :
    KTerm.flatIx x4 x5 (ix2 a j) = KTerm.srcIx x5 (ix1 (Cert.MsgPass.bond (fun a j => x4 (ix2 a j)) a j)) := by
  unfold KTerm.flatIx
  have hd : gather_S120000_S50000x6x1_S50000x6_n_0_n_n_0_2_1
      = takeDims 120000 50000 6 gather_S120000_S50000x6x1_S50000x6_n_0_n_n_0_2_1_wf := rfl
  rw [hd]
  refine (gather_take_apply (by decide) _ _ _ (ix2 a j)).trans ?_
  -- the bond table with a unit axis added reads the bond table
  have e : broadcastInDim S50000x6x1 ![0, 1] bcast_S50000x6_S50000x6x1_0_1 x4 (takeIdx (ix2 a j)) = x4 (ix2 a j) := by
    refine broadcastInDim_apply _ _ x4 (takeIdx (ix2 a j)) (ix2 a j) (fun c => ?_)
    match c with
    | ⟨0, _⟩ => rfl
    | ⟨1, _⟩ => rfl
  exact congrArg (fun n : Fin 120000 => KTerm.srcIx x5 (ix1 n)) (Fin.ext (by
    show min _ (120000 - 1) = min _ (120000 - 1)
    rw [e]))

/-- One neighbour row: the padded table at the clamped composed index is the bond's hidden message. -/
theorem row_eq (H : KTerm.C S50000x512 .bf16) (x4 : KTerm.C S50000x6 .i32) (x5 : KTerm.C S119999 .i32)
    (hN0 : ∀ i, 0 ≤ (x5 i).toInt) (hN1 : ∀ i, (x5 i).toInt < 50000) (a : Fin 50000) (j : Fin 6) (k : Fin 512) :
    (KTerm.padded H KTerm.zeroRow
        (ix2 (⟨min (KTerm.flatIx x4 x5 (ix2 a j)).toInt.toNat 50000, by omega⟩ : Fin 50001) k) : EReal)
      = Cert.MsgPass.msgH (fun r q => H (ix2 r q)) (fun j => x5 (ix1 j))
          (Cert.MsgPass.bond (fun a j => x4 (ix2 a j)) a j) k := by
  have hf := flatIx_apply x4 x5 a j
  by_cases hb : (Cert.MsgPass.bond (fun a j => x4 (ix2 a j)) a j).val = 0
  · -- the padding bond: source 50000, the appended zero row
    have hb0 : Cert.MsgPass.bond (fun a j => x4 (ix2 a j)) a j = (0 : Fin 120000) := Fin.ext hb
    have hv : KTerm.flatIx x4 x5 (ix2 a j) = 50000#32 := by rw [hf, hb0]; exact srcIx_apply_zero x5
    have hrow : (⟨min (KTerm.flatIx x4 x5 (ix2 a j)).toInt.toNat 50000, by omega⟩ : Fin 50001)
        = (⟨50000, by omega⟩ : Fin 50001) := Fin.ext (by
      show min (KTerm.flatIx x4 x5 (ix2 a j)).toInt.toNat 50000 = 50000
      rw [hv]; decide)
    rw [hrow, padded_apply_last, zeroRow_apply]
    unfold Cert.MsgPass.msgH
    rw [dif_pos hb]
  · -- a real bond: its source atom is in range, so both clamps are the identity
    have hv : KTerm.flatIx x4 x5 (ix2 a j)
        = x5 (ix1 (⟨(Cert.MsgPass.bond (fun a j => x4 (ix2 a j)) a j).val - 1, by omega⟩ : Fin 119999)) := by
      rw [hf]; exact srcIx_apply_succ x5 _ hb
    have h0 := hN0 (ix1 (⟨(Cert.MsgPass.bond (fun a j => x4 (ix2 a j)) a j).val - 1, by omega⟩ : Fin 119999))
    have h1 := hN1 (ix1 (⟨(Cert.MsgPass.bond (fun a j => x4 (ix2 a j)) a j).val - 1, by omega⟩ : Fin 119999))
    rw [← hv] at h0 h1
    have hlt : (KTerm.flatIx x4 x5 (ix2 a j)).toInt.toNat < 50000 := by omega
    have hrow : (⟨min (KTerm.flatIx x4 x5 (ix2 a j)).toInt.toNat 50000, by omega⟩ : Fin 50001)
        = (⟨(KTerm.flatIx x4 x5 (ix2 a j)).toInt.toNat, by omega⟩ : Fin 50001) := Fin.ext (by
      show min (KTerm.flatIx x4 x5 (ix2 a j)).toInt.toNat 50000 = (KTerm.flatIx x4 x5 (ix2 a j)).toInt.toNat
      omega)
    rw [hrow, padded_apply_lt H KTerm.zeroRow _ k hlt]
    unfold Cert.MsgPass.msgH
    rw [dif_neg hb]
    refine congrArg (fun n : Fin 50000 => H (ix2 n k)) (Fin.ext ?_)
    show (KTerm.flatIx x4 x5 (ix2 a j)).toInt.toNat
      = min (x5 (ix1 (⟨(Cert.MsgPass.bond (fun a j => x4 (ix2 a j)) a j).val - 1, by omega⟩ : Fin 119999))).toInt.toNat (50000 - 1)
    rw [← hv]
    omega

/-- One term of the kernel program's sum: the rows named by column j of the composed index. -/
theorem rows_slice_apply (P : KTerm.C S50001x512 .bf16) (flat : KTerm.C S50000x6 .i32) (off : Fin 2 → Nat)
    (h : S50000x6.Slices off S50000x1) (j : Fin 6) (h0 : off 0 = 0) (h1 : off 1 = j.val) (a : Fin 50000) (k : Fin 512) :
    KTerm.rows P (extractStridedSlice S50000x1 off flat h) (ix2 a k)
      = P (ix2 (⟨min (flat (ix2 a j)).toInt.toNat 50000, by omega⟩ : Fin 50001) k) := by
  rw [rows_apply]
  have e : extractStridedSlice S50000x1 off flat h (ix2 a (0 : Fin 1)) = flat (ix2 a j) :=
    extractStridedSlice_apply off flat h (ix2 a (0 : Fin 1)) (ix2 a j) (fun c => by
      match c with
      | ⟨0, _⟩ => show a.val = off 0 + a.val; omega
      | ⟨1, _⟩ => show j.val = off 1 + 0; omega)
  exact congrArg (fun n : Fin 50001 => P (ix2 n k)) (Fin.ext (by
    show min _ 50000 = min _ 50000
    rw [e]))

/-- THE NEIGHBOUR-ROW SUM AT AN INDEX: the kernel program's six gathered rows, added left to right onto zero, are the
    sum over the atom's six bonds of the bond's hidden message. -/
theorem neiH_apply (H : KTerm.C S50000x512 .bf16) (x4 : KTerm.C S50000x6 .i32) (x5 : KTerm.C S119999 .i32)
    (hA : ∀ i, 0 ≤ (x4 i).toInt) (hN0 : ∀ i, 0 ≤ (x5 i).toInt) (hN1 : ∀ i, (x5 i).toInt < 50000) (a : Fin 50000) (k : Fin 512) :
    KTerm.neiH H KTerm.zeroRow (KTerm.flatIx x4 x5) (ValueIdx.ix2 a k)
      = ∑ j : Fin 6, Cert.MsgPass.msgH (fun r q => H (ValueIdx.ix2 r q)) (fun j => x5 (ValueIdx.ix1 j)) (Cert.MsgPass.bond (fun a j => x4 (ValueIdx.ix2 a j)) a j) k := by
  have t0 := (rows_slice_apply (KTerm.padded H KTerm.zeroRow) (KTerm.flatIx x4 x5) ![0, 0] slices_S50000x6_S50000x1_0_0 0 rfl rfl a k).trans (row_eq H x4 x5 hN0 hN1 a 0 k)
  have t1 := (rows_slice_apply (KTerm.padded H KTerm.zeroRow) (KTerm.flatIx x4 x5) ![0, 1] slices_S50000x6_S50000x1_0_1 1 rfl rfl a k).trans (row_eq H x4 x5 hN0 hN1 a 1 k)
  have t2 := (rows_slice_apply (KTerm.padded H KTerm.zeroRow) (KTerm.flatIx x4 x5) ![0, 2] slices_S50000x6_S50000x1_0_2 2 rfl rfl a k).trans (row_eq H x4 x5 hN0 hN1 a 2 k)
  have t3 := (rows_slice_apply (KTerm.padded H KTerm.zeroRow) (KTerm.flatIx x4 x5) ![0, 3] slices_S50000x6_S50000x1_0_3 3 rfl rfl a k).trans (row_eq H x4 x5 hN0 hN1 a 3 k)
  have t4 := (rows_slice_apply (KTerm.padded H KTerm.zeroRow) (KTerm.flatIx x4 x5) ![0, 4] slices_S50000x6_S50000x1_0_4 4 rfl rfl a k).trans (row_eq H x4 x5 hN0 hN1 a 4 k)
  have t5 := (rows_slice_apply (KTerm.padded H KTerm.zeroRow) (KTerm.flatIx x4 x5) ![0, 5] slices_S50000x6_S50000x1_0_5 5 rfl rfl a k).trans (row_eq H x4 x5 hN0 hN1 a 5 k)
  have hz : (broadcastInDim S50000x512 ![] bcast_S_S50000x512 (constant (F := Ideal) S_ .f32 0x00000000#32) (ix2 a k) : EReal) = 0 :=
    Ideal.ofBits_zero_f32
  unfold KTerm.neiH
  rw [truncf_apply, addf_apply, addf_apply, addf_apply, addf_apply, addf_apply, addf_apply,
    hz, t0, t1, t2, t3, t4, t5, zero_add, Fin.sum_univ_six]

end Cert.KernelIdeal.KNei

end
-- ==== Proof.KValue.lean ====
/-
  The kernel program's result term read at an index.

  Every piece of the term is read entry by entry: the transposed weights are the weights with the two coordinates
  swapped, the bond-feature part of the second weight is its columns 512..522, the sum of an atom's six bonds'
  features is a sum over the six slots of the feature table at the clamped bond number, and the product with the
  bond-feature weight is a sum over the 11 features. Put together, one layer is the split form of the message
  passing step, given that the neighbour rows add up to the sum of the six bonds' hidden messages; four layers over
  the first layer, transposed, are the specification's result.
-/
import proofs.«415842_j44693429682679_3_alg».proof.Proof.KTerm
import proofs.«415842_j44693429682679_3_alg».proof.Proof.Spec
import Idealize.ShloMosaic.Lib.Pipeline.Value
import Idealize.ShloMosaic.Lib.ValueIdx
import Idealize.ShloMosaic.PureOps.Ideal.Laws

noncomputable section

namespace Cert.KernelIdeal.KValue

open Cert.KernelIdeal Idealize.ShloMosaic Idealize.ShloMosaic.ValueIdx

variable [Facts]
open Facts₀ Facts

/-! ## The two entrywise formulas at explicit coordinates -/

/-- The first product-and-clip at row p, column q. -/
theorem R0_entry (x : KTerm.C S50000x39 .f32) (w : KTerm.C S39x512 .bf16) (p : Fin 50000) (q : Fin 512) :
    KTerm.R0 x w (ix2 p q) = max (∑ k : Fin 39, x (ix2 p k) * w (ix2 k q)) 0 := rfl

/-- The later product-plus-bias-and-clip at row p, column q. -/
theorem R1_entry (a : KTerm.C S50000x512 .bf16) (w : KTerm.C S512x512 .bf16) (b : KTerm.C S50000x512 .bf16)
    (p : Fin 50000) (q : Fin 512) :
    KTerm.R1 a w b (ix2 p q) = max (b (ix2 p q) + ∑ k : Fin 512, a (ix2 p k) * w (ix2 k q)) 0 := rfl

/-! ## The weights -/

/-- The transposed first weight: entry (k, h) is the weight's entry (h, k). -/
theorem wn16_apply (x2 : KTerm.C S512x39 .f32) (k : Fin 39) (h : Fin 512) :
    KTerm.wn16 x2 (ix2 k h) = x2 (ix2 h k) := by
  unfold KTerm.wn16
  show transpose S39x512 [1, 0] x2 transposes_S512x39_S39x512_1_0 (ix2 k h) = _
  exact transpose_apply [1, 0] x2 transposes_S512x39_S39x512_1_0 (ix2 k h) (ix2 h k) (fun b => match b with
    | ⟨0, _⟩ => rfl
    | ⟨1, _⟩ => rfl)

/-- The transposed hidden-to-hidden weight: entry (k, h) is the second weight's entry (h, k). -/
theorem wh16_apply (x3 : KTerm.C S512x523 .f32) (k : Fin 512) (h : Fin 512) :
    KTerm.wh16 x3 (ix2 k h) = x3 (ix2 h (⟨k.val, by omega⟩ : Fin 523)) := by
  unfold KTerm.wh16
  show transpose S512x512 [1, 0] (extractStridedSlice S512x512 ![0, 0] x3 slices_S512x523_S512x512_0_0)
    transposes_S512x512_S512x512_1_0 (ix2 k h) = _
  refine (transpose_apply [1, 0] _ transposes_S512x512_S512x512_1_0 (ix2 k h) (ix2 h k) (fun b => match b with
    | ⟨0, _⟩ => rfl
    | ⟨1, _⟩ => rfl)).trans ?_
  exact extractStridedSlice_apply ![0, 0] x3 slices_S512x523_S512x512_0_0 (ix2 h k) (ix2 h (⟨k.val, by omega⟩ : Fin 523))
    (fun a => match a with
      | ⟨0, _⟩ => by show h.val = 0 + h.val; omega
      | ⟨1, _⟩ => by show k.val = 0 + k.val; omega)

/-- The transposed bond-feature weight: entry (f, h) is the second weight's entry (h, 512 + f). -/
theorem wbT_apply (x3 : KTerm.C S512x523 .f32) (f : Fin 11) (h : Fin 512) :
    KTerm.wbT x3 (ix2 f h) = x3 (ix2 h (⟨512 + f.val, by omega⟩ : Fin 523)) := by
  unfold KTerm.wbT
  refine (transpose_apply [1, 0] _ transposes_S512x11_S11x512_1_0 (ix2 f h) (ix2 h f) (fun b => match b with
    | ⟨0, _⟩ => rfl
    | ⟨1, _⟩ => rfl)).trans ?_
  exact extractStridedSlice_apply ![0, 512] x3 slices_S512x523_S512x11_0_512 (ix2 h f) (ix2 h (⟨512 + f.val, by omega⟩ : Fin 523))
    (fun a => match a with
      | ⟨0, _⟩ => by show h.val = 0 + h.val; omega
      | ⟨1, _⟩ => by show 512 + f.val = 512 + f.val; rfl)

/-! ## An atom's six bonds' features, added up -/

/-- The gather's row coordinate: the start index of slot (y 0, y 1), read signed and clamped into the 120000 rows. -/
theorem gatherB_row (idx : IVec S50000x6x1 32) (y : S50000x6x11.Idx) :
    (gather_S120000x11_S50000x6x1_S50000x6x11_2_0_n_n_0_2_111.operandIdx y idx 0).val
      = min (idx (ix3 (⟨(y 0).val, (y 0).isLt⟩ : Fin 50000) (⟨(y 1).val, (y 1).isLt⟩ : Fin 6) (⟨0, Nat.one_pos⟩ : Fin 1))).toInt.toNat (120000 - 1) := by
  show gather_S120000x11_S50000x6x1_S50000x6x11_2_0_n_n_0_2_111.start y idx 0
      + gather_S120000x11_S50000x6x1_S50000x6x11_2_0_n_n_0_2_111.batchCoord y 0
      + gather_S120000x11_S50000x6x1_S50000x6x11_2_0_n_n_0_2_111.offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin S120000x11.rank) ∈ gather_S120000x11_S50000x6x1_S50000x6x11_2_0_n_n_0_2_111.startIndexMap
    from List.mem_singleton.mpr rfl)]
  have hsi : gather_S120000x11_S50000x6x1_S50000x6x11_2_0_n_n_0_2_111.siIdx y
      ⟨List.idxOf (0 : Fin S120000x11.rank) gather_S120000x11_S50000x6x1_S50000x6x11_2_0_n_n_0_2_111.startIndexMap,
        List.idxOf_lt_length_iff.2 (List.mem_singleton.mpr rfl)⟩
      = ix3 (⟨(y 0).val, (y 0).isLt⟩ : Fin 50000) (⟨(y 1).val, (y 1).isLt⟩ : Fin 6) (⟨0, Nat.one_pos⟩ : Fin 1) := by
    funext b; refine Fin.ext ?_
    match b with
    | ⟨0, _⟩ => rfl
    | ⟨1, _⟩ => rfl
    | ⟨2, _⟩ => rfl
  rw [hsi]
  rfl

/-- The gather's column coordinate: the feature number. -/
theorem gatherB_col (idx : IVec S50000x6x1 32) (y : S50000x6x11.Idx) :
    (gather_S120000x11_S50000x6x1_S50000x6x11_2_0_n_n_0_2_111.operandIdx y idx 1).val = (y 2).val := by
  show gather_S120000x11_S50000x6x1_S50000x6x11_2_0_n_n_0_2_111.start y idx 1
      + gather_S120000x11_S50000x6x1_S50000x6x11_2_0_n_n_0_2_111.batchCoord y 1
      + gather_S120000x11_S50000x6x1_S50000x6x11_2_0_n_n_0_2_111.offCoord y 1 = _
  rw [GatherDims.batchCoord_eq_zero _ _ _ List.not_mem_nil]
  unfold GatherDims.start
  rw [dif_neg (show ¬ (1 : Fin S120000x11.rank) ∈ gather_S120000x11_S50000x6x1_S50000x6x11_2_0_n_n_0_2_111.startIndexMap
    from fun h => absurd (List.mem_singleton.mp h) (by decide))]
  unfold GatherDims.offCoord
  rw [dif_pos (show (1 : Fin S120000x11.rank) ∈ gather_S120000x11_S50000x6x1_S50000x6x11_2_0_n_n_0_2_111.sKept
    from (GatherDims.mem_sKept _ _).mpr ⟨fun h => absurd (List.mem_singleton.mp h) (by decide), List.not_mem_nil⟩)]
  simp only [Nat.add_zero, Nat.zero_add]
  rfl

/-- The gathered feature table at atom a, slot j, feature f: feature f of the bond that slot names. -/
theorem gatherB_apply (x1 : KTerm.C S120000x11 .f32) (x4 : KTerm.C S50000x6 .i32) (a : Fin 50000) (j : Fin 6) (f : Fin 11) :
    Host.gather gather_S120000x11_S50000x6x1_S50000x6x11_2_0_n_n_0_2_111 x1
        (broadcastInDim S50000x6x1 ![0, 1] bcast_S50000x6_S50000x6x1_0_1 x4) (ix3 a j f)
      = x1 (ix2 (Cert.MsgPass.bond (fun a j => x4 (ix2 a j)) a j) f) := by
  unfold Host.gather
  refine congrArg x1 (funext fun ax => Fin.ext ?_)
  match ax with
  | ⟨0, _⟩ =>
    refine (gatherB_row _ (ix3 a j f)).trans ?_
    show min (broadcastInDim S50000x6x1 ![0, 1] bcast_S50000x6_S50000x6x1_0_1 x4 (ix3 a j (⟨0, Nat.one_pos⟩ : Fin 1))).toInt.toNat (120000 - 1)
      = min (x4 (ix2 a j)).toInt.toNat (120000 - 1)
    rw [broadcastInDim_apply ![0, 1] bcast_S50000x6_S50000x6x1_0_1 x4 (ix3 a j (⟨0, Nat.one_pos⟩ : Fin 1)) (ix2 a j)
      (fun b => match b with
        | ⟨0, _⟩ => rfl
        | ⟨1, _⟩ => rfl)]
  | ⟨1, _⟩ => exact gatherB_col _ (ix3 a j f)

/-- The sum over the six slots, from the initial value zero. -/
theorem reduceB_apply (y0 : KTerm.C S50000x6x11 .f32) (a : Fin 50000) (f : Fin 11) :
    Host.reduceAdd (F := Ideal) (φ := .f32) y0 (constant (F := Ideal) S_ .f32 0x00000000#32)
        reducesTo_S50000x6x11_S50000x11_d1 h_S_ (ix2 a f)
      = ∑ j : Fin 6, y0 (ix3 a j f) := by
  simp only [Host.reduceAdd, Ideal.hostReduceAdd_def]
  rw [Ideal.hostReduceAdd_single reducesTo_S50000x6x11_S50000x11_d1 (by decide)]
  refine Eq.trans (congrArg₂ (· + ·) Ideal.ofBits_zero_f32 (Finset.sum_congr rfl fun k _ => ?_)) (zero_add _)
  exact congrArg y0 (funext fun ax => Fin.ext (by match ax with | ⟨0, _⟩ => rfl | ⟨1, _⟩ => rfl | ⟨2, _⟩ => rfl))

/-- Feature f of atom a's six bonds, added up. -/
theorem neiB_apply (x1 : KTerm.C S120000x11 .f32) (x4 : KTerm.C S50000x6 .i32) (a : Fin 50000) (f : Fin 11) :
    KTerm.neiB x1 x4 (ix2 a f) = ∑ j : Fin 6, x1 (ix2 (Cert.MsgPass.bond (fun a j => x4 (ix2 a j)) a j) f) := by
  unfold KTerm.neiB
  refine (reduceB_apply _ a f).trans ?_
  exact Finset.sum_congr rfl fun j _ => gatherB_apply x1 x4 a j f

/-! ## The bond features through their weight -/

theorem dotB_lhs_0 (i : S50000x512.Idx) (q : dot_S50000x11_S11x512_S50000x512_1_0_0_1_n_n.contr.Idx) :
    (dot_S50000x11_S11x512_S50000x512_1_0_0_1_n_n.lhsIdx i q 0).val = (i 0).val := by
  unfold DotDims.lhsIdx
  rw [dif_neg (show ¬(0 : Fin S50000x11.rank) ∈ dot_S50000x11_S11x512_S50000x512_1_0_0_1_n_n.lhsBatch from List.not_mem_nil),
    dif_pos (show (0 : Fin S50000x11.rank) ∈ dot_S50000x11_S11x512_S50000x512_1_0_0_1_n_n.lhsNonContracting
      from List.mem_singleton.mpr rfl)]
  rfl
theorem dotB_lhs_1 (i : S50000x512.Idx) (q : dot_S50000x11_S11x512_S50000x512_1_0_0_1_n_n.contr.Idx)
    (h0 : 0 < dot_S50000x11_S11x512_S50000x512_1_0_0_1_n_n.contr.rank) :
    (dot_S50000x11_S11x512_S50000x512_1_0_0_1_n_n.lhsIdx i q 1).val = (q ⟨0, h0⟩).val :=
  dot_S50000x11_S11x512_S50000x512_1_0_0_1_n_n.lhsIdx_val_of_single rfl i q
theorem dotB_rhs_0 (i : S50000x512.Idx) (q : dot_S50000x11_S11x512_S50000x512_1_0_0_1_n_n.contr.Idx)
    (h0 : 0 < dot_S50000x11_S11x512_S50000x512_1_0_0_1_n_n.contr.rank) :
    (dot_S50000x11_S11x512_S50000x512_1_0_0_1_n_n.rhsIdx i q 0).val = (q ⟨0, h0⟩).val :=
  dot_S50000x11_S11x512_S50000x512_1_0_0_1_n_n.rhsIdx_val_of_single rfl i q
theorem dotB_rhs_1 (i : S50000x512.Idx) (q : dot_S50000x11_S11x512_S50000x512_1_0_0_1_n_n.contr.Idx) :
    (dot_S50000x11_S11x512_S50000x512_1_0_0_1_n_n.rhsIdx i q 1).val = (i 1).val := by
  unfold DotDims.rhsIdx
  rw [dif_neg (show ¬(1 : Fin S11x512.rank) ∈ dot_S50000x11_S11x512_S50000x512_1_0_0_1_n_n.rhsBatch from List.not_mem_nil),
    dif_pos (show (1 : Fin S11x512.rank) ∈ dot_S50000x11_S11x512_S50000x512_1_0_0_1_n_n.rhsNonContracting
      from List.mem_singleton.mpr rfl)]
  rfl

/-- The product of a [50000, 11] table with an [11, 512] table at (a, h): the sum over the 11 features. -/
theorem dotB_apply (l : KTerm.C S50000x11 .f32) (r : KTerm.C S11x512 .f32) (a : Fin 50000) (h : Fin 512) :
    (Host.dotGeneral (F := Ideal) (φ₁ := .f32) (φ₂ := .f32) dot_S50000x11_S11x512_S50000x512_1_0_0_1_n_n none l r
        : KTerm.C S50000x512 .f32) (ix2 a h)
      = ∑ f : Fin 11, l (ix2 a f) * r (ix2 f h) := by
  simp only [Host.dotGeneral]
  rw [Ideal.dotGeneral_apply, ← Equiv.sum_comp (contrEquiv1 dot_S50000x11_S11x512_S50000x512_1_0_0_1_n_n 11 rfl rfl).symm]
  refine Finset.sum_congr rfl fun k _ => ?_
  have hk := contrEquiv1_symm_val dot_S50000x11_S11x512_S50000x512_1_0_0_1_n_n 11 rfl rfl k
  have el : dot_S50000x11_S11x512_S50000x512_1_0_0_1_n_n.lhsIdx (ix2 a h)
      ((contrEquiv1 dot_S50000x11_S11x512_S50000x512_1_0_0_1_n_n 11 rfl rfl).symm k) = ix2 a k := funext fun ax => Fin.ext (by
    match ax with
    | ⟨0, _⟩ => exact dotB_lhs_0 _ _
    | ⟨1, _⟩ => exact (dotB_lhs_1 _ _ _).trans hk)
  have er : dot_S50000x11_S11x512_S50000x512_1_0_0_1_n_n.rhsIdx (ix2 a h)
      ((contrEquiv1 dot_S50000x11_S11x512_S50000x512_1_0_0_1_n_n 11 rfl rfl).symm k) = ix2 k h := funext fun ax => Fin.ext (by
    match ax with
    | ⟨0, _⟩ => exact (dotB_rhs_0 _ _ _).trans hk
    | ⟨1, _⟩ => exact dotB_rhs_1 _ _)
  rw [el, er]

/-- The layer-invariant bias at (a, h): the first layer's entry plus the bond-feature sums through their weight. -/
theorem bias16_apply (z : KTerm.C S50000x512 .f32) (x1 : KTerm.C S120000x11 .f32) (x3 : KTerm.C S512x523 .f32)
    (x4 : KTerm.C S50000x6 .i32) (a : Fin 50000) (h : Fin 512) :
    KTerm.bias16 z x1 x3 x4 (ix2 a h)
      = z (ix2 a h) + ∑ f : Fin 11, (∑ j : Fin 6, x1 (ix2 (Cert.MsgPass.bond (fun a j => x4 (ix2 a j)) a j) f))
          * x3 (ix2 h (⟨512 + f.val, by omega⟩ : Fin 523)) := by
  unfold KTerm.bias16
  show z (ix2 a h) + (Host.dotGeneral (F := Ideal) (φ₁ := .f32) (φ₂ := .f32) dot_S50000x11_S11x512_S50000x512_1_0_0_1_n_n none
      (KTerm.neiB x1 x4) (KTerm.wbT x3) : KTerm.C S50000x512 .f32) (ix2 a h) = _
  rw [dotB_apply]
  simp only [neiB_apply, wbT_apply]

/-! ## The first layer, one message passing layer, the whole result -/

/-- The first product-and-clip is the specification's first layer. -/
theorem R0_apply (x0 : KTerm.C S50000x39 .f32) (x2 : KTerm.C S512x39 .f32) (a : Fin 50000) (h : Fin 512) :
    KTerm.R0 x0 (KTerm.wn16 x2) (ix2 a h)
      = Cert.MsgPass.h0 (fun a k => x0 (ix2 a k)) (fun r k => x2 (ix2 r k)) a h := by
  rw [R0_entry]
  simp only [wn16_apply]
  rfl

/-- One layer of the kernel program is one message passing step, given that the neighbour rows add up to the sum of
    the six bonds' hidden messages: the bias is the first layer plus the bond-feature part of the step's sum, the
    product with the hidden-to-hidden weight is its hidden part. -/
theorem layer_apply (z : KTerm.C S50000x512 .f32) (x1 : KTerm.C S120000x11 .f32) (x3 : KTerm.C S512x523 .f32)
    (x4 : KTerm.C S50000x6 .i32) (x5 : KTerm.C S119999 .i32) (H : KTerm.C S50000x512 .bf16)
    (hnei : ∀ (a : Fin 50000) (k : Fin 512), KTerm.neiH H KTerm.zeroRow (KTerm.flatIx x4 x5) (ix2 a k)
        = ∑ j : Fin 6, Cert.MsgPass.msgH (fun r q => H (ix2 r q)) (fun j => x5 (ix1 j))
            (Cert.MsgPass.bond (fun a j => x4 (ix2 a j)) a j) k)
    (a : Fin 50000) (h : Fin 512) :
    KTerm.layer z x1 x3 x4 x5 H (ix2 a h)
      = Cert.MsgPass.step (fun a h => z (ix2 a h)) (fun b f => x1 (ix2 b f)) (fun r k => x3 (ix2 r k))
          (fun a j => x4 (ix2 a j)) (fun j => x5 (ix1 j)) (fun a h => H (ix2 a h)) a h := by
  rw [Cert.MsgPass.step_eq_stepSplit]
  unfold KTerm.layer
  rw [R1_entry, bias16_apply]
  simp only [hnei, wh16_apply]
  rfl

/-- The whole result: four layers over the first layer, transposed. -/
theorem outTerm_apply (x0 : KTerm.C S50000x39 .f32) (x1 : KTerm.C S120000x11 .f32) (x2 : KTerm.C S512x39 .f32)
    (x3 : KTerm.C S512x523 .f32) (x4 : KTerm.C S50000x6 .i32) (x5 : KTerm.C S119999 .i32)
    (hnei : ∀ (H : KTerm.C S50000x512 .bf16) (a : Fin 50000) (k : Fin 512),
        KTerm.neiH H KTerm.zeroRow (KTerm.flatIx x4 x5) (ix2 a k)
        = ∑ j : Fin 6, Cert.MsgPass.msgH (fun r q => H (ix2 r q)) (fun j => x5 (ix1 j))
            (Cert.MsgPass.bond (fun a j => x4 (ix2 a j)) a j) k)
    (h : Fin 512) (a : Fin 50000) :
    KTerm.outTerm x0 x1 x2 x3 x4 x5 (ix2 h a)
      = Cert.MsgPass.out (fun a k => x0 (ix2 a k)) (fun b f => x1 (ix2 b f)) (fun r k => x2 (ix2 r k))
          (fun r k => x3 (ix2 r k)) (fun a j => x4 (ix2 a j)) (fun j => x5 (ix1 j)) h a := by
  -- the first layer as a function of the atom and the hidden unit
  have e0 : (fun (a : Fin 50000) (h : Fin 512) => KTerm.R0 x0 (KTerm.wn16 x2) (ix2 a h))
      = Cert.MsgPass.h0 (fun a k => x0 (ix2 a k)) (fun r k => x2 (ix2 r k)) :=
    funext fun a => funext fun h => R0_apply x0 x2 a h
  -- one layer as a function of the atom and the hidden unit
  have hL : ∀ H : KTerm.C S50000x512 .bf16,
      (fun (a : Fin 50000) (h : Fin 512) => KTerm.layer (KTerm.R0 x0 (KTerm.wn16 x2)) x1 x3 x4 x5 H (ix2 a h))
        = Cert.MsgPass.step (Cert.MsgPass.h0 (fun a k => x0 (ix2 a k)) (fun r k => x2 (ix2 r k))) (fun b f => x1 (ix2 b f))
            (fun r k => x3 (ix2 r k)) (fun a j => x4 (ix2 a j)) (fun j => x5 (ix1 j)) (fun a h => H (ix2 a h)) := fun H =>
    (funext fun a => funext fun h => layer_apply (KTerm.R0 x0 (KTerm.wn16 x2)) x1 x3 x4 x5 H (hnei H) a h).trans
      (congrArg (fun Z => Cert.MsgPass.step Z (fun b f => x1 (ix2 b f)) (fun r k => x3 (ix2 r k)) (fun a j => x4 (ix2 a j))
        (fun j => x5 (ix1 j)) (fun a h => H (ix2 a h))) e0)
  have e1 := (hL (truncf (F := Ideal) .bf16 (KTerm.R0 x0 (KTerm.wn16 x2)) bitsLt_bf16_f32)).trans
    (congrArg (Cert.MsgPass.step _ _ _ _ _) e0)
  have e2 := (hL _).trans (congrArg (Cert.MsgPass.step _ _ _ _ _) e1)
  have e3 := (hL _).trans (congrArg (Cert.MsgPass.step _ _ _ _ _) e2)
  have e4 := (hL _).trans (congrArg (Cert.MsgPass.step _ _ _ _ _) e3)
  unfold KTerm.outTerm
  refine (transpose_apply [1, 0] _ transposes_S50000x512_S512x50000_1_0 (ix2 h a) (ix2 a h) (fun b => match b with
    | ⟨0, _⟩ => rfl
    | ⟨1, _⟩ => rfl)).trans ?_
  exact congrFun (congrFun e4 a) h

end Cert.KernelIdeal.KValue

end
-- ==== Proof.PreDecode.lean ====
/-
  The integer conjuncts of the precondition, read back as arithmetic facts.

  The precondition is a conjunction (a chain of `and` on one-bit words) of "all elements satisfy p"
  clauses, each an `and`-reduction of a one-bit array down to a single word. Its result being 1 says
  every clause is 1, and a clause being 1 says every element of its array is 1. The three integer
  clauses compare each entry of the two index tables, as signed words, with a constant: the entries
  of the neighbour table are ≥ 0, and the entries of the edge-source table lie in [0, 50000).
-/
import proofs.«415842_j44693429682679_3_alg».proof.Pre_finite_inputs
import Idealize.ShloMosaic.Lib.Affine
import Idealize.ShloMosaic.Lib.ReduceAll
import Idealize.ShloMosaic.Lib.ValueIdx

namespace Cert.PreDecode

open Idealize.ShloMosaic
open Cert.Pre_finite_inputs

/-- The rank-0 shape has exactly one index. -/
instance : Subsingleton S_.Idx := ⟨fun a b => funext fun d => d.elim0⟩

/-- The signed value of the word 0 is 0, and of the word 50000 is 50000. -/
private theorem toInt_zero32 : (0#32 : BitVec 32).toInt = 0 := by decide
private theorem toInt_50000 : (50000#32 : BitVec 32).toInt = 50000 := by decide

/-- If the precondition holds, every entry of the neighbour table is nonnegative and every entry of
    the edge-source table is a valid row number, 0 ≤ · < 50000 (all read as signed 32-bit words). -/
theorem index_domain [Cert.Pre_finite_inputs.Facts]
    (x0 : FVec Ideal Cert.Pre_finite_inputs.S50000x39 .f32) (x1 : FVec Ideal Cert.Pre_finite_inputs.S120000x11 .f32)
    (x2 : FVec Ideal Cert.Pre_finite_inputs.S512x39 .f32) (x3 : FVec Ideal Cert.Pre_finite_inputs.S512x523 .f32)
    (x4 : IVec Cert.Pre_finite_inputs.S50000x6 32) (x5 : IVec Cert.Pre_finite_inputs.S119999 32)
    (h : Cert.Pre_finite_inputs.fn (F := Ideal) x0 x1 x2 x3 x4 x5 = fun _ => 1#1) :
    (∀ i, 0 ≤ (x4 i).toInt) ∧ (∀ i, 0 ≤ (x5 i).toInt) ∧ (∀ i, (x5 i).toInt < 50000) := by
  -- the one word of the result is 1
  have h0 := congrFun h ValueIdx.ix0
  dsimp only [fn, fn_part1] at h0
  -- the outer three conjuncts of the chain of `and`s are the three integer clauses
  obtain ⟨h0, h29⟩ := IntOp.andi_eq_one.1 h0
  obtain ⟨h0, h25⟩ := IntOp.andi_eq_one.1 h0
  obtain ⟨-, h21⟩ := IntOp.andi_eq_one.1 h0
  refine ⟨fun i => ?_, fun i => ?_, fun i => ?_⟩
  · -- every element of the clause's array is 1: the signed comparison 0 ≤ x4 i holds
    have e := Host.reduce_andi_all _ _ _ _ _ h21 i
    have e' := IntOp.cmpi_sge.1 e
    rw [← toInt_zero32]; exact e'
  · have e := Host.reduce_andi_all _ _ _ _ _ h25 i
    have e' := IntOp.cmpi_sge.1 e
    rw [← toInt_zero32]; exact e'
  · have e := Host.reduce_andi_all _ _ _ _ _ h29 i
    have e' := IntOp.cmpi_slt.1 e
    rw [← toInt_50000]; exact e'

end Cert.PreDecode
-- ==== Proof.RefLayer.lean ====
/-
  One layer of the reference program as a function of the previous hidden state, and its reading at an atom and a
  hidden unit.

  The reference builds, for a hidden state `H`, the message table whose row `b` is the 523-vector of bond `b`: a zero
  row for the padding bond 0, above the rows of `H` gathered at the bonds' source atoms, with the bond features joined on
  the right. It gathers, for every atom, the six rows of its bonds, sums them, multiplies by the transposed weights, adds
  the first layer's output and takes the positive part. Both gathers read their index signed, wrap a negative one by the
  table's length and then clamp it into the table; for an index that is not negative the wrap changes nothing, so the
  row read is the clamped index's, which is what the specification's `bond` and `msgH` say.
-/
import proofs.«415842_j44693429682679_3_alg».proof.Proof.ReadP
import proofs.«415842_j44693429682679_3_alg».proof.Proof.Spec

noncomputable section

namespace Cert.ReferenceIdeal.RefLayer

open Cert.ReferenceIdeal Cert.ReferenceIdeal.Gen Idealize.ShloMosaic Idealize.ShloMosaic.TcCoe Idealize.SL.Sem Idealize.ShloMosaic.StableHlo
open Idealize.ShloMosaic.ValueIdx

section Gather
variable {α : Type}

/-- A gather of whole rows of a `50000 × 512` array at a column of 119999 start indices reads, at row `b` and column `k`,
    the array at the row the `b`-th start index names (read signed, clamped into the array) and column `k`. -/
theorem gatherRows_apply (H : S50000x512.Idx → α) (idx : IVec S119999x1 32) (b : Fin 119999) (k : Fin 512) :
    Host.gather gather_S50000x512_S119999x1_S119999x512_1_0_n_n_0_1_1512 H idx (ix2 b k)
      = H (ix2 (⟨min (idx (ix2 b (0 : Fin 1))).toInt.toNat (50000 - 1), by omega⟩ : Fin 50000) k) := by
  unfold Host.gather
  congr 1
  funext a
  refine Fin.ext ?_
  match a with
  | ⟨0, _⟩ =>
    show gather_S50000x512_S119999x1_S119999x512_1_0_n_n_0_1_1512.start (ix2 b k) idx 0
      + gather_S50000x512_S119999x1_S119999x512_1_0_n_n_0_1_1512.batchCoord (ix2 b k) 0
      + gather_S50000x512_S119999x1_S119999x512_1_0_n_n_0_1_1512.offCoord (ix2 b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x512_S119999x1_S119999x512_1_0_n_n_0_1_1512.startIndexMap from List.mem_singleton.mpr rfl)]
    have hsi : gather_S50000x512_S119999x1_S119999x512_1_0_n_n_0_1_1512.siIdx (ix2 b k)
        ⟨List.idxOf (0 : Fin 2) gather_S50000x512_S119999x1_S119999x512_1_0_n_n_0_1_1512.startIndexMap,
          List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show gather_S50000x512_S119999x1_S119999x512_1_0_n_n_0_1_1512.start (ix2 b k) idx 1
      + gather_S50000x512_S119999x1_S119999x512_1_0_n_n_0_1_1512.batchCoord (ix2 b k) 1
      + gather_S50000x512_S119999x1_S119999x512_1_0_n_n_0_1_1512.offCoord (ix2 b k) 1 = k.val
    rw [GatherDims.batchCoord_eq_zero _ _ _ List.not_mem_nil]
    unfold GatherDims.start
    rw [dif_neg (show ¬ (1 : Fin 2) ∈ gather_S50000x512_S119999x1_S119999x512_1_0_n_n_0_1_1512.startIndexMap from
      fun h => (by decide : (1 : Fin 2) ≠ 0) (List.mem_singleton.mp h))]
    simp only [Nat.add_zero, Nat.zero_add]
    rfl

/-- A gather of whole rows of a `120000 × 523` array at a `50000 × 6` array of start indices reads, at `(a, j, k)`, the
    array at the row the `(a, j)`-th start index names (read signed, clamped into the array) and column `k`. -/
theorem gatherMsg_apply (T : S120000x523.Idx → α) (idx : IVec S50000x6x1 32) (a : Fin 50000) (j : Fin 6) (k : Fin 523) :
    Host.gather gather_S120000x523_S50000x6x1_S50000x6x523_2_0_n_n_0_2_1523 T idx (ix3 a j k)
      = T (ix2 (⟨min (idx (ix3 a j (0 : Fin 1))).toInt.toNat (120000 - 1), by omega⟩ : Fin 120000) k) := by
  unfold Host.gather
  congr 1
  funext c
  refine Fin.ext ?_
  match c with
  | ⟨0, _⟩ =>
    show gather_S120000x523_S50000x6x1_S50000x6x523_2_0_n_n_0_2_1523.start (ix3 a j k) idx 0
      + gather_S120000x523_S50000x6x1_S50000x6x523_2_0_n_n_0_2_1523.batchCoord (ix3 a j k) 0
      + gather_S120000x523_S50000x6x1_S50000x6x523_2_0_n_n_0_2_1523.offCoord (ix3 a j k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S120000x523_S50000x6x1_S50000x6x523_2_0_n_n_0_2_1523.startIndexMap from List.mem_singleton.mpr rfl)]
    have hsi : gather_S120000x523_S50000x6x1_S50000x6x523_2_0_n_n_0_2_1523.siIdx (ix3 a j k)
        ⟨List.idxOf (0 : Fin 2) gather_S120000x523_S50000x6x1_S50000x6x523_2_0_n_n_0_2_1523.startIndexMap,
          List.idxOf_lt_length_iff.2 (List.mem_singleton.mpr rfl)⟩ = ix3 a j (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S120000x523_S50000x6x1_S50000x6x523_2_0_n_n_0_2_1523.start (ix3 a j k) idx 1
      + gather_S120000x523_S50000x6x1_S50000x6x523_2_0_n_n_0_2_1523.batchCoord (ix3 a j k) 1
      + gather_S120000x523_S50000x6x1_S50000x6x523_2_0_n_n_0_2_1523.offCoord (ix3 a j k) 1 = k.val
    rw [GatherDims.batchCoord_eq_zero _ _ _ List.not_mem_nil]
    unfold GatherDims.start
    rw [dif_neg (show ¬ (1 : Fin 2) ∈ gather_S120000x523_S50000x6x1_S50000x6x523_2_0_n_n_0_2_1523.startIndexMap from
      fun h => (by decide : (1 : Fin 2) ≠ 0) (List.mem_singleton.mp h))]
    simp only [Nat.add_zero, Nat.zero_add]
    rfl

end Gather

section Concat
variable {α : Type}

/-- The hidden half of the message table read at row 0 is the first piece's only row. -/
theorem catRows_zero (z : S1x512.Idx → α) (g : S119999x512.Idx → α) (k : Fin 512) :
    concatenate S120000x512 0 [⟨S1x512, z⟩, ⟨S119999x512, g⟩] concatenates_S1x512_S119999x512_S120000x512_d0
      (ix2 (0 : Fin 120000) k) = z (ix2 (0 : Fin 1) k) :=
  concatenate_pair_apply_left (0 : Fin S120000x512.rank) z g concatenates_S1x512_S119999x512_S120000x512_d0
    (ix2 (0 : Fin 120000) k) rfl (ix2 (0 : Fin 1) k) (fun b => match b with
      | ⟨0, _⟩ => rfl
      | ⟨1, _⟩ => rfl)

/-- At a later row it is the second piece one row up. -/
theorem catRows_succ (z : S1x512.Idx → α) (g : S119999x512.Idx → α) (b : Fin 120000) (hb : b.val ≠ 0) (k : Fin 512) :
    concatenate S120000x512 0 [⟨S1x512, z⟩, ⟨S119999x512, g⟩] concatenates_S1x512_S119999x512_S120000x512_d0
      (ix2 b k) = g (ix2 (⟨b.val - 1, by omega⟩ : Fin 119999) k) :=
  concatenate_pair_apply_right (0 : Fin S120000x512.rank) z g concatenates_S1x512_S119999x512_S120000x512_d0
    (ix2 b k) rfl rfl (ix2 (⟨b.val - 1, by omega⟩ : Fin 119999) k) (fun c hc => match c, hc with
      | ⟨0, _⟩, hc => absurd rfl hc
      | ⟨1, _⟩, _ => rfl)
    (by show b.val - 1 + 1 = b.val; omega)

/-- The message table read left of column 512 is the hidden half. -/
theorem catCols_lt (m : S120000x512.Idx → α) (f : S120000x11.Idx → α) (b : Fin 120000) (k : Fin 523) (hk : k.val < 512) :
    concatenate S120000x523 1 [⟨S120000x512, m⟩, ⟨S120000x11, f⟩] concatenates_S120000x512_S120000x11_S120000x523_d1
      (ix2 b k) = m (ix2 b (⟨k.val, hk⟩ : Fin 512)) :=
  concatenate_pair_apply_left (1 : Fin S120000x523.rank) m f concatenates_S120000x512_S120000x11_S120000x523_d1
    (ix2 b k) rfl (ix2 b (⟨k.val, hk⟩ : Fin 512)) (fun c => match c with
      | ⟨0, _⟩ => rfl
      | ⟨1, _⟩ => rfl)

/-- At or past column 512 it is the bond features, 512 columns to the left. -/
theorem catCols_ge (m : S120000x512.Idx → α) (f : S120000x11.Idx → α) (b : Fin 120000) (k : Fin 523) (hk : ¬ k.val < 512) :
    concatenate S120000x523 1 [⟨S120000x512, m⟩, ⟨S120000x11, f⟩] concatenates_S120000x512_S120000x11_S120000x523_d1
      (ix2 b k) = f (ix2 b (⟨k.val - 512, by omega⟩ : Fin 11)) :=
  concatenate_pair_apply_right (1 : Fin S120000x523.rank) m f concatenates_S120000x512_S120000x11_S120000x523_d1
    (ix2 b k) rfl rfl (ix2 b (⟨k.val - 512, by omega⟩ : Fin 11)) (fun c hc => match c, hc with
      | ⟨0, _⟩, _ => rfl
      | ⟨1, _⟩, hc => absurd rfl hc)
    (by show k.val - 512 + 512 = k.val; omega)

end Concat

section Words

/-- A signed 32-bit word that is not negative does not compare below zero. -/
theorem cmpi_slt_zero_of_nonneg (x : BitVec 32) (h : 0 ≤ x.toInt) : IntOp.cmpi .slt x 0#32 = 0#1 := by
  have hs : x.slt 0#32 = false := by
    rw [BitVec.slt, decide_eq_false_iff_not, BitVec.toInt_zero]
    omega
  show BitVec.ofBool (x.slt 0#32) = 0#1
  rw [hs]
  rfl

/-- So the wrap of a negative index leaves such a word as it is. -/
theorem wrap_of_nonneg (x y : BitVec 32) (h : 0 ≤ x.toInt) : Scalar.select (IntOp.cmpi .slt x 0#32) y x = x := by
  rw [cmpi_slt_zero_of_nonneg x h, select_zero]

end Words

section Table

/-- The message table read at a bond and a message entry: a zero row above the rows gathered from the hidden state,
    the bond features to their right. -/
theorem table_apply (z : S1x512.Idx → EReal) (hz : ∀ i, z i = 0) (H : S50000x512.Idx → EReal) (x1 : S120000x11.Idx → EReal)
    (idx : IVec S119999x1 32) (N : Fin 119999 → BitVec 32) (hidx : ∀ b : Fin 119999, idx (ix2 b (0 : Fin 1)) = N b)
    (b : Fin 120000) (k : Fin 523) :
    concatenate S120000x523 1 [⟨S120000x512, concatenate S120000x512 0 [⟨S1x512, z⟩,
        ⟨S119999x512, Host.gather gather_S50000x512_S119999x1_S119999x512_1_0_n_n_0_1_1512 H idx⟩] concatenates_S1x512_S119999x512_S120000x512_d0⟩, ⟨S120000x11, x1⟩]
      concatenates_S120000x512_S120000x11_S120000x523_d1 (ix2 b k)
      = Cert.MsgPass.msg (fun a h => H (ix2 a h)) (fun b f => x1 (ix2 b f)) N b k := by
  unfold Cert.MsgPass.msg
  by_cases hk : k.val < 512
  · rw [dif_pos hk, catCols_lt _ _ b k hk]
    unfold Cert.MsgPass.msgH
    by_cases hb : b.val = 0
    · rw [dif_pos hb]
      obtain rfl : b = (0 : Fin 120000) := Fin.ext hb
      rw [catRows_zero, hz]
    · rw [dif_neg hb, catRows_succ _ _ b hb, gatherRows_apply]
      refine congrArg (fun r : Fin 50000 => H (ix2 r (⟨k.val, hk⟩ : Fin 512))) (Fin.ext ?_)
      show min (idx (ix2 (⟨b.val - 1, _⟩ : Fin 119999) (0 : Fin 1))).toInt.toNat (50000 - 1)
        = min (N ⟨b.val - 1, _⟩).toInt.toNat (50000 - 1)
      rw [hidx]
  · rw [dif_neg hk, catCols_ge _ _ b k hk]

end Table

section Defs
variable {F : FTy → Type} [FloatOps F]

/-- The message table of a hidden state `H`: row 0 is zero, row `b ≥ 1` is `H` at the source atom of bond `b`
    (the index wrapped if negative, then clamped); the bond features are joined on the right. -/
def msgTable (H : (⟨S50000x512, .f32⟩ : BufTy).Contents (Elt F)) (x1 : (⟨S120000x11, .f32⟩ : BufTy).Contents (Elt F))
    (x5 : (⟨S119999, .i32⟩ : BufTy).Contents (Elt F)) : (⟨S120000x523, .f32⟩ : BufTy).Contents (Elt F) :=
  concatenate S120000x523 1 [⟨S120000x512, concatenate S120000x512 0 [⟨S1x512, ReadP.val_main_v3 (F := F)⟩,
      ⟨S119999x512, Host.gather gather_S50000x512_S119999x1_S119999x512_1_0_n_n_0_1_1512 H (ReadP.val_main_v9 (F := F) x5)⟩]
    concatenates_S1x512_S119999x512_S120000x512_d0⟩, ⟨S120000x11, x1⟩] concatenates_S120000x512_S120000x11_S120000x523_d1

/-- One layer of the reference as a function of the first layer's output `Z` and the previous hidden state `H`:
    gather each atom's six bond messages, sum them, multiply by the transposed weights, add `Z`, take the positive part. -/
def refLayer (Z H : (⟨S50000x512, .f32⟩ : BufTy).Contents (Elt F)) (x1 : (⟨S120000x11, .f32⟩ : BufTy).Contents (Elt F))
    (x3 : (⟨S512x523, .f32⟩ : BufTy).Contents (Elt F)) (x4 : (⟨S50000x6, .i32⟩ : BufTy).Contents (Elt F))
    (x5 : (⟨S119999, .i32⟩ : BufTy).Contents (Elt F)) : (⟨S50000x512, .f32⟩ : BufTy).Contents (Elt F) :=
  maximumf (addf Z (Host.dotGeneral (φ₁ := .f32) (φ₂ := .f32) dot_S50000x523_S523x512_S50000x512_1_0_0_1_n_n none
      (Host.reduceAdd (φ := .f32) (Host.gather gather_S120000x523_S50000x6x1_S50000x6x523_2_0_n_n_0_2_1523 (msgTable H x1 x5) (ReadP.val_main_v18 (F := F) x4))
        (ReadP.val_main_cst_3 (F := F)) reducesTo_S50000x6x523_S50000x523_d1 h_S_)
      (ReadP.val_main_v21 (F := F) x3)))
    (ReadP.val_main_call1_v0 (F := F))

end Defs

section Ops

/-- The matrix product of a `50000 × 523` and a `523 × 512` array of extended reals, read at an entry. -/
theorem dot523_apply (y0 : FVec Ideal S50000x523 .f32) (y1 : FVec Ideal S523x512 .f32) (a : Fin 50000) (h : Fin 512) :
    Host.dotGeneral (F := Ideal) dot_S50000x523_S523x512_S50000x512_1_0_0_1_n_n none y0 y1 (ix2 a h) = ∑ k : Fin 523, y0 (ix2 a k) * y1 (ix2 k h) := by
  simp only [Host.dotGeneral]
  rw [Ideal.dotGeneral_apply, ← Equiv.sum_comp (ValueIdx.contrEquiv1 dot_S50000x523_S523x512_S50000x512_1_0_0_1_n_n 523 rfl rfl).symm]
  refine Finset.sum_congr rfl fun k _ => ?_
  have hk := ValueIdx.contrEquiv1_symm_val dot_S50000x523_S523x512_S50000x512_1_0_0_1_n_n 523 rfl rfl k
  have el : dot_S50000x523_S523x512_S50000x512_1_0_0_1_n_n.lhsIdx (ix2 a h) ((ValueIdx.contrEquiv1 dot_S50000x523_S523x512_S50000x512_1_0_0_1_n_n 523 rfl rfl).symm k) = ix2 a k :=
    funext fun d => Fin.ext (by
      match d with
      | ⟨0, _⟩ => exact ReadP.lhs_main_v22_0 _ _
      | ⟨1, _⟩ => exact (ReadP.lhs_main_v22_1 _ _).trans hk)
  have er : dot_S50000x523_S523x512_S50000x512_1_0_0_1_n_n.rhsIdx (ix2 a h) ((ValueIdx.contrEquiv1 dot_S50000x523_S523x512_S50000x512_1_0_0_1_n_n 523 rfl rfl).symm k) = ix2 k h :=
    funext fun d => Fin.ext (by
      match d with
      | ⟨0, _⟩ => exact (ReadP.rhs_main_v22_0 _ _).trans hk
      | ⟨1, _⟩ => exact ReadP.rhs_main_v22_1 _ _)
  rw [el, er]

/-- The sum over the six neighbours, read at an atom and a message entry: the initial value plus the six terms. -/
theorem sum6_apply (y0 : FVec Ideal S50000x6x523 .f32) (c : S_.Idx → Ideal .f32) (a : Fin 50000) (k : Fin 523) :
    Host.reduceAdd (F := Ideal) y0 c reducesTo_S50000x6x523_S50000x523_d1 h_S_ (ix2 a k)
      = c (Shape.Idx.first h_S_) + ∑ j : Fin 6, y0 (ix3 a j k) := by
  simp only [Host.reduceAdd, Ideal.hostReduceAdd_def]
  rw [Ideal.hostReduceAdd_single reducesTo_S50000x6x523_S50000x523_d1 (by decide)]
  refine congrArg (_ + ·) (Finset.sum_congr rfl fun j _ => ?_)
  exact congrArg y0 (funext fun d => Fin.ext (by match d with | ⟨0, _⟩ => rfl | ⟨1, _⟩ => rfl | ⟨2, _⟩ => rfl))

end Ops

section Main

/-- The zero row of the message table. -/
theorem zeroRow_apply (i : S1x512.Idx) : ReadP.val_main_v3 (F := Ideal) i = 0 := by
  rw [ReadP.val_main_v3_apply, ReadP.val_main_cst_apply]
  exact Ideal.ofBits_zero_f32

/-- The neighbour sum starts from zero. -/
theorem zeroInit : ReadP.val_main_cst_3 (F := Ideal) (Shape.Idx.first h_S_) = 0 := by
  rw [ReadP.val_main_cst_3_apply]
  exact Ideal.ofBits_zero_f32

/-- The floor of the positive part is zero. -/
theorem zeroFloor_apply (i : S50000x512.Idx) : ReadP.val_main_call1_v0 (F := Ideal) i = 0 := by
  rw [ReadP.val_main_call1_v0_apply, ReadP.val_main_call1_cst_apply]
  exact Ideal.ofBits_zero_f32

/-- The wrapped source-atom index of a bond is the index itself when it is not negative. -/
theorem srcIdx_apply (x5 : (⟨S119999, .i32⟩ : BufTy).Contents (Elt Ideal)) (hN0 : ∀ i, 0 ≤ (x5 i).toInt) (b : Fin 119999) :
    ReadP.val_main_v9 (F := Ideal) x5 (ix2 b (0 : Fin 1)) = x5 (ix1 b) := by
  rw [ReadP.val_main_v9_apply, ReadP.val_main_v8_apply, ReadP.val_main_v5_apply, ReadP.val_main_v4_apply,
    ReadP.val_main_c_apply]
  refine (wrap_of_nonneg _ _ (hN0 _)).trans ?_
  exact congrArg x5 (funext fun d => match d with | ⟨0, _⟩ => rfl)

/-- The wrapped bond index of an atom's neighbour slot is the index itself when it is not negative. -/
theorem bondIdx_apply (x4 : (⟨S50000x6, .i32⟩ : BufTy).Contents (Elt Ideal)) (hA : ∀ i, 0 ≤ (x4 i).toInt) (a : Fin 50000) (j : Fin 6) :
    ReadP.val_main_v18 (F := Ideal) x4 (ix3 a j (0 : Fin 1)) = x4 (ix2 a j) := by
  rw [ReadP.val_main_v18_apply, ReadP.val_main_v17_apply, ReadP.val_main_v14_apply, ReadP.val_main_v13_apply,
    ReadP.val_main_c_1_apply]
  refine (wrap_of_nonneg _ _ (hA _)).trans ?_
  exact congrArg x4 (funext fun d => match d with | ⟨0, _⟩ => rfl | ⟨1, _⟩ => rfl)

/-- The message table read at a bond and a message entry is that bond's message. -/
theorem msgTable_apply (H : (⟨S50000x512, .f32⟩ : BufTy).Contents (Elt Ideal)) (x1 : (⟨S120000x11, .f32⟩ : BufTy).Contents (Elt Ideal)) (x5 : (⟨S119999, .i32⟩ : BufTy).Contents (Elt Ideal))
    (hN0 : ∀ i, 0 ≤ (x5 i).toInt) (b : Fin 120000) (k : Fin 523) :
    msgTable (F := Ideal) H x1 x5 (ix2 b k)
      = Cert.MsgPass.msg (fun a h => H (ix2 a h)) (fun b f => x1 (ix2 b f)) (fun j => x5 (ix1 j)) b k := by
  unfold msgTable
  exact table_apply (ReadP.val_main_v3 (F := Ideal)) zeroRow_apply H x1 (ReadP.val_main_v9 (F := Ideal) x5)
    (fun j => x5 (ix1 j)) (srcIdx_apply x5 hN0) b k

/-- ONE LAYER of the reference, read at an atom and a hidden unit, is the message passing step. -/
theorem refLayer_apply (Z H : (⟨S50000x512, .f32⟩ : BufTy).Contents (Elt Ideal)) (x1 : (⟨S120000x11, .f32⟩ : BufTy).Contents (Elt Ideal)) (x3 : (⟨S512x523, .f32⟩ : BufTy).Contents (Elt Ideal))
    (x4 : (⟨S50000x6, .i32⟩ : BufTy).Contents (Elt Ideal)) (x5 : (⟨S119999, .i32⟩ : BufTy).Contents (Elt Ideal))
    (hA : ∀ i, 0 ≤ (x4 i).toInt) (hN0 : ∀ i, 0 ≤ (x5 i).toInt) (hN1 : ∀ i, (x5 i).toInt < 50000)
    (a : Fin 50000) (h : Fin 512) :
    refLayer Z H x1 x3 x4 x5 (ix2 a h)
      = Cert.MsgPass.step (fun a h => Z (ix2 a h)) (fun b f => x1 (ix2 b f)) (fun r k => x3 (ix2 r k))
          (fun a j => x4 (ix2 a j)) (fun j => x5 (ix1 j)) (fun a h => H (ix2 a h)) a h := by
  unfold refLayer Cert.MsgPass.step
  rw [maximumf_apply, addf_apply, zeroFloor_apply, dot523_apply]
  refine congrArg (fun s => max (Z (ix2 a h) + s) 0) (Finset.sum_congr rfl fun k _ => ?_)
  rw [sum6_apply, zeroInit, zero_add, ReadP.val_main_v21_apply]
  have e2 : x3 (ReadP.idx_main_v21 (ix2 k h)) = x3 (ix2 h k) :=
    congrArg x3 (funext fun d => match d with | ⟨0, _⟩ => rfl | ⟨1, _⟩ => rfl)
  have e1 : (∑ j : Fin 6, Host.gather gather_S120000x523_S50000x6x1_S50000x6x523_2_0_n_n_0_2_1523 (msgTable (F := Ideal) H x1 x5) (ReadP.val_main_v18 (F := Ideal) x4) (ix3 a j k))
      = ∑ j : Fin 6, Cert.MsgPass.msg (fun a h => H (ix2 a h)) (fun b f => x1 (ix2 b f)) (fun j => x5 (ix1 j))
          (Cert.MsgPass.bond (fun a j => x4 (ix2 a j)) a j) k :=
    Finset.sum_congr rfl fun j _ => by
      rw [gatherMsg_apply, msgTable_apply H x1 x5 hN0]
      refine congrArg (fun b => Cert.MsgPass.msg (fun a h => H (ix2 a h)) (fun b f => x1 (ix2 b f)) (fun j => x5 (ix1 j)) b k)
        (Fin.ext ?_)
      show min (ReadP.val_main_v18 (F := Ideal) x4 (ix3 a j (0 : Fin 1))).toInt.toNat (120000 - 1)
        = min (x4 (ix2 a j)).toInt.toNat (120000 - 1)
      rw [bondIdx_apply x4 hA]
  rw [e1, e2]

/-- The first layer of the reference, read at an atom and a hidden unit. -/
theorem refZ_apply (x0 : (⟨S50000x39, .f32⟩ : BufTy).Contents (Elt Ideal)) (x2 : (⟨S512x39, .f32⟩ : BufTy).Contents (Elt Ideal)) (a : Fin 50000) (h : Fin 512) :
    ReadP.val_main_v2 (F := Ideal) x0 x2 (ix2 a h)
      = Cert.MsgPass.h0 (fun a k => x0 (ix2 a k)) (fun r k => x2 (ix2 r k)) a h := by
  unfold ReadP.val_main_v2 Cert.MsgPass.h0
  have z : ReadP.val_main_call0_v0 (F := Ideal) (ix2 a h) = 0 := by
    rw [ReadP.val_main_call0_v0_apply, ReadP.val_main_call0_cst_apply]
    exact Ideal.ofBits_zero_f32
  rw [maximumf_apply, z, ReadP.val_main_v1_apply]
  refine congrArg (fun s => max s 0) (Finset.sum_congr rfl fun k _ => ?_)
  rw [ReadP.val_main_v0_apply]
  have el : ReadP.lidx_main_v1 (ix2 a h) k = ix2 a k := funext fun d => match d with | ⟨0, _⟩ => rfl | ⟨1, _⟩ => rfl
  have er : ReadP.idx_main_v0 (ReadP.ridx_main_v1 (ix2 a h) k) = ix2 h k :=
    funext fun d => match d with | ⟨0, _⟩ => rfl | ⟨1, _⟩ => rfl
  rw [el, er]

end Main

end Cert.ReferenceIdeal.RefLayer

end
-- ==== Proof.RefValue.lean ====
/-
  The reference program's result, read at a hidden unit and an atom: four message passing layers over the first
  layer's output, transposed.

  Each of the program's four layers is the one layer function `refLayer` applied to the first layer's output and to the
  layer before it: the operations are the same, printed four times under fresh names, so the four equations hold by
  unfolding the names. The result is the fourth layer transposed.
-/
import proofs.«415842_j44693429682679_3_alg».proof.Proof.RefLayer

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.RefLayer

section Layers
variable {F : FTy → Type} [FloatOps F]

/-- The first message passing layer is the layer function at the first layer's output, twice. -/
theorem layer1_eq (x0 : (⟨S50000x39, .f32⟩ : BufTy).Contents (Elt F)) (x1 : (⟨S120000x11, .f32⟩ : BufTy).Contents (Elt F)) (x2 : (⟨S512x39, .f32⟩ : BufTy).Contents (Elt F)) (x3 : (⟨S512x523, .f32⟩ : BufTy).Contents (Elt F)) (x4 : (⟨S50000x6, .i32⟩ : BufTy).Contents (Elt F)) (x5 : (⟨S119999, .i32⟩ : BufTy).Contents (Elt F)) :
    ReadP.val_main_v24 (F := F) x0 x1 x2 x3 x4 x5
      = refLayer (ReadP.val_main_v2 (F := F) x0 x2) (ReadP.val_main_v2 (F := F) x0 x2) x1 x3 x4 x5 := rfl

/-- The second is the layer function at the first. -/
theorem layer2_eq (x0 : (⟨S50000x39, .f32⟩ : BufTy).Contents (Elt F)) (x1 : (⟨S120000x11, .f32⟩ : BufTy).Contents (Elt F)) (x2 : (⟨S512x39, .f32⟩ : BufTy).Contents (Elt F)) (x3 : (⟨S512x523, .f32⟩ : BufTy).Contents (Elt F)) (x4 : (⟨S50000x6, .i32⟩ : BufTy).Contents (Elt F)) (x5 : (⟨S119999, .i32⟩ : BufTy).Contents (Elt F)) :
    ReadP.val_main_v46 (F := F) x0 x1 x2 x3 x4 x5
      = refLayer (ReadP.val_main_v2 (F := F) x0 x2) (ReadP.val_main_v24 (F := F) x0 x1 x2 x3 x4 x5) x1 x3 x4 x5 := rfl

/-- The third at the second. -/
theorem layer3_eq (x0 : (⟨S50000x39, .f32⟩ : BufTy).Contents (Elt F)) (x1 : (⟨S120000x11, .f32⟩ : BufTy).Contents (Elt F)) (x2 : (⟨S512x39, .f32⟩ : BufTy).Contents (Elt F)) (x3 : (⟨S512x523, .f32⟩ : BufTy).Contents (Elt F)) (x4 : (⟨S50000x6, .i32⟩ : BufTy).Contents (Elt F)) (x5 : (⟨S119999, .i32⟩ : BufTy).Contents (Elt F)) :
    ReadP.val_main_v68 (F := F) x0 x1 x2 x3 x4 x5
      = refLayer (ReadP.val_main_v2 (F := F) x0 x2) (ReadP.val_main_v46 (F := F) x0 x1 x2 x3 x4 x5) x1 x3 x4 x5 := rfl

/-- The fourth at the third. -/
theorem layer4_eq (x0 : (⟨S50000x39, .f32⟩ : BufTy).Contents (Elt F)) (x1 : (⟨S120000x11, .f32⟩ : BufTy).Contents (Elt F)) (x2 : (⟨S512x39, .f32⟩ : BufTy).Contents (Elt F)) (x3 : (⟨S512x523, .f32⟩ : BufTy).Contents (Elt F)) (x4 : (⟨S50000x6, .i32⟩ : BufTy).Contents (Elt F)) (x5 : (⟨S119999, .i32⟩ : BufTy).Contents (Elt F)) :
    ReadP.val_main_v90 (F := F) x0 x1 x2 x3 x4 x5
      = refLayer (ReadP.val_main_v2 (F := F) x0 x2) (ReadP.val_main_v68 (F := F) x0 x1 x2 x3 x4 x5) x1 x3 x4 x5 := rfl

end Layers

/-- THE REFERENCE'S RESULT at hidden unit `h` and atom `a`: the specification's four-layer value. -/
theorem result_apply (x0 : (⟨S50000x39, .f32⟩ : BufTy).Contents (Elt Ideal)) (x1 : (⟨S120000x11, .f32⟩ : BufTy).Contents (Elt Ideal)) (x2 : (⟨S512x39, .f32⟩ : BufTy).Contents (Elt Ideal)) (x3 : (⟨S512x523, .f32⟩ : BufTy).Contents (Elt Ideal)) (x4 : (⟨S50000x6, .i32⟩ : BufTy).Contents (Elt Ideal)) (x5 : (⟨S119999, .i32⟩ : BufTy).Contents (Elt Ideal))
    (hA : ∀ i, 0 ≤ (x4 i).toInt) (hN0 : ∀ i, 0 ≤ (x5 i).toInt) (hN1 : ∀ i, (x5 i).toInt < 50000)
    (h : Fin 512) (a : Fin 50000) :
    ReadP.val_main_v91 (F := Ideal) x0 x1 x2 x3 x4 x5 (ix2 h a)
      = Cert.MsgPass.out (fun a k => x0 (ix2 a k)) (fun b f => x1 (ix2 b f)) (fun r k => x2 (ix2 r k))
          (fun r k => x3 (ix2 r k)) (fun a j => x4 (ix2 a j)) (fun j => x5 (ix1 j)) h a := by
  have eZ : (fun (a : Fin 50000) (h : Fin 512) => ReadP.val_main_v2 (F := Ideal) x0 x2 (ix2 a h))
      = Cert.MsgPass.h0 (fun a k => x0 (ix2 a k)) (fun r k => x2 (ix2 r k)) :=
    funext fun a => funext fun h => refZ_apply x0 x2 a h
  have e1 : (fun (a : Fin 50000) (h : Fin 512) => ReadP.val_main_v24 (F := Ideal) x0 x1 x2 x3 x4 x5 (ix2 a h))
      = Cert.MsgPass.step (Cert.MsgPass.h0 (fun a k => x0 (ix2 a k)) (fun r k => x2 (ix2 r k))) (fun b f => x1 (ix2 b f))
          (fun r k => x3 (ix2 r k)) (fun a j => x4 (ix2 a j)) (fun j => x5 (ix1 j))
          (Cert.MsgPass.h0 (fun a k => x0 (ix2 a k)) (fun r k => x2 (ix2 r k))) :=
    funext fun a => funext fun h => by
      rw [layer1_eq, refLayer_apply _ _ x1 x3 x4 x5 hA hN0 hN1 a h, eZ]
  have e2 : (fun (a : Fin 50000) (h : Fin 512) => ReadP.val_main_v46 (F := Ideal) x0 x1 x2 x3 x4 x5 (ix2 a h))
      = Cert.MsgPass.step (Cert.MsgPass.h0 (fun a k => x0 (ix2 a k)) (fun r k => x2 (ix2 r k))) (fun b f => x1 (ix2 b f))
          (fun r k => x3 (ix2 r k)) (fun a j => x4 (ix2 a j)) (fun j => x5 (ix1 j)) _ :=
    funext fun a => funext fun h => by
      rw [layer2_eq, refLayer_apply _ _ x1 x3 x4 x5 hA hN0 hN1 a h, eZ, e1]
  have e3 : (fun (a : Fin 50000) (h : Fin 512) => ReadP.val_main_v68 (F := Ideal) x0 x1 x2 x3 x4 x5 (ix2 a h))
      = Cert.MsgPass.step (Cert.MsgPass.h0 (fun a k => x0 (ix2 a k)) (fun r k => x2 (ix2 r k))) (fun b f => x1 (ix2 b f))
          (fun r k => x3 (ix2 r k)) (fun a j => x4 (ix2 a j)) (fun j => x5 (ix1 j)) _ :=
    funext fun a => funext fun h => by
      rw [layer3_eq, refLayer_apply _ _ x1 x3 x4 x5 hA hN0 hN1 a h, eZ, e2]
  have e4 : (fun (a : Fin 50000) (h : Fin 512) => ReadP.val_main_v90 (F := Ideal) x0 x1 x2 x3 x4 x5 (ix2 a h))
      = Cert.MsgPass.step (Cert.MsgPass.h0 (fun a k => x0 (ix2 a k)) (fun r k => x2 (ix2 r k))) (fun b f => x1 (ix2 b f))
          (fun r k => x3 (ix2 r k)) (fun a j => x4 (ix2 a j)) (fun j => x5 (ix1 j)) _ :=
    funext fun a => funext fun h => by
      rw [layer4_eq, refLayer_apply _ _ x1 x3 x4 x5 hA hN0 hN1 a h, eZ, e3]
  rw [ReadP.val_main_v91_apply]
  have ei : ReadP.idx_main_v91 (ix2 h a) = ix2 a h := funext fun d => match d with | ⟨0, _⟩ => rfl | ⟨1, _⟩ => rfl
  rw [ei]
  exact congrFun (congrFun e4 a) h

end Cert.ReferenceIdeal.RefValue

end
-- ==== Proof.RefFold.lean ====
/-
  The fold of the reference program's 126 operations, evaluated by stretches.

  The operations are the first layer (five operations), four message passing layers of thirty operations each, the
  same thirty under fresh buffer names, and the final transpose. Each layer is cut into three stretches of ten; a
  stretch's result buffers are read off its operations from any contents, a buffer a stretch does not write keeps
  its contents, and the stretches are joined by the fold's rule for two lists in a row. A layer's output is then the
  one layer function of the first layer's output, the previous layer's output and the arguments, which is the
  program's stage of that name; the result is the last layer's output transposed.
-/
import proofs.«415842_j44693429682679_3_alg».proof.Proof.RefLayer
import Idealize.ShloMosaic.Lib.StableHlo.Run
import Idealize.ShloMosaic.Lib.Pipeline.Frame

noncomputable section

namespace Cert.ReferenceIdeal.RefFold

open Cert.ReferenceIdeal Cert.ReferenceIdeal.Gen Idealize.ShloMosaic Idealize.ShloMosaic.TcCoe Idealize.SL.Sem Idealize.ShloMosaic.StableHlo
open Cert.ReferenceIdeal.RefLayer

section Fold
variable {F : FTy → Type} [FloatOps F]

/-- A stretch writes only buffers of a list: each operation's result buffer is found in it. -/
macro "writes_in_list" l:ident : tactic =>
  `(tactic| (simp only [$l:ident, List.Forall, StableHlo.nullary_writes, StableHlo.unary_writes, StableHlo.binary_writes, StableHlo.ternary_writes]
             repeat' apply And.intro
             all_goals exact Finset.singleton_subset_iff.mpr (List.mem_toFinset.mpr (List.mem_map.mpr ⟨_, by decide, rfl⟩))))

/-! ## The first layer (operations 0 to 4) and the final transpose (operation 125) -/

section FirstLast

/-- The first layer: the atom features times the transposed input weights, positive part. -/
abbrev cA : List (HloOp τ sig (Elt F)) :=
  [ unary main_arg2 main_v0 ((transpose S39x512 [1, 0] · transposes_S512x39_S39x512_1_0) : (⟨S512x39, .f32⟩ : BufTy).Contents (Elt F) → (⟨S39x512, .f32⟩ : BufTy).Contents (Elt F)),
    binary main_arg0 main_v0 main_v1 ((fun l r => Host.dotGeneral dot_S50000x39_S39x512_S50000x512_1_0_0_1_n_n none l r) : (⟨S50000x39, .f32⟩ : BufTy).Contents (Elt F) → (⟨S39x512, .f32⟩ : BufTy).Contents (Elt F) → (⟨S50000x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x512, .f32⟩) main_call0_v0) (broadcastInDim S50000x512 ![] bcast_S_S50000x512),
    TRef.binary (TRef.of (T := ⟨S50000x512, .f32⟩) main_v1) (TRef.of (T := ⟨S50000x512, .f32⟩) main_call0_v0) (TRef.of (T := ⟨S50000x512, .f32⟩) main_v2) maximumf ]
/-- The transpose of the last hidden state. -/
abbrev cZ : List (HloOp τ sig (Elt F)) :=
  [ unary main_v90 main_v91 ((transpose S512x50000 [1, 0] · transposes_S50000x512_S512x50000_1_0) : (⟨S50000x512, .f32⟩ : BufTy).Contents (Elt F) → (⟨S512x50000, .f32⟩ : BufTy).Contents (Elt F)) ]

/-- Every buffer the first layer writes. -/
abbrev writtenA : List (Ref sig .tc) := [main_v0, main_v1, main_call0_cst, main_call0_v0, main_v2]

theorem wrA : (cA : List (HloOp τ sig (Elt F))).Forall fun op => op.writes ⊆ (writtenA.map (Proc.devRef (τ := τ) .tc)).toFinset := by
  writes_in_list cA

variable (W : Valuation τ sig (Elt F))

theorem first : after (cA (F := F)) W (Proc.devRef .tc main_v2) = ReadP.val_main_v2 (F := F) (W (Proc.devRef .tc main_arg0)) (W (Proc.devRef .tc main_arg2)) := by
  after_results; try rfl
theorem keepA (r : Ref sig .tc) (hr : r ∉ writtenA) : after (cA (F := F)) W (Proc.devRef .tc r) = W (Proc.devRef .tc r) :=
  after_of_writes_sub cA W wrA hr
theorem last : after (cZ (F := F)) W (Proc.devRef .tc main_v91)
    = transpose S512x50000 [1, 0] (W (Proc.devRef .tc main_v90)) transposes_S50000x512_S512x50000_1_0 := by
  after_results; try rfl

end FirstLast

/-! ## Layer 1: operations 5 to 34, in three stretches of ten -/

section Layer1

/-- The zero row and the wrapped source-atom indices. -/
abbrev L1a : List (HloOp τ sig (Elt F)) :=
  [ nullary main_cst (constant S_ .f32 0x00000000#32),
    unary main_cst main_v3 (broadcastInDim S1x512 ![] bcast_S_S1x512 : (⟨S_, .f32⟩ : BufTy).Contents (Elt F) → (⟨S1x512, .f32⟩ : BufTy).Contents (Elt F)),
    nullary main_c (constantI S_ 32 0#32),
    unary main_c main_v4 (broadcastInDim S119999 ![] bcast_S_S119999 : (⟨S_, .i32⟩ : BufTy).Contents (Elt F) → (⟨S119999, .i32⟩ : BufTy).Contents (Elt F)),
    binary main_arg5 main_v4 main_v5 (cmpi .slt : (⟨S119999, .i32⟩ : BufTy).Contents (Elt F) → (⟨S119999, .i32⟩ : BufTy).Contents (Elt F) → (⟨S119999, .i1⟩ : BufTy).Contents (Elt F)),
    nullary main_c_0 (constantI S_ 32 50000#32),
    unary main_c_0 main_v6 (broadcastInDim S119999 ![] bcast_S_S119999 : (⟨S_, .i32⟩ : BufTy).Contents (Elt F) → (⟨S119999, .i32⟩ : BufTy).Contents (Elt F)),
    binary main_arg5 main_v6 main_v7 (addi : (⟨S119999, .i32⟩ : BufTy).Contents (Elt F) → (⟨S119999, .i32⟩ : BufTy).Contents (Elt F) → (⟨S119999, .i32⟩ : BufTy).Contents (Elt F)),
    ternary main_v5 main_v7 main_arg5 main_v8 (select : (⟨S119999, .i1⟩ : BufTy).Contents (Elt F) → (⟨S119999, .i32⟩ : BufTy).Contents (Elt F) → (⟨S119999, .i32⟩ : BufTy).Contents (Elt F) → (⟨S119999, .i32⟩ : BufTy).Contents (Elt F)),
    unary main_v8 main_v9 (broadcastInDim S119999x1 ![0] bcast_S119999_S119999x1_0 : (⟨S119999, .i32⟩ : BufTy).Contents (Elt F) → (⟨S119999x1, .i32⟩ : BufTy).Contents (Elt F)) ]
/-- The message table and the wrapped bond indices. -/
abbrev L1b : List (HloOp τ sig (Elt F)) :=
  [ binary main_v2 main_v9 main_v10 ((fun x i => Host.gather gather_S50000x512_S119999x1_S119999x512_1_0_n_n_0_1_1512 x i) : (⟨S50000x512, .f32⟩ : BufTy).Contents (Elt F) → (⟨S119999x1, .i32⟩ : BufTy).Contents (Elt F) → (⟨S119999x512, .f32⟩ : BufTy).Contents (Elt F)),
    binary main_v3 main_v10 main_v11 ((fun a b => concatenate S120000x512 0 [⟨S1x512, a⟩, ⟨S119999x512, b⟩] concatenates_S1x512_S119999x512_S120000x512_d0) : (⟨S1x512, .f32⟩ : BufTy).Contents (Elt F) → (⟨S119999x512, .f32⟩ : BufTy).Contents (Elt F) → (⟨S120000x512, .f32⟩ : BufTy).Contents (Elt F)),
    binary main_v11 main_arg1 main_v12 ((fun a b => concatenate S120000x523 1 [⟨S120000x512, a⟩, ⟨S120000x11, b⟩] concatenates_S120000x512_S120000x11_S120000x523_d1) : (⟨S120000x512, .f32⟩ : BufTy).Contents (Elt F) → (⟨S120000x11, .f32⟩ : BufTy).Contents (Elt F) → (⟨S120000x523, .f32⟩ : BufTy).Contents (Elt F)),
    nullary main_c_1 (constantI S_ 32 0#32),
    unary main_c_1 main_v13 (broadcastInDim S50000x6 ![] bcast_S_S50000x6 : (⟨S_, .i32⟩ : BufTy).Contents (Elt F) → (⟨S50000x6, .i32⟩ : BufTy).Contents (Elt F)),
    binary main_arg4 main_v13 main_v14 (cmpi .slt : (⟨S50000x6, .i32⟩ : BufTy).Contents (Elt F) → (⟨S50000x6, .i32⟩ : BufTy).Contents (Elt F) → (⟨S50000x6, .i1⟩ : BufTy).Contents (Elt F)),
    nullary main_c_2 (constantI S_ 32 120000#32),
    unary main_c_2 main_v15 (broadcastInDim S50000x6 ![] bcast_S_S50000x6 : (⟨S_, .i32⟩ : BufTy).Contents (Elt F) → (⟨S50000x6, .i32⟩ : BufTy).Contents (Elt F)),
    binary main_arg4 main_v15 main_v16 (addi : (⟨S50000x6, .i32⟩ : BufTy).Contents (Elt F) → (⟨S50000x6, .i32⟩ : BufTy).Contents (Elt F) → (⟨S50000x6, .i32⟩ : BufTy).Contents (Elt F)),
    ternary main_v14 main_v16 main_arg4 main_v17 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)) ]
/-- The neighbour sum, the product with the weights, the sum with the first layer's output and the positive part. -/
abbrev L1c : List (HloOp τ sig (Elt F)) :=
  [ unary main_v17 main_v18 (broadcastInDim S50000x6x1 ![0, 1] bcast_S50000x6_S50000x6x1_0_1 : (⟨S50000x6, .i32⟩ : BufTy).Contents (Elt F) → (⟨S50000x6x1, .i32⟩ : BufTy).Contents (Elt F)),
    binary main_v12 main_v18 main_v19 ((fun x i => Host.gather gather_S120000x523_S50000x6x1_S50000x6x523_2_0_n_n_0_2_1523 x i) : (⟨S120000x523, .f32⟩ : BufTy).Contents (Elt F) → (⟨S50000x6x1, .i32⟩ : BufTy).Contents (Elt F) → (⟨S50000x6x523, .f32⟩ : BufTy).Contents (Elt F)),
    nullary main_cst_3 (constant S_ .f32 0x00000000#32),
    binary main_v19 main_cst_3 main_v20 ((fun x v => Host.reduceAdd x v reducesTo_S50000x6x523_S50000x523_d1 h_S_) : (⟨S50000x6x523, .f32⟩ : BufTy).Contents (Elt F) → (⟨S_, .f32⟩ : BufTy).Contents (Elt F) → (⟨S50000x523, .f32⟩ : BufTy).Contents (Elt F)),
    unary main_arg3 main_v21 ((transpose S523x512 [1, 0] · transposes_S512x523_S523x512_1_0) : (⟨S512x523, .f32⟩ : BufTy).Contents (Elt F) → (⟨S523x512, .f32⟩ : BufTy).Contents (Elt F)),
    binary main_v20 main_v21 main_v22 ((fun l r => Host.dotGeneral dot_S50000x523_S523x512_S50000x512_1_0_0_1_n_n none l r) : (⟨S50000x523, .f32⟩ : BufTy).Contents (Elt F) → (⟨S523x512, .f32⟩ : BufTy).Contents (Elt F) → (⟨S50000x512, .f32⟩ : BufTy).Contents (Elt F)),
    binary main_v2 main_v22 main_v23 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x512, .f32⟩) main_call1_v0) (broadcastInDim S50000x512 ![] bcast_S_S50000x512),
    TRef.binary (TRef.of (T := ⟨S50000x512, .f32⟩) main_v23) (TRef.of (T := ⟨S50000x512, .f32⟩) main_call1_v0) (TRef.of (T := ⟨S50000x512, .f32⟩) main_v24) maximumf ]
/-- The layer's thirty operations. -/
abbrev cL1 : List (HloOp τ sig (Elt F)) := L1a ++ (L1b ++ L1c)

/-- Every buffer the layer writes. -/
abbrev written1 : List (Ref sig .tc) :=
  [main_cst, main_v3, main_c, main_v4, main_v5, main_c_0, main_v6, main_v7, main_v8, main_v9, main_v10, main_v11, main_v12, main_c_1, main_v13, main_v14, main_c_2, main_v15, main_v16, main_v17, main_v18, main_v19, main_cst_3, main_v20, main_v21, main_v22, main_v23, main_call1_cst, main_call1_v0, main_v24]

theorem wr1a : (L1a : List (HloOp τ sig (Elt F))).Forall fun op => op.writes ⊆ (written1.map (Proc.devRef (τ := τ) .tc)).toFinset := by
  writes_in_list L1a
theorem wr1b : (L1b : List (HloOp τ sig (Elt F))).Forall fun op => op.writes ⊆ (written1.map (Proc.devRef (τ := τ) .tc)).toFinset := by
  writes_in_list L1b
theorem wr1c : (L1c : List (HloOp τ sig (Elt F))).Forall fun op => op.writes ⊆ (written1.map (Proc.devRef (τ := τ) .tc)).toFinset := by
  writes_in_list L1c

variable (W : Valuation τ sig (Elt F))

theorem l1a_zero : after (L1a (F := F)) W (Proc.devRef .tc main_v3) = ReadP.val_main_v3 (F := F) := by
  after_results; try rfl
theorem l1a_src : after (L1a (F := F)) W (Proc.devRef .tc main_v9) = ReadP.val_main_v9 (F := F) (W (Proc.devRef .tc main_arg5)) := by
  after_results; try rfl
theorem l1b_tab : after (L1b (F := F)) W (Proc.devRef .tc main_v12)
    = concatenate S120000x523 1 [⟨S120000x512, concatenate S120000x512 0 [⟨S1x512, W (Proc.devRef .tc main_v3)⟩,
        ⟨S119999x512, Host.gather gather_S50000x512_S119999x1_S119999x512_1_0_n_n_0_1_1512 (W (Proc.devRef .tc main_v2)) (W (Proc.devRef .tc main_v9))⟩] concatenates_S1x512_S119999x512_S120000x512_d0⟩,
      ⟨S120000x11, W (Proc.devRef .tc main_arg1)⟩] concatenates_S120000x512_S120000x11_S120000x523_d1 := by
  after_results; try rfl
theorem l1b_idx : after (L1b (F := F)) W (Proc.devRef .tc main_v17) = ReadP.val_main_v17 (F := F) (W (Proc.devRef .tc main_arg4)) := by
  after_results; try rfl
theorem l1c_out : after (L1c (F := F)) W (Proc.devRef .tc main_v24)
    = maximumf (addf (W (Proc.devRef .tc main_v2)) (Host.dotGeneral (φ₁ := .f32) (φ₂ := .f32) dot_S50000x523_S523x512_S50000x512_1_0_0_1_n_n none
        (Host.reduceAdd (φ := .f32) (Host.gather gather_S120000x523_S50000x6x1_S50000x6x523_2_0_n_n_0_2_1523 (W (Proc.devRef .tc main_v12))
          (broadcastInDim S50000x6x1 ![0, 1] bcast_S50000x6_S50000x6x1_0_1 (W (Proc.devRef .tc main_v17))))
          (constant S_ .f32 0x00000000#32) reducesTo_S50000x6x523_S50000x523_d1 h_S_)
        (transpose S523x512 [1, 0] (W (Proc.devRef .tc main_arg3)) transposes_S512x523_S523x512_1_0)))
      (broadcastInDim S50000x512 ![] bcast_S_S50000x512 (constant S_ .f32 0x00000000#32)) := by
  after_results; try rfl

/-- A buffer the layer does not write keeps its contents. -/
theorem keep1 (r : Ref sig .tc) (hr : r ∉ written1) : after (cL1 (F := F)) W (Proc.devRef .tc r) = W (Proc.devRef .tc r) := by
  rw [after_append, after_append]
  exact (after_of_writes_sub L1c _ wr1c hr).trans ((after_of_writes_sub L1b _ wr1b hr).trans (after_of_writes_sub L1a _ wr1a hr))

/-- The layer's output is the layer function of the first layer's output, the previous hidden state and the arguments. -/
theorem layer1 : after (cL1 (F := F)) W (Proc.devRef .tc main_v24)
    = refLayer (W (Proc.devRef .tc main_v2)) (W (Proc.devRef .tc main_v2)) (W (Proc.devRef .tc main_arg1)) (W (Proc.devRef .tc main_arg3)) (W (Proc.devRef .tc main_arg4)) (W (Proc.devRef .tc main_arg5)) := by
  rw [after_append, after_append, l1c_out, l1b_tab, l1b_idx, after_of_writes_sub L1b _ wr1b (r := main_v2) (by decide), after_of_writes_sub L1b _ wr1b (r := main_arg3) (by decide)]
  rw [l1a_zero, l1a_src, after_of_writes_sub L1a _ wr1a (r := main_v2) (by decide),
    after_of_writes_sub L1a _ wr1a (r := main_arg1) (by decide),
    after_of_writes_sub L1a _ wr1a (r := main_arg4) (by decide),
    after_of_writes_sub L1a _ wr1a (r := main_arg3) (by decide)]
  rfl

end Layer1

/-! ## Layer 2: operations 35 to 64, in three stretches of ten -/

section Layer2

/-- The zero row and the wrapped source-atom indices. -/
abbrev L2a : List (HloOp τ sig (Elt F)) :=
  [ nullary main_cst_4 (constant S_ .f32 0x00000000#32),
    unary main_cst_4 main_v25 (broadcastInDim S1x512 ![] bcast_S_S1x512 : (⟨S_, .f32⟩ : BufTy).Contents (Elt F) → (⟨S1x512, .f32⟩ : BufTy).Contents (Elt F)),
    nullary main_c_5 (constantI S_ 32 0#32),
    unary main_c_5 main_v26 (broadcastInDim S119999 ![] bcast_S_S119999 : (⟨S_, .i32⟩ : BufTy).Contents (Elt F) → (⟨S119999, .i32⟩ : BufTy).Contents (Elt F)),
    binary main_arg5 main_v26 main_v27 (cmpi .slt : (⟨S119999, .i32⟩ : BufTy).Contents (Elt F) → (⟨S119999, .i32⟩ : BufTy).Contents (Elt F) → (⟨S119999, .i1⟩ : BufTy).Contents (Elt F)),
    nullary main_c_6 (constantI S_ 32 50000#32),
    unary main_c_6 main_v28 (broadcastInDim S119999 ![] bcast_S_S119999 : (⟨S_, .i32⟩ : BufTy).Contents (Elt F) → (⟨S119999, .i32⟩ : BufTy).Contents (Elt F)),
    binary main_arg5 main_v28 main_v29 (addi : (⟨S119999, .i32⟩ : BufTy).Contents (Elt F) → (⟨S119999, .i32⟩ : BufTy).Contents (Elt F) → (⟨S119999, .i32⟩ : BufTy).Contents (Elt F)),
    ternary main_v27 main_v29 main_arg5 main_v30 (select : (⟨S119999, .i1⟩ : BufTy).Contents (Elt F) → (⟨S119999, .i32⟩ : BufTy).Contents (Elt F) → (⟨S119999, .i32⟩ : BufTy).Contents (Elt F) → (⟨S119999, .i32⟩ : BufTy).Contents (Elt F)),
    unary main_v30 main_v31 (broadcastInDim S119999x1 ![0] bcast_S119999_S119999x1_0 : (⟨S119999, .i32⟩ : BufTy).Contents (Elt F) → (⟨S119999x1, .i32⟩ : BufTy).Contents (Elt F)) ]
/-- The message table and the wrapped bond indices. -/
abbrev L2b : List (HloOp τ sig (Elt F)) :=
  [ binary main_v24 main_v31 main_v32 ((fun x i => Host.gather gather_S50000x512_S119999x1_S119999x512_1_0_n_n_0_1_1512 x i) : (⟨S50000x512, .f32⟩ : BufTy).Contents (Elt F) → (⟨S119999x1, .i32⟩ : BufTy).Contents (Elt F) → (⟨S119999x512, .f32⟩ : BufTy).Contents (Elt F)),
    binary main_v25 main_v32 main_v33 ((fun a b => concatenate S120000x512 0 [⟨S1x512, a⟩, ⟨S119999x512, b⟩] concatenates_S1x512_S119999x512_S120000x512_d0) : (⟨S1x512, .f32⟩ : BufTy).Contents (Elt F) → (⟨S119999x512, .f32⟩ : BufTy).Contents (Elt F) → (⟨S120000x512, .f32⟩ : BufTy).Contents (Elt F)),
    binary main_v33 main_arg1 main_v34 ((fun a b => concatenate S120000x523 1 [⟨S120000x512, a⟩, ⟨S120000x11, b⟩] concatenates_S120000x512_S120000x11_S120000x523_d1) : (⟨S120000x512, .f32⟩ : BufTy).Contents (Elt F) → (⟨S120000x11, .f32⟩ : BufTy).Contents (Elt F) → (⟨S120000x523, .f32⟩ : BufTy).Contents (Elt F)),
    nullary main_c_7 (constantI S_ 32 0#32),
    unary main_c_7 main_v35 (broadcastInDim S50000x6 ![] bcast_S_S50000x6 : (⟨S_, .i32⟩ : BufTy).Contents (Elt F) → (⟨S50000x6, .i32⟩ : BufTy).Contents (Elt F)),
    binary main_arg4 main_v35 main_v36 (cmpi .slt : (⟨S50000x6, .i32⟩ : BufTy).Contents (Elt F) → (⟨S50000x6, .i32⟩ : BufTy).Contents (Elt F) → (⟨S50000x6, .i1⟩ : BufTy).Contents (Elt F)),
    nullary main_c_8 (constantI S_ 32 120000#32),
    unary main_c_8 main_v37 (broadcastInDim S50000x6 ![] bcast_S_S50000x6 : (⟨S_, .i32⟩ : BufTy).Contents (Elt F) → (⟨S50000x6, .i32⟩ : BufTy).Contents (Elt F)),
    binary main_arg4 main_v37 main_v38 (addi : (⟨S50000x6, .i32⟩ : BufTy).Contents (Elt F) → (⟨S50000x6, .i32⟩ : BufTy).Contents (Elt F) → (⟨S50000x6, .i32⟩ : BufTy).Contents (Elt F)),
    ternary main_v36 main_v38 main_arg4 main_v39 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)) ]
/-- The neighbour sum, the product with the weights, the sum with the first layer's output and the positive part. -/
abbrev L2c : List (HloOp τ sig (Elt F)) :=
  [ unary main_v39 main_v40 (broadcastInDim S50000x6x1 ![0, 1] bcast_S50000x6_S50000x6x1_0_1 : (⟨S50000x6, .i32⟩ : BufTy).Contents (Elt F) → (⟨S50000x6x1, .i32⟩ : BufTy).Contents (Elt F)),
    binary main_v34 main_v40 main_v41 ((fun x i => Host.gather gather_S120000x523_S50000x6x1_S50000x6x523_2_0_n_n_0_2_1523 x i) : (⟨S120000x523, .f32⟩ : BufTy).Contents (Elt F) → (⟨S50000x6x1, .i32⟩ : BufTy).Contents (Elt F) → (⟨S50000x6x523, .f32⟩ : BufTy).Contents (Elt F)),
    nullary main_cst_9 (constant S_ .f32 0x00000000#32),
    binary main_v41 main_cst_9 main_v42 ((fun x v => Host.reduceAdd x v reducesTo_S50000x6x523_S50000x523_d1 h_S_) : (⟨S50000x6x523, .f32⟩ : BufTy).Contents (Elt F) → (⟨S_, .f32⟩ : BufTy).Contents (Elt F) → (⟨S50000x523, .f32⟩ : BufTy).Contents (Elt F)),
    unary main_arg3 main_v43 ((transpose S523x512 [1, 0] · transposes_S512x523_S523x512_1_0) : (⟨S512x523, .f32⟩ : BufTy).Contents (Elt F) → (⟨S523x512, .f32⟩ : BufTy).Contents (Elt F)),
    binary main_v42 main_v43 main_v44 ((fun l r => Host.dotGeneral dot_S50000x523_S523x512_S50000x512_1_0_0_1_n_n none l r) : (⟨S50000x523, .f32⟩ : BufTy).Contents (Elt F) → (⟨S523x512, .f32⟩ : BufTy).Contents (Elt F) → (⟨S50000x512, .f32⟩ : BufTy).Contents (Elt F)),
    binary main_v2 main_v44 main_v45 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x512, .f32⟩) main_call2_v0) (broadcastInDim S50000x512 ![] bcast_S_S50000x512),
    TRef.binary (TRef.of (T := ⟨S50000x512, .f32⟩) main_v45) (TRef.of (T := ⟨S50000x512, .f32⟩) main_call2_v0) (TRef.of (T := ⟨S50000x512, .f32⟩) main_v46) maximumf ]
/-- The layer's thirty operations. -/
abbrev cL2 : List (HloOp τ sig (Elt F)) := L2a ++ (L2b ++ L2c)

/-- Every buffer the layer writes. -/
abbrev written2 : List (Ref sig .tc) :=
  [main_cst_4, main_v25, main_c_5, main_v26, main_v27, main_c_6, main_v28, main_v29, main_v30, main_v31, main_v32, main_v33, main_v34, main_c_7, main_v35, main_v36, main_c_8, main_v37, main_v38, main_v39, main_v40, main_v41, main_cst_9, main_v42, main_v43, main_v44, main_v45, main_call2_cst, main_call2_v0, main_v46]

theorem wr2a : (L2a : List (HloOp τ sig (Elt F))).Forall fun op => op.writes ⊆ (written2.map (Proc.devRef (τ := τ) .tc)).toFinset := by
  writes_in_list L2a
theorem wr2b : (L2b : List (HloOp τ sig (Elt F))).Forall fun op => op.writes ⊆ (written2.map (Proc.devRef (τ := τ) .tc)).toFinset := by
  writes_in_list L2b
theorem wr2c : (L2c : List (HloOp τ sig (Elt F))).Forall fun op => op.writes ⊆ (written2.map (Proc.devRef (τ := τ) .tc)).toFinset := by
  writes_in_list L2c

variable (W : Valuation τ sig (Elt F))

theorem l2a_zero : after (L2a (F := F)) W (Proc.devRef .tc main_v25) = ReadP.val_main_v25 (F := F) := by
  after_results; try rfl
theorem l2a_src : after (L2a (F := F)) W (Proc.devRef .tc main_v31) = ReadP.val_main_v31 (F := F) (W (Proc.devRef .tc main_arg5)) := by
  after_results; try rfl
theorem l2b_tab : after (L2b (F := F)) W (Proc.devRef .tc main_v34)
    = concatenate S120000x523 1 [⟨S120000x512, concatenate S120000x512 0 [⟨S1x512, W (Proc.devRef .tc main_v25)⟩,
        ⟨S119999x512, Host.gather gather_S50000x512_S119999x1_S119999x512_1_0_n_n_0_1_1512 (W (Proc.devRef .tc main_v24)) (W (Proc.devRef .tc main_v31))⟩] concatenates_S1x512_S119999x512_S120000x512_d0⟩,
      ⟨S120000x11, W (Proc.devRef .tc main_arg1)⟩] concatenates_S120000x512_S120000x11_S120000x523_d1 := by
  after_results; try rfl
theorem l2b_idx : after (L2b (F := F)) W (Proc.devRef .tc main_v39) = ReadP.val_main_v39 (F := F) (W (Proc.devRef .tc main_arg4)) := by
  after_results; try rfl
theorem l2c_out : after (L2c (F := F)) W (Proc.devRef .tc main_v46)
    = maximumf (addf (W (Proc.devRef .tc main_v2)) (Host.dotGeneral (φ₁ := .f32) (φ₂ := .f32) dot_S50000x523_S523x512_S50000x512_1_0_0_1_n_n none
        (Host.reduceAdd (φ := .f32) (Host.gather gather_S120000x523_S50000x6x1_S50000x6x523_2_0_n_n_0_2_1523 (W (Proc.devRef .tc main_v34))
          (broadcastInDim S50000x6x1 ![0, 1] bcast_S50000x6_S50000x6x1_0_1 (W (Proc.devRef .tc main_v39))))
          (constant S_ .f32 0x00000000#32) reducesTo_S50000x6x523_S50000x523_d1 h_S_)
        (transpose S523x512 [1, 0] (W (Proc.devRef .tc main_arg3)) transposes_S512x523_S523x512_1_0)))
      (broadcastInDim S50000x512 ![] bcast_S_S50000x512 (constant S_ .f32 0x00000000#32)) := by
  after_results; try rfl

/-- A buffer the layer does not write keeps its contents. -/
theorem keep2 (r : Ref sig .tc) (hr : r ∉ written2) : after (cL2 (F := F)) W (Proc.devRef .tc r) = W (Proc.devRef .tc r) := by
  rw [after_append, after_append]
  exact (after_of_writes_sub L2c _ wr2c hr).trans ((after_of_writes_sub L2b _ wr2b hr).trans (after_of_writes_sub L2a _ wr2a hr))

/-- The layer's output is the layer function of the first layer's output, the previous hidden state and the arguments. -/
theorem layer2 : after (cL2 (F := F)) W (Proc.devRef .tc main_v46)
    = refLayer (W (Proc.devRef .tc main_v2)) (W (Proc.devRef .tc main_v24)) (W (Proc.devRef .tc main_arg1)) (W (Proc.devRef .tc main_arg3)) (W (Proc.devRef .tc main_arg4)) (W (Proc.devRef .tc main_arg5)) := by
  rw [after_append, after_append, l2c_out, l2b_tab, l2b_idx, after_of_writes_sub L2b _ wr2b (r := main_v2) (by decide), after_of_writes_sub L2b _ wr2b (r := main_arg3) (by decide)]
  rw [l2a_zero, l2a_src, after_of_writes_sub L2a _ wr2a (r := main_v24) (by decide),
    after_of_writes_sub L2a _ wr2a (r := main_arg1) (by decide),
    after_of_writes_sub L2a _ wr2a (r := main_arg4) (by decide),
    after_of_writes_sub L2a _ wr2a (r := main_v2) (by decide),
    after_of_writes_sub L2a _ wr2a (r := main_arg3) (by decide)]
  rfl

end Layer2

/-! ## Layer 3: operations 65 to 94, in three stretches of ten -/

section Layer3

/-- The zero row and the wrapped source-atom indices. -/
abbrev L3a : List (HloOp τ sig (Elt F)) :=
  [ nullary main_cst_10 (constant S_ .f32 0x00000000#32),
    unary main_cst_10 main_v47 (broadcastInDim S1x512 ![] bcast_S_S1x512 : (⟨S_, .f32⟩ : BufTy).Contents (Elt F) → (⟨S1x512, .f32⟩ : BufTy).Contents (Elt F)),
    nullary main_c_11 (constantI S_ 32 0#32),
    unary main_c_11 main_v48 (broadcastInDim S119999 ![] bcast_S_S119999 : (⟨S_, .i32⟩ : BufTy).Contents (Elt F) → (⟨S119999, .i32⟩ : BufTy).Contents (Elt F)),
    binary main_arg5 main_v48 main_v49 (cmpi .slt : (⟨S119999, .i32⟩ : BufTy).Contents (Elt F) → (⟨S119999, .i32⟩ : BufTy).Contents (Elt F) → (⟨S119999, .i1⟩ : BufTy).Contents (Elt F)),
    nullary main_c_12 (constantI S_ 32 50000#32),
    unary main_c_12 main_v50 (broadcastInDim S119999 ![] bcast_S_S119999 : (⟨S_, .i32⟩ : BufTy).Contents (Elt F) → (⟨S119999, .i32⟩ : BufTy).Contents (Elt F)),
    binary main_arg5 main_v50 main_v51 (addi : (⟨S119999, .i32⟩ : BufTy).Contents (Elt F) → (⟨S119999, .i32⟩ : BufTy).Contents (Elt F) → (⟨S119999, .i32⟩ : BufTy).Contents (Elt F)),
    ternary main_v49 main_v51 main_arg5 main_v52 (select : (⟨S119999, .i1⟩ : BufTy).Contents (Elt F) → (⟨S119999, .i32⟩ : BufTy).Contents (Elt F) → (⟨S119999, .i32⟩ : BufTy).Contents (Elt F) → (⟨S119999, .i32⟩ : BufTy).Contents (Elt F)),
    unary main_v52 main_v53 (broadcastInDim S119999x1 ![0] bcast_S119999_S119999x1_0 : (⟨S119999, .i32⟩ : BufTy).Contents (Elt F) → (⟨S119999x1, .i32⟩ : BufTy).Contents (Elt F)) ]
/-- The message table and the wrapped bond indices. -/
abbrev L3b : List (HloOp τ sig (Elt F)) :=
  [ binary main_v46 main_v53 main_v54 ((fun x i => Host.gather gather_S50000x512_S119999x1_S119999x512_1_0_n_n_0_1_1512 x i) : (⟨S50000x512, .f32⟩ : BufTy).Contents (Elt F) → (⟨S119999x1, .i32⟩ : BufTy).Contents (Elt F) → (⟨S119999x512, .f32⟩ : BufTy).Contents (Elt F)),
    binary main_v47 main_v54 main_v55 ((fun a b => concatenate S120000x512 0 [⟨S1x512, a⟩, ⟨S119999x512, b⟩] concatenates_S1x512_S119999x512_S120000x512_d0) : (⟨S1x512, .f32⟩ : BufTy).Contents (Elt F) → (⟨S119999x512, .f32⟩ : BufTy).Contents (Elt F) → (⟨S120000x512, .f32⟩ : BufTy).Contents (Elt F)),
    binary main_v55 main_arg1 main_v56 ((fun a b => concatenate S120000x523 1 [⟨S120000x512, a⟩, ⟨S120000x11, b⟩] concatenates_S120000x512_S120000x11_S120000x523_d1) : (⟨S120000x512, .f32⟩ : BufTy).Contents (Elt F) → (⟨S120000x11, .f32⟩ : BufTy).Contents (Elt F) → (⟨S120000x523, .f32⟩ : BufTy).Contents (Elt F)),
    nullary main_c_13 (constantI S_ 32 0#32),
    unary main_c_13 main_v57 (broadcastInDim S50000x6 ![] bcast_S_S50000x6 : (⟨S_, .i32⟩ : BufTy).Contents (Elt F) → (⟨S50000x6, .i32⟩ : BufTy).Contents (Elt F)),
    binary main_arg4 main_v57 main_v58 (cmpi .slt : (⟨S50000x6, .i32⟩ : BufTy).Contents (Elt F) → (⟨S50000x6, .i32⟩ : BufTy).Contents (Elt F) → (⟨S50000x6, .i1⟩ : BufTy).Contents (Elt F)),
    nullary main_c_14 (constantI S_ 32 120000#32),
    unary main_c_14 main_v59 (broadcastInDim S50000x6 ![] bcast_S_S50000x6 : (⟨S_, .i32⟩ : BufTy).Contents (Elt F) → (⟨S50000x6, .i32⟩ : BufTy).Contents (Elt F)),
    binary main_arg4 main_v59 main_v60 (addi : (⟨S50000x6, .i32⟩ : BufTy).Contents (Elt F) → (⟨S50000x6, .i32⟩ : BufTy).Contents (Elt F) → (⟨S50000x6, .i32⟩ : BufTy).Contents (Elt F)),
    ternary main_v58 main_v60 main_arg4 main_v61 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)) ]
/-- The neighbour sum, the product with the weights, the sum with the first layer's output and the positive part. -/
abbrev L3c : List (HloOp τ sig (Elt F)) :=
  [ unary main_v61 main_v62 (broadcastInDim S50000x6x1 ![0, 1] bcast_S50000x6_S50000x6x1_0_1 : (⟨S50000x6, .i32⟩ : BufTy).Contents (Elt F) → (⟨S50000x6x1, .i32⟩ : BufTy).Contents (Elt F)),
    binary main_v56 main_v62 main_v63 ((fun x i => Host.gather gather_S120000x523_S50000x6x1_S50000x6x523_2_0_n_n_0_2_1523 x i) : (⟨S120000x523, .f32⟩ : BufTy).Contents (Elt F) → (⟨S50000x6x1, .i32⟩ : BufTy).Contents (Elt F) → (⟨S50000x6x523, .f32⟩ : BufTy).Contents (Elt F)),
    nullary main_cst_15 (constant S_ .f32 0x00000000#32),
    binary main_v63 main_cst_15 main_v64 ((fun x v => Host.reduceAdd x v reducesTo_S50000x6x523_S50000x523_d1 h_S_) : (⟨S50000x6x523, .f32⟩ : BufTy).Contents (Elt F) → (⟨S_, .f32⟩ : BufTy).Contents (Elt F) → (⟨S50000x523, .f32⟩ : BufTy).Contents (Elt F)),
    unary main_arg3 main_v65 ((transpose S523x512 [1, 0] · transposes_S512x523_S523x512_1_0) : (⟨S512x523, .f32⟩ : BufTy).Contents (Elt F) → (⟨S523x512, .f32⟩ : BufTy).Contents (Elt F)),
    binary main_v64 main_v65 main_v66 ((fun l r => Host.dotGeneral dot_S50000x523_S523x512_S50000x512_1_0_0_1_n_n none l r) : (⟨S50000x523, .f32⟩ : BufTy).Contents (Elt F) → (⟨S523x512, .f32⟩ : BufTy).Contents (Elt F) → (⟨S50000x512, .f32⟩ : BufTy).Contents (Elt F)),
    binary main_v2 main_v66 main_v67 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x512, .f32⟩) main_call3_v0) (broadcastInDim S50000x512 ![] bcast_S_S50000x512),
    TRef.binary (TRef.of (T := ⟨S50000x512, .f32⟩) main_v67) (TRef.of (T := ⟨S50000x512, .f32⟩) main_call3_v0) (TRef.of (T := ⟨S50000x512, .f32⟩) main_v68) maximumf ]
/-- The layer's thirty operations. -/
abbrev cL3 : List (HloOp τ sig (Elt F)) := L3a ++ (L3b ++ L3c)

/-- Every buffer the layer writes. -/
abbrev written3 : List (Ref sig .tc) :=
  [main_cst_10, main_v47, main_c_11, main_v48, main_v49, main_c_12, main_v50, main_v51, main_v52, main_v53, main_v54, main_v55, main_v56, main_c_13, main_v57, main_v58, main_c_14, main_v59, main_v60, main_v61, main_v62, main_v63, main_cst_15, main_v64, main_v65, main_v66, main_v67, main_call3_cst, main_call3_v0, main_v68]

theorem wr3a : (L3a : List (HloOp τ sig (Elt F))).Forall fun op => op.writes ⊆ (written3.map (Proc.devRef (τ := τ) .tc)).toFinset := by
  writes_in_list L3a
theorem wr3b : (L3b : List (HloOp τ sig (Elt F))).Forall fun op => op.writes ⊆ (written3.map (Proc.devRef (τ := τ) .tc)).toFinset := by
  writes_in_list L3b
theorem wr3c : (L3c : List (HloOp τ sig (Elt F))).Forall fun op => op.writes ⊆ (written3.map (Proc.devRef (τ := τ) .tc)).toFinset := by
  writes_in_list L3c

variable (W : Valuation τ sig (Elt F))

theorem l3a_zero : after (L3a (F := F)) W (Proc.devRef .tc main_v47) = ReadP.val_main_v47 (F := F) := by
  after_results; try rfl
theorem l3a_src : after (L3a (F := F)) W (Proc.devRef .tc main_v53) = ReadP.val_main_v53 (F := F) (W (Proc.devRef .tc main_arg5)) := by
  after_results; try rfl
theorem l3b_tab : after (L3b (F := F)) W (Proc.devRef .tc main_v56)
    = concatenate S120000x523 1 [⟨S120000x512, concatenate S120000x512 0 [⟨S1x512, W (Proc.devRef .tc main_v47)⟩,
        ⟨S119999x512, Host.gather gather_S50000x512_S119999x1_S119999x512_1_0_n_n_0_1_1512 (W (Proc.devRef .tc main_v46)) (W (Proc.devRef .tc main_v53))⟩] concatenates_S1x512_S119999x512_S120000x512_d0⟩,
      ⟨S120000x11, W (Proc.devRef .tc main_arg1)⟩] concatenates_S120000x512_S120000x11_S120000x523_d1 := by
  after_results; try rfl
theorem l3b_idx : after (L3b (F := F)) W (Proc.devRef .tc main_v61) = ReadP.val_main_v61 (F := F) (W (Proc.devRef .tc main_arg4)) := by
  after_results; try rfl
theorem l3c_out : after (L3c (F := F)) W (Proc.devRef .tc main_v68)
    = maximumf (addf (W (Proc.devRef .tc main_v2)) (Host.dotGeneral (φ₁ := .f32) (φ₂ := .f32) dot_S50000x523_S523x512_S50000x512_1_0_0_1_n_n none
        (Host.reduceAdd (φ := .f32) (Host.gather gather_S120000x523_S50000x6x1_S50000x6x523_2_0_n_n_0_2_1523 (W (Proc.devRef .tc main_v56))
          (broadcastInDim S50000x6x1 ![0, 1] bcast_S50000x6_S50000x6x1_0_1 (W (Proc.devRef .tc main_v61))))
          (constant S_ .f32 0x00000000#32) reducesTo_S50000x6x523_S50000x523_d1 h_S_)
        (transpose S523x512 [1, 0] (W (Proc.devRef .tc main_arg3)) transposes_S512x523_S523x512_1_0)))
      (broadcastInDim S50000x512 ![] bcast_S_S50000x512 (constant S_ .f32 0x00000000#32)) := by
  after_results; try rfl

/-- A buffer the layer does not write keeps its contents. -/
theorem keep3 (r : Ref sig .tc) (hr : r ∉ written3) : after (cL3 (F := F)) W (Proc.devRef .tc r) = W (Proc.devRef .tc r) := by
  rw [after_append, after_append]
  exact (after_of_writes_sub L3c _ wr3c hr).trans ((after_of_writes_sub L3b _ wr3b hr).trans (after_of_writes_sub L3a _ wr3a hr))

/-- The layer's output is the layer function of the first layer's output, the previous hidden state and the arguments. -/
theorem layer3 : after (cL3 (F := F)) W (Proc.devRef .tc main_v68)
    = refLayer (W (Proc.devRef .tc main_v2)) (W (Proc.devRef .tc main_v46)) (W (Proc.devRef .tc main_arg1)) (W (Proc.devRef .tc main_arg3)) (W (Proc.devRef .tc main_arg4)) (W (Proc.devRef .tc main_arg5)) := by
  rw [after_append, after_append, l3c_out, l3b_tab, l3b_idx, after_of_writes_sub L3b _ wr3b (r := main_v2) (by decide), after_of_writes_sub L3b _ wr3b (r := main_arg3) (by decide)]
  rw [l3a_zero, l3a_src, after_of_writes_sub L3a _ wr3a (r := main_v46) (by decide),
    after_of_writes_sub L3a _ wr3a (r := main_arg1) (by decide),
    after_of_writes_sub L3a _ wr3a (r := main_arg4) (by decide),
    after_of_writes_sub L3a _ wr3a (r := main_v2) (by decide),
    after_of_writes_sub L3a _ wr3a (r := main_arg3) (by decide)]
  rfl

end Layer3

/-! ## Layer 4: operations 95 to 124, in three stretches of ten -/

section Layer4

/-- The zero row and the wrapped source-atom indices. -/
abbrev L4a : List (HloOp τ sig (Elt F)) :=
  [ nullary main_cst_16 (constant S_ .f32 0x00000000#32),
    unary main_cst_16 main_v69 (broadcastInDim S1x512 ![] bcast_S_S1x512 : (⟨S_, .f32⟩ : BufTy).Contents (Elt F) → (⟨S1x512, .f32⟩ : BufTy).Contents (Elt F)),
    nullary main_c_17 (constantI S_ 32 0#32),
    unary main_c_17 main_v70 (broadcastInDim S119999 ![] bcast_S_S119999 : (⟨S_, .i32⟩ : BufTy).Contents (Elt F) → (⟨S119999, .i32⟩ : BufTy).Contents (Elt F)),
    binary main_arg5 main_v70 main_v71 (cmpi .slt : (⟨S119999, .i32⟩ : BufTy).Contents (Elt F) → (⟨S119999, .i32⟩ : BufTy).Contents (Elt F) → (⟨S119999, .i1⟩ : BufTy).Contents (Elt F)),
    nullary main_c_18 (constantI S_ 32 50000#32),
    unary main_c_18 main_v72 (broadcastInDim S119999 ![] bcast_S_S119999 : (⟨S_, .i32⟩ : BufTy).Contents (Elt F) → (⟨S119999, .i32⟩ : BufTy).Contents (Elt F)),
    binary main_arg5 main_v72 main_v73 (addi : (⟨S119999, .i32⟩ : BufTy).Contents (Elt F) → (⟨S119999, .i32⟩ : BufTy).Contents (Elt F) → (⟨S119999, .i32⟩ : BufTy).Contents (Elt F)),
    ternary main_v71 main_v73 main_arg5 main_v74 (select : (⟨S119999, .i1⟩ : BufTy).Contents (Elt F) → (⟨S119999, .i32⟩ : BufTy).Contents (Elt F) → (⟨S119999, .i32⟩ : BufTy).Contents (Elt F) → (⟨S119999, .i32⟩ : BufTy).Contents (Elt F)),
    unary main_v74 main_v75 (broadcastInDim S119999x1 ![0] bcast_S119999_S119999x1_0 : (⟨S119999, .i32⟩ : BufTy).Contents (Elt F) → (⟨S119999x1, .i32⟩ : BufTy).Contents (Elt F)) ]
/-- The message table and the wrapped bond indices. -/
abbrev L4b : List (HloOp τ sig (Elt F)) :=
  [ binary main_v68 main_v75 main_v76 ((fun x i => Host.gather gather_S50000x512_S119999x1_S119999x512_1_0_n_n_0_1_1512 x i) : (⟨S50000x512, .f32⟩ : BufTy).Contents (Elt F) → (⟨S119999x1, .i32⟩ : BufTy).Contents (Elt F) → (⟨S119999x512, .f32⟩ : BufTy).Contents (Elt F)),
    binary main_v69 main_v76 main_v77 ((fun a b => concatenate S120000x512 0 [⟨S1x512, a⟩, ⟨S119999x512, b⟩] concatenates_S1x512_S119999x512_S120000x512_d0) : (⟨S1x512, .f32⟩ : BufTy).Contents (Elt F) → (⟨S119999x512, .f32⟩ : BufTy).Contents (Elt F) → (⟨S120000x512, .f32⟩ : BufTy).Contents (Elt F)),
    binary main_v77 main_arg1 main_v78 ((fun a b => concatenate S120000x523 1 [⟨S120000x512, a⟩, ⟨S120000x11, b⟩] concatenates_S120000x512_S120000x11_S120000x523_d1) : (⟨S120000x512, .f32⟩ : BufTy).Contents (Elt F) → (⟨S120000x11, .f32⟩ : BufTy).Contents (Elt F) → (⟨S120000x523, .f32⟩ : BufTy).Contents (Elt F)),
    nullary main_c_19 (constantI S_ 32 0#32),
    unary main_c_19 main_v79 (broadcastInDim S50000x6 ![] bcast_S_S50000x6 : (⟨S_, .i32⟩ : BufTy).Contents (Elt F) → (⟨S50000x6, .i32⟩ : BufTy).Contents (Elt F)),
    binary main_arg4 main_v79 main_v80 (cmpi .slt : (⟨S50000x6, .i32⟩ : BufTy).Contents (Elt F) → (⟨S50000x6, .i32⟩ : BufTy).Contents (Elt F) → (⟨S50000x6, .i1⟩ : BufTy).Contents (Elt F)),
    nullary main_c_20 (constantI S_ 32 120000#32),
    unary main_c_20 main_v81 (broadcastInDim S50000x6 ![] bcast_S_S50000x6 : (⟨S_, .i32⟩ : BufTy).Contents (Elt F) → (⟨S50000x6, .i32⟩ : BufTy).Contents (Elt F)),
    binary main_arg4 main_v81 main_v82 (addi : (⟨S50000x6, .i32⟩ : BufTy).Contents (Elt F) → (⟨S50000x6, .i32⟩ : BufTy).Contents (Elt F) → (⟨S50000x6, .i32⟩ : BufTy).Contents (Elt F)),
    ternary main_v80 main_v82 main_arg4 main_v83 (select : (⟨S50000x6, .i1⟩ : BufTy).Contents (Elt F) → (⟨S50000x6, .i32⟩ : BufTy).Contents (Elt F) → (⟨S50000x6, .i32⟩ : BufTy).Contents (Elt F) → (⟨S50000x6, .i32⟩ : BufTy).Contents (Elt F)) ]
/-- The neighbour sum, the product with the weights, the sum with the first layer's output and the positive part. -/
abbrev L4c : List (HloOp τ sig (Elt F)) :=
  [ unary main_v83 main_v84 (broadcastInDim S50000x6x1 ![0, 1] bcast_S50000x6_S50000x6x1_0_1 : (⟨S50000x6, .i32⟩ : BufTy).Contents (Elt F) → (⟨S50000x6x1, .i32⟩ : BufTy).Contents (Elt F)),
    binary main_v78 main_v84 main_v85 ((fun x i => Host.gather gather_S120000x523_S50000x6x1_S50000x6x523_2_0_n_n_0_2_1523 x i) : (⟨S120000x523, .f32⟩ : BufTy).Contents (Elt F) → (⟨S50000x6x1, .i32⟩ : BufTy).Contents (Elt F) → (⟨S50000x6x523, .f32⟩ : BufTy).Contents (Elt F)),
    nullary main_cst_21 (constant S_ .f32 0x00000000#32),
    binary main_v85 main_cst_21 main_v86 ((fun x v => Host.reduceAdd x v reducesTo_S50000x6x523_S50000x523_d1 h_S_) : (⟨S50000x6x523, .f32⟩ : BufTy).Contents (Elt F) → (⟨S_, .f32⟩ : BufTy).Contents (Elt F) → (⟨S50000x523, .f32⟩ : BufTy).Contents (Elt F)),
    unary main_arg3 main_v87 ((transpose S523x512 [1, 0] · transposes_S512x523_S523x512_1_0) : (⟨S512x523, .f32⟩ : BufTy).Contents (Elt F) → (⟨S523x512, .f32⟩ : BufTy).Contents (Elt F)),
    binary main_v86 main_v87 main_v88 ((fun l r => Host.dotGeneral dot_S50000x523_S523x512_S50000x512_1_0_0_1_n_n none l r) : (⟨S50000x523, .f32⟩ : BufTy).Contents (Elt F) → (⟨S523x512, .f32⟩ : BufTy).Contents (Elt F) → (⟨S50000x512, .f32⟩ : BufTy).Contents (Elt F)),
    binary main_v2 main_v88 main_v89 (addf : (⟨S50000x512, .f32⟩ : BufTy).Contents (Elt F) → (⟨S50000x512, .f32⟩ : BufTy).Contents (Elt F) → (⟨S50000x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x512, .f32⟩) main_call4_v0) (broadcastInDim S50000x512 ![] bcast_S_S50000x512),
    TRef.binary (TRef.of (T := ⟨S50000x512, .f32⟩) main_v89) (TRef.of (T := ⟨S50000x512, .f32⟩) main_call4_v0) (TRef.of (T := ⟨S50000x512, .f32⟩) main_v90) maximumf ]
/-- The layer's thirty operations. -/
abbrev cL4 : List (HloOp τ sig (Elt F)) := L4a ++ (L4b ++ L4c)

/-- Every buffer the layer writes. -/
abbrev written4 : List (Ref sig .tc) :=
  [main_cst_16, main_v69, main_c_17, main_v70, main_v71, main_c_18, main_v72, main_v73, main_v74, main_v75, main_v76, main_v77, main_v78, main_c_19, main_v79, main_v80, main_c_20, main_v81, main_v82, main_v83, main_v84, main_v85, main_cst_21, main_v86, main_v87, main_v88, main_v89, main_call4_cst, main_call4_v0, main_v90]

theorem wr4a : (L4a : List (HloOp τ sig (Elt F))).Forall fun op => op.writes ⊆ (written4.map (Proc.devRef (τ := τ) .tc)).toFinset := by
  writes_in_list L4a
theorem wr4b : (L4b : List (HloOp τ sig (Elt F))).Forall fun op => op.writes ⊆ (written4.map (Proc.devRef (τ := τ) .tc)).toFinset := by
  writes_in_list L4b
theorem wr4c : (L4c : List (HloOp τ sig (Elt F))).Forall fun op => op.writes ⊆ (written4.map (Proc.devRef (τ := τ) .tc)).toFinset := by
  writes_in_list L4c

variable (W : Valuation τ sig (Elt F))

theorem l4a_zero : after (L4a (F := F)) W (Proc.devRef .tc main_v69) = ReadP.val_main_v69 (F := F) := by
  after_results; try rfl
theorem l4a_src : after (L4a (F := F)) W (Proc.devRef .tc main_v75) = ReadP.val_main_v75 (F := F) (W (Proc.devRef .tc main_arg5)) := by
  after_results; try rfl
theorem l4b_tab : after (L4b (F := F)) W (Proc.devRef .tc main_v78)
    = concatenate S120000x523 1 [⟨S120000x512, concatenate S120000x512 0 [⟨S1x512, W (Proc.devRef .tc main_v69)⟩,
        ⟨S119999x512, Host.gather gather_S50000x512_S119999x1_S119999x512_1_0_n_n_0_1_1512 (W (Proc.devRef .tc main_v68)) (W (Proc.devRef .tc main_v75))⟩] concatenates_S1x512_S119999x512_S120000x512_d0⟩,
      ⟨S120000x11, W (Proc.devRef .tc main_arg1)⟩] concatenates_S120000x512_S120000x11_S120000x523_d1 := by
  after_results; try rfl
theorem l4b_idx : after (L4b (F := F)) W (Proc.devRef .tc main_v83) = ReadP.val_main_v83 (F := F) (W (Proc.devRef .tc main_arg4)) := by
  after_results; try rfl
theorem l4c_out : after (L4c (F := F)) W (Proc.devRef .tc main_v90)
    = maximumf (addf (W (Proc.devRef .tc main_v2)) (Host.dotGeneral (φ₁ := .f32) (φ₂ := .f32) dot_S50000x523_S523x512_S50000x512_1_0_0_1_n_n none
        (Host.reduceAdd (φ := .f32) (Host.gather gather_S120000x523_S50000x6x1_S50000x6x523_2_0_n_n_0_2_1523 (W (Proc.devRef .tc main_v78))
          (broadcastInDim S50000x6x1 ![0, 1] bcast_S50000x6_S50000x6x1_0_1 (W (Proc.devRef .tc main_v83))))
          (constant S_ .f32 0x00000000#32) reducesTo_S50000x6x523_S50000x523_d1 h_S_)
        (transpose S523x512 [1, 0] (W (Proc.devRef .tc main_arg3)) transposes_S512x523_S523x512_1_0)))
      (broadcastInDim S50000x512 ![] bcast_S_S50000x512 (constant S_ .f32 0x00000000#32)) := by
  after_results; try rfl

/-- A buffer the layer does not write keeps its contents. -/
theorem keep4 (r : Ref sig .tc) (hr : r ∉ written4) : after (cL4 (F := F)) W (Proc.devRef .tc r) = W (Proc.devRef .tc r) := by
  rw [after_append, after_append]
  exact (after_of_writes_sub L4c _ wr4c hr).trans ((after_of_writes_sub L4b _ wr4b hr).trans (after_of_writes_sub L4a _ wr4a hr))

/-- The layer's output is the layer function of the first layer's output, the previous hidden state and the arguments. -/
theorem layer4 : after (cL4 (F := F)) W (Proc.devRef .tc main_v90)
    = refLayer (W (Proc.devRef .tc main_v2)) (W (Proc.devRef .tc main_v68)) (W (Proc.devRef .tc main_arg1)) (W (Proc.devRef .tc main_arg3)) (W (Proc.devRef .tc main_arg4)) (W (Proc.devRef .tc main_arg5)) := by
  rw [after_append, after_append, l4c_out, l4b_tab, l4b_idx, after_of_writes_sub L4b _ wr4b (r := main_v2) (by decide), after_of_writes_sub L4b _ wr4b (r := main_arg3) (by decide)]
  rw [l4a_zero, l4a_src, after_of_writes_sub L4a _ wr4a (r := main_v68) (by decide),
    after_of_writes_sub L4a _ wr4a (r := main_arg1) (by decide),
    after_of_writes_sub L4a _ wr4a (r := main_arg4) (by decide),
    after_of_writes_sub L4a _ wr4a (r := main_v2) (by decide),
    after_of_writes_sub L4a _ wr4a (r := main_arg3) (by decide)]
  rfl

end Layer4

/-! ## The stretches joined -/

section Joined

/-- What every stretch after the first keeps: the first layer's output and the four arguments the layers read. -/
def Inv (V W : Valuation τ sig (Elt F)) : Prop :=
  W (Proc.devRef .tc main_v2) = ReadP.val_main_v2 (F := F) (V (Proc.devRef .tc main_arg0)) (V (Proc.devRef .tc main_arg2))
    ∧ W (Proc.devRef .tc main_arg1) = V (Proc.devRef .tc main_arg1) ∧ W (Proc.devRef .tc main_arg3) = V (Proc.devRef .tc main_arg3)
    ∧ W (Proc.devRef .tc main_arg4) = V (Proc.devRef .tc main_arg4) ∧ W (Proc.devRef .tc main_arg5) = V (Proc.devRef .tc main_arg5)

theorem inv_first (V : Valuation τ sig (Elt F)) : Inv V (after (cA (F := F)) V) :=
  ⟨first V, keepA V main_arg1 (by decide), keepA V main_arg3 (by decide), keepA V main_arg4 (by decide), keepA V main_arg5 (by decide)⟩
theorem inv_layer1 (V W : Valuation τ sig (Elt F)) (h : Inv V W) : Inv V (after (cL1 (F := F)) W) :=
  ⟨(keep1 W main_v2 (by decide)).trans h.1, (keep1 W main_arg1 (by decide)).trans h.2.1,
    (keep1 W main_arg3 (by decide)).trans h.2.2.1, (keep1 W main_arg4 (by decide)).trans h.2.2.2.1,
    (keep1 W main_arg5 (by decide)).trans h.2.2.2.2⟩
theorem inv_layer2 (V W : Valuation τ sig (Elt F)) (h : Inv V W) : Inv V (after (cL2 (F := F)) W) :=
  ⟨(keep2 W main_v2 (by decide)).trans h.1, (keep2 W main_arg1 (by decide)).trans h.2.1,
    (keep2 W main_arg3 (by decide)).trans h.2.2.1, (keep2 W main_arg4 (by decide)).trans h.2.2.2.1,
    (keep2 W main_arg5 (by decide)).trans h.2.2.2.2⟩
theorem inv_layer3 (V W : Valuation τ sig (Elt F)) (h : Inv V W) : Inv V (after (cL3 (F := F)) W) :=
  ⟨(keep3 W main_v2 (by decide)).trans h.1, (keep3 W main_arg1 (by decide)).trans h.2.1,
    (keep3 W main_arg3 (by decide)).trans h.2.2.1, (keep3 W main_arg4 (by decide)).trans h.2.2.2.1,
    (keep3 W main_arg5 (by decide)).trans h.2.2.2.2⟩
theorem inv_layer4 (V W : Valuation τ sig (Elt F)) (h : Inv V W) : Inv V (after (cL4 (F := F)) W) :=
  ⟨(keep4 W main_v2 (by decide)).trans h.1, (keep4 W main_arg1 (by decide)).trans h.2.1,
    (keep4 W main_arg3 (by decide)).trans h.2.2.1, (keep4 W main_arg4 (by decide)).trans h.2.2.2.1,
    (keep4 W main_arg5 (by decide)).trans h.2.2.2.2⟩

/-- Layer 1's output is the program's stage `main_v24` of the arguments. -/
theorem out_layer1 (V W : Valuation τ sig (Elt F)) (h : Inv V W) :
    after (cL1 (F := F)) W (Proc.devRef .tc main_v24) = ReadP.val_main_v24 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [layer1, h.1, h.2.1, h.2.2.1, h.2.2.2.1, h.2.2.2.2]
  rfl
/-- Layer 2's output is the program's stage `main_v46` of the arguments. -/
theorem out_layer2 (V W : Valuation τ sig (Elt F)) (h : Inv V W) (hH : W (Proc.devRef .tc main_v24) = ReadP.val_main_v24 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (cL2 (F := F)) W (Proc.devRef .tc main_v46) = ReadP.val_main_v46 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [layer2, h.1, hH, h.2.1, h.2.2.1, h.2.2.2.1, h.2.2.2.2]
  rfl
/-- Layer 3's output is the program's stage `main_v68` of the arguments. -/
theorem out_layer3 (V W : Valuation τ sig (Elt F)) (h : Inv V W) (hH : W (Proc.devRef .tc main_v46) = ReadP.val_main_v46 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (cL3 (F := F)) W (Proc.devRef .tc main_v68) = ReadP.val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [layer3, h.1, hH, h.2.1, h.2.2.1, h.2.2.2.1, h.2.2.2.2]
  rfl
/-- Layer 4's output is the program's stage `main_v90` of the arguments. -/
theorem out_layer4 (V W : Valuation τ sig (Elt F)) (h : Inv V W) (hH : W (Proc.devRef .tc main_v68) = ReadP.val_main_v68 (F := F) (V (Proc.devRef .tc main_arg0)) (V (Proc.devRef .tc main_arg1)) (V (Proc.devRef .tc main_arg2)) (V (Proc.devRef .tc main_arg3)) (V (Proc.devRef .tc main_arg4)) (V (Proc.devRef .tc main_arg5))) :
    after (cL4 (F := F)) W (Proc.devRef .tc main_v90) = ReadP.val_main_v90 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [layer4, h.1, hH, h.2.1, h.2.2.1, h.2.2.2.1, h.2.2.2.2]
  rfl

/-- The 126 operations are the six stretches in a row. -/
theorem ops_eq : (ValueP.ops : List (HloOp τ sig (Elt F))) = cA ++ (cL1 ++ (cL2 ++ (cL3 ++ (cL4 ++ cZ)))) := rfl

/-- THE FOLD of the reference's operations at the result buffer, from any contents: the program's last stage of the
    arguments' contents. -/
theorem foldF (V : Valuation τ sig (Elt F)) :
    after (ValueP.ops (F := F)) V (Proc.devRef .tc main_v91) = ReadP.val_main_v91 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_eq, after_append, after_append, after_append, after_append, after_append, last]
  have i1 := inv_first V
  have i2 := inv_layer1 V _ i1
  have i3 := inv_layer2 V _ i2
  have i4 := inv_layer3 V _ i3
  have o1 := out_layer1 V _ i1
  have o2 := out_layer2 V _ i2 o1
  have o3 := out_layer3 V _ i3 o2
  have o4 := out_layer4 V _ i4 o3
  rw [o4]
  rfl

end Joined

end Fold

/-- The fold at the extended reals. -/
theorem fold (V : Valuation τ sig (Elt Ideal)) :
    after (ValueP.ops (F := Ideal)) V (Proc.devRef .tc main_v91) = ReadP.val_main_v91 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  foldF V

end Cert.ReferenceIdeal.RefFold

end
-- ==== Proof.lean ====
/-
  The certificate of a graph message-passing kernel against its reference, over the extended reals.

  Both programs compute, from atom features X, bond features B, two weights Wn and Wd, the atoms' neighbour lists A
  and the bonds' source atoms N: the first layer Z = relu (X · Wnᵀ), then four times
      H ← relu (Z + (∑ over an atom's six bonds of the bond's message) · Wdᵀ),
  a bond's message being its source atom's hidden state (zero for the padding bond) followed by the bond's own
  features; the result is H transposed (`Cert.MsgPass.out`).

  The reference builds the 523-wide message table and multiplies once. The kernel program splits Wd into its
  hidden part and its bond-feature part, folds the bond-feature product into a layer-invariant bias, sends the
  padding bond to an appended zero row through a composed index, adds the six neighbour rows one at a time, and runs
  each matrix product in a grid launch over slabs of 2000 atoms. The two are the same function because a sum over 523
  entries is the sum over its first 512 and its last 11, and addition of extended reals is associative and
  commutative: no finiteness is used. The index arithmetic agrees where every neighbour index is non-negative and
  every source atom lies in [0, 50000): there the reference's wrap of a negative index is the identity and both
  programs' clamps leave the index alone. That domain is part of the precondition.

  The kernel program's frames are the generated ones; its value is read off the same run boundary by boundary
  (`KChain.result`) and then index by index (`KValue.outTerm_apply`, `KNei.neiH_apply`); the reference's value is
  its run's fold of host operations evaluated layer by layer (`RefFold.fold`) and read index by index
  (`RefValue.result_apply`).
-/
import proofs.«415842_j44693429682679_3_alg».proof.Defs
import proofs.«415842_j44693429682679_3_alg».proof.Proof.Gen.Kernel
import proofs.«415842_j44693429682679_3_alg».proof.Proof.Gen.Kernel.Frame
import proofs.«415842_j44693429682679_3_alg».proof.Proof.Gen.KernelIdeal
import proofs.«415842_j44693429682679_3_alg».proof.Proof.Gen.KernelIdeal.Frame
import proofs.«415842_j44693429682679_3_alg».proof.Proof.Gen.ReferenceIdeal
import proofs.«415842_j44693429682679_3_alg».proof.Proof.RunP
import proofs.«415842_j44693429682679_3_alg».proof.Proof.ReadP
import proofs.«415842_j44693429682679_3_alg».proof.Proof.Gen.Pre_finite_inputs
import proofs.«415842_j44693429682679_3_alg».proof.Proof.Spec
import proofs.«415842_j44693429682679_3_alg».proof.Proof.KTerm
import proofs.«415842_j44693429682679_3_alg».proof.Proof.KRun
import proofs.«415842_j44693429682679_3_alg».proof.Proof.KChain
import proofs.«415842_j44693429682679_3_alg».proof.Proof.KNei
import proofs.«415842_j44693429682679_3_alg».proof.Proof.KValue
import proofs.«415842_j44693429682679_3_alg».proof.Proof.PreDecode
import proofs.«415842_j44693429682679_3_alg».proof.Proof.RefLayer
import proofs.«415842_j44693429682679_3_alg».proof.Proof.RefValue
import proofs.«415842_j44693429682679_3_alg».proof.Proof.RefFold
import Idealize.ShloMosaic.Adequacy
import Idealize.ShloMosaic.Init

noncomputable section

namespace Cert.Proof

open Idealize.ShloMosaic Idealize.ShloMosaic.TcCoe Idealize.SL.Sem

/-- At the ideal instance the kernel program ends with its result buffer at the pure term of its arguments, the
    reference with its result at its own composed term; index by index both are the four-layer message passing
    result of the arguments, which agree. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Gen.W62 (F := Ideal) m ρ c (Proc.devRef .tc Cert.KernelIdeal.main_v154),
    Cert.KernelIdeal.KRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨hA, hN0, hN1⟩ := Cert.PreDecode.index_domain _ _ _ _ _ _ (hpre c)
  obtain ⟨e0, e1, e2, e3, e4, e5⟩ := hagree c
  have f0 : Idealize.ShloMosaic.StableHlo.launchContents m' c (Proc.devRef .tc Cert.ReferenceIdeal.main_arg0) = _ := e0
  have f1 : Idealize.ShloMosaic.StableHlo.launchContents m' c (Proc.devRef .tc Cert.ReferenceIdeal.main_arg1) = _ := e1
  have f2 : Idealize.ShloMosaic.StableHlo.launchContents m' c (Proc.devRef .tc Cert.ReferenceIdeal.main_arg2) = _ := e2
  have f3 : Idealize.ShloMosaic.StableHlo.launchContents m' c (Proc.devRef .tc Cert.ReferenceIdeal.main_arg3) = _ := e3
  have f4 : Idealize.ShloMosaic.StableHlo.launchContents m' c (Proc.devRef .tc Cert.ReferenceIdeal.main_arg4) = _ := e4
  have f5 : Idealize.ShloMosaic.StableHlo.launchContents m' c (Proc.devRef .tc Cert.ReferenceIdeal.main_arg5) = _ := e5
  rw [Cert.ReferenceIdeal.RefFold.fold, f0, f1, f2, f3, f4, f5]
  refine Eq.trans ?_ (Cert.KernelIdeal.KChain.result m ρ c).symm
  funext i
  obtain ⟨h, a, rfl⟩ : ∃ (h : Fin 512) (a : Fin 50000), i = ValueIdx.ix2 h a := ⟨i 0, i 1, ValueIdx.eq_ix2 i⟩
  rw [Cert.ReferenceIdeal.RefValue.result_apply _ _ _ _ _ _ hA hN0 hN1 h a]
  exact (Cert.KernelIdeal.KValue.outTerm_apply _ _ _ _ _ _
    (fun H a k => Cert.KernelIdeal.KNei.neiH_apply H _ _ hA hN0 hN1 a k) h a).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
